-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S3200000 : Shape := ⟨1, ![3200000]⟩
abbrev S2x8 : Shape := ⟨2, ![2, 8]⟩
abbrev S8 : Shape := ⟨1, ![8]⟩
abbrev S8x16 : Shape := ⟨2, ![8, 16]⟩
abbrev S16 : Shape := ⟨1, ![16]⟩
abbrev S16x3 : Shape := ⟨2, ![16, 3]⟩
abbrev S3 : Shape := ⟨1, ![3]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part2 {F : FTy → Type} [FloatOps F] (main_arg1 : IVec S2x3200000 32) (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_c_14 : IVec S_ 32 := constantI S_ 32 0#32
  let main_v39 : IVec S2x3200000 32 := broadcastInDim S2x3200000 ![] bcast_S_S2x3200000 main_c_14
  let main_v40 : IVec S2x3200000 1 := cmpi .sge main_arg1 main_v39
  let main_c_15 : IVec S_ 1 := constantI S_ 1 1#1
  let main_v41 : IVec S_ 1 := (fun x v => Host.reduce IntOp.andi x v reducesTo_S2x3200000_S_d0_1 h_S_) main_v40 main_c_15
  let main_v42 : IVec S_ 1 := andi main_v38 main_v41
  let main_c_16 : IVec S_ 32 := constantI S_ 32 100000#32
  let main_v43 : IVec S2x3200000 32 := broadcastInDim S2x3200000 ![] bcast_S_S2x3200000 main_c_16
  let main_v44 : IVec S2x3200000 1 := cmpi .slt main_arg1 main_v43
  let main_c_17 : IVec S_ 1 := constantI S_ 1 1#1
  let main_v45 : IVec S_ 1 := (fun x v => Host.reduce IntOp.andi x v reducesTo_S2x3200000_S_d0_1 h_S_) main_v44 main_c_17
  let main_v46 : IVec S_ 1 := andi main_v42 main_v45
  main_v46

def fn_part1 {F : FTy → Type} [FloatOps F] (main_arg1 : IVec S2x3200000 32) (main_arg5 : FVec F S8x16 .f32) (main_arg6 : FVec F S16 .f32) (main_arg7 : FVec F S16x3 .f32) (main_arg8 : FVec F S3 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x16 .f32 := Host.absf main_arg5
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x3 .f32 := Host.absf main_arg7
  let main_cst_10 : FVec F S_ .f32 := constant S_ .f32 0x7F800000#32
  let main_v30 : FVec F S16x3 .f32 := broadcastInDim S16x3 ![] bcast_S_S16x3 main_cst_10
  let main_v31 : IVec S16x3 1 := cmpf .olt main_v29 main_v30
  let main_c_11 : IVec S_ 1 := constantI S_ 1 1#1
  let main_v32 : IVec S_ 1 := (fun x v => Host.reduce IntOp.andi x v reducesTo_S16x3_S_d0_1 h_S_) main_v31 main_c_11
  let main_v33 : IVec S_ 1 := andi main_v28 main_v32
  fn_part2 (F := F) main_arg1 main_arg8 main_v33

def fn {F : FTy → Type} [FloatOps F] (main_arg0 : FVec F S100000x2 .f32) (main_arg1 : IVec S2x3200000 32) (main_arg2 : FVec F S3200000 .f32) (main_arg3 : FVec F S2x8 .f32) (main_arg4 : FVec F S8 .f32) (main_arg5 : FVec F S8x16 .f32) (main_arg6 : FVec F S16 .f32) (main_arg7 : FVec F S16x3 .f32) (main_arg8 : FVec F S3 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S2x8 .f32 := Host.absf main_arg3
  let main_cst_2 : FVec F S_ .f32 := constant S_ .f32 0x7F800000#32
  let main_v10 : FVec F S2x8 .f32 := broadcastInDim S2x8 ![] bcast_S_S2x8 main_cst_2
  let main_v11 : IVec S2x8 1 := cmpf .olt main_v9 main_v10
  let main_c_3 : IVec S_ 1 := constantI S_ 1 1#1
  let main_v12 : IVec S_ 1 := (fun x v => Host.reduce IntOp.andi x v reducesTo_S2x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg1 main_arg5 main_arg6 main_arg7 main_arg8 main_v13 main_v16
-- ==== Kernel.lean ====
abbrev S100000x2 : Shape := ⟨2, ![100000, 2]⟩
abbrev S2x3200000 : Shape := ⟨2, ![2, 3200000]⟩
abbrev S3200000 : Shape := ⟨1, ![3200000]⟩
abbrev S2x8 : Shape := ⟨2, ![2, 8]⟩
abbrev S8 : Shape := ⟨1, ![8]⟩
abbrev S8x16 : Shape := ⟨2, ![8, 16]⟩
abbrev S16 : Shape := ⟨1, ![16]⟩
abbrev S16x3 : Shape := ⟨2, ![16, 3]⟩
abbrev S3 : Shape := ⟨1, ![3]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S1 : Shape := ⟨1, ![1]⟩
abbrev S1x1 : Shape := ⟨2, ![1, 1]⟩
abbrev S3300096 : Shape := ⟨1, ![3300096]⟩
abbrev S25782x128 : Shape := ⟨2, ![25782, 128]⟩
abbrev S26624x128 : Shape := ⟨2, ![26624, 128]⟩
abbrev S2048x128 : Shape := ⟨2, ![2048, 128]⟩
abbrev S3407872 : Shape := ⟨1, ![3407872]⟩
abbrev S106496x2 : Shape := ⟨2, ![106496, 2]⟩
abbrev S106496x8 : Shape := ⟨2, ![106496, 8]⟩
abbrev S8192x2 : Shape := ⟨2, ![8192, 2]⟩
abbrev S8192x8 : Shape := ⟨2, ![8192, 8]⟩
abbrev S100000x8 : Shape := ⟨2, ![100000, 8]⟩
abbrev S3300000x8 : Shape := ⟨2, ![3300000, 8]⟩
abbrev S3301376x8 : Shape := ⟨2, ![3301376, 8]⟩
abbrev S3301376 : Shape := ⟨1, ![3301376]⟩
abbrev S3301376x1 : Shape := ⟨2, ![3301376, 1]⟩
abbrev S4096x8 : Shape := ⟨2, ![4096, 8]⟩
abbrev S4096x1 : Shape := ⟨2, ![4096, 1]⟩
abbrev S1x8 : Shape := ⟨2, ![1, 8]⟩
abbrev S106496x16 : Shape := ⟨2, ![106496, 16]⟩
abbrev S8192x16 : Shape := ⟨2, ![8192, 16]⟩
abbrev S100000x16 : Shape := ⟨2, ![100000, 16]⟩
abbrev S3300000x16 : Shape := ⟨2, ![3300000, 16]⟩
abbrev S3301376x16 : Shape := ⟨2, ![3301376, 16]⟩
abbrev S4096x16 : Shape := ⟨2, ![4096, 16]⟩
abbrev S1x16 : Shape := ⟨2, ![1, 16]⟩
abbrev S106496x3 : Shape := ⟨2, ![106496, 3]⟩
abbrev S8192x3 : Shape := ⟨2, ![8192, 3]⟩
abbrev S100000x3 : Shape := ⟨2, ![100000, 3]⟩
abbrev S3300000x3 : Shape := ⟨2, ![3300000, 3]⟩
abbrev S3301376x3 : Shape := ⟨2, ![3301376, 3]⟩
abbrev S4096x3 : Shape := ⟨2, ![4096, 3]⟩
abbrev S1x3 : Shape := ⟨2, ![1, 3]⟩

abbrev nBuf : Space → Nat
  | .hbm => 240
  | .vmem => 56
  | .smem => 0
  | _ => 0

abbrev hbmTy0_0 (i : Nat) : BufTy := match i % 128 with
  | 0 => ⟨S100000x2, .f32⟩
  | 1 => ⟨S2x3200000, .i32⟩
  | 2 => ⟨S3200000, .f32⟩
  | 3 => ⟨S2x8, .f32⟩
  | 4 => ⟨S8, .f32⟩
  | 5 => ⟨S8x16, .f32⟩
  | 6 => ⟨S16, .f32⟩
  | 7 => ⟨S16x3, .f32⟩
  | 8 => ⟨S3, .f32⟩
  | 9 => ⟨S1x3200000, .i32⟩
  | 10 => ⟨S3200000, .i32⟩
  | 11 => ⟨S1x3200000, .i32⟩
  | 12 => ⟨S3200000, .i32⟩
  | 13 => ⟨S100000, .i32⟩
  | 14 => ⟨S3300000, .i32⟩
  | 15 => ⟨S3300000, .i32⟩
  | 16 => ⟨S_, .f32⟩
  | 17 => ⟨S100000, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S1, .i32⟩
  | 40 => ⟨S_, .i32⟩
  | 41 => ⟨S3300000x1, .i32⟩
  | 42 => ⟨S3300000x1, .i1⟩
  | 43 => ⟨S1x1, .i32⟩
  | 44 => ⟨S3300000x1, .i32⟩
  | 45 => ⟨S3300000x1, .i1⟩
  | 46 => ⟨S3300000x1, .i1⟩
  | 47 => ⟨S_, .i1⟩
  | 48 => ⟨S3300000, .i1⟩
  | 49 => ⟨S3300000, .f32⟩
  | 50 => ⟨S_, .f32⟩
  | 51 => ⟨S3300000, .f32⟩
  | 52 => ⟨S3300000, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S1, .i32⟩
  | 62 => ⟨S_, .i32⟩
  | 63 => ⟨S3300000x1, .i32⟩
  | 64 => ⟨S3300000x1, .i1⟩
  | 65 => ⟨S1x1, .i32⟩
  | 66 => ⟨S3300000x1, .i32⟩
  | 67 => ⟨S3300000x1, .i1⟩
  | 68 => ⟨S3300000x1, .i1⟩
  | 69 => ⟨S_, .i1⟩
  | 70 => ⟨S3300000, .i1⟩
  | 71 => ⟨S3300000, .f32⟩
  | 72 => ⟨S_, .f32⟩
  | 73 => ⟨S3300000, .f32⟩
  | 74 => ⟨S3300000, .f32⟩
  | 75 => ⟨S_, .i32⟩
  | 76 => ⟨S_, .f32⟩
  | 77 => ⟨S3300096, .f32⟩
  | 78 => ⟨S25782x128, .f32⟩
  | 79 => ⟨S_, .i32⟩
  | 80 => ⟨S_, .f32⟩
  | 81 => ⟨S3300096, .f32⟩
  | 82 => ⟨S25782x128, .f32⟩
  | 83 => ⟨S_, .i32⟩
  | 84 => ⟨S_, .f32⟩
  | 85 => ⟨S3300096, .f32⟩
  | 86 => ⟨S25782x128, .f32⟩
  | 87 => ⟨S_, .i32⟩
  | 88 => ⟨S_, .f32⟩
  | 89 => ⟨S26624x128, .f32⟩
  | 90 => ⟨S_, .i32⟩
  | 91 => ⟨S_, .f32⟩
  | 92 => ⟨S26624x128, .f32⟩
  | 93 => ⟨S_, .i32⟩
  | 94 => ⟨S_, .f32⟩
  | 95 => ⟨S26624x128, .f32⟩
  | 96 => ⟨S26624x128, .f32⟩
  | 97 => ⟨S3407872, .f32⟩
  | 98 => ⟨S3300000, .f32⟩
  | 99 => ⟨S_, .i32⟩
  | 100 => ⟨S_, .f32⟩
  | 101 => ⟨S106496x2, .f32⟩
  | 102 => ⟨S106496x8, .f32⟩
  | 103 => ⟨S100000x8, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S1, .i32⟩
  | 113 => ⟨S_, .i32⟩
  | 114 => ⟨S3300000x1, .i32⟩
  | 115 => ⟨S3300000x1, .i1⟩
  | 116 => ⟨S1x1, .i32⟩
  | 117 => ⟨S3300000x1, .i32⟩
  | 118 => ⟨S3300000x1, .i1⟩
  | 119 => ⟨S3300000x1, .i1⟩
  | 120 => ⟨S_, .i1⟩
  | 121 => ⟨S3300000, .i1⟩
  | 122 => ⟨S3300000x8, .f32⟩
  | 123 => ⟨S3300000x8, .i1⟩
  | 124 => ⟨S_, .f32⟩
  | 125 => ⟨S3300000x8, .f32⟩
  | 126 => ⟨S3300000x8, .f32⟩
  | 127 => ⟨S_, .i32⟩
  | _ => ⟨S100000x2, .f32⟩

abbrev hbmTy0_1 (i : Nat) : BufTy := match i % 128 with
  | 0 => ⟨S_, .f32⟩
  | 1 => ⟨S3301376x8, .f32⟩
  | 2 => ⟨S_, .i32⟩
  | 3 => ⟨S_, .f32⟩
  | 4 => ⟨S3301376, .f32⟩
  | 5 => ⟨S3301376x1, .f32⟩
  | 6 => ⟨S3301376x8, .f32⟩
  | 7 => ⟨S3300000x8, .f32⟩
  | 8 => ⟨S_, .f32⟩
  | 9 => ⟨S100000x8, .f32⟩
  | 10 => ⟨S3300000x1, .i32⟩
  | 11 => ⟨S100000x8, .f32⟩
  | 12 => ⟨S_, .i32⟩
  | 13 => ⟨S_, .f32⟩
  | 14 => ⟨S106496x8, .f32⟩
  | 15 => ⟨S1x8, .f32⟩
  | 16 => ⟨S106496x8, .f32⟩
  | 17 => ⟨S100000x8, .f32⟩
  | 18 => ⟨S_, .i32⟩
  | 19 => ⟨S_, .f32⟩
  | 20 => ⟨S106496x8, .f32⟩
  | 21 => ⟨S106496x16, .f32⟩
  | 22 => ⟨S100000x16, .f32⟩
  | 23 => ⟨S_, .i32⟩
  | 24 => ⟨S3300000, .i32⟩
  | 25 => ⟨S3300000, .i1⟩
  | 26 => ⟨S_, .i32⟩
  | 27 => ⟨S3300000, .i32⟩
  | 28 => ⟨S3300000, .i32⟩
  | 29 => ⟨S3300000, .i32⟩
  | 30 => ⟨S3300000x1, .i32⟩
  | 31 => ⟨S1, .i32⟩
  | 32 => ⟨S_, .i32⟩
  | 33 => ⟨S3300000x1, .i32⟩
  | 34 => ⟨S3300000x1, .i1⟩
  | 35 => ⟨S1x1, .i32⟩
  | 36 => ⟨S3300000x1, .i32⟩
  | 37 => ⟨S3300000x1, .i1⟩
  | 38 => ⟨S3300000x1, .i1⟩
  | 39 => ⟨S_, .i1⟩
  | 40 => ⟨S3300000, .i1⟩
  | 41 => ⟨S3300000x16, .f32⟩
  | 42 => ⟨S3300000x16, .i1⟩
  | 43 => ⟨S_, .f32⟩
  | 44 => ⟨S3300000x16, .f32⟩
  | 45 => ⟨S3300000x16, .f32⟩
  | 46 => ⟨S_, .i32⟩
  | 47 => ⟨S_, .f32⟩
  | 48 => ⟨S3301376x16, .f32⟩
  | 49 => ⟨S_, .i32⟩
  | 50 => ⟨S_, .f32⟩
  | 51 => ⟨S3301376, .f32⟩
  | 52 => ⟨S3301376x1, .f32⟩
  | 53 => ⟨S3301376x16, .f32⟩
  | 54 => ⟨S3300000x16, .f32⟩
  | 55 => ⟨S_, .f32⟩
  | 56 => ⟨S100000x16, .f32⟩
  | 57 => ⟨S3300000x1, .i32⟩
  | 58 => ⟨S100000x16, .f32⟩
  | 59 => ⟨S_, .i32⟩
  | 60 => ⟨S_, .f32⟩
  | 61 => ⟨S106496x16, .f32⟩
  | 62 => ⟨S1x16, .f32⟩
  | 63 => ⟨S106496x16, .f32⟩
  | 64 => ⟨S100000x16, .f32⟩
  | 65 => ⟨S_, .i32⟩
  | 66 => ⟨S_, .f32⟩
  | 67 => ⟨S106496x16, .f32⟩
  | 68 => ⟨S106496x3, .f32⟩
  | 69 => ⟨S100000x3, .f32⟩
  | 70 => ⟨S_, .i32⟩
  | 71 => ⟨S3300000, .i32⟩
  | 72 => ⟨S3300000, .i1⟩
  | 73 => ⟨S_, .i32⟩
  | 74 => ⟨S3300000, .i32⟩
  | 75 => ⟨S3300000, .i32⟩
  | 76 => ⟨S3300000, .i32⟩
  | 77 => ⟨S3300000x1, .i32⟩
  | 78 => ⟨S1, .i32⟩
  | 79 => ⟨S_, .i32⟩
  | 80 => ⟨S3300000x1, .i32⟩
  | 81 => ⟨S3300000x1, .i1⟩
  | 82 => ⟨S1x1, .i32⟩
  | 83 => ⟨S3300000x1, .i32⟩
  | 84 => ⟨S3300000x1, .i1⟩
  | 85 => ⟨S3300000x1, .i1⟩
  | 86 => ⟨S_, .i1⟩
  | 87 => ⟨S3300000, .i1⟩
  | 88 => ⟨S3300000x3, .f32⟩
  | 89 => ⟨S3300000x3, .i1⟩
  | 90 => ⟨S_, .f32⟩
  | 91 => ⟨S3300000x3, .f32⟩
  | 92 => ⟨S3300000x3, .f32⟩
  | 93 => ⟨S_, .i32⟩
  | 94 => ⟨S_, .f32⟩
  | 95 => ⟨S3301376x3, .f32⟩
  | 96 => ⟨S_, .i32⟩
  | 97 => ⟨S_, .f32⟩
  | 98 => ⟨S3301376, .f32⟩
  | 99 => ⟨S3301376x1, .f32⟩
  | 100 => ⟨S3301376x3, .f32⟩
  | 101 => ⟨S3300000x3, .f32⟩
  | 102 => ⟨S_, .f32⟩
  | 103 => ⟨S100000x3, .f32⟩
  | 104 => ⟨S3300000x1, .i32⟩
  | 105 => ⟨S100000x3, .f32⟩
  | 106 => ⟨S_, .i32⟩
  | 107 => ⟨S_, .f32⟩
  | 108 => ⟨S106496x3, .f32⟩
  | 109 => ⟨S1x3, .f32⟩
  | 110 => ⟨S106496x3, .f32⟩
  | 111 => ⟨S100000x3, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S8192x2, .f32⟩
  | .local _ .vmem, ⟨9, _⟩ => ⟨S8192x2, .f32⟩
  | .local _ .vmem, ⟨10, _⟩ => ⟨S2x8, .f32⟩
  | .local _ .vmem, ⟨11, _⟩ => ⟨S8192x8, .f32⟩
  | .local _ .vmem, ⟨12, _⟩ => ⟨S8192x8, .f32⟩
  | .local _ .vmem, ⟨13, _⟩ => ⟨S4096x8, .f32⟩
  | .local _ .vmem, ⟨14, _⟩ => ⟨S4096x8, .f32⟩
  | .local _ .vmem, ⟨15, _⟩ => ⟨S4096x1, .f32⟩
  | .local _ .vmem, ⟨16, _⟩ => ⟨S4096x1, .f32⟩
  | .local _ .vmem, ⟨17, _⟩ => ⟨S4096x8, .f32⟩
  | .local _ .vmem, ⟨18, _⟩ => ⟨S4096x8, .f32⟩
  | .local _ .vmem, ⟨19, _⟩ => ⟨S8192x8, .f32⟩
  | .local _ .vmem, ⟨20, _⟩ => ⟨S8192x8, .f32⟩
  | .local _ .vmem, ⟨21, _⟩ => ⟨S1x8, .f32⟩
  | .local _ .vmem, ⟨22, _⟩ => ⟨S8192x8, .f32⟩
  | .local _ .vmem, ⟨23, _⟩ => ⟨S8192x8, .f32⟩
  | .local _ .vmem, ⟨24, _⟩ => ⟨S8192x8, .f32⟩
  | .local _ .vmem, ⟨25, _⟩ => ⟨S8192x8, .f32⟩
  | .local _ .vmem, ⟨26, _⟩ => ⟨S8x16, .f32⟩
  | .local _ .vmem, ⟨27, _⟩ => ⟨S8192x16, .f32⟩
  | .local _ .vmem, ⟨28, _⟩ => ⟨S8192x16, .f32⟩
  | .local _ .vmem, ⟨29, _⟩ => ⟨S4096x16, .f32⟩
  | .local _ .vmem, ⟨30, _⟩ => ⟨S4096x16, .f32⟩
  | .local _ .vmem, ⟨31, _⟩ => ⟨S4096x1, .f32⟩
  | .local _ .vmem, ⟨32, _⟩ => ⟨S4096x1, .f32⟩
  | .local _ .vmem, ⟨33, _⟩ => ⟨S4096x16, .f32⟩
  | .local _ .vmem, ⟨34, _⟩ => ⟨S4096x16, .f32⟩
  | .local _ .vmem, ⟨35, _⟩ => ⟨S8192x16, .f32⟩
  | .local _ .vmem, ⟨36, _⟩ => ⟨S8192x16, .f32⟩
  | .local _ .vmem, ⟨37, _⟩ => ⟨S1x16, .f32⟩
  | .local _ .vmem, ⟨38, _⟩ => ⟨S8192x16, .f32⟩
  | .local _ .vmem, ⟨39, _⟩ => ⟨S8192x16, .f32⟩
  | .local _ .vmem, ⟨40, _⟩ => ⟨S8192x16, .f32⟩
  | .local _ .vmem, ⟨41, _⟩ => ⟨S8192x16, .f32⟩
  | .local _ .vmem, ⟨42, _⟩ => ⟨S16x3, .f32⟩
  | .local _ .vmem, ⟨43, _⟩ => ⟨S8192x3, .f32⟩
  | .local _ .vmem, ⟨44, _⟩ => ⟨S8192x3, .f32⟩
  | .local _ .vmem, ⟨45, _⟩ => ⟨S4096x3, .f32⟩
  | .local _ .vmem, ⟨46, _⟩ => ⟨S4096x3, .f32⟩
  | .local _ .vmem, ⟨47, _⟩ => ⟨S4096x1, .f32⟩
  | .local _ .vmem, ⟨48, _⟩ => ⟨S4096x1, .f32⟩
  | .local _ .vmem, ⟨49, _⟩ => ⟨S4096x3, .f32⟩
  | .local _ .vmem, ⟨50, _⟩ => ⟨S4096x3, .f32⟩
  | .local _ .vmem, ⟨51, _⟩ => ⟨S8192x3, .f32⟩
  | .local _ .vmem, ⟨52, _⟩ => ⟨S8192x3, .f32⟩
  | .local _ .vmem, ⟨53, _⟩ => ⟨S1x3, .f32⟩
  | .local _ .vmem, ⟨54, _⟩ => ⟨S8192x3, .f32⟩
  | .local _ .vmem, ⟨55, _⟩ => ⟨S8192x3, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v16 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v17 : Ref sig .tc := ⟨.hbm, 74, rfl⟩
abbrev main_c : Ref sig .tc := ⟨.hbm, 75, rfl⟩
abbrev main_call3_v0 : Ref sig .tc := ⟨.hbm, 76, rfl⟩
abbrev main_v18 : Ref sig .tc := ⟨.hbm, 77, rfl⟩
abbrev main_v19 : Ref sig .tc := ⟨.hbm, 78, rfl⟩
abbrev main_c_3 : Ref sig .tc := ⟨.hbm, 79, rfl⟩
abbrev main_call4_v0 : Ref sig .tc := ⟨.hbm, 80, rfl⟩
abbrev main_v20 : Ref sig .tc := ⟨.hbm, 81, rfl⟩
abbrev main_v21 : Ref sig .tc := ⟨.hbm, 82, rfl⟩
abbrev main_c_4 : Ref sig .tc := ⟨.hbm, 83, rfl⟩
abbrev main_call5_v0 : Ref sig .tc := ⟨.hbm, 84, rfl⟩
abbrev main_v22 : Ref sig .tc := ⟨.hbm, 85, rfl⟩
abbrev main_v23 : Ref sig .tc := ⟨.hbm, 86, rfl⟩
abbrev main_c_5 : Ref sig .tc := ⟨.hbm, 87, rfl⟩
abbrev main_call6_v0 : Ref sig .tc := ⟨.hbm, 88, rfl⟩
abbrev main_v24 : Ref sig .tc := ⟨.hbm, 89, rfl⟩
abbrev main_c_6 : Ref sig .tc := ⟨.hbm, 90, rfl⟩
abbrev main_call7_v0 : Ref sig .tc := ⟨.hbm, 91, rfl⟩
abbrev main_v25 : Ref sig .tc := ⟨.hbm, 92, rfl⟩
abbrev main_c_7 : Ref sig .tc := ⟨.hbm, 93, rfl⟩
abbrev main_call8_v0 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_c_8 : Ref sig .tc := ⟨.hbm, 99, rfl⟩
abbrev main_call9_v0 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_call10_c : Ref sig .tc := ⟨.hbm, 104, rfl⟩
abbrev main_call10_v0 : Ref sig .tc := ⟨.hbm, 105, rfl⟩
abbrev main_call10_v1 : Ref sig .tc := ⟨.hbm, 106, rfl⟩
abbrev main_call10_c_0 : Ref sig .tc := ⟨.hbm, 107, rfl⟩
abbrev main_call10_v2 : Ref sig .tc := ⟨.hbm, 108, rfl⟩
abbrev main_call10_v3 : Ref sig .tc := ⟨.hbm, 109, rfl⟩
abbrev main_call10_v4 : Ref sig .tc := ⟨.hbm, 110, rfl⟩
abbrev main_call10_v5 : Ref sig .tc := ⟨.hbm, 111, rfl⟩
abbrev main_call10_c_1 : Ref sig .tc := ⟨.hbm, 112, rfl⟩
abbrev main_call10_c_2 : Ref sig .tc := ⟨.hbm, 113, rfl⟩
abbrev main_call10_v6 : Ref sig .tc := ⟨.hbm, 114, rfl⟩
abbrev main_call10_v7 : Ref sig .tc := ⟨.hbm, 115, rfl⟩
abbrev main_call10_v8 : Ref sig .tc := ⟨.hbm, 116, rfl⟩
abbrev main_call10_v9 : Ref sig .tc := ⟨.hbm, 117, rfl⟩
abbrev main_call10_v10 : Ref sig .tc := ⟨.hbm, 118, rfl⟩
abbrev main_call10_v11 : Ref sig .tc := ⟨.hbm, 119, rfl⟩
abbrev main_call10_c_3 : Ref sig .tc := ⟨.hbm, 120, rfl⟩
abbrev main_call10_v12 : Ref sig .tc := ⟨.hbm, 121, rfl⟩
abbrev main_call10_v13 : Ref sig .tc := ⟨.hbm, 122, rfl⟩
abbrev main_call10_v14 : Ref sig .tc := ⟨.hbm, 123, rfl⟩
abbrev main_call10_cst : Ref sig .tc := ⟨.hbm, 124, rfl⟩
abbrev main_call10_v15 : Ref sig .tc := ⟨.hbm, 125, rfl⟩
abbrev main_v33 : Ref sig .tc := ⟨.hbm, 126, rfl⟩
abbrev main_c_9 : Ref sig .tc := ⟨.hbm, 127, rfl⟩
abbrev main_call11_v0 : Ref sig .tc := ⟨.hbm, 128, rfl⟩
abbrev main_v34 : Ref sig .tc := ⟨.hbm, 129, rfl⟩
abbrev main_c_10 : Ref sig .tc := ⟨.hbm, 130, rfl⟩
abbrev main_call12_v0 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_cst_11 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_c_12 : Ref sig .tc := ⟨.hbm, 140, rfl⟩
abbrev main_call13_v0 : Ref sig .tc := ⟨.hbm, 141, rfl⟩
abbrev main_v42 : Ref sig .tc := ⟨.hbm, 142, rfl⟩
abbrev main_v43 : Ref sig .tc := ⟨.hbm, 143, rfl⟩
abbrev main_v44 : Ref sig .tc := ⟨.hbm, 144, rfl⟩
abbrev main_v45 : Ref sig .tc := ⟨.hbm, 145, rfl⟩
abbrev main_c_13 : Ref sig .tc := ⟨.hbm, 146, rfl⟩
abbrev main_call14_v0 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_call15_c : Ref sig .tc := ⟨.hbm, 151, rfl⟩
abbrev main_call15_v0 : Ref sig .tc := ⟨.hbm, 152, rfl⟩
abbrev main_call15_v1 : Ref sig .tc := ⟨.hbm, 153, rfl⟩
abbrev main_call15_c_0 : Ref sig .tc := ⟨.hbm, 154, rfl⟩
abbrev main_call15_v2 : Ref sig .tc := ⟨.hbm, 155, rfl⟩
abbrev main_call15_v3 : Ref sig .tc := ⟨.hbm, 156, rfl⟩
abbrev main_call15_v4 : Ref sig .tc := ⟨.hbm, 157, rfl⟩
abbrev main_call15_v5 : Ref sig .tc := ⟨.hbm, 158, rfl⟩
abbrev main_call15_c_1 : Ref sig .tc := ⟨.hbm, 159, rfl⟩
abbrev main_call15_c_2 : Ref sig .tc := ⟨.hbm, 160, rfl⟩
abbrev main_call15_v6 : Ref sig .tc := ⟨.hbm, 161, rfl⟩
abbrev main_call15_v7 : Ref sig .tc := ⟨.hbm, 162, rfl⟩
abbrev main_call15_v8 : Ref sig .tc := ⟨.hbm, 163, rfl⟩
abbrev main_call15_v9 : Ref sig .tc := ⟨.hbm, 164, rfl⟩
abbrev main_call15_v10 : Ref sig .tc := ⟨.hbm, 165, rfl⟩
abbrev main_call15_v11 : Ref sig .tc := ⟨.hbm, 166, rfl⟩
abbrev main_call15_c_3 : Ref sig .tc := ⟨.hbm, 167, rfl⟩
abbrev main_call15_v12 : Ref sig .tc := ⟨.hbm, 168, rfl⟩
abbrev main_call15_v13 : Ref sig .tc := ⟨.hbm, 169, rfl⟩
abbrev main_call15_v14 : Ref sig .tc := ⟨.hbm, 170, rfl⟩
abbrev main_call15_cst : Ref sig .tc := ⟨.hbm, 171, rfl⟩
abbrev main_call15_v15 : Ref sig .tc := ⟨.hbm, 172, rfl⟩
abbrev main_v49 : Ref sig .tc := ⟨.hbm, 173, rfl⟩
abbrev main_c_14 : Ref sig .tc := ⟨.hbm, 174, rfl⟩
abbrev main_call16_v0 : Ref sig .tc := ⟨.hbm, 175, rfl⟩
abbrev main_v50 : Ref sig .tc := ⟨.hbm, 176, rfl⟩
abbrev main_c_15 : Ref sig .tc := ⟨.hbm, 177, rfl⟩
abbrev main_call17_v0 : Ref sig .tc := ⟨.hbm, 178, rfl⟩
abbrev main_v51 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_cst_16 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩
abbrev main_c_17 : Ref sig .tc := ⟨.hbm, 187, rfl⟩
abbrev main_call18_v0 : Ref sig .tc := ⟨.hbm, 188, rfl⟩
abbrev main_v58 : Ref sig .tc := ⟨.hbm, 189, rfl⟩
abbrev main_v59 : Ref sig .tc := ⟨.hbm, 190, rfl⟩
abbrev main_v60 : Ref sig .tc := ⟨.hbm, 191, rfl⟩
abbrev main_v61 : Ref sig .tc := ⟨.hbm, 192, rfl⟩
abbrev main_c_18 : Ref sig .tc := ⟨.hbm, 193, rfl⟩
abbrev main_call19_v0 : Ref sig .tc := ⟨.hbm, 194, rfl⟩
abbrev main_v62 : Ref sig .tc := ⟨.hbm, 195, rfl⟩
abbrev main_v63 : Ref sig .tc := ⟨.hbm, 196, rfl⟩
abbrev main_v64 : Ref sig .tc := ⟨.hbm, 197, rfl⟩
abbrev main_call20_c : Ref sig .tc := ⟨.hbm, 198, rfl⟩
abbrev main_call20_v0 : Ref sig .tc := ⟨.hbm, 199, rfl⟩
abbrev main_call20_v1 : Ref sig .tc := ⟨.hbm, 200, rfl⟩
abbrev main_call20_c_0 : Ref sig .tc := ⟨.hbm, 201, rfl⟩
abbrev main_call20_v2 : Ref sig .tc := ⟨.hbm, 202, rfl⟩
abbrev main_call20_v3 : Ref sig .tc := ⟨.hbm, 203, rfl⟩
abbrev main_call20_v4 : Ref sig .tc := ⟨.hbm, 204, rfl⟩
abbrev main_call20_v5 : Ref sig .tc := ⟨.hbm, 205, rfl⟩
abbrev main_call20_c_1 : Ref sig .tc := ⟨.hbm, 206, rfl⟩
abbrev main_call20_c_2 : Ref sig .tc := ⟨.hbm, 207, rfl⟩
abbrev main_call20_v6 : Ref sig .tc := ⟨.hbm, 208, rfl⟩
abbrev main_call20_v7 : Ref sig .tc := ⟨.hbm, 209, rfl⟩
abbrev main_call20_v8 : Ref sig .tc := ⟨.hbm, 210, rfl⟩
abbrev main_call20_v9 : Ref sig .tc := ⟨.hbm, 211, rfl⟩
abbrev main_call20_v10 : Ref sig .tc := ⟨.hbm, 212, rfl⟩
abbrev main_call20_v11 : Ref sig .tc := ⟨.hbm, 213, rfl⟩
abbrev main_call20_c_3 : Ref sig .tc := ⟨.hbm, 214, rfl⟩
abbrev main_call20_v12 : Ref sig .tc := ⟨.hbm, 215, rfl⟩
abbrev main_call20_v13 : Ref sig .tc := ⟨.hbm, 216, rfl⟩
abbrev main_call20_v14 : Ref sig .tc := ⟨.hbm, 217, rfl⟩
abbrev main_call20_cst : Ref sig .tc := ⟨.hbm, 218, rfl⟩
abbrev main_call20_v15 : Ref sig .tc := ⟨.hbm, 219, rfl⟩
abbrev main_v65 : Ref sig .tc := ⟨.hbm, 220, rfl⟩
abbrev main_c_19 : Ref sig .tc := ⟨.hbm, 221, rfl⟩
abbrev main_call21_v0 : Ref sig .tc := ⟨.hbm, 222, rfl⟩
abbrev main_v66 : Ref sig .tc := ⟨.hbm, 223, rfl⟩
abbrev main_c_20 : Ref sig .tc := ⟨.hbm, 224, rfl⟩
abbrev main_call22_v0 : Ref sig .tc := ⟨.hbm, 225, rfl⟩
abbrev main_v67 : Ref sig .tc := ⟨.hbm, 226, rfl⟩
abbrev main_v68 : Ref sig .tc := ⟨.hbm, 227, rfl⟩
abbrev main_v69 : Ref sig .tc := ⟨.hbm, 228, rfl⟩
abbrev main_v70 : Ref sig .tc := ⟨.hbm, 229, rfl⟩
abbrev main_cst_21 : Ref sig .tc := ⟨.hbm, 230, rfl⟩
abbrev main_v71 : Ref sig .tc := ⟨.hbm, 231, rfl⟩
abbrev main_v72 : Ref sig .tc := ⟨.hbm, 232, rfl⟩
abbrev main_v73 : Ref sig .tc := ⟨.hbm, 233, rfl⟩
abbrev main_c_22 : Ref sig .tc := ⟨.hbm, 234, rfl⟩
abbrev main_call23_v0 : Ref sig .tc := ⟨.hbm, 235, rfl⟩
abbrev main_v74 : Ref sig .tc := ⟨.hbm, 236, rfl⟩
abbrev main_v75 : Ref sig .tc := ⟨.hbm, 237, rfl⟩
abbrev main_v76 : Ref sig .tc := ⟨.hbm, 238, rfl⟩
abbrev main_v77 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg1_1 : Ref sig .tc := ⟨.vmem, 48, rfl⟩
abbrev cc8_stg2_0 : Ref sig .tc := ⟨.vmem, 49, rfl⟩
abbrev cc8_stg2_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem1_1 : DmaSem sig := 48
abbrev cc8_sem2_0 : DmaSem sig := 49
abbrev cc8_sem2_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![806], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![13], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8192x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![806], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![13], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S8192x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![13], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S16x3 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S8192x3 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![806], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x3 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4096x3 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![13], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x3 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x3 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S8192x3 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  pads_S3300000_S3300096_0960 : S3300000.Pads (![0] : Fin 1 → Nat) ![96] ![0] S3300096
  shapeCasts_S3300096_S25782x128 : S3300096.ShapeCasts S25782x128
  pads_S25782x128_S26624x128_08420_000 : S25782x128.Pads (![0, 0] : Fin 2 → Nat) ![842, 0] ![0, 0] S26624x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S26624x128_S3407872 : S26624x128.ShapeCasts S3407872
  slices_S3407872_S3300000_0 : S3407872.Slices ![0] S3300000
  pads_S100000x2_S106496x2_064960_000 : S100000x2.Pads (![0, 0] : Fin 2 → Nat) ![6496, 0] ![0, 0] S106496x2
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  bitsLt_bf16_f32 : FTy.bits .bf16 < FTy.bits .f32
  inb_S2x8_S2x8_0_0 : ∀ a, (![0, 0] : Fin 2 → Nat) a + S2x8.size a ≤ S2x8.size a
  h_S2x8 : 0 < S2x8.numel
  inb_S8192x8_S8192x8_0_0 : ∀ a, (![0, 0] : Fin 2 → Nat) a + S8192x8.size a ≤ S8192x8.size a
  h_S8192x8 : 0 < S8192x8.numel
  slices_S106496x8_S100000x8_0_0 : S106496x8.Slices ![0, 0] S100000x8
  bcast_S3300000_S3300000x8_0 : S3300000.BroadcastsInDim S3300000x8 (![0] : Fin 1 → Fin S3300000x8.rank)
  bcast_S_S3300000x8 : S_.BroadcastsInDim S3300000x8 (![] : Fin 0 → Fin S3300000x8.rank)
  pads_S3300000x8_S3301376x8_013760_000 : S3300000x8.Pads (![0, 0] : Fin 2 → Nat) ![1376, 0] ![0, 0] S3301376x8
  pads_S3300000_S3301376_013760 : S3300000.Pads (![0] : Fin 1 → Nat) ![1376] ![0] S3301376
  shapeCasts_S3301376_S3301376x1 : S3301376.ShapeCasts S3301376x1
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x8 : S4096x1.Broadcasts S4096x8
  slices_S3301376x8_S3300000x8_0_0 : S3301376x8.Slices ![0, 0] S3300000x8
  bcast_S_S100000x8 : S_.BroadcastsInDim S100000x8 (![] : Fin 0 → Fin S100000x8.rank)
  pads_S100000x8_S106496x8_064960_000 : S100000x8.Pads (![0, 0] : Fin 2 → Nat) ![6496, 0] ![0, 0] S106496x8
  shapeCasts_S8_S1x8 : S8.ShapeCasts S1x8
  shapeCasts_S8192x8_S8192x8 : S8192x8.ShapeCasts S8192x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  inb_S8x16_S8x16_0_0 : ∀ a, (![0, 0] : Fin 2 → Nat) a + S8x16.size a ≤ S8x16.size a
  h_S8x16 : 0 < S8x16.numel
  inb_S8192x16_S8192x16_0_0 : ∀ a, (![0, 0] : Fin 2 → Nat) a + S8192x16.size a ≤ S8192x16.size a
  h_S8192x16 : 0 < S8192x16.numel
  slices_S106496x16_S100000x16_0_0 : S106496x16.Slices ![0, 0] S100000x16
  bcast_S3300000_S3300000x16_0 : S3300000.BroadcastsInDim S3300000x16 (![0] : Fin 1 → Fin S3300000x16.rank)
  bcast_S_S3300000x16 : S_.BroadcastsInDim S3300000x16 (![] : Fin 0 → Fin S3300000x16.rank)
  pads_S3300000x16_S3301376x16_013760_000 : S3300000x16.Pads (![0, 0] : Fin 2 → Nat) ![1376, 0] ![0, 0] S3301376x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  broadcasts_S4096x1_S4096x16 : S4096x1.Broadcasts S4096x16
  slices_S3301376x16_S3300000x16_0_0 : S3301376x16.Slices ![0, 0] S3300000x16
  bcast_S_S100000x16 : S_.BroadcastsInDim S100000x16 (![] : Fin 0 → Fin S100000x16.rank)
  pads_S100000x16_S106496x16_064960_000 : S100000x16.Pads (![0, 0] : Fin 2 → Nat) ![6496, 0] ![0, 0] S106496x16
  shapeCasts_S16_S1x16 : S16.ShapeCasts S1x16
  shapeCasts_S8192x16_S8192x16 : S8192x16.ShapeCasts S8192x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x3_S16x3_0_0 : ∀ a, (![0, 0] : Fin 2 → Nat) a + S16x3.size a ≤ S16x3.size a
  h_S16x3 : 0 < S16x3.numel
  inb_S8192x3_S8192x3_0_0 : ∀ a, (![0, 0] : Fin 2 → Nat) a + S8192x3.size a ≤ S8192x3.size a
  h_S8192x3 : 0 < S8192x3.numel
  slices_S106496x3_S100000x3_0_0 : S106496x3.Slices ![0, 0] S100000x3
  bcast_S3300000_S3300000x3_0 : S3300000.BroadcastsInDim S3300000x3 (![0] : Fin 1 → Fin S3300000x3.rank)
  bcast_S_S3300000x3 : S_.BroadcastsInDim S3300000x3 (![] : Fin 0 → Fin S3300000x3.rank)
  pads_S3300000x3_S3301376x3_013760_000 : S3300000x3.Pads (![0, 0] : Fin 2 → Nat) ![1376, 0] ![0, 0] S3301376x3
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  broadcasts_S4096x1_S4096x3 : S4096x1.Broadcasts S4096x3
  slices_S3301376x3_S3300000x3_0_0 : S3301376x3.Slices ![0, 0] S3300000x3
  bcast_S_S100000x3 : S_.BroadcastsInDim S100000x3 (![] : Fin 0 → Fin S100000x3.rank)
  pads_S100000x3_S106496x3_064960_000 : S100000x3.Pads (![0, 0] : Fin 2 → Nat) ![6496, 0] ![0, 0] S106496x3
  shapeCasts_S3_S1x3 : S3.ShapeCasts S1x3
  shapeCasts_S8192x3_S8192x3 : S8192x3.ShapeCasts S8192x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8192x3 : S1x3.Broadcasts S8192x3
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S8192x2_S2x8_S8192x8_1_0_0_1_n_n_wf : DotDims.WF S8192x2 S2x8 S8192x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S8192x8_S8x16_S8192x16_1_0_0_1_n_n_wf : DotDims.WF S8192x8 S8x16 S8192x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S8192x16_S16x3_S8192x3_1_0_0_1_n_n_wf : DotDims.WF S8192x16 S16x3 S8192x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S26624x128.size a
  hwx0_0 : ∀ i : grid0.Coords, EltTy.bits .f32 = 32 ∨ (Rect.block (s := S26624x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S26624x128.size a
  hwx0_1 : ∀ i : grid0.Coords, EltTy.bits .f32 = 32 ∨ (Rect.block (s := S26624x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S26624x128.size a
  hwx0_2 : ∀ i : grid0.Coords, EltTy.bits .f32 = 32 ∨ (Rect.block (s := S26624x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S26624x128.size a
  hwx0_3 : ∀ i : grid0.Coords, EltTy.bits .f32 = 32 ∨ (Rect.block (s := S26624x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x2.size a ≤ S106496x2.size a
  hwx1_0 : ∀ i : grid1.Coords, EltTy.bits .f32 = 32 ∨ (Rect.block (s := S106496x2) S8192x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x8.size a ≤ S2x8.size a
  hwx1_1 : ∀ i : grid1.Coords, EltTy.bits .f32 = 32 ∨ (Rect.block (s := S2x8) S2x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x8.size a ≤ S106496x8.size a
  hwx1_2 : ∀ i : grid1.Coords, EltTy.bits .f32 = 32 ∨ (Rect.block (s := S106496x8) S8192x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x8.size a ≤ S3301376x8.size a
  hwx2_0 : ∀ i : grid2.Coords, EltTy.bits .f32 = 32 ∨ (Rect.block (s := S3301376x8) S4096x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S3301376x1.size a
  hwx2_1 : ∀ i : grid2.Coords, EltTy.bits .f32 = 32 ∨ (Rect.block (s := S3301376x1) S4096x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x8.size a ≤ S3301376x8.size a
  hwx2_2 : ∀ i : grid2.Coords, EltTy.bits .f32 = 32 ∨ (Rect.block (s := S3301376x8) S4096x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x8.size a ≤ S106496x8.size a
  hwx3_0 : ∀ i : grid3.Coords, EltTy.bits .f32 = 32 ∨ (Rect.block (s := S106496x8) S8192x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x8.size a ≤ S106496x8.size a
  hwx3_2 : ∀ i : grid3.Coords, EltTy.bits .f32 = 32 ∨ (Rect.block (s := S106496x8) S8192x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x8.size a ≤ S106496x8.size a
  hwx4_0 : ∀ i : grid4.Coords, EltTy.bits .f32 = 32 ∨ (Rect.block (s := S106496x8) S8192x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x16.size a ≤ S8x16.size a
  hwx4_1 : ∀ i : grid4.Coords, EltTy.bits .f32 = 32 ∨ (Rect.block (s := S8x16) S8x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x16.size a ≤ S106496x16.size a
  hwx4_2 : ∀ i : grid4.Coords, EltTy.bits .f32 = 32 ∨ (Rect.block (s := S106496x16) S8192x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x16.size a ≤ S3301376x16.size a
  hwx5_0 : ∀ i : grid5.Coords, EltTy.bits .f32 = 32 ∨ (Rect.block (s := S3301376x16) S4096x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x1.size a ≤ S3301376x1.size a
  hwx5_1 : ∀ i : grid5.Coords, EltTy.bits .f32 = 32 ∨ (Rect.block (s := S3301376x1) S4096x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x16.size a ≤ S3301376x16.size a
  hwx5_2 : ∀ i : grid5.Coords, EltTy.bits .f32 = 32 ∨ (Rect.block (s := S3301376x16) S4096x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x16.size a ≤ S106496x16.size a
  hwx6_0 : ∀ i : grid6.Coords, EltTy.bits .f32 = 32 ∨ (Rect.block (s := S106496x16) S8192x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x16.size a ≤ S1x16.size a
  hwx6_1 : ∀ i : grid6.Coords, EltTy.bits .f32 = 32 ∨ (Rect.block (s := S1x16) S1x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8192x16.size a ≤ S106496x16.size a
  hwx6_2 : ∀ i : grid6.Coords, EltTy.bits .f32 = 32 ∨ (Rect.block (s := S106496x16) S8192x16.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x16.size a ≤ S106496x16.size a
  hwx7_0 : ∀ i : grid7.Coords, EltTy.bits .f32 = 32 ∨ (Rect.block (s := S106496x16) S8192x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S16x3.size a ≤ S16x3.size a
  hwx7_1 : ∀ i : grid7.Coords, EltTy.bits .f32 = 32 ∨ (Rect.block (s := S16x3) S16x3.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8192x3.size a ≤ S106496x3.size a
  hwx7_2 : ∀ i : grid7.Coords, EltTy.bits .f32 = 32 ∨ (Rect.block (s := S106496x3) S8192x3.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x3.size a ≤ S3301376x3.size a
  hwx8_0 : ∀ i : grid8.Coords, EltTy.bits .f32 = 32 ∨ (Rect.block (s := S3301376x3) S4096x3.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x1.size a ≤ S3301376x1.size a
  hwx8_1 : ∀ i : grid8.Coords, EltTy.bits .f32 = 32 ∨ (Rect.block (s := S3301376x1) S4096x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4096x3.size a ≤ S3301376x3.size a
  hwx8_2 : ∀ i : grid8.Coords, EltTy.bits .f32 = 32 ∨ (Rect.block (s := S3301376x3) S4096x3.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8192x3.size a ≤ S106496x3.size a
  hwx9_0 : ∀ i : grid9.Coords, EltTy.bits .f32 = 32 ∨ (Rect.block (s := S106496x3) S8192x3.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x3.size a ≤ S1x3.size a
  hwx9_1 : ∀ i : grid9.Coords, EltTy.bits .f32 = 32 ∨ (Rect.block (s := S1x3) S1x3.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8192x3.size a ≤ S106496x3.size a
  hwx9_2 : ∀ i : grid9.Coords, EltTy.bits .f32 = 32 ∨ (Rect.block (s := S106496x3) S8192x3.size (cc9_transform_2 i) (hinb9_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S8192x2_S2x8_S8192x8_1_0_0_1_n_n : DotDims S8192x2 S2x8 S8192x8 where
  lhsContracting := [1]
  rhsContracting := [0]
  lhsNonContracting := [0]
  rhsNonContracting := [1]
  lhsBatch := []
  rhsBatch := []
  wf := dot_S8192x2_S2x8_S8192x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S8192x8_S8x16_S8192x16_1_0_0_1_n_n : DotDims S8192x8 S8x16 S8192x16 where
  lhsContracting := [1]
  rhsContracting := [0]
  lhsNonContracting := [0]
  rhsNonContracting := [1]
  lhsBatch := []
  rhsBatch := []
  wf := dot_S8192x8_S8x16_S8192x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S8192x16_S16x3_S8192x3_1_0_0_1_n_n : DotDims S8192x16 S16x3 S8192x3 where
  lhsContracting := [1]
  rhsContracting := [0]
  lhsNonContracting := [0]
  rhsNonContracting := [1]
  lhsBatch := []
  rhsBatch := []
  wf := dot_S8192x16_S16x3_S8192x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

abbrev win0_0 : Pipeline.Window sig grid0 :=
  Pipeline.Window.ofSpec (Memref.whole main_v24) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S8192x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S8192x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S4096x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S4096x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S8192x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S8192x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S8192x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S8x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S8192x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S4096x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S4096x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S4096x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v58) S8192x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S1x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S8192x16.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v62) S8192x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg7) S16x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S8192x3.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v66) S4096x3.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v68) S4096x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v69) S4096x3.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v74) S8192x3.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v75) S1x3.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v76) S8192x3.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S3200000 : Shape := ⟨1, ![3200000]⟩
abbrev S2x8 : Shape := ⟨2, ![2, 8]⟩
abbrev S8 : Shape := ⟨1, ![8]⟩
abbrev S8x16 : Shape := ⟨2, ![8, 16]⟩
abbrev S16 : Shape := ⟨1, ![16]⟩
abbrev S16x3 : Shape := ⟨2, ![16, 3]⟩
abbrev S3 : Shape := ⟨1, ![3]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x8 : Shape := ⟨2, ![100000, 8]⟩
abbrev S3300000x8 : Shape := ⟨2, ![3300000, 8]⟩
abbrev S1x8 : Shape := ⟨2, ![1, 8]⟩
abbrev S100000x16 : Shape := ⟨2, ![100000, 16]⟩
abbrev S3300000x16 : Shape := ⟨2, ![3300000, 16]⟩
abbrev S1x16 : Shape := ⟨2, ![1, 16]⟩
abbrev S100000x3 : Shape := ⟨2, ![100000, 3]⟩
abbrev S3300000x3 : Shape := ⟨2, ![3300000, 3]⟩
abbrev S1x3 : Shape := ⟨2, ![1, 3]⟩

abbrev nBuf : Space → Nat
  | .hbm => 201
  | .vmem => 0
  | .smem => 0
  | _ => 0

abbrev hbmTy0_0 (i : Nat) : BufTy := match i % 128 with
  | 0 => ⟨S100000x2, .f32⟩
  | 1 => ⟨S2x3200000, .i32⟩
  | 2 => ⟨S3200000, .f32⟩
  | 3 => ⟨S2x8, .f32⟩
  | 4 => ⟨S8, .f32⟩
  | 5 => ⟨S8x16, .f32⟩
  | 6 => ⟨S16, .f32⟩
  | 7 => ⟨S16x3, .f32⟩
  | 8 => ⟨S3, .f32⟩
  | 9 => ⟨S1x3200000, .i32⟩
  | 10 => ⟨S3200000, .i32⟩
  | 11 => ⟨S1x3200000, .i32⟩
  | 12 => ⟨S3200000, .i32⟩
  | 13 => ⟨S100000, .i32⟩
  | 14 => ⟨S3300000, .i32⟩
  | 15 => ⟨S3300000, .i32⟩
  | 16 => ⟨S_, .f32⟩
  | 17 => ⟨S100000, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x8, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x8, .f32⟩
  | 61 => ⟨S3300000x1, .f32⟩
  | 62 => ⟨S3300000x8, .f32⟩
  | 63 => ⟨S3300000x8, .f32⟩
  | 64 => ⟨S_, .f32⟩
  | 65 => ⟨S100000x8, .f32⟩
  | 66 => ⟨S3300000x1, .i32⟩
  | 67 => ⟨S100000x8, .f32⟩
  | 68 => ⟨S1x8, .f32⟩
  | 69 => ⟨S100000x8, .f32⟩
  | 70 => ⟨S100000x8, .f32⟩
  | 71 => ⟨S_, .f32⟩
  | 72 => ⟨S100000x8, .f32⟩
  | 73 => ⟨S100000x8, .f32⟩
  | 74 => ⟨S1x3200000, .i32⟩
  | 75 => ⟨S3200000, .i32⟩
  | 76 => ⟨S1x3200000, .i32⟩
  | 77 => ⟨S3200000, .i32⟩
  | 78 => ⟨S100000, .i32⟩
  | 79 => ⟨S3300000, .i32⟩
  | 80 => ⟨S3300000, .i32⟩
  | 81 => ⟨S_, .f32⟩
  | 82 => ⟨S100000, .f32⟩
  | 83 => ⟨S3300000, .f32⟩
  | 84 => ⟨S_, .f32⟩
  | 85 => ⟨S100000, .f32⟩
  | 86 => ⟨S3300000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S3300000, .f32⟩
  | 116 => ⟨S100000x16, .f32⟩
  | 117 => ⟨S_, .i32⟩
  | 118 => ⟨S3300000, .i32⟩
  | 119 => ⟨S3300000, .i1⟩
  | 120 => ⟨S_, .i32⟩
  | 121 => ⟨S3300000, .i32⟩
  | 122 => ⟨S3300000, .i32⟩
  | 123 => ⟨S3300000, .i32⟩
  | 124 => ⟨S3300000x1, .i32⟩
  | 125 => ⟨S3300000x16, .f32⟩
  | 126 => ⟨S3300000x1, .f32⟩
  | 127 => ⟨S3300000x16, .f32⟩
  | _ => ⟨S100000x2, .f32⟩

abbrev hbmTy0_1 (i : Nat) : BufTy := match i % 128 with
  | 0 => ⟨S3300000x16, .f32⟩
  | 1 => ⟨S_, .f32⟩
  | 2 => ⟨S100000x16, .f32⟩
  | 3 => ⟨S3300000x1, .i32⟩
  | 4 => ⟨S100000x16, .f32⟩
  | 5 => ⟨S1x16, .f32⟩
  | 6 => ⟨S100000x16, .f32⟩
  | 7 => ⟨S100000x16, .f32⟩
  | 8 => ⟨S_, .f32⟩
  | 9 => ⟨S100000x16, .f32⟩
  | 10 => ⟨S100000x16, .f32⟩
  | 11 => ⟨S1x3200000, .i32⟩
  | 12 => ⟨S3200000, .i32⟩
  | 13 => ⟨S1x3200000, .i32⟩
  | 14 => ⟨S3200000, .i32⟩
  | 15 => ⟨S100000, .i32⟩
  | 16 => ⟨S3300000, .i32⟩
  | 17 => ⟨S3300000, .i32⟩
  | 18 => ⟨S_, .f32⟩
  | 19 => ⟨S100000, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x3, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x3, .f32⟩
  | 63 => ⟨S3300000x1, .f32⟩
  | 64 => ⟨S3300000x3, .f32⟩
  | 65 => ⟨S3300000x3, .f32⟩
  | 66 => ⟨S_, .f32⟩
  | 67 => ⟨S100000x3, .f32⟩
  | 68 => ⟨S3300000x1, .i32⟩
  | 69 => ⟨S100000x3, .f32⟩
  | 70 => ⟨S1x3, .f32⟩
  | 71 => ⟨S100000x3, .f32⟩
  | 72 => ⟨S100000x3, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_15 : Ref sig .tc := ⟨.hbm, 106, rfl⟩
abbrev main_v74 : Ref sig .tc := ⟨.hbm, 107, rfl⟩
abbrev main_v75 : Ref sig .tc := ⟨.hbm, 108, rfl⟩
abbrev main_c_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_c_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call3_cst : Ref sig .tc := ⟨.hbm, 136, rfl⟩
abbrev main_call3_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_20 : Ref sig .tc := ⟨.hbm, 146, rfl⟩
abbrev main_v107 : Ref sig .tc := ⟨.hbm, 147, rfl⟩
abbrev main_v108 : Ref sig .tc := ⟨.hbm, 148, rfl⟩
abbrev main_cst_21 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_22 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_23 : Ref sig .tc := ⟨.hbm, 157, rfl⟩
abbrev main_call4_v0 : Ref sig .tc := ⟨.hbm, 158, rfl⟩
abbrev main_call4_v1 : Ref sig .tc := ⟨.hbm, 159, rfl⟩
abbrev main_v115 : Ref sig .tc := ⟨.hbm, 160, rfl⟩
abbrev main_c_24 : Ref sig .tc := ⟨.hbm, 161, rfl⟩
abbrev main_v116 : Ref sig .tc := ⟨.hbm, 162, rfl⟩
abbrev main_v117 : Ref sig .tc := ⟨.hbm, 163, rfl⟩
abbrev main_c_25 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_26 : Ref sig .tc := ⟨.hbm, 171, rfl⟩
abbrev main_v124 : Ref sig .tc := ⟨.hbm, 172, rfl⟩
abbrev main_v125 : Ref sig .tc := ⟨.hbm, 173, rfl⟩
abbrev main_c_27 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_28 : Ref sig .tc := ⟨.hbm, 182, rfl⟩
abbrev main_v133 : Ref sig .tc := ⟨.hbm, 183, rfl⟩
abbrev main_v134 : Ref sig .tc := ⟨.hbm, 184, rfl⟩
abbrev main_c_29 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_30 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x2_S2x8_S100000x8_1_0_0_1_n_n_wf : DotDims.WF S100000x2 S2x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x16_S100000x16_1_0_0_1_n_n_wf : DotDims.WF S100000x8 S8x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x3_S100000x3_1_0_0_1_n_n_wf : DotDims.WF S100000x16 S16x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x2_S2x8_S100000x8_1_0_0_1_n_n : DotDims S100000x2 S2x8 S100000x8 where
  lhsContracting := [1]
  rhsContracting := [0]
  lhsNonContracting := [0]
  rhsNonContracting := [1]
  lhsBatch := []
  rhsBatch := []
  wf := dot_S100000x2_S2x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

class Facts : Prop extends Facts₀ where

variable [Facts]
-- ==== Proof.Spec.lean ====
/-
  The graph convolution both programs compute, as whole-array functions of the arguments.

  Every edge list is the given edges followed by one self loop per node: sources `srcA`, destinations `dstA`, weights
  `wA` (the loops weigh 1).  `deg` sums the weights arriving at each node, `dinv` is its inverse square root where the
  degree is positive and 0 elsewhere, and an edge's coefficient is `norm e = dinv (src e) · w e · dinv (dst e)`.
  One layer maps node features x to  b + Σ_{e → n} norm e · (x W)(src e, ·) :  a linear map (`lin`), a row gather by
  source (`take`), the scaling by the coefficient (`msg`), the sum over incoming edges (`agg`) and the bias (`bias`).
  An index word is first wrapped the way array indexing does (a negative word counts from the end: `wrap`).
  The network is three layers, the first two followed by max(·, 0).
-/
import proofs.«408855_j18219251269922_2_alg».proof.ReferenceIdeal
import proofs.«408855_j18219251269922_2_alg».proof.Proof.Gen.ReferenceIdeal

noncomputable section

namespace Cert.Spec

open Idealize.ShloMosaic Cert.ReferenceIdeal Cert.ReferenceIdeal.Gen

variable {F : FTy → Type} [FloatOps F]

/-- Sources of all edges: row 0 of the edge list, then the nodes themselves. -/
def srcA (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- Destinations of all edges: row 1 of the edge list, then the nodes themselves. -/
def dstA (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- Weights of all edges: the given weights, then 1 for each self loop. -/
def wA (ew : FVec F S3200000 .f32) : FVec F S3300000 .f32 :=
  concatenate S3300000 0 [⟨S3200000, ew⟩, ⟨S100000, (broadcastInDim S100000 ![] bcast_S_S100000 (constant S_ .f32 0x3F800000#32))⟩] concatenates_S3200000_S100000_S3300000_d0

/-- A vector of per-edge values as one column. -/
def col {α : Type} (v : S3300000.Idx → α) : S3300000x1.Idx → α :=
  broadcastInDim S3300000x1 ![0] bcast_S3300000_S3300000x1_0 v

/-- An index word wrapped as array indexing wraps it: a negative word counts from the end of the 100000 nodes. -/
def wrap (idx : IVec S3300000 32) : IVec S3300000 32 :=
  select (cmpi .slt idx (broadcastInDim S3300000 ![] bcast_S_S3300000 (constantI S_ 32 0#32))) (addi idx (broadcastInDim S3300000 ![] bcast_S_S3300000 (constantI S_ 32 100000#32))) idx

/-- The weighted in-degree of every node. -/
def deg (ei : IVec S2x3200000 32) (ew : FVec F S3200000 .f32) : FVec F S100000 .f32 :=
  Host.scatterAdd scatter_S100000_S3300000x1_S3300000_n_0_0_1 (broadcastInDim S100000 ![] bcast_S_S100000 (constant S_ .f32 0x00000000#32)) (col (dstA ei)) (wA ew)

/-- deg^(-1/2) where the degree is positive, 0 elsewhere. -/
def dinv (ei : IVec S2x3200000 32) (ew : FVec F S3200000 .f32) : FVec F S100000 .f32 :=
  select (cmpf .ogt (deg ei ew) (broadcastInDim S100000 ![] bcast_S_S100000 (constant S_ .f32 0x00000000#32))) (Host.rsqrt (deg ei ew)) (broadcastInDim S100000 ![] bcast_S_S100000 (id (constant S_ .f32 0x00000000#32)))

/-- A per-node vector read at each edge's (wrapped) index word. -/
def take1 (x : FVec F S100000 .f32) (idx : IVec S3300000 32) : FVec F S3300000 .f32 :=
  Host.gather gather_S100000_S3300000x1_S3300000_n_0_n_n_0_1_1 x (col (wrap idx))

/-- The coefficient of every edge: dinv (src e) · w e · dinv (dst e). -/
def norm (ei : IVec S2x3200000 32) (ew : FVec F S3200000 .f32) : FVec F S3300000 .f32 :=
  mulf (mulf (take1 (dinv ei ew) (srcA ei)) (wA ew)) (take1 (dinv ei ew) (dstA ei))

/-! ## A layer of width 8 -/

/-- The linear map x W. -/
def lin8 (x : FVec F S100000x2 .f32) (W : FVec F S2x8 .f32) : FVec F S100000x8 .f32 :=
  Host.dotGeneral dot_S100000x2_S2x8_S100000x8_1_0_0_1_n_n none x W

/-- The rows of a node table read at each edge's (wrapped) index word. -/
def take8 (h : FVec F S100000x8 .f32) (idx : IVec S3300000 32) : FVec F S3300000x8 .f32 :=
  Host.gather gather_S100000x8_S3300000x1_S3300000x8_1_0_n_n_0_1_18 h (col (wrap idx))

/-- Each edge's row scaled by the edge's coefficient. -/
def msg8 (hs : FVec F S3300000x8 .f32) (nrm : FVec F S3300000 .f32) : FVec F S3300000x8 .f32 :=
  mulf hs (broadcastInDim S3300000x8 ![0, 1] bcast_S3300000x1_S3300000x8_0_1 (col nrm))

/-- The rows summed into their destination nodes. -/
def agg8 (ei : IVec S2x3200000 32) (ms : FVec F S3300000x8 .f32) : FVec F S100000x8 .f32 :=
  Host.scatterAdd scatter_S100000x8_S3300000x1_S3300000x8_1_0_0_1 (broadcastInDim S100000x8 ![] bcast_S_S100000x8 (constant S_ .f32 0x00000000#32)) (col (dstA ei)) ms

/-- The bias added to every row. -/
def bias8 (o : FVec F S100000x8 .f32) (b : FVec F S8 .f32) : FVec F S100000x8 .f32 :=
  addf o (broadcastInDim S100000x8 ![0, 1] bcast_S1x8_S100000x8_0_1 (broadcastInDim S1x8 ![1] bcast_S8_S1x8_1 b))

/-- One layer: b + Σ_{e → n} norm e · (x W)(src e, ·). -/
def layer8 (ei : IVec S2x3200000 32) (ew : FVec F S3200000 .f32) (x : FVec F S100000x2 .f32) (W : FVec F S2x8 .f32) (b : FVec F S8 .f32) : FVec F S100000x8 .f32 :=
  bias8 (agg8 ei (msg8 (take8 (lin8 x W) (srcA ei)) (norm ei ew))) b

/-- max(·, 0), entry by entry. -/
def relu8 (y : FVec F S100000x8 .f32) : FVec F S100000x8 .f32 :=
  maximumf y (broadcastInDim S100000x8 ![] bcast_S_S100000x8 (constant S_ .f32 0x00000000#32))

/-! ## A layer of width 16 -/

/-- The linear map x W. -/
def lin16 (x : FVec F S100000x8 .f32) (W : FVec F S8x16 .f32) : FVec F S100000x16 .f32 :=
  Host.dotGeneral dot_S100000x8_S8x16_S100000x16_1_0_0_1_n_n none x W

/-- The rows of a node table read at each edge's (wrapped) index word. -/
def take16 (h : FVec F S100000x16 .f32) (idx : IVec S3300000 32) : FVec F S3300000x16 .f32 :=
  Host.gather gather_S100000x16_S3300000x1_S3300000x16_1_0_n_n_0_1_116 h (col (wrap idx))

/-- Each edge's row scaled by the edge's coefficient. -/
def msg16 (hs : FVec F S3300000x16 .f32) (nrm : FVec F S3300000 .f32) : FVec F S3300000x16 .f32 :=
  mulf hs (broadcastInDim S3300000x16 ![0, 1] bcast_S3300000x1_S3300000x16_0_1 (col nrm))

/-- The rows summed into their destination nodes. -/
def agg16 (ei : IVec S2x3200000 32) (ms : FVec F S3300000x16 .f32) : FVec F S100000x16 .f32 :=
  Host.scatterAdd scatter_S100000x16_S3300000x1_S3300000x16_1_0_0_1 (broadcastInDim S100000x16 ![] bcast_S_S100000x16 (constant S_ .f32 0x00000000#32)) (col (dstA ei)) ms

/-- The bias added to every row. -/
def bias16 (o : FVec F S100000x16 .f32) (b : FVec F S16 .f32) : FVec F S100000x16 .f32 :=
  addf o (broadcastInDim S100000x16 ![0, 1] bcast_S1x16_S100000x16_0_1 (broadcastInDim S1x16 ![1] bcast_S16_S1x16_1 b))

/-- One layer: b + Σ_{e → n} norm e · (x W)(src e, ·). -/
def layer16 (ei : IVec S2x3200000 32) (ew : FVec F S3200000 .f32) (x : FVec F S100000x8 .f32) (W : FVec F S8x16 .f32) (b : FVec F S16 .f32) : FVec F S100000x16 .f32 :=
  bias16 (agg16 ei (msg16 (take16 (lin16 x W) (srcA ei)) (norm ei ew))) b

/-- max(·, 0), entry by entry. -/
def relu16 (y : FVec F S100000x16 .f32) : FVec F S100000x16 .f32 :=
  maximumf y (broadcastInDim S100000x16 ![] bcast_S_S100000x16 (constant S_ .f32 0x00000000#32))

/-! ## A layer of width 3 -/

/-- The linear map x W. -/
def lin3 (x : FVec F S100000x16 .f32) (W : FVec F S16x3 .f32) : FVec F S100000x3 .f32 :=
  Host.dotGeneral dot_S100000x16_S16x3_S100000x3_1_0_0_1_n_n none x W

/-- The rows of a node table read at each edge's (wrapped) index word. -/
def take3 (h : FVec F S100000x3 .f32) (idx : IVec S3300000 32) : FVec F S3300000x3 .f32 :=
  Host.gather gather_S100000x3_S3300000x1_S3300000x3_1_0_n_n_0_1_13 h (col (wrap idx))

/-- Each edge's row scaled by the edge's coefficient. -/
def msg3 (hs : FVec F S3300000x3 .f32) (nrm : FVec F S3300000 .f32) : FVec F S3300000x3 .f32 :=
  mulf hs (broadcastInDim S3300000x3 ![0, 1] bcast_S3300000x1_S3300000x3_0_1 (col nrm))

/-- The rows summed into their destination nodes. -/
def agg3 (ei : IVec S2x3200000 32) (ms : FVec F S3300000x3 .f32) : FVec F S100000x3 .f32 :=
  Host.scatterAdd scatter_S100000x3_S3300000x1_S3300000x3_1_0_0_1 (broadcastInDim S100000x3 ![] bcast_S_S100000x3 (constant S_ .f32 0x00000000#32)) (col (dstA ei)) ms

/-- The bias added to every row. -/
def bias3 (o : FVec F S100000x3 .f32) (b : FVec F S3 .f32) : FVec F S100000x3 .f32 :=
  addf o (broadcastInDim S100000x3 ![0, 1] bcast_S1x3_S100000x3_0_1 (broadcastInDim S1x3 ![1] bcast_S3_S1x3_1 b))

/-- One layer: b + Σ_{e → n} norm e · (x W)(src e, ·). -/
def layer3 (ei : IVec S2x3200000 32) (ew : FVec F S3200000 .f32) (x : FVec F S100000x16 .f32) (W : FVec F S16x3 .f32) (b : FVec F S3 .f32) : FVec F S100000x3 .f32 :=
  bias3 (agg3 ei (msg3 (take3 (lin3 x W) (srcA ei)) (norm ei ew))) b

/-! ## The network -/

/-- Three layers, the first two followed by max(·, 0). -/
def out (z : FVec F S100000x2 .f32) (ei : IVec S2x3200000 32) (ew : FVec F S3200000 .f32)
    (W1 : FVec F S2x8 .f32) (b1 : FVec F S8 .f32) (W2 : FVec F S8x16 .f32) (b2 : FVec F S16 .f32)
    (W3 : FVec F S16x3 .f32) (b3 : FVec F S3 .f32) : FVec F S100000x3 .f32 :=
  layer3 ei ew (relu16 (layer16 ei ew (relu8 (layer8 ei ew z W1 b1)) W2 b2)) W3 b3

end Cert.Spec

end
-- ==== Proof.RegEw.lean ====
import proofs.«408855_j18219251269922_2_alg».proof.Proof.Gen.KernelIdeal.Frame
import proofs.«408855_j18219251269922_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.RegEw

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- A vector of 3300000 per-edge values as region 0 receives it: zero-extended to 3300096, laid out as 25782 rows of
    128 lanes, and zero rows added up to 26624. -/
abbrev laid (x : FVec F S3300000 .f32) (z z' : FVec F S_ .f32) : FVec F S26624x128 .f32 :=
  pad S26624x128 ![0, 0] ![842, 0] ![0, 0] (shapeCast S25782x128 (pad S3300096 ![0] ![96] ![0] x z pads_S3300000_S3300096_0960 h_S_) shapeCasts_S3300096_S25782x128) z' pads_S25782x128_S26624x128_08420_000 h_S_

/-! ## The laid-out array read at a row and a lane -/

/-- Flat position `e < 3300000` of a per-edge vector sits at row `e / 128`, lane `e % 128` of its laid-out array:
    the row is below 25782, so it is inside the unpadded rows; row-major, row `r` lane `l` of the 128-lane layout is flat
    position `128 r + l = e`, which is below 3300000, so it is inside the unextended vector. -/
theorem laid_apply (x : FVec F S3300000 .f32) (z z' : FVec F S_ .f32) (e : Fin 3300000)
    (r : Fin 26624) (l : Fin 128) (hr : r.val = e.val / 128) (hl : l.val = e.val % 128) :
    laid x z z' (ix2 r l) = x (ix1 e) := by
  have he : e.val < 3300000 := e.isLt
  unfold laid
  rw [pad_apply_of_inside (s := S25782x128) (t := S26624x128) _ _ _ _ _ _ _ (ix2 r l)
    (ix2 (⟨r.val, by omega⟩ : Fin 25782) l) (fun a => by
      match a with
      | ⟨0, _⟩ => show r.val = 0 + r.val * (0 + 1); omega
      | ⟨1, _⟩ => show l.val = 0 + l.val * (0 + 1); omega)]
  rw [shapeCast_apply (s := S3300096) (t := S25782x128) _ _ (ix2 (⟨r.val, by omega⟩ : Fin 25782) l)
    (ix1 (⟨e.val, by omega⟩ : Fin 3300096)) (by
      rw [Shape.rowMajor_val_one, Shape.rowMajor_val_two]
      show e.val = r.val * 128 + l.val
      omega)]
  exact pad_apply_of_inside (s := S3300000) (t := S3300096) _ _ _ _ _ _ _ (ix1 (⟨e.val, by omega⟩ : Fin 3300096)) (ix1 e) (fun a => by
      match a with
      | ⟨0, _⟩ => show e.val = 0 + e.val * (0 + 1); omega)

/-! ## Region 0's output array as one function of its input arrays -/

/-- The origin of a block, as the constant zero function. -/
theorem origin_zero : (![0, 0] : Fin 2 → Nat) = fun _ => 0 := funext fun a => by fin_cases a <;> rfl

/-- The entrywise product `(x · y) · w` of three [26624, 128] arrays. -/
abbrev prod3 (x y w : S26624x128.Idx → Elt F .f32) : S26624x128.Idx → Elt F .f32 :=
  fun i => FloatOps.mulf (FloatOps.mulf (x i) (y i)) (w i)

/-- The body's stored value is the entrywise product of its three loaded blocks (the shape casts are to the same shape). -/
theorem pay_eq (x0 x1 x2 : Vec F S2048x128 .f32) : k0_pay1 x0 x1 x2 = mulf (mulf x0 x1) x2 := by
  unfold k0_pay1
  simp only [shapeCast_self]

/-- The four windows move together: at point `t` each has block index `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the entrywise product of the three input arrays: the input blocks
    are read at the same array positions as the output block, rows `2048 t + p`, lanes `q`. -/
theorem flushed_eq (c : Dev nD) (t : Fin cfg0.N) :
    (dat0 V c).flushed 3 t = ((cfg0.win 3).blk t).view.read (Elt F) (prod3 (V c main_v24) (V c main_v25) (V c main_v26)) := by
  show (cfg0.win 3).cut (grid0.coords t) ((dat0 V c).after 3 t) = _
  rw [after0_3]
  unfold out0_3
  rw [View.canon_unit_zero origin_zero]
  simp only [View.ld_unit_zero (S := S2048x128) origin_zero]
  rw [pay_eq]
  obtain ⟨e00, e01, e10, e11, e20, e21, e30, e31⟩ := idx_facts t
  funext j
  show FloatOps.mulf (FloatOps.mulf (V c main_v24 (((cfg0.win 0).blk t).view.emb j)) (V c main_v25 (((cfg0.win 1).blk t).view.emb j))) (V c main_v26 (((cfg0.win 2).blk t).view.emb j))
    = FloatOps.mulf (FloatOps.mulf (V c main_v24 (((cfg0.win 3).blk t).view.emb j)) (V c main_v25 (((cfg0.win 3).blk t).view.emb j))) (V c main_v26 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 2048 + 1 * (j 0).val = win0_3.index t (0 : Fin 2) * 2048 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 2048 + 1 * (j 0).val = win0_3.index t (0 : Fin 2) * 2048 + 1 * (j 0).val; omega
    | ⟨1, _⟩ => show win0_2.index t (1 : Fin 2) * 128 + 1 * (j 1).val = win0_3.index t (1 : Fin 2) * 128 + 1 * (j 1).val; omega
  rw [h0, h1, h2]

/-- An index of the output array is in point `t`'s block iff each coordinate is in the block's range on its axis. -/
theorem mem_blk (t : Fin cfg0.N) (i : S26624x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v27).slice (win0_3.rect t)).set ↔ _
  rw [View.set_slice_whole, Rect.mem_set_unit]
  exact Iff.rfl

/-- The 13 blocks of 2048 rows tile the 26624 rows: row `r` is in the block of point `r / 2048`. -/
theorem cover (i : S26624x128.Idx) :
    ∃ t : Fin cfg0.N, (cfg0.win 3).flush t = true ∧ i ∈ ((cfg0.win 3).blk t).view.set := by
  have hi0 : (i 0).val < 26624 := (i 0).isLt
  have hi1 : (i 1).val < 128 := (i 1).isLt
  let t : Fin cfg0.N := ⟨(i 0).val / 2048, by show (i 0).val / 2048 < 13; omega⟩
  obtain ⟨-, -, -, -, -, -, e30, e31⟩ := idx_facts t
  have ht : t.val = (i 0).val / 2048 := rfl
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The output array after the region: the entrywise product of the three input arrays as the region finds them. -/
theorem final (c : Dev nD) :
    (dat0 V c).arrAt 3 cfg0.N = prod3 (V c main_v24) (V c main_v25) (V c main_v26) :=
  (dat0 V c).arrAt_eq_of_cover 3 (prod3 (V c main_v24) (V c main_v25) (V c main_v26)) (fun t _ => flushed_eq V c t) cover

/-- REGION 0 (the three-way product), read back as a vector of per-edge values: if its three input arrays are three
    laid-out vectors, the first 3300000 entries of its output array, flattened, are the entrywise product. -/
theorem val (c : Dev nD) (a b d : FVec F S3300000 .f32) (z1 z2 z3 z4 z5 z6 : FVec F S_ .f32)
    (hA : V c main_v24 = laid a z1 z2) (hB : V c main_v25 = laid b z3 z4) (hD : V c main_v26 = laid d z5 z6) :
    extractStridedSlice S3300000 ![0] (shapeCast S3407872 ((dat0 V c).arrAt 3 cfg0.N) shapeCasts_S26624x128_S3407872) slices_S3407872_S3300000_0
      = mulf (mulf a b) d := by
  rw [final, hA, hB, hD]
  funext j
  obtain ⟨e, rfl⟩ : ∃ e : Fin 3300000, j = ix1 e := ⟨j 0, eq_ix1 j⟩
  have he : e.val < 3300000 := e.isLt
  -- flat position e of the flattened output array is its row e / 128, lane e % 128 (row-major)
  rw [extractStridedSlice_apply (s := S3407872) (t := S3300000) _ _ _ (ix1 e) (ix1 (⟨e.val, by omega⟩ : Fin 3407872)) (fun a => by
      match a with
      | ⟨0, _⟩ => show e.val = 0 + e.val; omega)]
  rw [shapeCast_apply (s := S26624x128) (t := S3407872) _ _ (ix1 (⟨e.val, by omega⟩ : Fin 3407872))
    (ix2 (⟨e.val / 128, by omega⟩ : Fin 26624) (⟨e.val % 128, Nat.mod_lt _ (by omega)⟩ : Fin 128)) (by
      rw [Shape.rowMajor_val_one, Shape.rowMajor_val_two]
      show e.val / 128 * 128 + e.val % 128 = e.val
      omega)]
  show FloatOps.mulf (FloatOps.mulf (laid a z1 z2 _) (laid b z3 z4 _)) (laid d z5 z6 _) = FloatOps.mulf (FloatOps.mulf (a (ix1 e)) (b (ix1 e))) (d (ix1 e))
  rw [laid_apply a z1 z2 e _ _ rfl rfl, laid_apply b z3 z4 e _ _ rfl rfl, laid_apply d z5 z6 e _ _ rfl rfl]

end Cert.KernelIdeal.RegEw
end
-- ==== Proof.RegMm.lean ====
/-
  The three linear maps of the kernel's @main (regions 1, 4 and 7), read back on the nodes.

  Each region multiplies a node table with zero rows added up to 106496 rows by a weight matrix, 8192 rows at a time
  over 13 points. At an entry (i, j) a point's product is Σ_k x(i, k) · w(k, j): the change of format before the product is
  the identity on ideal values and the accumulator starts at zero. The point's table block is rows 8192 t … 8192 t + 8191
  of the table and its weight block is the whole matrix, so every point writes its rows of ONE whole-array product, and
  the 13 row blocks tile the output. On the first 100000 rows the table's added rows are never read, and the sum is the
  reference's dot_general read at the same entry.
-/
import proofs.«408855_j18219251269922_2_alg».proof.Proof.Gen.KernelIdeal.Frame
import proofs.«408855_j18219251269922_2_alg».proof.Proof.Spec
import proofs.«408855_j18219251269922_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.RegMm

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offset (0, 0) of a whole block is the zero offset. -/
theorem hz : (![0, 0] : Fin 2 → Nat) = fun _ => 0 := funext fun a => by fin_cases a <;> rfl

/-! ## The linear map of width 8: region 1 -/

/-- In the block product, the left factor's row is the output's row, -/
theorem blk_lhs8_0 (i : S8192x8.Idx) (q : dot_S8192x2_S2x8_S8192x8_1_0_0_1_n_n.contr.Idx) :
    (dot_S8192x2_S2x8_S8192x8_1_0_0_1_n_n.lhsIdx i q 0).val = (i 0).val := by
  unfold DotDims.lhsIdx
  rw [dif_neg (show ¬(0 : Fin S8192x2.rank) ∈ dot_S8192x2_S2x8_S8192x8_1_0_0_1_n_n.lhsBatch by decide), dif_pos (show (0 : Fin S8192x2.rank) ∈ dot_S8192x2_S2x8_S8192x8_1_0_0_1_n_n.lhsNonContracting by decide)]
  rfl
/-- its column the summation index; -/
theorem blk_lhs8_1 (i : S8192x8.Idx) (q : dot_S8192x2_S2x8_S8192x8_1_0_0_1_n_n.contr.Idx) :
    (dot_S8192x2_S2x8_S8192x8_1_0_0_1_n_n.lhsIdx i q 1).val = (q ⟨0, by decide⟩).val :=
  dot_S8192x2_S2x8_S8192x8_1_0_0_1_n_n.lhsIdx_val_of_single rfl i q
/-- the right factor's row is the summation index, -/
theorem blk_rhs8_0 (i : S8192x8.Idx) (q : dot_S8192x2_S2x8_S8192x8_1_0_0_1_n_n.contr.Idx) :
    (dot_S8192x2_S2x8_S8192x8_1_0_0_1_n_n.rhsIdx i q 0).val = (q ⟨0, by decide⟩).val :=
  dot_S8192x2_S2x8_S8192x8_1_0_0_1_n_n.rhsIdx_val_of_single rfl i q
/-- its column the output's column. -/
theorem blk_rhs8_1 (i : S8192x8.Idx) (q : dot_S8192x2_S2x8_S8192x8_1_0_0_1_n_n.contr.Idx) :
    (dot_S8192x2_S2x8_S8192x8_1_0_0_1_n_n.rhsIdx i q 1).val = (i 1).val := by
  unfold DotDims.rhsIdx
  rw [dif_neg (show ¬(1 : Fin S2x8.rank) ∈ dot_S8192x2_S2x8_S8192x8_1_0_0_1_n_n.rhsBatch by decide), dif_pos (show (1 : Fin S2x8.rank) ∈ dot_S8192x2_S2x8_S8192x8_1_0_0_1_n_n.rhsNonContracting by decide)]
  rfl

/-- Entry (row of i, k) of a block of the node table. -/
abbrev bl8 (i : S8192x8.Idx) (k : Fin 2) : S8192x2.Idx := fun a => match a with
  | ⟨0, _⟩ => ⟨(i 0).val, (i 0).isLt⟩
  | ⟨1, _⟩ => ⟨k.val, k.isLt⟩
/-- Entry (k, column of i) of the weights. -/
abbrev br8 (i : S8192x8.Idx) (k : Fin 2) : S2x8.Idx := fun a => match a with
  | ⟨0, _⟩ => ⟨k.val, k.isLt⟩
  | ⟨1, _⟩ => ⟨(i 1).val, (i 1).isLt⟩

/-- The body's product at an entry: Σ_k x(row, k) · w(k, column); the change of format is the identity on ideal values
    and the accumulator starts at zero. -/
theorem pay8_apply (x0 : Vec Ideal S8192x2 .f32) (x1 : Vec Ideal S2x8 .f32) (i : S8192x8.Idx) :
    k1_pay1 (F := Ideal) x0 x1 i = ∑ k : Fin 2, x0 (bl8 i k) * x1 (br8 i k) := by
  unfold k1_pay1
  simp only [shapeCast_self]
  show FloatOps.matmul (F := Ideal) (φ₁ := .bf16) (φ₂ := .bf16) dot_S8192x2_S2x8_S8192x8_1_0_0_1_n_n none (x0 : FVec Ideal S8192x2 .bf16) (x1 : FVec Ideal S2x8 .bf16) (constant (F := Ideal) S8192x8 .f32 0x00000000#32) i = _
  rw [Ideal.matmul_constant_zero_apply, ← Equiv.sum_comp (ValueIdx.contrEquiv1 dot_S8192x2_S2x8_S8192x8_1_0_0_1_n_n 2 rfl rfl).symm]
  refine Finset.sum_congr rfl fun k _ => ?_
  have hk := ValueIdx.contrEquiv1_symm_val dot_S8192x2_S2x8_S8192x8_1_0_0_1_n_n 2 rfl rfl k
  have el : dot_S8192x2_S2x8_S8192x8_1_0_0_1_n_n.lhsIdx i ((ValueIdx.contrEquiv1 dot_S8192x2_S2x8_S8192x8_1_0_0_1_n_n 2 rfl rfl).symm k) = bl8 i k := funext fun a => Fin.ext (by
    match a with
    | ⟨0, _⟩ => exact blk_lhs8_0 _ _
    | ⟨1, _⟩ => exact (blk_lhs8_1 _ _).trans hk)
  have er : dot_S8192x2_S2x8_S8192x8_1_0_0_1_n_n.rhsIdx i ((ValueIdx.contrEquiv1 dot_S8192x2_S2x8_S8192x8_1_0_0_1_n_n 2 rfl rfl).symm k) = br8 i k := funext fun a => Fin.ext (by
    match a with
    | ⟨0, _⟩ => exact (blk_rhs8_0 _ _).trans hk
    | ⟨1, _⟩ => exact blk_rhs8_1 _ _)
  rw [el, er]

/-- Entry (row of i, k) of the node table with its added rows. -/
abbrev al8 (i : S106496x8.Idx) (k : Fin 2) : S106496x2.Idx := fun a => match a with
  | ⟨0, _⟩ => ⟨(i 0).val, (i 0).isLt⟩
  | ⟨1, _⟩ => ⟨k.val, k.isLt⟩
/-- Entry (k, column of i) of the weights. -/
abbrev ar8 (i : S106496x8.Idx) (k : Fin 2) : S2x8.Idx := fun a => match a with
  | ⟨0, _⟩ => ⟨k.val, k.isLt⟩
  | ⟨1, _⟩ => ⟨(i 1).val, (i 1).isLt⟩

/-- The whole product X W of the [106496, 2] table and the [2, 8] weights, entry by entry. -/
def prod8 (X : FVec Ideal S106496x2 .f32) (W : FVec Ideal S2x8 .f32) : FVec Ideal S106496x8 .f32 :=
  fun i => ∑ k : Fin 2, X (al8 i k) * W (ar8 i k)

/-- The block indices over the 13 points: the table's and the output's row blocks are the point's number, the weights'
    block is the whole array. -/
theorem blocks8 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 8192 t … 8192 t + 8191 of the whole product: the point's table block is those rows of
    the table and the weights' block is all the weights. -/
theorem flushed8 (c : Dev nD) (t : Fin cfg1.N) :
    (dat1 V c).flushed 2 t = ((cfg1.win 2).blk t).view.read (Elt Ideal) (prod8 (V c main_v30) (V c main_arg3)) := by
  show (cfg1.win 2).cut (grid1.coords t) ((dat1 V c).after 2 t) = _
  rw [after1_2]
  unfold out1_2
  rw [View.canon_unit_zero hz]
  simp only [View.ld_unit_zero (S := S8192x2) hz, View.ld_unit_zero (S := S2x8) hz]
  obtain ⟨e0, e1, e2, e3, e4, e5⟩ := blocks8 t
  funext j
  refine (pay8_apply (iblk1 V c 0 t) (iblk1 V c 1 t) j).trans ?_
  rw [View.read_apply]
  unfold prod8
  refine Finset.sum_congr rfl fun k _ => ?_
  have h0 : ((cfg1.win 0).blk t).view.emb (bl8 j k) = al8 (((cfg1.win 2).blk t).view.emb j) k := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 2 + 1 * k.val = k.val; omega
  have h1 : ((cfg1.win 1).blk t).view.emb (br8 j k) = ar8 (((cfg1.win 2).blk t).view.emb j) k := by
    funext a; apply Fin.ext
    match a with
    | ⟨0, _⟩ => show win1_1.index t (0 : Fin 2) * 2 + 1 * k.val = k.val; omega
    | ⟨1, _⟩ => show win1_1.index t (1 : Fin 2) * 8 + 1 * (j 1).val = win1_2.index t (1 : Fin 2) * 8 + 1 * (j 1).val; omega
  have f0 : (iblk1 V c 0 t : Vec Ideal S8192x2 .f32) (bl8 j k) = (V c main_v30 : Vec Ideal S106496x2 .f32) (al8 (((cfg1.win 2).blk t).view.emb j) k) := by
    show V c main_v30 (((cfg1.win 0).blk t).view.emb (bl8 j k)) = V c main_v30 (al8 (((cfg1.win 2).blk t).view.emb j) k)
    rw [h0]
  have f1 : (iblk1 V c 1 t : Vec Ideal S2x8 .f32) (br8 j k) = (V c main_arg3 : Vec Ideal S2x8 .f32) (ar8 (((cfg1.win 2).blk t).view.emb j) k) := by
    show V c main_arg3 (((cfg1.win 1).blk t).view.emb (br8 j k)) = V c main_arg3 (ar8 (((cfg1.win 2).blk t).view.emb j) k)
    rw [h1]
  rw [f0, f1]

/-- An entry is in point t's output block iff each coordinate is in the block's range on its axis. -/
theorem mem_blk8 (t : Fin cfg1.N) (i : S106496x8.Idx) :
    i ∈ ((cfg1.win 2).blk t).view.set ↔ ∀ a : Fin 2, win1_2.index t a * S8192x8.size a ≤ (i a).val ∧ (i a).val < win1_2.index t a * S8192x8.size a + S8192x8.size a := by
  show i ∈ ((View.whole main_v31).slice (win1_2.rect t)).set ↔ _
  rw [View.set_slice_whole, Rect.mem_set_unit]
  exact Iff.rfl

/-- The 13 row blocks tile the output: row r is in the block of point r / 8192. -/
theorem cover8 (i : S106496x8.Idx) :
    ∃ t : Fin cfg1.N, (cfg1.win 2).flush t = true ∧ i ∈ ((cfg1.win 2).blk t).view.set := by
  have hi0 : (i 0).val < 106496 := (i 0).isLt
  have hi1 : (i 1).val < 8 := (i 1).isLt
  have hN : cfg1.N = 13 := rfl
  obtain ⟨t, ht⟩ : ∃ t : Fin cfg1.N, t.val = (i 0).val / 8192 := ⟨⟨(i 0).val / 8192, by rw [hN]; omega⟩, rfl⟩
  obtain ⟨e0, e1, e2, e3, e4, e5⟩ := blocks8 t
  refine ⟨t, flush1_2 t, ?_⟩
  rw [mem_blk8]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 8 ≤ (i 1).val ∧ (i 1).val < win1_2.index t (1 : Fin 2) * 8 + 8; omega

/-- The output array after the region is the whole product. -/
theorem arr8 (c : Dev nD) : (dat1 V c).arrAt 2 cfg1.N = prod8 (V c main_v30) (V c main_arg3) :=
  (dat1 V c).arrAt_eq_of_cover 2 (prod8 (V c main_v30) (V c main_arg3)) (fun t _ => flushed8 V c t) cover8

/-- The reference's linear map of width 8 at an entry: Σ_k x(row, k) · W(k, column). -/
theorem lin8_apply (x : FVec Ideal S100000x2 .f32) (W : FVec Ideal S2x8 .f32) (i : S100000x8.Idx) :
    Cert.Spec.lin8 (F := Ideal) x W i = ∑ k : Fin 2, x (Cert.ReferenceIdeal.Read.lidx_main_v32 i k) * W (Cert.ReferenceIdeal.Read.ridx_main_v32 i k) := by
  unfold Cert.Spec.lin8
  simp only [Host.dotGeneral]
  rw [Ideal.dotGeneral_apply, ← Equiv.sum_comp (ValueIdx.contrEquiv1 Cert.ReferenceIdeal.dot_S100000x2_S2x8_S100000x8_1_0_0_1_n_n 2 rfl rfl).symm]
  refine Finset.sum_congr rfl fun k _ => ?_
  have hk := ValueIdx.contrEquiv1_symm_val Cert.ReferenceIdeal.dot_S100000x2_S2x8_S100000x8_1_0_0_1_n_n 2 rfl rfl k
  have el : Cert.ReferenceIdeal.dot_S100000x2_S2x8_S100000x8_1_0_0_1_n_n.lhsIdx i ((ValueIdx.contrEquiv1 Cert.ReferenceIdeal.dot_S100000x2_S2x8_S100000x8_1_0_0_1_n_n 2 rfl rfl).symm k) = Cert.ReferenceIdeal.Read.lidx_main_v32 i k := funext fun a => Fin.ext (by
    match a with
    | ⟨0, _⟩ => exact Cert.ReferenceIdeal.Read.lhs_main_v32_0 _ _
    | ⟨1, _⟩ => exact (Cert.ReferenceIdeal.Read.lhs_main_v32_1 _ _).trans hk)
  have er : Cert.ReferenceIdeal.dot_S100000x2_S2x8_S100000x8_1_0_0_1_n_n.rhsIdx i ((ValueIdx.contrEquiv1 Cert.ReferenceIdeal.dot_S100000x2_S2x8_S100000x8_1_0_0_1_n_n 2 rfl rfl).symm k) = Cert.ReferenceIdeal.Read.ridx_main_v32 i k := funext fun a => Fin.ext (by
    match a with
    | ⟨0, _⟩ => exact (Cert.ReferenceIdeal.Read.rhs_main_v32_0 _ _).trans hk
    | ⟨1, _⟩ => exact Cert.ReferenceIdeal.Read.rhs_main_v32_1 _ _)
  rw [el, er]

/-- On a node's row the product over the table with its added rows is the reference's linear map: the row lies inside
    the table, so the added rows' value is never read. -/
theorem prod8_pad (x : FVec Ideal S100000x2 .f32) (z : FVec Ideal S_ .f32) (W : FVec Ideal S2x8 .f32)
    (i : S100000x8.Idx) (i' : S106496x8.Idx) (h0 : (i' 0).val = (i 0).val) (h1 : (i' 1).val = (i 1).val) :
    prod8 (pad S106496x2 ![0, 0] ![6496, 0] ![0, 0] x z pads_S100000x2_S106496x2_064960_000 h_S_) W i'
      = Cert.Spec.lin8 (F := Ideal) x W i := by
  rw [lin8_apply]
  unfold prod8
  refine Finset.sum_congr rfl fun k _ => ?_
  have hl : pad S106496x2 ![0, 0] ![6496, 0] ![0, 0] x z pads_S100000x2_S106496x2_064960_000 h_S_ (al8 i' k)
      = x (Cert.ReferenceIdeal.Read.lidx_main_v32 i k) :=
    pad_apply_of_inside ![0, 0] ![6496, 0] ![0, 0] x z pads_S100000x2_S106496x2_064960_000 h_S_ (al8 i' k) (Cert.ReferenceIdeal.Read.lidx_main_v32 i k) (fun a => by
      match a with
      | ⟨0, _⟩ => show (i' 0).val = 0 + (i 0).val * (0 + 1); omega
      | ⟨1, _⟩ => show k.val = 0 + k.val * (0 + 1); omega)
  have hr : ar8 i' k = Cert.ReferenceIdeal.Read.ridx_main_v32 i k := funext fun a => Fin.ext (by
    match a with
    | ⟨0, _⟩ => rfl
    | ⟨1, _⟩ => exact h1)
  rw [hl, hr]

/-- REGION 1 (the linear map of width 8), read back on the 100000 nodes: if its first input array is a node table
    with zero rows added up to 106496, the first 100000 rows of its output array are the table times the weights. -/
theorem val8 (c : Dev nD) (x : FVec Ideal S100000x2 .f32) (z : FVec Ideal S_ .f32)
    (hX : V c main_v30 = pad S106496x2 ![0, 0] ![6496, 0] ![0, 0] x z pads_S100000x2_S106496x2_064960_000 h_S_) :
    extractStridedSlice S100000x8 ![0, 0] ((dat1 V c).arrAt 2 cfg1.N) slices_S106496x8_S100000x8_0_0
      = Cert.Spec.lin8 (F := Ideal) x (V c main_arg3) := by
  rw [arr8, hX]
  funext i
  have hi0 : (i 0).val < 100000 := (i 0).isLt
  have hi1 : (i 1).val < 8 := (i 1).isLt
  obtain ⟨i', h0, h1⟩ : ∃ i' : S106496x8.Idx, (i' 0).val = (i 0).val ∧ (i' 1).val = (i 1).val :=
    ⟨fun a => match a with
      | ⟨0, _⟩ => ⟨(i 0).val, by show (i 0).val < 106496; omega⟩
      | ⟨1, _⟩ => ⟨(i 1).val, hi1⟩, rfl, rfl⟩
  have e1 : extractStridedSlice S100000x8 ![0, 0] (prod8 (pad S106496x2 ![0, 0] ![6496, 0] ![0, 0] x z pads_S100000x2_S106496x2_064960_000 h_S_) (V c main_arg3)) slices_S106496x8_S100000x8_0_0 i
      = prod8 (pad S106496x2 ![0, 0] ![6496, 0] ![0, 0] x z pads_S100000x2_S106496x2_064960_000 h_S_) (V c main_arg3) i' :=
    extractStridedSlice_apply ![0, 0] (prod8 (pad S106496x2 ![0, 0] ![6496, 0] ![0, 0] x z pads_S100000x2_S106496x2_064960_000 h_S_) (V c main_arg3)) slices_S106496x8_S100000x8_0_0 i i' (fun a => by
      match a with
      | ⟨0, _⟩ => show (i' 0).val = 0 + (i 0).val; omega
      | ⟨1, _⟩ => show (i' 1).val = 0 + (i 1).val; omega)
  exact e1.trans (prod8_pad x z (V c main_arg3) i i' h0 h1)

/-! ## The linear map of width 16: region 4 -/

/-- In the block product, the left factor's row is the output's row, -/
theorem blk_lhs16_0 (i : S8192x16.Idx) (q : dot_S8192x8_S8x16_S8192x16_1_0_0_1_n_n.contr.Idx) :
    (dot_S8192x8_S8x16_S8192x16_1_0_0_1_n_n.lhsIdx i q 0).val = (i 0).val := by
  unfold DotDims.lhsIdx
  rw [dif_neg (show ¬(0 : Fin S8192x8.rank) ∈ dot_S8192x8_S8x16_S8192x16_1_0_0_1_n_n.lhsBatch by decide), dif_pos (show (0 : Fin S8192x8.rank) ∈ dot_S8192x8_S8x16_S8192x16_1_0_0_1_n_n.lhsNonContracting by decide)]
  rfl
/-- its column the summation index; -/
theorem blk_lhs16_1 (i : S8192x16.Idx) (q : dot_S8192x8_S8x16_S8192x16_1_0_0_1_n_n.contr.Idx) :
    (dot_S8192x8_S8x16_S8192x16_1_0_0_1_n_n.lhsIdx i q 1).val = (q ⟨0, by decide⟩).val :=
  dot_S8192x8_S8x16_S8192x16_1_0_0_1_n_n.lhsIdx_val_of_single rfl i q
/-- the right factor's row is the summation index, -/
theorem blk_rhs16_0 (i : S8192x16.Idx) (q : dot_S8192x8_S8x16_S8192x16_1_0_0_1_n_n.contr.Idx) :
    (dot_S8192x8_S8x16_S8192x16_1_0_0_1_n_n.rhsIdx i q 0).val = (q ⟨0, by decide⟩).val :=
  dot_S8192x8_S8x16_S8192x16_1_0_0_1_n_n.rhsIdx_val_of_single rfl i q
/-- its column the output's column. -/
theorem blk_rhs16_1 (i : S8192x16.Idx) (q : dot_S8192x8_S8x16_S8192x16_1_0_0_1_n_n.contr.Idx) :
    (dot_S8192x8_S8x16_S8192x16_1_0_0_1_n_n.rhsIdx i q 1).val = (i 1).val := by
  unfold DotDims.rhsIdx
  rw [dif_neg (show ¬(1 : Fin S8x16.rank) ∈ dot_S8192x8_S8x16_S8192x16_1_0_0_1_n_n.rhsBatch by decide), dif_pos (show (1 : Fin S8x16.rank) ∈ dot_S8192x8_S8x16_S8192x16_1_0_0_1_n_n.rhsNonContracting by decide)]
  rfl

/-- Entry (row of i, k) of a block of the node table. -/
abbrev bl16 (i : S8192x16.Idx) (k : Fin 8) : S8192x8.Idx := fun a => match a with
  | ⟨0, _⟩ => ⟨(i 0).val, (i 0).isLt⟩
  | ⟨1, _⟩ => ⟨k.val, k.isLt⟩
/-- Entry (k, column of i) of the weights. -/
abbrev br16 (i : S8192x16.Idx) (k : Fin 8) : S8x16.Idx := fun a => match a with
  | ⟨0, _⟩ => ⟨k.val, k.isLt⟩
  | ⟨1, _⟩ => ⟨(i 1).val, (i 1).isLt⟩

/-- The body's product at an entry: Σ_k x(row, k) · w(k, column); the change of format is the identity on ideal values
    and the accumulator starts at zero. -/
theorem pay16_apply (x0 : Vec Ideal S8192x8 .f32) (x1 : Vec Ideal S8x16 .f32) (i : S8192x16.Idx) :
    k4_pay1 (F := Ideal) x0 x1 i = ∑ k : Fin 8, x0 (bl16 i k) * x1 (br16 i k) := by
  unfold k4_pay1
  simp only [shapeCast_self]
  show FloatOps.matmul (F := Ideal) (φ₁ := .bf16) (φ₂ := .bf16) dot_S8192x8_S8x16_S8192x16_1_0_0_1_n_n none (x0 : FVec Ideal S8192x8 .bf16) (x1 : FVec Ideal S8x16 .bf16) (constant (F := Ideal) S8192x16 .f32 0x00000000#32) i = _
  rw [Ideal.matmul_constant_zero_apply, ← Equiv.sum_comp (ValueIdx.contrEquiv1 dot_S8192x8_S8x16_S8192x16_1_0_0_1_n_n 8 rfl rfl).symm]
  refine Finset.sum_congr rfl fun k _ => ?_
  have hk := ValueIdx.contrEquiv1_symm_val dot_S8192x8_S8x16_S8192x16_1_0_0_1_n_n 8 rfl rfl k
  have el : dot_S8192x8_S8x16_S8192x16_1_0_0_1_n_n.lhsIdx i ((ValueIdx.contrEquiv1 dot_S8192x8_S8x16_S8192x16_1_0_0_1_n_n 8 rfl rfl).symm k) = bl16 i k := funext fun a => Fin.ext (by
    match a with
    | ⟨0, _⟩ => exact blk_lhs16_0 _ _
    | ⟨1, _⟩ => exact (blk_lhs16_1 _ _).trans hk)
  have er : dot_S8192x8_S8x16_S8192x16_1_0_0_1_n_n.rhsIdx i ((ValueIdx.contrEquiv1 dot_S8192x8_S8x16_S8192x16_1_0_0_1_n_n 8 rfl rfl).symm k) = br16 i k := funext fun a => Fin.ext (by
    match a with
    | ⟨0, _⟩ => exact (blk_rhs16_0 _ _).trans hk
    | ⟨1, _⟩ => exact blk_rhs16_1 _ _)
  rw [el, er]

/-- Entry (row of i, k) of the node table with its added rows. -/
abbrev al16 (i : S106496x16.Idx) (k : Fin 8) : S106496x8.Idx := fun a => match a with
  | ⟨0, _⟩ => ⟨(i 0).val, (i 0).isLt⟩
  | ⟨1, _⟩ => ⟨k.val, k.isLt⟩
/-- Entry (k, column of i) of the weights. -/
abbrev ar16 (i : S106496x16.Idx) (k : Fin 8) : S8x16.Idx := fun a => match a with
  | ⟨0, _⟩ => ⟨k.val, k.isLt⟩
  | ⟨1, _⟩ => ⟨(i 1).val, (i 1).isLt⟩

/-- The whole product X W of the [106496, 8] table and the [8, 16] weights, entry by entry. -/
def prod16 (X : FVec Ideal S106496x8 .f32) (W : FVec Ideal S8x16 .f32) : FVec Ideal S106496x16 .f32 :=
  fun i => ∑ k : Fin 8, X (al16 i k) * W (ar16 i k)

/-- The block indices over the 13 points: the table's and the output's row blocks are the point's number, the weights'
    block is the whole array. -/
theorem blocks16 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is rows 8192 t … 8192 t + 8191 of the whole product: the point's table block is those rows of
    the table and the weights' block is all the weights. -/
theorem flushed16 (c : Dev nD) (t : Fin cfg4.N) :
    (dat4 V c).flushed 2 t = ((cfg4.win 2).blk t).view.read (Elt Ideal) (prod16 (V c main_v46) (V c main_arg5)) := by
  show (cfg4.win 2).cut (grid4.coords t) ((dat4 V c).after 2 t) = _
  rw [after4_2]
  unfold out4_2
  rw [View.canon_unit_zero hz]
  simp only [View.ld_unit_zero (S := S8192x8) hz, View.ld_unit_zero (S := S8x16) hz]
  obtain ⟨e0, e1, e2, e3, e4, e5⟩ := blocks16 t
  funext j
  refine (pay16_apply (iblk4 V c 0 t) (iblk4 V c 1 t) j).trans ?_
  rw [View.read_apply]
  unfold prod16
  refine Finset.sum_congr rfl fun k _ => ?_
  have h0 : ((cfg4.win 0).blk t).view.emb (bl16 j k) = al16 (((cfg4.win 2).blk t).view.emb j) k := by
    funext a; apply Fin.ext
    match a with
    | ⟨0, _⟩ => show win4_0.index t (0 : Fin 2) * 8192 + 1 * (j 0).val = win4_2.index t (0 : Fin 2) * 8192 + 1 * (j 0).val; omega
    | ⟨1, _⟩ => show win4_0.index t (1 : Fin 2) * 8 + 1 * k.val = k.val; omega
  have h1 : ((cfg4.win 1).blk t).view.emb (br16 j k) = ar16 (((cfg4.win 2).blk t).view.emb j) k := by
    funext a; apply Fin.ext
    match a with
    | ⟨0, _⟩ => show win4_1.index t (0 : Fin 2) * 8 + 1 * k.val = k.val; omega
    | ⟨1, _⟩ => show win4_1.index t (1 : Fin 2) * 16 + 1 * (j 1).val = win4_2.index t (1 : Fin 2) * 16 + 1 * (j 1).val; omega
  have f0 : (iblk4 V c 0 t : Vec Ideal S8192x8 .f32) (bl16 j k) = (V c main_v46 : Vec Ideal S106496x8 .f32) (al16 (((cfg4.win 2).blk t).view.emb j) k) := by
    show V c main_v46 (((cfg4.win 0).blk t).view.emb (bl16 j k)) = V c main_v46 (al16 (((cfg4.win 2).blk t).view.emb j) k)
    rw [h0]
  have f1 : (iblk4 V c 1 t : Vec Ideal S8x16 .f32) (br16 j k) = (V c main_arg5 : Vec Ideal S8x16 .f32) (ar16 (((cfg4.win 2).blk t).view.emb j) k) := by
    show V c main_arg5 (((cfg4.win 1).blk t).view.emb (br16 j k)) = V c main_arg5 (ar16 (((cfg4.win 2).blk t).view.emb j) k)
    rw [h1]
  rw [f0, f1]

/-- An entry is in point t's output block iff each coordinate is in the block's range on its axis. -/
theorem mem_blk16 (t : Fin cfg4.N) (i : S106496x16.Idx) :
    i ∈ ((cfg4.win 2).blk t).view.set ↔ ∀ a : Fin 2, win4_2.index t a * S8192x16.size a ≤ (i a).val ∧ (i a).val < win4_2.index t a * S8192x16.size a + S8192x16.size a := by
  show i ∈ ((View.whole main_v47).slice (win4_2.rect t)).set ↔ _
  rw [View.set_slice_whole, Rect.mem_set_unit]
  exact Iff.rfl

/-- The 13 row blocks tile the output: row r is in the block of point r / 8192. -/
theorem cover16 (i : S106496x16.Idx) :
    ∃ t : Fin cfg4.N, (cfg4.win 2).flush t = true ∧ i ∈ ((cfg4.win 2).blk t).view.set := by
  have hi0 : (i 0).val < 106496 := (i 0).isLt
  have hi1 : (i 1).val < 16 := (i 1).isLt
  have hN : cfg4.N = 13 := rfl
  obtain ⟨t, ht⟩ : ∃ t : Fin cfg4.N, t.val = (i 0).val / 8192 := ⟨⟨(i 0).val / 8192, by rw [hN]; omega⟩, rfl⟩
  obtain ⟨e0, e1, e2, e3, e4, e5⟩ := blocks16 t
  refine ⟨t, flush4_2 t, ?_⟩
  rw [mem_blk16]
  intro a
  match a with
  | ⟨0, _⟩ => show win4_2.index t (0 : Fin 2) * 8192 ≤ (i 0).val ∧ (i 0).val < win4_2.index t (0 : Fin 2) * 8192 + 8192; omega
  | ⟨1, _⟩ => show win4_2.index t (1 : Fin 2) * 16 ≤ (i 1).val ∧ (i 1).val < win4_2.index t (1 : Fin 2) * 16 + 16; omega

/-- The output array after the region is the whole product. -/
theorem arr16 (c : Dev nD) : (dat4 V c).arrAt 2 cfg4.N = prod16 (V c main_v46) (V c main_arg5) :=
  (dat4 V c).arrAt_eq_of_cover 2 (prod16 (V c main_v46) (V c main_arg5)) (fun t _ => flushed16 V c t) cover16

/-- The reference's linear map of width 16 at an entry: Σ_k x(row, k) · W(k, column). -/
theorem lin16_apply (x : FVec Ideal S100000x8 .f32) (W : FVec Ideal S8x16 .f32) (i : S100000x16.Idx) :
    Cert.Spec.lin16 (F := Ideal) x W i = ∑ k : Fin 8, x (Cert.ReferenceIdeal.Read.lidx_main_v82 i k) * W (Cert.ReferenceIdeal.Read.ridx_main_v82 i k) := by
  unfold Cert.Spec.lin16
  simp only [Host.dotGeneral]
  rw [Ideal.dotGeneral_apply, ← Equiv.sum_comp (ValueIdx.contrEquiv1 Cert.ReferenceIdeal.dot_S100000x8_S8x16_S100000x16_1_0_0_1_n_n 8 rfl rfl).symm]
  refine Finset.sum_congr rfl fun k _ => ?_
  have hk := ValueIdx.contrEquiv1_symm_val Cert.ReferenceIdeal.dot_S100000x8_S8x16_S100000x16_1_0_0_1_n_n 8 rfl rfl k
  have el : Cert.ReferenceIdeal.dot_S100000x8_S8x16_S100000x16_1_0_0_1_n_n.lhsIdx i ((ValueIdx.contrEquiv1 Cert.ReferenceIdeal.dot_S100000x8_S8x16_S100000x16_1_0_0_1_n_n 8 rfl rfl).symm k) = Cert.ReferenceIdeal.Read.lidx_main_v82 i k := funext fun a => Fin.ext (by
    match a with
    | ⟨0, _⟩ => exact Cert.ReferenceIdeal.Read.lhs_main_v82_0 _ _
    | ⟨1, _⟩ => exact (Cert.ReferenceIdeal.Read.lhs_main_v82_1 _ _).trans hk)
  have er : Cert.ReferenceIdeal.dot_S100000x8_S8x16_S100000x16_1_0_0_1_n_n.rhsIdx i ((ValueIdx.contrEquiv1 Cert.ReferenceIdeal.dot_S100000x8_S8x16_S100000x16_1_0_0_1_n_n 8 rfl rfl).symm k) = Cert.ReferenceIdeal.Read.ridx_main_v82 i k := funext fun a => Fin.ext (by
    match a with
    | ⟨0, _⟩ => exact (Cert.ReferenceIdeal.Read.rhs_main_v82_0 _ _).trans hk
    | ⟨1, _⟩ => exact Cert.ReferenceIdeal.Read.rhs_main_v82_1 _ _)
  rw [el, er]

/-- On a node's row the product over the table with its added rows is the reference's linear map: the row lies inside
    the table, so the added rows' value is never read. -/
theorem prod16_pad (x : FVec Ideal S100000x8 .f32) (z : FVec Ideal S_ .f32) (W : FVec Ideal S8x16 .f32)
    (i : S100000x16.Idx) (i' : S106496x16.Idx) (h0 : (i' 0).val = (i 0).val) (h1 : (i' 1).val = (i 1).val) :
    prod16 (pad S106496x8 ![0, 0] ![6496, 0] ![0, 0] x z pads_S100000x8_S106496x8_064960_000 h_S_) W i'
      = Cert.Spec.lin16 (F := Ideal) x W i := by
  rw [lin16_apply]
  unfold prod16
  refine Finset.sum_congr rfl fun k _ => ?_
  have hl : pad S106496x8 ![0, 0] ![6496, 0] ![0, 0] x z pads_S100000x8_S106496x8_064960_000 h_S_ (al16 i' k)
      = x (Cert.ReferenceIdeal.Read.lidx_main_v82 i k) :=
    pad_apply_of_inside ![0, 0] ![6496, 0] ![0, 0] x z pads_S100000x8_S106496x8_064960_000 h_S_ (al16 i' k) (Cert.ReferenceIdeal.Read.lidx_main_v82 i k) (fun a => by
      match a with
      | ⟨0, _⟩ => show (i' 0).val = 0 + (i 0).val * (0 + 1); omega
      | ⟨1, _⟩ => show k.val = 0 + k.val * (0 + 1); omega)
  have hr : ar16 i' k = Cert.ReferenceIdeal.Read.ridx_main_v82 i k := funext fun a => Fin.ext (by
    match a with
    | ⟨0, _⟩ => rfl
    | ⟨1, _⟩ => exact h1)
  rw [hl, hr]

/-- REGION 4 (the linear map of width 16), read back on the 100000 nodes: if its first input array is a node table
    with zero rows added up to 106496, the first 100000 rows of its output array are the table times the weights. -/
theorem val16 (c : Dev nD) (x : FVec Ideal S100000x8 .f32) (z : FVec Ideal S_ .f32)
    (hX : V c main_v46 = pad S106496x8 ![0, 0] ![6496, 0] ![0, 0] x z pads_S100000x8_S106496x8_064960_000 h_S_) :
    extractStridedSlice S100000x16 ![0, 0] ((dat4 V c).arrAt 2 cfg4.N) slices_S106496x16_S100000x16_0_0
      = Cert.Spec.lin16 (F := Ideal) x (V c main_arg5) := by
  rw [arr16, hX]
  funext i
  have hi0 : (i 0).val < 100000 := (i 0).isLt
  have hi1 : (i 1).val < 16 := (i 1).isLt
  obtain ⟨i', h0, h1⟩ : ∃ i' : S106496x16.Idx, (i' 0).val = (i 0).val ∧ (i' 1).val = (i 1).val :=
    ⟨fun a => match a with
      | ⟨0, _⟩ => ⟨(i 0).val, by show (i 0).val < 106496; omega⟩
      | ⟨1, _⟩ => ⟨(i 1).val, hi1⟩, rfl, rfl⟩
  have e1 : extractStridedSlice S100000x16 ![0, 0] (prod16 (pad S106496x8 ![0, 0] ![6496, 0] ![0, 0] x z pads_S100000x8_S106496x8_064960_000 h_S_) (V c main_arg5)) slices_S106496x16_S100000x16_0_0 i
      = prod16 (pad S106496x8 ![0, 0] ![6496, 0] ![0, 0] x z pads_S100000x8_S106496x8_064960_000 h_S_) (V c main_arg5) i' :=
    extractStridedSlice_apply ![0, 0] (prod16 (pad S106496x8 ![0, 0] ![6496, 0] ![0, 0] x z pads_S100000x8_S106496x8_064960_000 h_S_) (V c main_arg5)) slices_S106496x16_S100000x16_0_0 i i' (fun a => by
      match a with
      | ⟨0, _⟩ => show (i' 0).val = 0 + (i 0).val; omega
      | ⟨1, _⟩ => show (i' 1).val = 0 + (i 1).val; omega)
  exact e1.trans (prod16_pad x z (V c main_arg5) i i' h0 h1)

/-! ## The linear map of width 3: region 7 -/

/-- In the block product, the left factor's row is the output's row, -/
theorem blk_lhs3_0 (i : S8192x3.Idx) (q : dot_S8192x16_S16x3_S8192x3_1_0_0_1_n_n.contr.Idx) :
    (dot_S8192x16_S16x3_S8192x3_1_0_0_1_n_n.lhsIdx i q 0).val = (i 0).val := by
  unfold DotDims.lhsIdx
  rw [dif_neg (show ¬(0 : Fin S8192x16.rank) ∈ dot_S8192x16_S16x3_S8192x3_1_0_0_1_n_n.lhsBatch by decide), dif_pos (show (0 : Fin S8192x16.rank) ∈ dot_S8192x16_S16x3_S8192x3_1_0_0_1_n_n.lhsNonContracting by decide)]
  rfl
/-- its column the summation index; -/
theorem blk_lhs3_1 (i : S8192x3.Idx) (q : dot_S8192x16_S16x3_S8192x3_1_0_0_1_n_n.contr.Idx) :
    (dot_S8192x16_S16x3_S8192x3_1_0_0_1_n_n.lhsIdx i q 1).val = (q ⟨0, by decide⟩).val :=
  dot_S8192x16_S16x3_S8192x3_1_0_0_1_n_n.lhsIdx_val_of_single rfl i q
/-- the right factor's row is the summation index, -/
theorem blk_rhs3_0 (i : S8192x3.Idx) (q : dot_S8192x16_S16x3_S8192x3_1_0_0_1_n_n.contr.Idx) :
    (dot_S8192x16_S16x3_S8192x3_1_0_0_1_n_n.rhsIdx i q 0).val = (q ⟨0, by decide⟩).val :=
  dot_S8192x16_S16x3_S8192x3_1_0_0_1_n_n.rhsIdx_val_of_single rfl i q
/-- its column the output's column. -/
theorem blk_rhs3_1 (i : S8192x3.Idx) (q : dot_S8192x16_S16x3_S8192x3_1_0_0_1_n_n.contr.Idx) :
    (dot_S8192x16_S16x3_S8192x3_1_0_0_1_n_n.rhsIdx i q 1).val = (i 1).val := by
  unfold DotDims.rhsIdx
  rw [dif_neg (show ¬(1 : Fin S16x3.rank) ∈ dot_S8192x16_S16x3_S8192x3_1_0_0_1_n_n.rhsBatch by decide), dif_pos (show (1 : Fin S16x3.rank) ∈ dot_S8192x16_S16x3_S8192x3_1_0_0_1_n_n.rhsNonContracting by decide)]
  rfl

/-- Entry (row of i, k) of a block of the node table. -/
abbrev bl3 (i : S8192x3.Idx) (k : Fin 16) : S8192x16.Idx := fun a => match a with
  | ⟨0, _⟩ => ⟨(i 0).val, (i 0).isLt⟩
  | ⟨1, _⟩ => ⟨k.val, k.isLt⟩
/-- Entry (k, column of i) of the weights. -/
abbrev br3 (i : S8192x3.Idx) (k : Fin 16) : S16x3.Idx := fun a => match a with
  | ⟨0, _⟩ => ⟨k.val, k.isLt⟩
  | ⟨1, _⟩ => ⟨(i 1).val, (i 1).isLt⟩

/-- The body's product at an entry: Σ_k x(row, k) · w(k, column); the change of format is the identity on ideal values
    and the accumulator starts at zero. -/
theorem pay3_apply (x0 : Vec Ideal S8192x16 .f32) (x1 : Vec Ideal S16x3 .f32) (i : S8192x3.Idx) :
    k7_pay1 (F := Ideal) x0 x1 i = ∑ k : Fin 16, x0 (bl3 i k) * x1 (br3 i k) := by
  unfold k7_pay1
  simp only [shapeCast_self]
  show FloatOps.matmul (F := Ideal) (φ₁ := .bf16) (φ₂ := .bf16) dot_S8192x16_S16x3_S8192x3_1_0_0_1_n_n none (x0 : FVec Ideal S8192x16 .bf16) (x1 : FVec Ideal S16x3 .bf16) (constant (F := Ideal) S8192x3 .f32 0x00000000#32) i = _
  rw [Ideal.matmul_constant_zero_apply, ← Equiv.sum_comp (ValueIdx.contrEquiv1 dot_S8192x16_S16x3_S8192x3_1_0_0_1_n_n 16 rfl rfl).symm]
  refine Finset.sum_congr rfl fun k _ => ?_
  have hk := ValueIdx.contrEquiv1_symm_val dot_S8192x16_S16x3_S8192x3_1_0_0_1_n_n 16 rfl rfl k
  have el : dot_S8192x16_S16x3_S8192x3_1_0_0_1_n_n.lhsIdx i ((ValueIdx.contrEquiv1 dot_S8192x16_S16x3_S8192x3_1_0_0_1_n_n 16 rfl rfl).symm k) = bl3 i k := funext fun a => Fin.ext (by
    match a with
    | ⟨0, _⟩ => exact blk_lhs3_0 _ _
    | ⟨1, _⟩ => exact (blk_lhs3_1 _ _).trans hk)
  have er : dot_S8192x16_S16x3_S8192x3_1_0_0_1_n_n.rhsIdx i ((ValueIdx.contrEquiv1 dot_S8192x16_S16x3_S8192x3_1_0_0_1_n_n 16 rfl rfl).symm k) = br3 i k := funext fun a => Fin.ext (by
    match a with
    | ⟨0, _⟩ => exact (blk_rhs3_0 _ _).trans hk
    | ⟨1, _⟩ => exact blk_rhs3_1 _ _)
  rw [el, er]

/-- Entry (row of i, k) of the node table with its added rows. -/
abbrev al3 (i : S106496x3.Idx) (k : Fin 16) : S106496x16.Idx := fun a => match a with
  | ⟨0, _⟩ => ⟨(i 0).val, (i 0).isLt⟩
  | ⟨1, _⟩ => ⟨k.val, k.isLt⟩
/-- Entry (k, column of i) of the weights. -/
abbrev ar3 (i : S106496x3.Idx) (k : Fin 16) : S16x3.Idx := fun a => match a with
  | ⟨0, _⟩ => ⟨k.val, k.isLt⟩
  | ⟨1, _⟩ => ⟨(i 1).val, (i 1).isLt⟩

/-- The whole product X W of the [106496, 16] table and the [16, 3] weights, entry by entry. -/
def prod3 (X : FVec Ideal S106496x16 .f32) (W : FVec Ideal S16x3 .f32) : FVec Ideal S106496x3 .f32 :=
  fun i => ∑ k : Fin 16, X (al3 i k) * W (ar3 i k)

/-- The block indices over the 13 points: the table's and the output's row blocks are the point's number, the weights'
    block is the whole array. -/
theorem blocks3 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is rows 8192 t … 8192 t + 8191 of the whole product: the point's table block is those rows of
    the table and the weights' block is all the weights. -/
theorem flushed3 (c : Dev nD) (t : Fin cfg7.N) :
    (dat7 V c).flushed 2 t = ((cfg7.win 2).blk t).view.read (Elt Ideal) (prod3 (V c main_v62) (V c main_arg7)) := by
  show (cfg7.win 2).cut (grid7.coords t) ((dat7 V c).after 2 t) = _
  rw [after7_2]
  unfold out7_2
  rw [View.canon_unit_zero hz]
  simp only [View.ld_unit_zero (S := S8192x16) hz, View.ld_unit_zero (S := S16x3) hz]
  obtain ⟨e0, e1, e2, e3, e4, e5⟩ := blocks3 t
  funext j
  refine (pay3_apply (iblk7 V c 0 t) (iblk7 V c 1 t) j).trans ?_
  rw [View.read_apply]
  unfold prod3
  refine Finset.sum_congr rfl fun k _ => ?_
  have h0 : ((cfg7.win 0).blk t).view.emb (bl3 j k) = al3 (((cfg7.win 2).blk t).view.emb j) k := by
    funext a; apply Fin.ext
    match a with
    | ⟨0, _⟩ => show win7_0.index t (0 : Fin 2) * 8192 + 1 * (j 0).val = win7_2.index t (0 : Fin 2) * 8192 + 1 * (j 0).val; omega
    | ⟨1, _⟩ => show win7_0.index t (1 : Fin 2) * 16 + 1 * k.val = k.val; omega
  have h1 : ((cfg7.win 1).blk t).view.emb (br3 j k) = ar3 (((cfg7.win 2).blk t).view.emb j) k := by
    funext a; apply Fin.ext
    match a with
    | ⟨0, _⟩ => show win7_1.index t (0 : Fin 2) * 16 + 1 * k.val = k.val; omega
    | ⟨1, _⟩ => show win7_1.index t (1 : Fin 2) * 3 + 1 * (j 1).val = win7_2.index t (1 : Fin 2) * 3 + 1 * (j 1).val; omega
  have f0 : (iblk7 V c 0 t : Vec Ideal S8192x16 .f32) (bl3 j k) = (V c main_v62 : Vec Ideal S106496x16 .f32) (al3 (((cfg7.win 2).blk t).view.emb j) k) := by
    show V c main_v62 (((cfg7.win 0).blk t).view.emb (bl3 j k)) = V c main_v62 (al3 (((cfg7.win 2).blk t).view.emb j) k)
    rw [h0]
  have f1 : (iblk7 V c 1 t : Vec Ideal S16x3 .f32) (br3 j k) = (V c main_arg7 : Vec Ideal S16x3 .f32) (ar3 (((cfg7.win 2).blk t).view.emb j) k) := by
    show V c main_arg7 (((cfg7.win 1).blk t).view.emb (br3 j k)) = V c main_arg7 (ar3 (((cfg7.win 2).blk t).view.emb j) k)
    rw [h1]
  rw [f0, f1]

/-- An entry is in point t's output block iff each coordinate is in the block's range on its axis. -/
theorem mem_blk3 (t : Fin cfg7.N) (i : S106496x3.Idx) :
    i ∈ ((cfg7.win 2).blk t).view.set ↔ ∀ a : Fin 2, win7_2.index t a * S8192x3.size a ≤ (i a).val ∧ (i a).val < win7_2.index t a * S8192x3.size a + S8192x3.size a := by
  show i ∈ ((View.whole main_v63).slice (win7_2.rect t)).set ↔ _
  rw [View.set_slice_whole, Rect.mem_set_unit]
  exact Iff.rfl

/-- The 13 row blocks tile the output: row r is in the block of point r / 8192. -/
theorem cover3 (i : S106496x3.Idx) :
    ∃ t : Fin cfg7.N, (cfg7.win 2).flush t = true ∧ i ∈ ((cfg7.win 2).blk t).view.set := by
  have hi0 : (i 0).val < 106496 := (i 0).isLt
  have hi1 : (i 1).val < 3 := (i 1).isLt
  have hN : cfg7.N = 13 := rfl
  obtain ⟨t, ht⟩ : ∃ t : Fin cfg7.N, t.val = (i 0).val / 8192 := ⟨⟨(i 0).val / 8192, by rw [hN]; omega⟩, rfl⟩
  obtain ⟨e0, e1, e2, e3, e4, e5⟩ := blocks3 t
  refine ⟨t, flush7_2 t, ?_⟩
  rw [mem_blk3]
  intro a
  match a with
  | ⟨0, _⟩ => show win7_2.index t (0 : Fin 2) * 8192 ≤ (i 0).val ∧ (i 0).val < win7_2.index t (0 : Fin 2) * 8192 + 8192; omega
  | ⟨1, _⟩ => show win7_2.index t (1 : Fin 2) * 3 ≤ (i 1).val ∧ (i 1).val < win7_2.index t (1 : Fin 2) * 3 + 3; omega

/-- The output array after the region is the whole product. -/
theorem arr3 (c : Dev nD) : (dat7 V c).arrAt 2 cfg7.N = prod3 (V c main_v62) (V c main_arg7) :=
  (dat7 V c).arrAt_eq_of_cover 2 (prod3 (V c main_v62) (V c main_arg7)) (fun t _ => flushed3 V c t) cover3

/-- The reference's linear map of width 3 at an entry: Σ_k x(row, k) · W(k, column). -/
theorem lin3_apply (x : FVec Ideal S100000x16 .f32) (W : FVec Ideal S16x3 .f32) (i : S100000x3.Idx) :
    Cert.Spec.lin3 (F := Ideal) x W i = ∑ k : Fin 16, x (Cert.ReferenceIdeal.Read.lidx_main_v132 i k) * W (Cert.ReferenceIdeal.Read.ridx_main_v132 i k) := by
  unfold Cert.Spec.lin3
  simp only [Host.dotGeneral]
  rw [Ideal.dotGeneral_apply, ← Equiv.sum_comp (ValueIdx.contrEquiv1 Cert.ReferenceIdeal.dot_S100000x16_S16x3_S100000x3_1_0_0_1_n_n 16 rfl rfl).symm]
  refine Finset.sum_congr rfl fun k _ => ?_
  have hk := ValueIdx.contrEquiv1_symm_val Cert.ReferenceIdeal.dot_S100000x16_S16x3_S100000x3_1_0_0_1_n_n 16 rfl rfl k
  have el : Cert.ReferenceIdeal.dot_S100000x16_S16x3_S100000x3_1_0_0_1_n_n.lhsIdx i ((ValueIdx.contrEquiv1 Cert.ReferenceIdeal.dot_S100000x16_S16x3_S100000x3_1_0_0_1_n_n 16 rfl rfl).symm k) = Cert.ReferenceIdeal.Read.lidx_main_v132 i k := funext fun a => Fin.ext (by
    match a with
    | ⟨0, _⟩ => exact Cert.ReferenceIdeal.Read.lhs_main_v132_0 _ _
    | ⟨1, _⟩ => exact (Cert.ReferenceIdeal.Read.lhs_main_v132_1 _ _).trans hk)
  have er : Cert.ReferenceIdeal.dot_S100000x16_S16x3_S100000x3_1_0_0_1_n_n.rhsIdx i ((ValueIdx.contrEquiv1 Cert.ReferenceIdeal.dot_S100000x16_S16x3_S100000x3_1_0_0_1_n_n 16 rfl rfl).symm k) = Cert.ReferenceIdeal.Read.ridx_main_v132 i k := funext fun a => Fin.ext (by
    match a with
    | ⟨0, _⟩ => exact (Cert.ReferenceIdeal.Read.rhs_main_v132_0 _ _).trans hk
    | ⟨1, _⟩ => exact Cert.ReferenceIdeal.Read.rhs_main_v132_1 _ _)
  rw [el, er]

/-- On a node's row the product over the table with its added rows is the reference's linear map: the row lies inside
    the table, so the added rows' value is never read. -/
theorem prod3_pad (x : FVec Ideal S100000x16 .f32) (z : FVec Ideal S_ .f32) (W : FVec Ideal S16x3 .f32)
    (i : S100000x3.Idx) (i' : S106496x3.Idx) (h0 : (i' 0).val = (i 0).val) (h1 : (i' 1).val = (i 1).val) :
    prod3 (pad S106496x16 ![0, 0] ![6496, 0] ![0, 0] x z pads_S100000x16_S106496x16_064960_000 h_S_) W i'
      = Cert.Spec.lin3 (F := Ideal) x W i := by
  rw [lin3_apply]
  unfold prod3
  refine Finset.sum_congr rfl fun k _ => ?_
  have hl : pad S106496x16 ![0, 0] ![6496, 0] ![0, 0] x z pads_S100000x16_S106496x16_064960_000 h_S_ (al3 i' k)
      = x (Cert.ReferenceIdeal.Read.lidx_main_v132 i k) :=
    pad_apply_of_inside ![0, 0] ![6496, 0] ![0, 0] x z pads_S100000x16_S106496x16_064960_000 h_S_ (al3 i' k) (Cert.ReferenceIdeal.Read.lidx_main_v132 i k) (fun a => by
      match a with
      | ⟨0, _⟩ => show (i' 0).val = 0 + (i 0).val * (0 + 1); omega
      | ⟨1, _⟩ => show k.val = 0 + k.val * (0 + 1); omega)
  have hr : ar3 i' k = Cert.ReferenceIdeal.Read.ridx_main_v132 i k := funext fun a => Fin.ext (by
    match a with
    | ⟨0, _⟩ => rfl
    | ⟨1, _⟩ => exact h1)
  rw [hl, hr]

/-- REGION 7 (the linear map of width 3), read back on the 100000 nodes: if its first input array is a node table
    with zero rows added up to 106496, the first 100000 rows of its output array are the table times the weights. -/
theorem val3 (c : Dev nD) (x : FVec Ideal S100000x16 .f32) (z : FVec Ideal S_ .f32)
    (hX : V c main_v62 = pad S106496x16 ![0, 0] ![6496, 0] ![0, 0] x z pads_S100000x16_S106496x16_064960_000 h_S_) :
    extractStridedSlice S100000x3 ![0, 0] ((dat7 V c).arrAt 2 cfg7.N) slices_S106496x3_S100000x3_0_0
      = Cert.Spec.lin3 (F := Ideal) x (V c main_arg7) := by
  rw [arr3, hX]
  funext i
  have hi0 : (i 0).val < 100000 := (i 0).isLt
  have hi1 : (i 1).val < 3 := (i 1).isLt
  obtain ⟨i', h0, h1⟩ : ∃ i' : S106496x3.Idx, (i' 0).val = (i 0).val ∧ (i' 1).val = (i 1).val :=
    ⟨fun a => match a with
      | ⟨0, _⟩ => ⟨(i 0).val, by show (i 0).val < 106496; omega⟩
      | ⟨1, _⟩ => ⟨(i 1).val, hi1⟩, rfl, rfl⟩
  have e1 : extractStridedSlice S100000x3 ![0, 0] (prod3 (pad S106496x16 ![0, 0] ![6496, 0] ![0, 0] x z pads_S100000x16_S106496x16_064960_000 h_S_) (V c main_arg7)) slices_S106496x3_S100000x3_0_0 i
      = prod3 (pad S106496x16 ![0, 0] ![6496, 0] ![0, 0] x z pads_S100000x16_S106496x16_064960_000 h_S_) (V c main_arg7) i' :=
    extractStridedSlice_apply ![0, 0] (prod3 (pad S106496x16 ![0, 0] ![6496, 0] ![0, 0] x z pads_S100000x16_S106496x16_064960_000 h_S_) (V c main_arg7)) slices_S106496x3_S100000x3_0_0 i i' (fun a => by
      match a with
      | ⟨0, _⟩ => show (i' 0).val = 0 + (i 0).val; omega
      | ⟨1, _⟩ => show (i' 1).val = 0 + (i 1).val; omega)
  exact e1.trans (prod3_pad x z (V c main_arg7) i i' h0 h1)

end Cert.KernelIdeal.RegMm
end
-- ==== Proof.RegSc.lean ====
import proofs.«408855_j18219251269922_2_alg».proof.Proof.Gen.KernelIdeal.Frame
import proofs.«408855_j18219251269922_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.RegSc

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- A 32-bit word made from a number below 806 reads back as that number. -/
theorem word_toNat (n : Nat) (h : n < 806) : (BitVec.ofNat 32 n).toNat = n := by
  rw [BitVec.toNat_ofNat]; omega

/-! ## Region 2: rows of width 8 -/

/-- The one grid coordinate of point t is t. -/
theorem coord2 (t : Fin cfg2.N) : ((grid2.coords t) 0).val = t.val := by
  have hN : t.val < 806 := t.isLt
  show t.val / grid2.stride 0 % 806 = t.val
  rw [show grid2.stride 0 = 1 from by decide]
  omega

/-- All three windows are at block (t, 0) at point t. -/
theorem idx2 (t : Fin cfg2.N) : win2_0.index t = ![t.val, 0] ∧ win2_1.index t = ![t.val, 0] ∧ win2_2.index t = ![t.val, 0] := by
  have hN : t.val < 806 := t.isLt
  refine ⟨?_, ?_, ?_⟩
  · show cc2_transform_0 (grid2.coords t) = _
    unfold cc2_transform_0
    simp only [coord2, word_toNat _ hN]
    rfl
  · show cc2_transform_1 (grid2.coords t) = _
    unfold cc2_transform_1
    simp only [coord2, word_toNat _ hN]
    rfl
  · show cc2_transform_2 (grid2.coords t) = _
    unfold cc2_transform_2
    simp only [coord2, word_toNat _ hN]
    rfl

/-- The whole output array as a function of the two input arrays: entry (r, j) is h(r, j) · n(r, 0). -/
abbrev G8 (h : S3301376x8.Idx → Elt F .f32) (n : S3301376x1.Idx → Elt F .f32) : S3301376x8.Idx → Elt F .f32 :=
  fun i => FloatOps.mulf (h i) (n (ix2 (i 0) 0))

/-- The body's payload at (p, q): the row block's entry at (p, q) times the column block's entry of row p. -/
theorem pay8_apply (x0 : Vec F S4096x8 .f32) (x1 : Vec F S4096x1 .f32) (j : S4096x8.Idx) :
    k2_pay1 x0 x1 j = FloatOps.mulf (x0 j) (x1 (ix2 (j 0) 0)) := by
  unfold k2_pay1
  simp only [shapeCast_self]
  show FloatOps.mulf (x0 j) (broadcastTo S4096x8 x1 broadcasts_S4096x1_S4096x8 j) = _
  congr 1
  refine broadcastTo_apply _ _ _ _ fun a => ?_
  match a with
  | ⟨0, _⟩ => rfl
  | ⟨1, _⟩ => rfl

/-- WHAT POINT t WRITES BACK is block t of G8 of the two input arrays: at (p, q) of the block all three windows are
    at row 4096 t + p, the h and output windows at column q and the n window at column 0. -/
theorem flushed2_eq (c : Dev nD) (t : Fin cfg2.N) :
    (dat2 V c).flushed 2 t = ((cfg2.win 2).blk t).view.read (Elt F) (G8 (V c main_v34) (V c main_v36)) := by
  show (cfg2.win 2).cut (grid2.coords t) ((dat2 V c).after 2 t) = _
  rw [after2_2]
  unfold out2_2
  rw [View.canon_unit_zero hz]
  simp only [View.ld_unit_zero (S := S4096x8) hz, View.ld_unit_zero (S := S4096x1) hz]
  obtain ⟨e0, e1, e2⟩ := idx2 t
  funext j
  obtain ⟨p, q, rfl⟩ : ∃ (p : Fin 4096) (q : Fin 8), j = ix2 p q := ⟨j 0, j 1, eq_ix2 j⟩
  refine (pay8_apply (iblk2 V c 0 t) (iblk2 V c 1 t) (ix2 p q)).trans ?_
  have h0 : ((cfg2.win 0).blk t).view.emb (ix2 p q) = ((cfg2.win 2).blk t).view.emb (ix2 p q) := by
    funext a; apply Fin.ext
    match a with
    | ⟨0, _⟩ => show win2_0.index t (0 : Fin 2) * 4096 + 1 * p.val = win2_2.index t (0 : Fin 2) * 4096 + 1 * p.val; rw [e0, e2]
    | ⟨1, _⟩ => show win2_0.index t (1 : Fin 2) * 8 + 1 * q.val = win2_2.index t (1 : Fin 2) * 8 + 1 * q.val; rw [e0, e2]
  have h1 : ((cfg2.win 1).blk t).view.emb (ix2 p (0 : Fin 1)) = (ix2 ((((cfg2.win 2).blk t).view.emb (ix2 p q)) 0) (0 : Fin 1) : S3301376x1.Idx) := by
    funext a; apply Fin.ext
    match a with
    | ⟨0, _⟩ => show win2_1.index t (0 : Fin 2) * 4096 + 1 * p.val = win2_2.index t (0 : Fin 2) * 4096 + 1 * p.val; rw [e1, e2]
    | ⟨1, _⟩ => show win2_1.index t (1 : Fin 2) * 1 + 1 * 0 = 0; rw [e1]; rfl
  show FloatOps.mulf (V c main_v34 (((cfg2.win 0).blk t).view.emb (ix2 p q))) (V c main_v36 (((cfg2.win 1).blk t).view.emb (ix2 p (0 : Fin 1))))
    = FloatOps.mulf (V c main_v34 (((cfg2.win 2).blk t).view.emb (ix2 p q))) (V c main_v36 (ix2 ((((cfg2.win 2).blk t).view.emb (ix2 p q)) 0) (0 : Fin 1)))
  rw [h0, h1]

/-- An index of the array is in point t's block iff each coordinate is in the block's range on its axis. -/
theorem mem_blk2 (t : Fin cfg2.N) (i : S3301376x8.Idx) :
    i ∈ ((cfg2.win 2).blk t).view.set ↔ ∀ a : Fin 2, win2_2.index t a * S4096x8.size a ≤ (i a).val ∧ (i a).val < win2_2.index t a * S4096x8.size a + S4096x8.size a := by
  show i ∈ ((View.whole main_v37).slice (win2_2.rect t)).set ↔ _
  rw [View.set_slice_whole, Rect.mem_set_unit]
  exact Iff.rfl

/-- The 806 row blocks of 4096 rows tile the 3301376 = 806 · 4096 rows (row r is in block r / 4096), so the output
    array ends holding G8 of the input arrays. -/
theorem final8 (c : Dev nD) : (dat2 V c).arrAt 2 cfg2.N = G8 (V c main_v34) (V c main_v36) :=
  (dat2 V c).arrAt_eq_of_cover 2 (G8 (V c main_v34) (V c main_v36)) (fun t _ => flushed2_eq V c t) fun i => by
    have hi0 : (i 0).val < 3301376 := (i 0).isLt
    have hi1 : (i 1).val < 8 := (i 1).isLt
    have ht : (i 0).val / 4096 < 806 := by omega
    refine ⟨⟨(i 0).val / 4096, ht⟩, flush2_2 _, ?_⟩
    rw [mem_blk2]
    obtain ⟨-, -, e2⟩ := idx2 ⟨(i 0).val / 4096, ht⟩
    intro a
    match a with
    | ⟨0, _⟩ =>
      show win2_2.index ⟨(i 0).val / 4096, ht⟩ (0 : Fin 2) * 4096 ≤ (i 0).val ∧ (i 0).val < win2_2.index ⟨(i 0).val / 4096, ht⟩ (0 : Fin 2) * 4096 + 4096
      rw [e2]
      show (i 0).val / 4096 * 4096 ≤ (i 0).val ∧ (i 0).val < (i 0).val / 4096 * 4096 + 4096
      omega
    | ⟨1, _⟩ =>
      show win2_2.index ⟨(i 0).val / 4096, ht⟩ (1 : Fin 2) * 8 ≤ (i 1).val ∧ (i 1).val < win2_2.index ⟨(i 0).val / 4096, ht⟩ (1 : Fin 2) * 8 + 8
      rw [e2]
      show 0 * 8 ≤ (i 1).val ∧ (i 1).val < 0 * 8 + 8
      omega

/-- REGION 2 (each edge's row of width 8 scaled by the edge's coefficient), read back on the 3300000 edges: if its
    first input array is the rows with zero rows added up to 3301376 and its second the coefficients, zero-extended
    likewise, as one column, the first 3300000 rows of its output array are the scaled rows. -/
theorem val8 (c : Dev nD) (hs : FVec F S3300000x8 .f32) (nrm : FVec F S3300000 .f32) (z z' : FVec F S_ .f32)
    (hH : V c main_v34 = pad S3301376x8 ![0, 0] ![1376, 0] ![0, 0] hs z pads_S3300000x8_S3301376x8_013760_000 h_S_)
    (hN : V c main_v36 = shapeCast S3301376x1 (pad S3301376 ![0] ![1376] ![0] nrm z' pads_S3300000_S3301376_013760 h_S_) shapeCasts_S3301376_S3301376x1) :
    extractStridedSlice S3300000x8 ![0, 0] ((dat2 V c).arrAt 2 cfg2.N) slices_S3301376x8_S3300000x8_0_0
      = Cert.Spec.msg8 hs nrm := by
  rw [final8]
  funext j
  obtain ⟨p, q, rfl⟩ : ∃ (p : Fin 3300000) (q : Fin 8), j = ix2 p q := ⟨j 0, j 1, eq_ix2 j⟩
  have hp : p.val < 3301376 := by have := p.isLt; omega
  -- row p of the sliced array is row p of the whole array
  rw [extractStridedSlice_apply _ _ _ _ (ix2 ⟨p.val, hp⟩ q) (fun a => by
    match a with
    | ⟨0, _⟩ => exact (Nat.zero_add _).symm
    | ⟨1, _⟩ => exact (Nat.zero_add _).symm)]
  -- inside the first 3300000 rows the extended arrays are the arrays themselves
  have eH : pad S3301376x8 ![0, 0] ![1376, 0] ![0, 0] hs z pads_S3300000x8_S3301376x8_013760_000 h_S_ (ix2 ⟨p.val, hp⟩ q) = hs (ix2 p q) :=
    pad_apply_of_inside _ _ _ _ _ _ _ _ (ix2 p q) fun a => by
      match a with
      | ⟨0, _⟩ => show p.val = 0 + p.val * (0 + 1); omega
      | ⟨1, _⟩ => show q.val = 0 + q.val * (0 + 1); omega
  have eP : pad S3301376 ![0] ![1376] ![0] nrm z' pads_S3300000_S3301376_013760 h_S_ (ix1 ⟨p.val, hp⟩) = nrm (ix1 p) :=
    pad_apply_of_inside _ _ _ _ _ _ _ _ (ix1 p) fun a => by
      match a with
      | ⟨0, _⟩ => show p.val = 0 + p.val * (0 + 1); omega
  -- entry (p, 0) of the one-column array is entry p of the extended coefficients: both are at row-major position p
  have eN : shapeCast S3301376x1 (pad S3301376 ![0] ![1376] ![0] nrm z' pads_S3300000_S3301376_013760 h_S_) shapeCasts_S3301376_S3301376x1 (ix2 ⟨p.val, hp⟩ 0) = nrm (ix1 p) := by
    rw [shapeCast_apply _ _ _ (ix1 ⟨p.val, hp⟩) (by rw [Shape.rowMajor_val_one, Shape.rowMajor_val_two]; show p.val = p.val * 1 + 0; omega)]
    exact eP
  -- the specification's coefficient at (p, q) is the coefficient of edge p
  have eC : Cert.Spec.col nrm (ix2 p 0) = nrm (ix1 p) := by
    unfold Cert.Spec.col
    refine broadcastInDim_apply _ _ _ _ (ix1 p) fun a => ?_
    match a with
    | ⟨0, _⟩ => rfl
  have eB : ∀ hb, broadcastInDim S3300000x8 ![0, 1] hb (Cert.Spec.col nrm) (ix2 p q) = nrm (ix1 p) := fun hb => by
    rw [broadcastInDim_apply _ _ _ _ (ix2 p 0) (fun a => by
      match a with
      | ⟨0, _⟩ => rfl
      | ⟨1, _⟩ => rfl)]
    exact eC
  show FloatOps.mulf (V c main_v34 (ix2 ⟨p.val, hp⟩ q)) (V c main_v36 (ix2 ⟨p.val, hp⟩ 0))
    = FloatOps.mulf (hs (ix2 p q)) (broadcastInDim S3300000x8 ![0, 1] _ (Cert.Spec.col nrm) (ix2 p q))
  rw [hH, hN, eH, eN, eB]

/-! ## Region 5: rows of width 16 -/

/-- The one grid coordinate of point t is t. -/
theorem coord5 (t : Fin cfg5.N) : ((grid5.coords t) 0).val = t.val := by
  have hN : t.val < 806 := t.isLt
  show t.val / grid5.stride 0 % 806 = t.val
  rw [show grid5.stride 0 = 1 from by decide]
  omega

/-- All three windows are at block (t, 0) at point t. -/
theorem idx5 (t : Fin cfg5.N) : win5_0.index t = ![t.val, 0] ∧ win5_1.index t = ![t.val, 0] ∧ win5_2.index t = ![t.val, 0] := by
  have hN : t.val < 806 := t.isLt
  refine ⟨?_, ?_, ?_⟩
  · show cc5_transform_0 (grid5.coords t) = _
    unfold cc5_transform_0
    simp only [coord5, word_toNat _ hN]
    rfl
  · show cc5_transform_1 (grid5.coords t) = _
    unfold cc5_transform_1
    simp only [coord5, word_toNat _ hN]
    rfl
  · show cc5_transform_2 (grid5.coords t) = _
    unfold cc5_transform_2
    simp only [coord5, word_toNat _ hN]
    rfl

/-- The whole output array as a function of the two input arrays: entry (r, j) is h(r, j) · n(r, 0). -/
abbrev G16 (h : S3301376x16.Idx → Elt F .f32) (n : S3301376x1.Idx → Elt F .f32) : S3301376x16.Idx → Elt F .f32 :=
  fun i => FloatOps.mulf (h i) (n (ix2 (i 0) 0))

/-- The body's payload at (p, q): the row block's entry at (p, q) times the column block's entry of row p. -/
theorem pay16_apply (x0 : Vec F S4096x16 .f32) (x1 : Vec F S4096x1 .f32) (j : S4096x16.Idx) :
    k5_pay1 x0 x1 j = FloatOps.mulf (x0 j) (x1 (ix2 (j 0) 0)) := by
  unfold k5_pay1
  simp only [shapeCast_self]
  show FloatOps.mulf (x0 j) (broadcastTo S4096x16 x1 broadcasts_S4096x1_S4096x16 j) = _
  congr 1
  refine broadcastTo_apply _ _ _ _ fun a => ?_
  match a with
  | ⟨0, _⟩ => rfl
  | ⟨1, _⟩ => rfl

/-- WHAT POINT t WRITES BACK is block t of G16 of the two input arrays: at (p, q) of the block all three windows are
    at row 4096 t + p, the h and output windows at column q and the n window at column 0. -/
theorem flushed5_eq (c : Dev nD) (t : Fin cfg5.N) :
    (dat5 V c).flushed 2 t = ((cfg5.win 2).blk t).view.read (Elt F) (G16 (V c main_v50) (V c main_v52)) := by
  show (cfg5.win 2).cut (grid5.coords t) ((dat5 V c).after 2 t) = _
  rw [after5_2]
  unfold out5_2
  rw [View.canon_unit_zero hz]
  simp only [View.ld_unit_zero (S := S4096x16) hz, View.ld_unit_zero (S := S4096x1) hz]
  obtain ⟨e0, e1, e2⟩ := idx5 t
  funext j
  obtain ⟨p, q, rfl⟩ : ∃ (p : Fin 4096) (q : Fin 16), j = ix2 p q := ⟨j 0, j 1, eq_ix2 j⟩
  refine (pay16_apply (iblk5 V c 0 t) (iblk5 V c 1 t) (ix2 p q)).trans ?_
  have h0 : ((cfg5.win 0).blk t).view.emb (ix2 p q) = ((cfg5.win 2).blk t).view.emb (ix2 p q) := by
    funext a; apply Fin.ext
    match a with
    | ⟨0, _⟩ => show win5_0.index t (0 : Fin 2) * 4096 + 1 * p.val = win5_2.index t (0 : Fin 2) * 4096 + 1 * p.val; rw [e0, e2]
    | ⟨1, _⟩ => show win5_0.index t (1 : Fin 2) * 16 + 1 * q.val = win5_2.index t (1 : Fin 2) * 16 + 1 * q.val; rw [e0, e2]
  have h1 : ((cfg5.win 1).blk t).view.emb (ix2 p (0 : Fin 1)) = (ix2 ((((cfg5.win 2).blk t).view.emb (ix2 p q)) 0) (0 : Fin 1) : S3301376x1.Idx) := by
    funext a; apply Fin.ext
    match a with
    | ⟨0, _⟩ => show win5_1.index t (0 : Fin 2) * 4096 + 1 * p.val = win5_2.index t (0 : Fin 2) * 4096 + 1 * p.val; rw [e1, e2]
    | ⟨1, _⟩ => show win5_1.index t (1 : Fin 2) * 1 + 1 * 0 = 0; rw [e1]; rfl
  show FloatOps.mulf (V c main_v50 (((cfg5.win 0).blk t).view.emb (ix2 p q))) (V c main_v52 (((cfg5.win 1).blk t).view.emb (ix2 p (0 : Fin 1))))
    = FloatOps.mulf (V c main_v50 (((cfg5.win 2).blk t).view.emb (ix2 p q))) (V c main_v52 (ix2 ((((cfg5.win 2).blk t).view.emb (ix2 p q)) 0) (0 : Fin 1)))
  rw [h0, h1]

/-- An index of the array is in point t's block iff each coordinate is in the block's range on its axis. -/
theorem mem_blk5 (t : Fin cfg5.N) (i : S3301376x16.Idx) :
    i ∈ ((cfg5.win 2).blk t).view.set ↔ ∀ a : Fin 2, win5_2.index t a * S4096x16.size a ≤ (i a).val ∧ (i a).val < win5_2.index t a * S4096x16.size a + S4096x16.size a := by
  show i ∈ ((View.whole main_v53).slice (win5_2.rect t)).set ↔ _
  rw [View.set_slice_whole, Rect.mem_set_unit]
  exact Iff.rfl

/-- The 806 row blocks of 4096 rows tile the 3301376 = 806 · 4096 rows (row r is in block r / 4096), so the output
    array ends holding G16 of the input arrays. -/
theorem final16 (c : Dev nD) : (dat5 V c).arrAt 2 cfg5.N = G16 (V c main_v50) (V c main_v52) :=
  (dat5 V c).arrAt_eq_of_cover 2 (G16 (V c main_v50) (V c main_v52)) (fun t _ => flushed5_eq V c t) fun i => by
    have hi0 : (i 0).val < 3301376 := (i 0).isLt
    have hi1 : (i 1).val < 16 := (i 1).isLt
    have ht : (i 0).val / 4096 < 806 := by omega
    refine ⟨⟨(i 0).val / 4096, ht⟩, flush5_2 _, ?_⟩
    rw [mem_blk5]
    obtain ⟨-, -, e2⟩ := idx5 ⟨(i 0).val / 4096, ht⟩
    intro a
    match a with
    | ⟨0, _⟩ =>
      show win5_2.index ⟨(i 0).val / 4096, ht⟩ (0 : Fin 2) * 4096 ≤ (i 0).val ∧ (i 0).val < win5_2.index ⟨(i 0).val / 4096, ht⟩ (0 : Fin 2) * 4096 + 4096
      rw [e2]
      show (i 0).val / 4096 * 4096 ≤ (i 0).val ∧ (i 0).val < (i 0).val / 4096 * 4096 + 4096
      omega
    | ⟨1, _⟩ =>
      show win5_2.index ⟨(i 0).val / 4096, ht⟩ (1 : Fin 2) * 16 ≤ (i 1).val ∧ (i 1).val < win5_2.index ⟨(i 0).val / 4096, ht⟩ (1 : Fin 2) * 16 + 16
      rw [e2]
      show 0 * 16 ≤ (i 1).val ∧ (i 1).val < 0 * 16 + 16
      omega

/-- REGION 5 (each edge's row of width 16 scaled by the edge's coefficient), read back on the 3300000 edges: if its
    first input array is the rows with zero rows added up to 3301376 and its second the coefficients, zero-extended
    likewise, as one column, the first 3300000 rows of its output array are the scaled rows. -/
theorem val16 (c : Dev nD) (hs : FVec F S3300000x16 .f32) (nrm : FVec F S3300000 .f32) (z z' : FVec F S_ .f32)
    (hH : V c main_v50 = pad S3301376x16 ![0, 0] ![1376, 0] ![0, 0] hs z pads_S3300000x16_S3301376x16_013760_000 h_S_)
    (hN : V c main_v52 = shapeCast S3301376x1 (pad S3301376 ![0] ![1376] ![0] nrm z' pads_S3300000_S3301376_013760 h_S_) shapeCasts_S3301376_S3301376x1) :
    extractStridedSlice S3300000x16 ![0, 0] ((dat5 V c).arrAt 2 cfg5.N) slices_S3301376x16_S3300000x16_0_0
      = Cert.Spec.msg16 hs nrm := by
  rw [final16]
  funext j
  obtain ⟨p, q, rfl⟩ : ∃ (p : Fin 3300000) (q : Fin 16), j = ix2 p q := ⟨j 0, j 1, eq_ix2 j⟩
  have hp : p.val < 3301376 := by have := p.isLt; omega
  -- row p of the sliced array is row p of the whole array
  rw [extractStridedSlice_apply _ _ _ _ (ix2 ⟨p.val, hp⟩ q) (fun a => by
    match a with
    | ⟨0, _⟩ => exact (Nat.zero_add _).symm
    | ⟨1, _⟩ => exact (Nat.zero_add _).symm)]
  -- inside the first 3300000 rows the extended arrays are the arrays themselves
  have eH : pad S3301376x16 ![0, 0] ![1376, 0] ![0, 0] hs z pads_S3300000x16_S3301376x16_013760_000 h_S_ (ix2 ⟨p.val, hp⟩ q) = hs (ix2 p q) :=
    pad_apply_of_inside _ _ _ _ _ _ _ _ (ix2 p q) fun a => by
      match a with
      | ⟨0, _⟩ => show p.val = 0 + p.val * (0 + 1); omega
      | ⟨1, _⟩ => show q.val = 0 + q.val * (0 + 1); omega
  have eP : pad S3301376 ![0] ![1376] ![0] nrm z' pads_S3300000_S3301376_013760 h_S_ (ix1 ⟨p.val, hp⟩) = nrm (ix1 p) :=
    pad_apply_of_inside _ _ _ _ _ _ _ _ (ix1 p) fun a => by
      match a with
      | ⟨0, _⟩ => show p.val = 0 + p.val * (0 + 1); omega
  -- entry (p, 0) of the one-column array is entry p of the extended coefficients: both are at row-major position p
  have eN : shapeCast S3301376x1 (pad S3301376 ![0] ![1376] ![0] nrm z' pads_S3300000_S3301376_013760 h_S_) shapeCasts_S3301376_S3301376x1 (ix2 ⟨p.val, hp⟩ 0) = nrm (ix1 p) := by
    rw [shapeCast_apply _ _ _ (ix1 ⟨p.val, hp⟩) (by rw [Shape.rowMajor_val_one, Shape.rowMajor_val_two]; show p.val = p.val * 1 + 0; omega)]
    exact eP
  -- the specification's coefficient at (p, q) is the coefficient of edge p
  have eC : Cert.Spec.col nrm (ix2 p 0) = nrm (ix1 p) := by
    unfold Cert.Spec.col
    refine broadcastInDim_apply _ _ _ _ (ix1 p) fun a => ?_
    match a with
    | ⟨0, _⟩ => rfl
  have eB : ∀ hb, broadcastInDim S3300000x16 ![0, 1] hb (Cert.Spec.col nrm) (ix2 p q) = nrm (ix1 p) := fun hb => by
    rw [broadcastInDim_apply _ _ _ _ (ix2 p 0) (fun a => by
      match a with
      | ⟨0, _⟩ => rfl
      | ⟨1, _⟩ => rfl)]
    exact eC
  show FloatOps.mulf (V c main_v50 (ix2 ⟨p.val, hp⟩ q)) (V c main_v52 (ix2 ⟨p.val, hp⟩ 0))
    = FloatOps.mulf (hs (ix2 p q)) (broadcastInDim S3300000x16 ![0, 1] _ (Cert.Spec.col nrm) (ix2 p q))
  rw [hH, hN, eH, eN, eB]

/-! ## Region 8: rows of width 3 -/

/-- The one grid coordinate of point t is t. -/
theorem coord8 (t : Fin cfg8.N) : ((grid8.coords t) 0).val = t.val := by
  have hN : t.val < 806 := t.isLt
  show t.val / grid8.stride 0 % 806 = t.val
  rw [show grid8.stride 0 = 1 from by decide]
  omega

/-- All three windows are at block (t, 0) at point t. -/
theorem idx8 (t : Fin cfg8.N) : win8_0.index t = ![t.val, 0] ∧ win8_1.index t = ![t.val, 0] ∧ win8_2.index t = ![t.val, 0] := by
  have hN : t.val < 806 := t.isLt
  refine ⟨?_, ?_, ?_⟩
  · show cc8_transform_0 (grid8.coords t) = _
    unfold cc8_transform_0
    simp only [coord8, word_toNat _ hN]
    rfl
  · show cc8_transform_1 (grid8.coords t) = _
    unfold cc8_transform_1
    simp only [coord8, word_toNat _ hN]
    rfl
  · show cc8_transform_2 (grid8.coords t) = _
    unfold cc8_transform_2
    simp only [coord8, word_toNat _ hN]
    rfl

/-- The whole output array as a function of the two input arrays: entry (r, j) is h(r, j) · n(r, 0). -/
abbrev G3 (h : S3301376x3.Idx → Elt F .f32) (n : S3301376x1.Idx → Elt F .f32) : S3301376x3.Idx → Elt F .f32 :=
  fun i => FloatOps.mulf (h i) (n (ix2 (i 0) 0))

/-- The body's payload at (p, q): the row block's entry at (p, q) times the column block's entry of row p. -/
theorem pay3_apply (x0 : Vec F S4096x3 .f32) (x1 : Vec F S4096x1 .f32) (j : S4096x3.Idx) :
    k8_pay1 x0 x1 j = FloatOps.mulf (x0 j) (x1 (ix2 (j 0) 0)) := by
  unfold k8_pay1
  simp only [shapeCast_self]
  show FloatOps.mulf (x0 j) (broadcastTo S4096x3 x1 broadcasts_S4096x1_S4096x3 j) = _
  congr 1
  refine broadcastTo_apply _ _ _ _ fun a => ?_
  match a with
  | ⟨0, _⟩ => rfl
  | ⟨1, _⟩ => rfl

/-- WHAT POINT t WRITES BACK is block t of G3 of the two input arrays: at (p, q) of the block all three windows are
    at row 4096 t + p, the h and output windows at column q and the n window at column 0. -/
theorem flushed8_eq (c : Dev nD) (t : Fin cfg8.N) :
    (dat8 V c).flushed 2 t = ((cfg8.win 2).blk t).view.read (Elt F) (G3 (V c main_v66) (V c main_v68)) := by
  show (cfg8.win 2).cut (grid8.coords t) ((dat8 V c).after 2 t) = _
  rw [after8_2]
  unfold out8_2
  rw [View.canon_unit_zero hz]
  simp only [View.ld_unit_zero (S := S4096x3) hz, View.ld_unit_zero (S := S4096x1) hz]
  obtain ⟨e0, e1, e2⟩ := idx8 t
  funext j
  obtain ⟨p, q, rfl⟩ : ∃ (p : Fin 4096) (q : Fin 3), j = ix2 p q := ⟨j 0, j 1, eq_ix2 j⟩
  refine (pay3_apply (iblk8 V c 0 t) (iblk8 V c 1 t) (ix2 p q)).trans ?_
  have h0 : ((cfg8.win 0).blk t).view.emb (ix2 p q) = ((cfg8.win 2).blk t).view.emb (ix2 p q) := by
    funext a; apply Fin.ext
    match a with
    | ⟨0, _⟩ => show win8_0.index t (0 : Fin 2) * 4096 + 1 * p.val = win8_2.index t (0 : Fin 2) * 4096 + 1 * p.val; rw [e0, e2]
    | ⟨1, _⟩ => show win8_0.index t (1 : Fin 2) * 3 + 1 * q.val = win8_2.index t (1 : Fin 2) * 3 + 1 * q.val; rw [e0, e2]
  have h1 : ((cfg8.win 1).blk t).view.emb (ix2 p (0 : Fin 1)) = (ix2 ((((cfg8.win 2).blk t).view.emb (ix2 p q)) 0) (0 : Fin 1) : S3301376x1.Idx) := by
    funext a; apply Fin.ext
    match a with
    | ⟨0, _⟩ => show win8_1.index t (0 : Fin 2) * 4096 + 1 * p.val = win8_2.index t (0 : Fin 2) * 4096 + 1 * p.val; rw [e1, e2]
    | ⟨1, _⟩ => show win8_1.index t (1 : Fin 2) * 1 + 1 * 0 = 0; rw [e1]; rfl
  show FloatOps.mulf (V c main_v66 (((cfg8.win 0).blk t).view.emb (ix2 p q))) (V c main_v68 (((cfg8.win 1).blk t).view.emb (ix2 p (0 : Fin 1))))
    = FloatOps.mulf (V c main_v66 (((cfg8.win 2).blk t).view.emb (ix2 p q))) (V c main_v68 (ix2 ((((cfg8.win 2).blk t).view.emb (ix2 p q)) 0) (0 : Fin 1)))
  rw [h0, h1]

/-- An index of the array is in point t's block iff each coordinate is in the block's range on its axis. -/
theorem mem_blk8 (t : Fin cfg8.N) (i : S3301376x3.Idx) :
    i ∈ ((cfg8.win 2).blk t).view.set ↔ ∀ a : Fin 2, win8_2.index t a * S4096x3.size a ≤ (i a).val ∧ (i a).val < win8_2.index t a * S4096x3.size a + S4096x3.size a := by
  show i ∈ ((View.whole main_v69).slice (win8_2.rect t)).set ↔ _
  rw [View.set_slice_whole, Rect.mem_set_unit]
  exact Iff.rfl

/-- The 806 row blocks of 4096 rows tile the 3301376 = 806 · 4096 rows (row r is in block r / 4096), so the output
    array ends holding G3 of the input arrays. -/
theorem final3 (c : Dev nD) : (dat8 V c).arrAt 2 cfg8.N = G3 (V c main_v66) (V c main_v68) :=
  (dat8 V c).arrAt_eq_of_cover 2 (G3 (V c main_v66) (V c main_v68)) (fun t _ => flushed8_eq V c t) fun i => by
    have hi0 : (i 0).val < 3301376 := (i 0).isLt
    have hi1 : (i 1).val < 3 := (i 1).isLt
    have ht : (i 0).val / 4096 < 806 := by omega
    refine ⟨⟨(i 0).val / 4096, ht⟩, flush8_2 _, ?_⟩
    rw [mem_blk8]
    obtain ⟨-, -, e2⟩ := idx8 ⟨(i 0).val / 4096, ht⟩
    intro a
    match a with
    | ⟨0, _⟩ =>
      show win8_2.index ⟨(i 0).val / 4096, ht⟩ (0 : Fin 2) * 4096 ≤ (i 0).val ∧ (i 0).val < win8_2.index ⟨(i 0).val / 4096, ht⟩ (0 : Fin 2) * 4096 + 4096
      rw [e2]
      show (i 0).val / 4096 * 4096 ≤ (i 0).val ∧ (i 0).val < (i 0).val / 4096 * 4096 + 4096
      omega
    | ⟨1, _⟩ =>
      show win8_2.index ⟨(i 0).val / 4096, ht⟩ (1 : Fin 2) * 3 ≤ (i 1).val ∧ (i 1).val < win8_2.index ⟨(i 0).val / 4096, ht⟩ (1 : Fin 2) * 3 + 3
      rw [e2]
      show 0 * 3 ≤ (i 1).val ∧ (i 1).val < 0 * 3 + 3
      omega

/-- REGION 8 (each edge's row of width 3 scaled by the edge's coefficient), read back on the 3300000 edges: if its
    first input array is the rows with zero rows added up to 3301376 and its second the coefficients, zero-extended
    likewise, as one column, the first 3300000 rows of its output array are the scaled rows. -/
theorem val3 (c : Dev nD) (hs : FVec F S3300000x3 .f32) (nrm : FVec F S3300000 .f32) (z z' : FVec F S_ .f32)
    (hH : V c main_v66 = pad S3301376x3 ![0, 0] ![1376, 0] ![0, 0] hs z pads_S3300000x3_S3301376x3_013760_000 h_S_)
    (hN : V c main_v68 = shapeCast S3301376x1 (pad S3301376 ![0] ![1376] ![0] nrm z' pads_S3300000_S3301376_013760 h_S_) shapeCasts_S3301376_S3301376x1) :
    extractStridedSlice S3300000x3 ![0, 0] ((dat8 V c).arrAt 2 cfg8.N) slices_S3301376x3_S3300000x3_0_0
      = Cert.Spec.msg3 hs nrm := by
  rw [final3]
  funext j
  obtain ⟨p, q, rfl⟩ : ∃ (p : Fin 3300000) (q : Fin 3), j = ix2 p q := ⟨j 0, j 1, eq_ix2 j⟩
  have hp : p.val < 3301376 := by have := p.isLt; omega
  -- row p of the sliced array is row p of the whole array
  rw [extractStridedSlice_apply _ _ _ _ (ix2 ⟨p.val, hp⟩ q) (fun a => by
    match a with
    | ⟨0, _⟩ => exact (Nat.zero_add _).symm
    | ⟨1, _⟩ => exact (Nat.zero_add _).symm)]
  -- inside the first 3300000 rows the extended arrays are the arrays themselves
  have eH : pad S3301376x3 ![0, 0] ![1376, 0] ![0, 0] hs z pads_S3300000x3_S3301376x3_013760_000 h_S_ (ix2 ⟨p.val, hp⟩ q) = hs (ix2 p q) :=
    pad_apply_of_inside _ _ _ _ _ _ _ _ (ix2 p q) fun a => by
      match a with
      | ⟨0, _⟩ => show p.val = 0 + p.val * (0 + 1); omega
      | ⟨1, _⟩ => show q.val = 0 + q.val * (0 + 1); omega
  have eP : pad S3301376 ![0] ![1376] ![0] nrm z' pads_S3300000_S3301376_013760 h_S_ (ix1 ⟨p.val, hp⟩) = nrm (ix1 p) :=
    pad_apply_of_inside _ _ _ _ _ _ _ _ (ix1 p) fun a => by
      match a with
      | ⟨0, _⟩ => show p.val = 0 + p.val * (0 + 1); omega
  -- entry (p, 0) of the one-column array is entry p of the extended coefficients: both are at row-major position p
  have eN : shapeCast S3301376x1 (pad S3301376 ![0] ![1376] ![0] nrm z' pads_S3300000_S3301376_013760 h_S_) shapeCasts_S3301376_S3301376x1 (ix2 ⟨p.val, hp⟩ 0) = nrm (ix1 p) := by
    rw [shapeCast_apply _ _ _ (ix1 ⟨p.val, hp⟩) (by rw [Shape.rowMajor_val_one, Shape.rowMajor_val_two]; show p.val = p.val * 1 + 0; omega)]
    exact eP
  -- the specification's coefficient at (p, q) is the coefficient of edge p
  have eC : Cert.Spec.col nrm (ix2 p 0) = nrm (ix1 p) := by
    unfold Cert.Spec.col
    refine broadcastInDim_apply _ _ _ _ (ix1 p) fun a => ?_
    match a with
    | ⟨0, _⟩ => rfl
  have eB : ∀ hb, broadcastInDim S3300000x3 ![0, 1] hb (Cert.Spec.col nrm) (ix2 p q) = nrm (ix1 p) := fun hb => by
    rw [broadcastInDim_apply _ _ _ _ (ix2 p 0) (fun a => by
      match a with
      | ⟨0, _⟩ => rfl
      | ⟨1, _⟩ => rfl)]
    exact eC
  show FloatOps.mulf (V c main_v66 (ix2 ⟨p.val, hp⟩ q)) (V c main_v68 (ix2 ⟨p.val, hp⟩ 0))
    = FloatOps.mulf (hs (ix2 p q)) (broadcastInDim S3300000x3 ![0, 1] _ (Cert.Spec.col nrm) (ix2 p q))
  rw [hH, hN, eH, eN, eB]

end Cert.KernelIdeal.RegSc
end
-- ==== Proof.RegBr.lean ====
/-
  The three bias regions: each output block [8192, d] is the table's block plus the bias row spread down the rows, cut
  below at 0 in the first two.  Per region: the output array as one function of the two input arrays, index by index
  (`rows<d>`); each point writes back its block of that function; the 13 blocks of 8192 rows tile the 106496 rows; and on
  the first 100000 rows, where the padded table is the table and the one-row bias is the bias, that function is the
  reference's bias (and max(·, 0)).
-/
import proofs.«408855_j18219251269922_2_alg».proof.Proof.Gen.KernelIdeal.Frame
import proofs.«408855_j18219251269922_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.RegBr

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The zero offsets of a whole-buffer access. -/
theorem zeroOff : (![0, 0] : Fin 2 → Nat) = fun _ => 0 := funext fun a => by fin_cases a <;> rfl

/-! ## Region 3: rows of width 8 -/

/-- What region 3 leaves in its output array, index by index: entry (r, j) is the table's entry (r, j) plus the
    one-row bias at column j, cut below at 0. -/
def rows8 (x : FVec F S106496x8 .f32) (b : FVec F S1x8 .f32) : FVec F S106496x8 .f32 :=
  fun i => FloatOps.maximumf (FloatOps.addf (x i) (b (ix2 (0 : Fin 1) (i 1)))) (Scalar.ofBits (F := F) .f32 0x00000000#32)

/-- The one-row block spread down the 8192 rows reads the row at the same column. -/
theorem spread8_apply (x1 : FVec F S1x8 .f32) (p : Fin 8192) (q : Fin 8) :
    broadcastTo S8192x8 x1 broadcasts_S1x8_S8192x8 (ix2 p q) = x1 (ix2 (0 : Fin 1) q) :=
  broadcastTo_apply x1 broadcasts_S1x8_S8192x8 (ix2 p q) (ix2 (0 : Fin 1) q) (fun a => by
    match a with
    | ⟨0, _⟩ => rfl
    | ⟨1, _⟩ => rfl)

/-- The body's stored value at an index of its block: the loaded entry plus the loaded row's entry at that column, cut below at 0. -/
theorem pay8_apply (x0 : Vec F S8192x8 .f32) (x1 : Vec F S1x8 .f32) (j : S8192x8.Idx) :
    k3_pay1 x0 x1 j = FloatOps.maximumf (FloatOps.addf (x0 j) (x1 (ix2 (0 : Fin 1) (j 1)))) (Scalar.ofBits (F := F) .f32 0x00000000#32) := by
  obtain ⟨p, q, rfl⟩ : ∃ (p : Fin 8192) (q : Fin 8), j = ix2 p q := ⟨j 0, j 1, eq_ix2 j⟩
  unfold k3_pay1
  simp only [shapeCast_self]
  show FloatOps.maximumf (FloatOps.addf (x0 (ix2 p q)) (broadcastTo S8192x8 x1 broadcasts_S1x8_S8192x8 (ix2 p q))) (Scalar.ofBits (F := F) .f32 0x00000000#32) = _
  rw [spread8_apply]

/-- The printed index maps over the 13 points: the moving windows sit at block (t, 0), the bias window at block (0, 0). -/
theorem blocks8 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `rows8` of the two input arrays as the region finds them. -/
theorem flushed8 (c : Dev nD) (t : Fin cfg3.N) :
    (dat3 V c).flushed 2 t = ((cfg3.win 2).blk t).view.read (Elt F) (rows8 (V c main_v42) (V c main_v43)) := by
  show (cfg3.win 2).cut (grid3.coords t) ((dat3 V c).after 2 t) = _
  rw [after3_2]
  unfold out3_2
  rw [View.canon_unit_zero zeroOff]
  simp only [View.ld_unit_zero (S := S8192x8) zeroOff, View.ld_unit_zero (S := S1x8) zeroOff]
  obtain ⟨e0, e1, e2, e3, e4, e5⟩ := blocks8 t
  funext j
  show k3_pay1 (iblk3 V c 0 t) (iblk3 V c 1 t) j = rows8 (V c main_v42) (V c main_v43) (((cfg3.win 2).blk t).view.emb j)
  rw [pay8_apply]
  unfold rows8
  have hx : iblk3 V c 0 t j = V c main_v42 (((cfg3.win 2).blk t).view.emb j) := by
    show V c main_v42 (((cfg3.win 0).blk t).view.emb j) = V c main_v42 (((cfg3.win 2).blk t).view.emb j)
    refine congrArg _ (funext fun a => Fin.ext ?_)
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 8 + 1 * (j 1).val = win3_2.index t (1 : Fin 2) * 8 + 1 * (j 1).val; omega
  have hb : iblk3 V c 1 t (ix2 (0 : Fin 1) (j 1)) = V c main_v43 (ix2 (0 : Fin 1) ((((cfg3.win 2).blk t).view.emb j) 1)) := by
    show V c main_v43 (((cfg3.win 1).blk t).view.emb (ix2 (0 : Fin 1) (j 1))) = V c main_v43 (ix2 (0 : Fin 1) ((((cfg3.win 2).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 8 + 1 * (j 1).val = win3_2.index t (1 : Fin 2) * 8 + 1 * (j 1).val; omega
  rw [hx, hb]

/-- An index of the output array is in point t's block iff each coordinate is in the block's range on its axis. -/
theorem mem_blk8 (t : Fin cfg3.N) (i : S106496x8.Idx) :
    i ∈ ((cfg3.win 2).blk t).view.set ↔ ∀ a : Fin 2, win3_2.index t a * S8192x8.size a ≤ (i a).val ∧ (i a).val < win3_2.index t a * S8192x8.size a + S8192x8.size a := by
  show i ∈ ((View.whole main_v44).slice (win3_2.rect t)).set ↔ _
  rw [View.set_slice_whole, Rect.mem_set_unit]
  exact Iff.rfl

/-- The 13 blocks of 8192 rows tile the 106496 rows: row r is in block r / 8192. -/
theorem cover8 (i : S106496x8.Idx) : ∃ t : Fin cfg3.N, (cfg3.win 2).flush t = true ∧ i ∈ ((cfg3.win 2).blk t).view.set := by
  have hi0 : (i 0).val < 106496 := (i 0).isLt
  have hi1 : (i 1).val < 8 := (i 1).isLt
  have hN : cfg3.N = 13 := N_3
  refine ⟨⟨(i 0).val / 8192, by rw [hN]; omega⟩, flush3_2 _, ?_⟩
  rw [mem_blk8]
  obtain ⟨e0, e1, e2, e3, e4, e5⟩ := blocks8 ⟨(i 0).val / 8192, by rw [hN]; omega⟩
  intro a
  match a with
  | ⟨0, _⟩ => show win3_2.index _ (0 : Fin 2) * 8192 ≤ (i 0).val ∧ (i 0).val < win3_2.index _ (0 : Fin 2) * 8192 + 8192; rw [e4]; show (i 0).val / 8192 * 8192 ≤ (i 0).val ∧ (i 0).val < (i 0).val / 8192 * 8192 + 8192; omega
  | ⟨1, _⟩ => show win3_2.index _ (1 : Fin 2) * 8 ≤ (i 1).val ∧ (i 1).val < win3_2.index _ (1 : Fin 2) * 8 + 8; rw [e5]; omega

/-- So region 3's output array ends holding `rows8` of its two input arrays. -/
theorem arr8 (c : Dev nD) : (dat3 V c).arrAt 2 cfg3.N = rows8 (V c main_v42) (V c main_v43) :=
  (dat3 V c).arrAt_eq_of_cover 2 (rows8 (V c main_v42) (V c main_v43)) (fun t _ => flushed8 V c t) cover8

/-- The bias spread over the 100000 rows reads the bias at the column. -/
theorem bias8_row (h1 : S1x8.BroadcastsInDim S100000x8 ![0, 1]) (h2 : S8.BroadcastsInDim S1x8 ![1])
    (b : FVec F S8 .f32) (p : Fin 100000) (q : Fin 8) :
    broadcastInDim S100000x8 ![0, 1] h1 (broadcastInDim S1x8 ![1] h2 b) (ix2 p q) = b (ix1 q) := by
  rw [broadcastInDim_apply ![0, 1] h1 _ (ix2 p q) (ix2 (0 : Fin 1) q) (fun a => by
    match a with
    | ⟨0, _⟩ => rfl
    | ⟨1, _⟩ => rfl)]
  exact broadcastInDim_apply ![1] h2 b (ix2 (0 : Fin 1) q) (ix1 q) (fun a => by
    match a with
    | ⟨0, _⟩ => rfl)

/-- REGION 3 (the bias of width 8 and max(·, 0)), read back on the 100000 nodes: if its first input array is a node table with
    zero rows added up to 106496 and its second the bias as one row, the first 100000 rows of its output array are
    the table plus the bias, cut below at 0. -/
theorem val8 (c : Dev nD) (o : FVec F S100000x8 .f32) (b : FVec F S8 .f32) (z : FVec F S_ .f32)
    (hO : V c main_v42 = pad S106496x8 ![0, 0] ![6496, 0] ![0, 0] o z pads_S100000x8_S106496x8_064960_000 h_S_)
    (hB : V c main_v43 = shapeCast S1x8 b shapeCasts_S8_S1x8) :
    extractStridedSlice S100000x8 ![0, 0] ((dat3 V c).arrAt 2 cfg3.N) slices_S106496x8_S100000x8_0_0
      = Cert.Spec.relu8 (Cert.Spec.bias8 o b) := by
  rw [arr8 V c, hO, hB]
  funext i
  obtain ⟨p, q, rfl⟩ : ∃ (p : Fin 100000) (q : Fin 8), i = ix2 p q := ⟨i 0, i 1, eq_ix2 i⟩
  rw [slice2_axis0_eq]
  unfold rows8
  -- row p < 100000 of the padded table is row p of the table; the one-row bias at column q is the bias at q
  have hx : pad S106496x8 ![0, 0] ![6496, 0] ![0, 0] o z pads_S100000x8_S106496x8_064960_000 h_S_ (ix2 (⟨0 + p.val, by omega⟩ : Fin 106496) q) = o (ix2 p q) :=
    pad_apply_of_inside _ _ _ o z _ _ _ (ix2 p q) (fun a => by
      match a with
      | ⟨0, _⟩ => show 0 + p.val = 0 + p.val * (0 + 1); omega
      | ⟨1, _⟩ => show q.val = 0 + q.val * (0 + 1); omega)
  have hb : shapeCast S1x8 b shapeCasts_S8_S1x8 (ix2 (0 : Fin 1) q) = b (ix1 q) :=
    shapeCast_apply b shapeCasts_S8_S1x8 (ix2 (0 : Fin 1) q) (ix1 q) (by
      rw [Shape.rowMajor_val_two, Shape.rowMajor_val_one]; show q.val = 0 * 8 + q.val; omega)
  show FloatOps.maximumf (FloatOps.addf (pad S106496x8 ![0, 0] ![6496, 0] ![0, 0] o z pads_S100000x8_S106496x8_064960_000 h_S_ (ix2 (⟨0 + p.val, by omega⟩ : Fin 106496) q)) (shapeCast S1x8 b shapeCasts_S8_S1x8 (ix2 (0 : Fin 1) q))) (Scalar.ofBits (F := F) .f32 0x00000000#32) = _
  rw [hx, hb]
  unfold Cert.Spec.relu8 Cert.Spec.bias8
  rw [broadcastInDim_constant]
  show FloatOps.maximumf (FloatOps.addf (o (ix2 p q)) (b (ix1 q))) (Scalar.ofBits (F := F) .f32 0x00000000#32) = FloatOps.maximumf (FloatOps.addf (o (ix2 p q)) (broadcastInDim _ _ _ (broadcastInDim _ _ _ b) (ix2 p q))) (Scalar.ofBits (F := F) .f32 0x00000000#32)
  rw [bias8_row]

/-! ## Region 6: rows of width 16 -/

/-- What region 6 leaves in its output array, index by index: entry (r, j) is the table's entry (r, j) plus the
    one-row bias at column j, cut below at 0. -/
def rows16 (x : FVec F S106496x16 .f32) (b : FVec F S1x16 .f32) : FVec F S106496x16 .f32 :=
  fun i => FloatOps.maximumf (FloatOps.addf (x i) (b (ix2 (0 : Fin 1) (i 1)))) (Scalar.ofBits (F := F) .f32 0x00000000#32)

/-- The one-row block spread down the 8192 rows reads the row at the same column. -/
theorem spread16_apply (x1 : FVec F S1x16 .f32) (p : Fin 8192) (q : Fin 16) :
    broadcastTo S8192x16 x1 broadcasts_S1x16_S8192x16 (ix2 p q) = x1 (ix2 (0 : Fin 1) q) :=
  broadcastTo_apply x1 broadcasts_S1x16_S8192x16 (ix2 p q) (ix2 (0 : Fin 1) q) (fun a => by
    match a with
    | ⟨0, _⟩ => rfl
    | ⟨1, _⟩ => rfl)

/-- The body's stored value at an index of its block: the loaded entry plus the loaded row's entry at that column, cut below at 0. -/
theorem pay16_apply (x0 : Vec F S8192x16 .f32) (x1 : Vec F S1x16 .f32) (j : S8192x16.Idx) :
    k6_pay1 x0 x1 j = FloatOps.maximumf (FloatOps.addf (x0 j) (x1 (ix2 (0 : Fin 1) (j 1)))) (Scalar.ofBits (F := F) .f32 0x00000000#32) := by
  obtain ⟨p, q, rfl⟩ : ∃ (p : Fin 8192) (q : Fin 16), j = ix2 p q := ⟨j 0, j 1, eq_ix2 j⟩
  unfold k6_pay1
  simp only [shapeCast_self]
  show FloatOps.maximumf (FloatOps.addf (x0 (ix2 p q)) (broadcastTo S8192x16 x1 broadcasts_S1x16_S8192x16 (ix2 p q))) (Scalar.ofBits (F := F) .f32 0x00000000#32) = _
  rw [spread16_apply]

/-- The printed index maps over the 13 points: the moving windows sit at block (t, 0), the bias window at block (0, 0). -/
theorem blocks16 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of `rows16` of the two input arrays as the region finds them. -/
theorem flushed16 (c : Dev nD) (t : Fin cfg6.N) :
    (dat6 V c).flushed 2 t = ((cfg6.win 2).blk t).view.read (Elt F) (rows16 (V c main_v58) (V c main_v59)) := by
  show (cfg6.win 2).cut (grid6.coords t) ((dat6 V c).after 2 t) = _
  rw [after6_2]
  unfold out6_2
  rw [View.canon_unit_zero zeroOff]
  simp only [View.ld_unit_zero (S := S8192x16) zeroOff, View.ld_unit_zero (S := S1x16) zeroOff]
  obtain ⟨e0, e1, e2, e3, e4, e5⟩ := blocks16 t
  funext j
  show k6_pay1 (iblk6 V c 0 t) (iblk6 V c 1 t) j = rows16 (V c main_v58) (V c main_v59) (((cfg6.win 2).blk t).view.emb j)
  rw [pay16_apply]
  unfold rows16
  have hx : iblk6 V c 0 t j = V c main_v58 (((cfg6.win 2).blk t).view.emb j) := by
    show V c main_v58 (((cfg6.win 0).blk t).view.emb j) = V c main_v58 (((cfg6.win 2).blk t).view.emb j)
    refine congrArg _ (funext fun a => Fin.ext ?_)
    match a with
    | ⟨0, _⟩ => show win6_0.index t (0 : Fin 2) * 8192 + 1 * (j 0).val = win6_2.index t (0 : Fin 2) * 8192 + 1 * (j 0).val; omega
    | ⟨1, _⟩ => show win6_0.index t (1 : Fin 2) * 16 + 1 * (j 1).val = win6_2.index t (1 : Fin 2) * 16 + 1 * (j 1).val; omega
  have hb : iblk6 V c 1 t (ix2 (0 : Fin 1) (j 1)) = V c main_v59 (ix2 (0 : Fin 1) ((((cfg6.win 2).blk t).view.emb j) 1)) := by
    show V c main_v59 (((cfg6.win 1).blk t).view.emb (ix2 (0 : Fin 1) (j 1))) = V c main_v59 (ix2 (0 : Fin 1) ((((cfg6.win 2).blk t).view.emb j) 1))
    refine congrArg _ (funext fun a => Fin.ext ?_)
    match a with
    | ⟨0, _⟩ => show win6_1.index t (0 : Fin 2) * 1 + 1 * 0 = 0; omega
    | ⟨1, _⟩ => show win6_1.index t (1 : Fin 2) * 16 + 1 * (j 1).val = win6_2.index t (1 : Fin 2) * 16 + 1 * (j 1).val; omega
  rw [hx, hb]

/-- An index of the output array is in point t's block iff each coordinate is in the block's range on its axis. -/
theorem mem_blk16 (t : Fin cfg6.N) (i : S106496x16.Idx) :
    i ∈ ((cfg6.win 2).blk t).view.set ↔ ∀ a : Fin 2, win6_2.index t a * S8192x16.size a ≤ (i a).val ∧ (i a).val < win6_2.index t a * S8192x16.size a + S8192x16.size a := by
  show i ∈ ((View.whole main_v60).slice (win6_2.rect t)).set ↔ _
  rw [View.set_slice_whole, Rect.mem_set_unit]
  exact Iff.rfl

/-- The 13 blocks of 8192 rows tile the 106496 rows: row r is in block r / 8192. -/
theorem cover16 (i : S106496x16.Idx) : ∃ t : Fin cfg6.N, (cfg6.win 2).flush t = true ∧ i ∈ ((cfg6.win 2).blk t).view.set := by
  have hi0 : (i 0).val < 106496 := (i 0).isLt
  have hi1 : (i 1).val < 16 := (i 1).isLt
  have hN : cfg6.N = 13 := N_6
  refine ⟨⟨(i 0).val / 8192, by rw [hN]; omega⟩, flush6_2 _, ?_⟩
  rw [mem_blk16]
  obtain ⟨e0, e1, e2, e3, e4, e5⟩ := blocks16 ⟨(i 0).val / 8192, by rw [hN]; omega⟩
  intro a
  match a with
  | ⟨0, _⟩ => show win6_2.index _ (0 : Fin 2) * 8192 ≤ (i 0).val ∧ (i 0).val < win6_2.index _ (0 : Fin 2) * 8192 + 8192; rw [e4]; show (i 0).val / 8192 * 8192 ≤ (i 0).val ∧ (i 0).val < (i 0).val / 8192 * 8192 + 8192; omega
  | ⟨1, _⟩ => show win6_2.index _ (1 : Fin 2) * 16 ≤ (i 1).val ∧ (i 1).val < win6_2.index _ (1 : Fin 2) * 16 + 16; rw [e5]; omega

/-- So region 6's output array ends holding `rows16` of its two input arrays. -/
theorem arr16 (c : Dev nD) : (dat6 V c).arrAt 2 cfg6.N = rows16 (V c main_v58) (V c main_v59) :=
  (dat6 V c).arrAt_eq_of_cover 2 (rows16 (V c main_v58) (V c main_v59)) (fun t _ => flushed16 V c t) cover16

/-- The bias spread over the 100000 rows reads the bias at the column. -/
theorem bias16_row (h1 : S1x16.BroadcastsInDim S100000x16 ![0, 1]) (h2 : S16.BroadcastsInDim S1x16 ![1])
    (b : FVec F S16 .f32) (p : Fin 100000) (q : Fin 16) :
    broadcastInDim S100000x16 ![0, 1] h1 (broadcastInDim S1x16 ![1] h2 b) (ix2 p q) = b (ix1 q) := by
  rw [broadcastInDim_apply ![0, 1] h1 _ (ix2 p q) (ix2 (0 : Fin 1) q) (fun a => by
    match a with
    | ⟨0, _⟩ => rfl
    | ⟨1, _⟩ => rfl)]
  exact broadcastInDim_apply ![1] h2 b (ix2 (0 : Fin 1) q) (ix1 q) (fun a => by
    match a with
    | ⟨0, _⟩ => rfl)

/-- REGION 6 (the bias of width 16 and max(·, 0)), read back on the 100000 nodes: if its first input array is a node table with
    zero rows added up to 106496 and its second the bias as one row, the first 100000 rows of its output array are
    the table plus the bias, cut below at 0. -/
theorem val16 (c : Dev nD) (o : FVec F S100000x16 .f32) (b : FVec F S16 .f32) (z : FVec F S_ .f32)
    (hO : V c main_v58 = pad S106496x16 ![0, 0] ![6496, 0] ![0, 0] o z pads_S100000x16_S106496x16_064960_000 h_S_)
    (hB : V c main_v59 = shapeCast S1x16 b shapeCasts_S16_S1x16) :
    extractStridedSlice S100000x16 ![0, 0] ((dat6 V c).arrAt 2 cfg6.N) slices_S106496x16_S100000x16_0_0
      = Cert.Spec.relu16 (Cert.Spec.bias16 o b) := by
  rw [arr16 V c, hO, hB]
  funext i
  obtain ⟨p, q, rfl⟩ : ∃ (p : Fin 100000) (q : Fin 16), i = ix2 p q := ⟨i 0, i 1, eq_ix2 i⟩
  rw [slice2_axis0_eq]
  unfold rows16
  -- row p < 100000 of the padded table is row p of the table; the one-row bias at column q is the bias at q
  have hx : pad S106496x16 ![0, 0] ![6496, 0] ![0, 0] o z pads_S100000x16_S106496x16_064960_000 h_S_ (ix2 (⟨0 + p.val, by omega⟩ : Fin 106496) q) = o (ix2 p q) :=
    pad_apply_of_inside _ _ _ o z _ _ _ (ix2 p q) (fun a => by
      match a with
      | ⟨0, _⟩ => show 0 + p.val = 0 + p.val * (0 + 1); omega
      | ⟨1, _⟩ => show q.val = 0 + q.val * (0 + 1); omega)
  have hb : shapeCast S1x16 b shapeCasts_S16_S1x16 (ix2 (0 : Fin 1) q) = b (ix1 q) :=
    shapeCast_apply b shapeCasts_S16_S1x16 (ix2 (0 : Fin 1) q) (ix1 q) (by
      rw [Shape.rowMajor_val_two, Shape.rowMajor_val_one]; show q.val = 0 * 16 + q.val; omega)
  show FloatOps.maximumf (FloatOps.addf (pad S106496x16 ![0, 0] ![6496, 0] ![0, 0] o z pads_S100000x16_S106496x16_064960_000 h_S_ (ix2 (⟨0 + p.val, by omega⟩ : Fin 106496) q)) (shapeCast S1x16 b shapeCasts_S16_S1x16 (ix2 (0 : Fin 1) q))) (Scalar.ofBits (F := F) .f32 0x00000000#32) = _
  rw [hx, hb]
  unfold Cert.Spec.relu16 Cert.Spec.bias16
  rw [broadcastInDim_constant]
  show FloatOps.maximumf (FloatOps.addf (o (ix2 p q)) (b (ix1 q))) (Scalar.ofBits (F := F) .f32 0x00000000#32) = FloatOps.maximumf (FloatOps.addf (o (ix2 p q)) (broadcastInDim _ _ _ (broadcastInDim _ _ _ b) (ix2 p q))) (Scalar.ofBits (F := F) .f32 0x00000000#32)
  rw [bias16_row]

/-! ## Region 9: rows of width 3 -/

/-- What region 9 leaves in its output array, index by index: entry (r, j) is the table's entry (r, j) plus the
    one-row bias at column j. -/
def rows3 (x : FVec F S106496x3 .f32) (b : FVec F S1x3 .f32) : FVec F S106496x3 .f32 :=
  fun i => FloatOps.addf (x i) (b (ix2 (0 : Fin 1) (i 1)))

/-- The one-row block spread down the 8192 rows reads the row at the same column. -/
theorem spread3_apply (x1 : FVec F S1x3 .f32) (p : Fin 8192) (q : Fin 3) :
    broadcastTo S8192x3 x1 broadcasts_S1x3_S8192x3 (ix2 p q) = x1 (ix2 (0 : Fin 1) q) :=
  broadcastTo_apply x1 broadcasts_S1x3_S8192x3 (ix2 p q) (ix2 (0 : Fin 1) q) (fun a => by
    match a with
    | ⟨0, _⟩ => rfl
    | ⟨1, _⟩ => rfl)

/-- The body's stored value at an index of its block: the loaded entry plus the loaded row's entry at that column. -/
theorem pay3_apply (x0 : Vec F S8192x3 .f32) (x1 : Vec F S1x3 .f32) (j : S8192x3.Idx) :
    k9_pay1 x0 x1 j = FloatOps.addf (x0 j) (x1 (ix2 (0 : Fin 1) (j 1))) := by
  obtain ⟨p, q, rfl⟩ : ∃ (p : Fin 8192) (q : Fin 3), j = ix2 p q := ⟨j 0, j 1, eq_ix2 j⟩
  unfold k9_pay1
  simp only [shapeCast_self]
  show FloatOps.addf (x0 (ix2 p q)) (broadcastTo S8192x3 x1 broadcasts_S1x3_S8192x3 (ix2 p q)) = _
  rw [spread3_apply]

/-- The printed index maps over the 13 points: the moving windows sit at block (t, 0), the bias window at block (0, 0). -/
theorem blocks3 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point t writes back is block t of `rows3` of the two input arrays as the region finds them. -/
theorem flushed3 (c : Dev nD) (t : Fin cfg9.N) :
    (dat9 V c).flushed 2 t = ((cfg9.win 2).blk t).view.read (Elt F) (rows3 (V c main_v74) (V c main_v75)) := by
  show (cfg9.win 2).cut (grid9.coords t) ((dat9 V c).after 2 t) = _
  rw [after9_2]
  unfold out9_2
  rw [View.canon_unit_zero zeroOff]
  simp only [View.ld_unit_zero (S := S8192x3) zeroOff, View.ld_unit_zero (S := S1x3) zeroOff]
  obtain ⟨e0, e1, e2, e3, e4, e5⟩ := blocks3 t
  funext j
  show k9_pay1 (iblk9 V c 0 t) (iblk9 V c 1 t) j = rows3 (V c main_v74) (V c main_v75) (((cfg9.win 2).blk t).view.emb j)
  rw [pay3_apply]
  unfold rows3
  have hx : iblk9 V c 0 t j = V c main_v74 (((cfg9.win 2).blk t).view.emb j) := by
    show V c main_v74 (((cfg9.win 0).blk t).view.emb j) = V c main_v74 (((cfg9.win 2).blk t).view.emb j)
    refine congrArg _ (funext fun a => Fin.ext ?_)
    match a with
    | ⟨0, _⟩ => show win9_0.index t (0 : Fin 2) * 8192 + 1 * (j 0).val = win9_2.index t (0 : Fin 2) * 8192 + 1 * (j 0).val; omega
    | ⟨1, _⟩ => show win9_0.index t (1 : Fin 2) * 3 + 1 * (j 1).val = win9_2.index t (1 : Fin 2) * 3 + 1 * (j 1).val; omega
  have hb : iblk9 V c 1 t (ix2 (0 : Fin 1) (j 1)) = V c main_v75 (ix2 (0 : Fin 1) ((((cfg9.win 2).blk t).view.emb j) 1)) := by
    show V c main_v75 (((cfg9.win 1).blk t).view.emb (ix2 (0 : Fin 1) (j 1))) = V c main_v75 (ix2 (0 : Fin 1) ((((cfg9.win 2).blk t).view.emb j) 1))
    refine congrArg _ (funext fun a => Fin.ext ?_)
    match a with
    | ⟨0, _⟩ => show win9_1.index t (0 : Fin 2) * 1 + 1 * 0 = 0; omega
    | ⟨1, _⟩ => show win9_1.index t (1 : Fin 2) * 3 + 1 * (j 1).val = win9_2.index t (1 : Fin 2) * 3 + 1 * (j 1).val; omega
  rw [hx, hb]

/-- An index of the output array is in point t's block iff each coordinate is in the block's range on its axis. -/
theorem mem_blk3 (t : Fin cfg9.N) (i : S106496x3.Idx) :
    i ∈ ((cfg9.win 2).blk t).view.set ↔ ∀ a : Fin 2, win9_2.index t a * S8192x3.size a ≤ (i a).val ∧ (i a).val < win9_2.index t a * S8192x3.size a + S8192x3.size a := by
  show i ∈ ((View.whole main_v76).slice (win9_2.rect t)).set ↔ _
  rw [View.set_slice_whole, Rect.mem_set_unit]
  exact Iff.rfl

/-- The 13 blocks of 8192 rows tile the 106496 rows: row r is in block r / 8192. -/
theorem cover3 (i : S106496x3.Idx) : ∃ t : Fin cfg9.N, (cfg9.win 2).flush t = true ∧ i ∈ ((cfg9.win 2).blk t).view.set := by
  have hi0 : (i 0).val < 106496 := (i 0).isLt
  have hi1 : (i 1).val < 3 := (i 1).isLt
  have hN : cfg9.N = 13 := N_9
  refine ⟨⟨(i 0).val / 8192, by rw [hN]; omega⟩, flush9_2 _, ?_⟩
  rw [mem_blk3]
  obtain ⟨e0, e1, e2, e3, e4, e5⟩ := blocks3 ⟨(i 0).val / 8192, by rw [hN]; omega⟩
  intro a
  match a with
  | ⟨0, _⟩ => show win9_2.index _ (0 : Fin 2) * 8192 ≤ (i 0).val ∧ (i 0).val < win9_2.index _ (0 : Fin 2) * 8192 + 8192; rw [e4]; show (i 0).val / 8192 * 8192 ≤ (i 0).val ∧ (i 0).val < (i 0).val / 8192 * 8192 + 8192; omega
  | ⟨1, _⟩ => show win9_2.index _ (1 : Fin 2) * 3 ≤ (i 1).val ∧ (i 1).val < win9_2.index _ (1 : Fin 2) * 3 + 3; rw [e5]; omega

/-- So region 9's output array ends holding `rows3` of its two input arrays. -/
theorem arr3 (c : Dev nD) : (dat9 V c).arrAt 2 cfg9.N = rows3 (V c main_v74) (V c main_v75) :=
  (dat9 V c).arrAt_eq_of_cover 2 (rows3 (V c main_v74) (V c main_v75)) (fun t _ => flushed3 V c t) cover3

/-- The bias spread over the 100000 rows reads the bias at the column. -/
theorem bias3_row (h1 : S1x3.BroadcastsInDim S100000x3 ![0, 1]) (h2 : S3.BroadcastsInDim S1x3 ![1])
    (b : FVec F S3 .f32) (p : Fin 100000) (q : Fin 3) :
    broadcastInDim S100000x3 ![0, 1] h1 (broadcastInDim S1x3 ![1] h2 b) (ix2 p q) = b (ix1 q) := by
  rw [broadcastInDim_apply ![0, 1] h1 _ (ix2 p q) (ix2 (0 : Fin 1) q) (fun a => by
    match a with
    | ⟨0, _⟩ => rfl
    | ⟨1, _⟩ => rfl)]
  exact broadcastInDim_apply ![1] h2 b (ix2 (0 : Fin 1) q) (ix1 q) (fun a => by
    match a with
    | ⟨0, _⟩ => rfl)

/-- REGION 9 (the bias of width 3), read back on the 100000 nodes: if its first input array is a node table with
    zero rows added up to 106496 and its second the bias as one row, the first 100000 rows of its output array are
    the table plus the bias. -/
theorem val3 (c : Dev nD) (o : FVec F S100000x3 .f32) (b : FVec F S3 .f32) (z : FVec F S_ .f32)
    (hO : V c main_v74 = pad S106496x3 ![0, 0] ![6496, 0] ![0, 0] o z pads_S100000x3_S106496x3_064960_000 h_S_)
    (hB : V c main_v75 = shapeCast S1x3 b shapeCasts_S3_S1x3) :
    extractStridedSlice S100000x3 ![0, 0] ((dat9 V c).arrAt 2 cfg9.N) slices_S106496x3_S100000x3_0_0
      = Cert.Spec.bias3 o b := by
  rw [arr3 V c, hO, hB]
  funext i
  obtain ⟨p, q, rfl⟩ : ∃ (p : Fin 100000) (q : Fin 3), i = ix2 p q := ⟨i 0, i 1, eq_ix2 i⟩
  rw [slice2_axis0_eq]
  unfold rows3
  -- row p < 100000 of the padded table is row p of the table; the one-row bias at column q is the bias at q
  have hx : pad S106496x3 ![0, 0] ![6496, 0] ![0, 0] o z pads_S100000x3_S106496x3_064960_000 h_S_ (ix2 (⟨0 + p.val, by omega⟩ : Fin 106496) q) = o (ix2 p q) :=
    pad_apply_of_inside _ _ _ o z _ _ _ (ix2 p q) (fun a => by
      match a with
      | ⟨0, _⟩ => show 0 + p.val = 0 + p.val * (0 + 1); omega
      | ⟨1, _⟩ => show q.val = 0 + q.val * (0 + 1); omega)
  have hb : shapeCast S1x3 b shapeCasts_S3_S1x3 (ix2 (0 : Fin 1) q) = b (ix1 q) :=
    shapeCast_apply b shapeCasts_S3_S1x3 (ix2 (0 : Fin 1) q) (ix1 q) (by
      rw [Shape.rowMajor_val_two, Shape.rowMajor_val_one]; show q.val = 0 * 3 + q.val; omega)
  show FloatOps.addf (pad S106496x3 ![0, 0] ![6496, 0] ![0, 0] o z pads_S100000x3_S106496x3_064960_000 h_S_ (ix2 (⟨0 + p.val, by omega⟩ : Fin 106496) q)) (shapeCast S1x3 b shapeCasts_S3_S1x3 (ix2 (0 : Fin 1) q)) = _
  rw [hx, hb]
  unfold Cert.Spec.bias3
  show FloatOps.addf (o (ix2 p q)) (b (ix1 q)) = FloatOps.addf (o (ix2 p q)) (broadcastInDim _ _ _ (broadcastInDim _ _ _ b) (ix2 p q))
  rw [bias3_row]

end Cert.KernelIdeal.RegBr
end
-- ==== Proof.Take.lean ====
import proofs.«408855_j18219251269922_2_alg».proof.Proof.Gen.KernelIdeal.Frame
import proofs.«408855_j18219251269922_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.StableHlo.Predicate
import Idealize.ShloMosaic.Lib.ReduceAll
import proofs.«408855_j18219251269922_2_alg».proof.Pre_finite_inputs
import proofs.«408855_j18219251269922_2_alg».proof.Proof.Gen.Pre_finite_inputs
import proofs.«408855_j18219251269922_2_alg».proof.Defs
set_option maxRecDepth 16384

noncomputable section

namespace Cert.KernelIdeal.Take

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- An index vector wrapped (a negative word counts from the end of the 100000 nodes) and set as one column: what the
    program's gathers take as start indices. -/
abbrev colw (idx : IVec S3300000 32) : IVec S3300000x1 32 :=
  broadcastInDim S3300000x1 ![0] bcast_S3300000_S3300000x1_0 (select (cmpi .slt idx (broadcastInDim S3300000 ![] bcast_S_S3300000 (constantI S_ 32 0#32))) (addi idx (broadcastInDim S3300000 ![] bcast_S_S3300000 (constantI S_ 32 100000#32))) idx)

/-- The program's in-bounds mask of a wrapped index column: per edge, 0 ≤ word ≤ 99999. -/
abbrev inb (idx : IVec S3300000 32) : IVec S3300000 1 :=
  Host.reduce IntOp.andi (andi (cmpi .sge (colw idx) (broadcastInDim S3300000x1 ![] bcast_S_S3300000x1 (constantI S_ 32 0#32))) (cmpi .sle (colw idx) (broadcastInDim S3300000x1 ![0, 1] bcast_S1x1_S3300000x1_0_1 (broadcastInDim S1x1 ![1] bcast_S1_S1x1_1 (constantI S1 32 99999#32))))) (constantI S_ 1 1#1) reducesTo_S3300000x1_S3300000_d1 h_S_

/-- Every word of an index vector is a node number. -/
def InRange (idx : IVec S3300000 32) : Prop := ∀ e : S3300000.Idx, 0 ≤ (idx e).toInt ∧ (idx e).toInt < 100000

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- Wrapping leaves a nonnegative word alone: the test `w < 0` fails, so the select takes the word itself. -/
theorem wrap_word (w : BitVec 32) (hw : 0 ≤ w.toInt) :
    Scalar.select (IntOp.cmpi .slt w 0#32) (IntOp.addi w 100000#32) w = w := by
  have h0 : IntOp.cmpi .slt w 0#32 ≠ 1#1 := by
    rw [Ne, IntOp.cmpi_slt, show (0#32 : BitVec 32).toInt = 0 from by decide]
    omega
  exact if_neg h0

/-- Row i of the wrapped column of an in-range index vector is the vector's word i. -/
theorem colw_apply (idx : IVec S3300000 32) (h : InRange idx) (i : S3300000x1.Idx) :
    colw idx i = idx (Shape.Idx.ofFin (i 0)) := by
  have e : ∀ j : S3300000.Idx, (select (cmpi .slt idx (broadcastInDim S3300000 ![] bcast_S_S3300000 (constantI S_ 32 0#32))) (addi idx (broadcastInDim S3300000 ![] bcast_S_S3300000 (constantI S_ 32 100000#32))) idx) j = idx j :=
    fun j => wrap_word (idx j) (h j).1
  show (select (cmpi .slt idx (broadcastInDim S3300000 ![] bcast_S_S3300000 (constantI S_ 32 0#32))) (addi idx (broadcastInDim S3300000 ![] bcast_S_S3300000 (constantI S_ 32 100000#32))) idx) _ = _
  rw [e]
  congr 1
  funext a
  have ha : a = 0 := Subsingleton.elim _ _
  subst ha
  rfl

/-- The in-bounds mask of an in-range index vector is all ones: each edge's mask entry is the `and`, from 1, of the one
    entry 0 ≤ word ∧ word ≤ 99999 of its row, and the wrapped word is the word itself, a node number. -/
theorem inb_eq_ones (idx : IVec S3300000 32) (h : InRange idx) : inb idx = fun _ => 1#1 := by
  funext e
  show Host.reduce IntOp.andi _ _ _ _ e = 1#1
  rw [Host.reduce_eq_foldl]
  apply foldl_andi_ones
  intro i
  show IntOp.andi (IntOp.cmpi .sge (colw idx i) 0#32) (IntOp.cmpi .sle (colw idx i) 99999#32) = 1#1
  rw [colw_apply idx h i]
  have := h (Shape.Idx.ofFin (i 0))
  refine IntOp.andi_eq_one.2 ⟨IntOp.cmpi_sge.2 ?_, IntOp.cmpi_sle.2 ?_⟩
  · rw [show (0#32 : BitVec 32).toInt = 0 from by decide]; exact this.1
  · rw [show (99999#32 : BitVec 32).toInt = 99999 from by decide]; omega

/-- The program's filled take of a per-node vector (out-of-range reads replaced by the NaN pattern) is the plain
    gather at the wrapped words when every word is a node number: the in-bounds mask is all ones. -/
theorem take1_eq (x : FVec F S100000 .f32) (idx : IVec S3300000 32) (h : InRange idx) :
    select (inb idx) (Host.gather gather_S100000_S3300000x1_S3300000_n_0_n_n_0_1_1 x (colw idx)) (broadcastInDim S3300000 ![] bcast_S_S3300000 (constant S_ .f32 0x7FC00000#32))
      = Cert.Spec.take1 x idx := by
  rw [inb_eq_ones idx h]
  rfl

/-- The same for the rows of a node table of width 8. -/
theorem take8_eq (x : FVec F S100000x8 .f32) (idx : IVec S3300000 32) (h : InRange idx) :
    select (broadcastInDim S3300000x8 ![0] bcast_S3300000_S3300000x8_0 (inb idx)) (Host.gather gather_S100000x8_S3300000x1_S3300000x8_1_0_n_n_0_1_18 x (colw idx)) (broadcastInDim S3300000x8 ![] bcast_S_S3300000x8 (constant S_ .f32 0x7FC00000#32))
      = Cert.Spec.take8 x idx := by
  rw [inb_eq_ones idx h]
  rfl

/-- The same for the rows of a node table of width 16. -/
theorem take16_eq (x : FVec F S100000x16 .f32) (idx : IVec S3300000 32) (h : InRange idx) :
    select (broadcastInDim S3300000x16 ![0] bcast_S3300000_S3300000x16_0 (inb idx)) (Host.gather gather_S100000x16_S3300000x1_S3300000x16_1_0_n_n_0_1_116 x (colw idx)) (broadcastInDim S3300000x16 ![] bcast_S_S3300000x16 (constant S_ .f32 0x7FC00000#32))
      = Cert.Spec.take16 x idx := by
  rw [inb_eq_ones idx h]
  rfl

/-- The same for the rows of a node table of width 3. -/
theorem take3_eq (x : FVec F S100000x3 .f32) (idx : IVec S3300000 32) (h : InRange idx) :
    select (broadcastInDim S3300000x3 ![0] bcast_S3300000_S3300000x3_0 (inb idx)) (Host.gather gather_S100000x3_S3300000x1_S3300000x3_1_0_n_n_0_1_13 x (colw idx)) (broadcastInDim S3300000x3 ![] bcast_S_S3300000x3 (constant S_ .f32 0x7FC00000#32))
      = Cert.Spec.take3 x idx := by
  rw [inb_eq_ones idx h]
  rfl

/-- The given words of one row of the edge list followed by the node numbers 0 … 99999 are all node numbers: a position
    below 3200000 reads the row, a later position p reads the word p − 3200000 < 100000. -/
theorem cat_inRange (a : IVec Cert.ReferenceIdeal.S3200000 32)
    (ha : ∀ j, 0 ≤ (a j).toInt ∧ (a j).toInt < 100000) :
    InRange (concatenate Cert.ReferenceIdeal.S3300000 0 [⟨Cert.ReferenceIdeal.S3200000, a⟩, ⟨Cert.ReferenceIdeal.S100000, iotaInDim Cert.ReferenceIdeal.S100000 32 0⟩] Cert.ReferenceIdeal.Gen.concatenates_S3200000_S100000_S3300000_d0) := by
  intro e
  have hlt : (e 0).val < 3300000 := (e 0).isLt
  by_cases he : (e 0).val < 3200000
  · rw [concatenate_pair_apply_left (0 : Fin 1) a (iotaInDim Cert.ReferenceIdeal.S100000 32 0) Cert.ReferenceIdeal.Gen.concatenates_S3200000_S100000_S3300000_d0 e rfl (Shape.Idx.ofFin (n := 3200000) ⟨(e 0).val, he⟩) (fun b => by
      have hb : b = 0 := Subsingleton.elim _ _
      subst hb; rfl)]
    exact ha _
  · have he' : (e 0).val - 3200000 < 100000 := by omega
    rw [concatenate_pair_apply_right (0 : Fin 1) a (iotaInDim Cert.ReferenceIdeal.S100000 32 0) Cert.ReferenceIdeal.Gen.concatenates_S3200000_S100000_S3300000_d0 e rfl rfl (Shape.Idx.ofFin (n := 100000) ⟨(e 0).val - 3200000, he'⟩)
      (fun b hb => absurd (Subsingleton.elim _ _) hb) (by show (e 0).val - 3200000 + 3200000 = (e 0).val; omega)]
    rw [StableHlo.Predicate.iota_apply, StableHlo.Predicate.toInt_ofNat_small _ (by show (e 0).val - 3200000 < 2 ^ 31; omega)]
    constructor
    · exact Int.natCast_nonneg _
    · show (((e 0).val - 3200000 : Nat) : Int) < 100000
      omega

/-- Row r of the edge list, as a vector, read at position p is the edge list at (r, p); so its words are node numbers
    when all the edge list's are. -/
theorem row_inRange (ei : IVec S2x3200000 32) (h : ∀ i : S2x3200000.Idx, 0 ≤ (ei i).toInt ∧ (ei i).toInt < 100000)
    (r : Nat) (hr : r < 2) (hs : Cert.ReferenceIdeal.S2x3200000.Slices ![r, 0] Cert.ReferenceIdeal.S1x3200000)
    (j : Cert.ReferenceIdeal.S3200000.Idx) :
    0 ≤ (shapeCast Cert.ReferenceIdeal.S3200000 (extractStridedSlice Cert.ReferenceIdeal.S1x3200000 ![r, 0] ei hs) Cert.ReferenceIdeal.Gen.shapeCasts_S1x3200000_S3200000 j).toInt
      ∧ (shapeCast Cert.ReferenceIdeal.S3200000 (extractStridedSlice Cert.ReferenceIdeal.S1x3200000 ![r, 0] ei hs) Cert.ReferenceIdeal.Gen.shapeCasts_S1x3200000_S3200000 j).toInt < 100000 := by
  have hj : (j 0).val < 3200000 := (j 0).isLt
  have e : shapeCast Cert.ReferenceIdeal.S3200000 (extractStridedSlice Cert.ReferenceIdeal.S1x3200000 ![r, 0] ei hs) Cert.ReferenceIdeal.Gen.shapeCasts_S1x3200000_S3200000 j
      = ei (ix2 (⟨r, hr⟩ : Fin 2) (⟨(j 0).val, hj⟩ : Fin 3200000)) := by
    refine (shapeCast_apply _ _ j (ix2 (0 : Fin 1) (⟨(j 0).val, hj⟩ : Fin 3200000)) ?_).trans ?_
    · rw [Shape.rowMajor_val_two, Shape.rowMajor_val_one]
      show (0 : Nat) * _ + (j 0).val = (j 0).val
      omega
    · exact extractStridedSlice_apply _ _ _ _ (ix2 (⟨r, hr⟩ : Fin 2) (⟨(j 0).val, hj⟩ : Fin 3200000)) (fun a => by
        match a with
        | ⟨0, _⟩ => show r = r + 0; omega
        | ⟨1, _⟩ => show (j 0).val = 0 + (j 0).val; omega)
  have := h (ix2 (⟨r, hr⟩ : Fin 2) (⟨(j 0).val, hj⟩ : Fin 3200000))
  rw [← e] at this
  exact this

/-- If every word of the edge list is a node number, so is every source (the given sources, then the nodes themselves). -/
theorem srcA_inRange (ei : IVec S2x3200000 32) (h : ∀ i : S2x3200000.Idx, 0 ≤ (ei i).toInt ∧ (ei i).toInt < 100000) :
    InRange (Cert.Spec.srcA ei) := by
  unfold Cert.Spec.srcA
  exact cat_inRange _ (row_inRange ei h 0 (by decide) _)

/-- … and every destination. -/
theorem dstA_inRange (ei : IVec S2x3200000 32) (h : ∀ i : S2x3200000.Idx, 0 ≤ (ei i).toInt ∧ (ei i).toInt < 100000) :
    InRange (Cert.Spec.dstA ei) := by
  unfold Cert.Spec.dstA
  exact cat_inRange _ (row_inRange ei h 1 (by decide) _)

/-- The precondition's two index conjuncts, decoded: every word of the edge list is a node number. -/
theorem ei_inRange_of_pre [hP : Cert.Pre_finite_inputs.Facts] (m : (ℓ : Loc nD τ sig) → Buf (Elt Ideal) ℓ) (h : Cert.Pre_KernelIdeal m) (c : Dev nD) :
    ∀ i : S2x3200000.Idx, 0 ≤ ((m ((c.tc : Thread nD τ).loc main_arg1) : IVec S2x3200000 32) i).toInt ∧ ((m ((c.tc : Thread nD τ).loc main_arg1) : IVec S2x3200000 32) i).toInt < 100000 := by
  have hc := congrFun (h c) ValueIdx.ix0
  dsimp only [Cert.Pre_finite_inputs.fn, Cert.Pre_finite_inputs.fn_part1, Cert.Pre_finite_inputs.fn_part2] at hc
  obtain ⟨h1, hlt⟩ := IntOp.andi_eq_one.1 hc
  obtain ⟨_, hge⟩ := IntOp.andi_eq_one.1 h1
  haveI : Subsingleton Cert.Pre_finite_inputs.S_.Idx := ⟨fun a b => funext fun d => d.elim0⟩
  intro i
  have a := Host.reduce_andi_all _ _ _ _ _ hge i
  have b := Host.reduce_andi_all _ _ _ _ _ hlt i
  have a' := IntOp.cmpi_sge.1 a
  have b' := IntOp.cmpi_slt.1 b
  change (0#32 : BitVec 32).toInt ≤ _ at a'
  change _ < (100000#32 : BitVec 32).toInt at b'
  rw [show (0#32 : BitVec 32).toInt = 0 from by decide] at a'
  rw [show (100000#32 : BitVec 32).toInt = 100000 from by decide] at b'
  exact ⟨a', b'⟩

end Cert.KernelIdeal.Take
end
-- ==== Proof.Casts.lean ====
import proofs.«408855_j18219251269922_2_alg».proof.KernelIdeal
import proofs.«408855_j18219251269922_2_alg».proof.Proof.Gen.KernelIdeal

set_option maxRecDepth 16384

noncomputable section

namespace Cert.KernelIdeal.Casts

open Cert.KernelIdeal Cert.KernelIdeal.Gen Idealize.ShloMosaic Idealize.ShloMosaic.StableHlo

variable {Val : EltTy → Type}

/-! A tensor value's buffer has the value's type, so contents carried to the buffer's own type, or back, are the
    contents themselves (the transport is along an equation between two spellings of one type). -/

theorem ofBuf_main_arg0 (h1 : main_arg0.ty = (⟨S100000x2, .f32⟩ : BufTy)) (h2 : main_arg0.space ≠ .host) (h3 : main_arg0.isScoped = false) (v : (⟨S100000x2, .f32⟩ : BufTy).Contents Val) :
    (TRef.of (sig := sig) (T := ⟨S100000x2, .f32⟩) main_arg0 h1 h2 h3).ofBuf (Val := Val) v = v := rfl
theorem toBuf_main_arg0 (h1 : main_arg0.ty = (⟨S100000x2, .f32⟩ : BufTy)) (h2 : main_arg0.space ≠ .host) (h3 : main_arg0.isScoped = false) (v : (⟨S100000x2, .f32⟩ : BufTy).Contents Val) :
    (TRef.of (sig := sig) (T := ⟨S100000x2, .f32⟩) main_arg0 h1 h2 h3).toBuf (Val := Val) v = v := rfl
theorem ofBuf_main_arg1 (h1 : main_arg1.ty = (⟨S2x3200000, .i32⟩ : BufTy)) (h2 : main_arg1.space ≠ .host) (h3 : main_arg1.isScoped = false) (v : (⟨S2x3200000, .i32⟩ : BufTy).Contents Val) :
    (TRef.of (sig := sig) (T := ⟨S2x3200000, .i32⟩) main_arg1 h1 h2 h3).ofBuf (Val := Val) v = v := rfl
theorem toBuf_main_arg1 (h1 : main_arg1.ty = (⟨S2x3200000, .i32⟩ : BufTy)) (h2 : main_arg1.space ≠ .host) (h3 : main_arg1.isScoped = false) (v : (⟨S2x3200000, .i32⟩ : BufTy).Contents Val) :
    (TRef.of (sig := sig) (T := ⟨S2x3200000, .i32⟩) main_arg1 h1 h2 h3).toBuf (Val := Val) v = v := rfl
theorem ofBuf_main_arg2 (h1 : main_arg2.ty = (⟨S3200000, .f32⟩ : BufTy)) (h2 : main_arg2.space ≠ .host) (h3 : main_arg2.isScoped = false) (v : (⟨S3200000, .f32⟩ : BufTy).Contents Val) :
    (TRef.of (sig := sig) (T := ⟨S3200000, .f32⟩) main_arg2 h1 h2 h3).ofBuf (Val := Val) v = v := rfl
theorem toBuf_main_arg2 (h1 : main_arg2.ty = (⟨S3200000, .f32⟩ : BufTy)) (h2 : main_arg2.space ≠ .host) (h3 : main_arg2.isScoped = false) (v : (⟨S3200000, .f32⟩ : BufTy).Contents Val) :
    (TRef.of (sig := sig) (T := ⟨S3200000, .f32⟩) main_arg2 h1 h2 h3).toBuf (Val := Val) v = v := rfl
theorem ofBuf_main_arg3 (h1 : main_arg3.ty = (⟨S2x8, .f32⟩ : BufTy)) (h2 : main_arg3.space ≠ .host) (h3 : main_arg3.isScoped = false) (v : (⟨S2x8, .f32⟩ : BufTy).Contents Val) :
    (TRef.of (sig := sig) (T := ⟨S2x8, .f32⟩) main_arg3 h1 h2 h3).ofBuf (Val := Val) v = v := rfl
theorem toBuf_main_arg3 (h1 : main_arg3.ty = (⟨S2x8, .f32⟩ : BufTy)) (h2 : main_arg3.space ≠ .host) (h3 : main_arg3.isScoped = false) (v : (⟨S2x8, .f32⟩ : BufTy).Contents Val) :
    (TRef.of (sig := sig) (T := ⟨S2x8, .f32⟩) main_arg3 h1 h2 h3).toBuf (Val := Val) v = v := rfl
theorem ofBuf_main_arg4 (h1 : main_arg4.ty = (⟨S8, .f32⟩ : BufTy)) (h2 : main_arg4.space ≠ .host) (h3 : main_arg4.isScoped = false) (v : (⟨S8, .f32⟩ : BufTy).Contents Val) :
    (TRef.of (sig := sig) (T := ⟨S8, .f32⟩) main_arg4 h1 h2 h3).ofBuf (Val := Val) v = v := rfl
theorem toBuf_main_arg4 (h1 : main_arg4.ty = (⟨S8, .f32⟩ : BufTy)) (h2 : main_arg4.space ≠ .host) (h3 : main_arg4.isScoped = false) (v : (⟨S8, .f32⟩ : BufTy).Contents Val) :
    (TRef.of (sig := sig) (T := ⟨S8, .f32⟩) main_arg4 h1 h2 h3).toBuf (Val := Val) v = v := rfl
theorem ofBuf_main_arg5 (h1 : main_arg5.ty = (⟨S8x16, .f32⟩ : BufTy)) (h2 : main_arg5.space ≠ .host) (h3 : main_arg5.isScoped = false) (v : (⟨S8x16, .f32⟩ : BufTy).Contents Val) :
    (TRef.of (sig := sig) (T := ⟨S8x16, .f32⟩) main_arg5 h1 h2 h3).ofBuf (Val := Val) v = v := rfl
theorem toBuf_main_arg5 (h1 : main_arg5.ty = (⟨S8x16, .f32⟩ : BufTy)) (h2 : main_arg5.space ≠ .host) (h3 : main_arg5.isScoped = false) (v : (⟨S8x16, .f32⟩ : BufTy).Contents Val) :
    (TRef.of (sig := sig) (T := ⟨S8x16, .f32⟩) main_arg5 h1 h2 h3).toBuf (Val := Val) v = v := rfl
theorem ofBuf_main_arg6 (h1 : main_arg6.ty = (⟨S16, .f32⟩ : BufTy)) (h2 : main_arg6.space ≠ .host) (h3 : main_arg6.isScoped = false) (v : (⟨S16, .f32⟩ : BufTy).Contents Val) :
    (TRef.of (sig := sig) (T := ⟨S16, .f32⟩) main_arg6 h1 h2 h3).ofBuf (Val := Val) v = v := rfl
theorem toBuf_main_arg6 (h1 : main_arg6.ty = (⟨S16, .f32⟩ : BufTy)) (h2 : main_arg6.space ≠ .host) (h3 : main_arg6.isScoped = false) (v : (⟨S16, .f32⟩ : BufTy).Contents Val) :
    (TRef.of (sig := sig) (T := ⟨S16, .f32⟩) main_arg6 h1 h2 h3).toBuf (Val := Val) v = v := rfl
theorem ofBuf_main_arg7 (h1 : main_arg7.ty = (⟨S16x3, .f32⟩ : BufTy)) (h2 : main_arg7.space ≠ .host) (h3 : main_arg7.isScoped = false) (v : (⟨S16x3, .f32⟩ : BufTy).Contents Val) :
    (TRef.of (sig := sig) (T := ⟨S16x3, .f32⟩) main_arg7 h1 h2 h3).ofBuf (Val := Val) v = v := rfl
theorem toBuf_main_arg7 (h1 : main_arg7.ty = (⟨S16x3, .f32⟩ : BufTy)) (h2 : main_arg7.space ≠ .host) (h3 : main_arg7.isScoped = false) (v : (⟨S16x3, .f32⟩ : BufTy).Contents Val) :
    (TRef.of (sig := sig) (T := ⟨S16x3, .f32⟩) main_arg7 h1 h2 h3).toBuf (Val := Val) v = v := rfl
theorem ofBuf_main_arg8 (h1 : main_arg8.ty = (⟨S3, .f32⟩ : BufTy)) (h2 : main_arg8.space ≠ .host) (h3 : main_arg8.isScoped = false) (v : (⟨S3, .f32⟩ : BufTy).Contents Val) :
    (TRef.of (sig := sig) (T := ⟨S3, .f32⟩) main_arg8 h1 h2 h3).ofBuf (Val := Val) v = v := rfl
theorem toBuf_main_arg8 (h1 : main_arg8.ty = (⟨S3, .f32⟩ : BufTy)) (h2 : main_arg8.space ≠ .host) (h3 : main_arg8.isScoped = false) (v : (⟨S3, .f32⟩ : BufTy).Contents Val) :
    (TRef.of (sig := sig) (T := ⟨S3, .f32⟩) main_arg8 h1 h2 h3).toBuf (Val := Val) v = v := rfl
theorem ofBuf_main_v0 (h1 : main_v0.ty = (⟨S1x3200000, .i32⟩ : BufTy)) (h2 : main_v0.space ≠ .host) (h3 : main_v0.isScoped = false) (v : (⟨S1x3200000, .i32⟩ : BufTy).Contents Val) :
    (TRef.of (sig := sig) (T := ⟨S1x3200000, .i32⟩) main_v0 h1 h2 h3).ofBuf (Val := Val) v = v := rfl
theorem toBuf_main_v0 (h1 : main_v0.ty = (⟨S1x3200000, .i32⟩ : BufTy)) (h2 : main_v0.space ≠ .host) (h3 : main_v0.isScoped = false) (v : (⟨S1x3200000, .i32⟩ : BufTy).Contents Val) :
    (TRef.of (sig := sig) (T := ⟨S1x3200000, .i32⟩) main_v0 h1 h2 h3).toBuf (Val := Val) v = v := rfl
theorem ofBuf_main_v1 (h1 : main_v1.ty = (⟨S3200000, .i32⟩ : BufTy)) (h2 : main_v1.space ≠ .host) (h3 : main_v1.isScoped = false) (v : (⟨S3200000, .i32⟩ : BufTy).Contents Val) :
    (TRef.of (sig := sig) (T := ⟨S3200000, .i32⟩) main_v1 h1 h2 h3).ofBuf (Val := Val) v = v := rfl
theorem toBuf_main_v1 (h1 : main_v1.ty = (⟨S3200000, .i32⟩ : BufTy)) (h2 : main_v1.space ≠ .host) (h3 : main_v1.isScoped = false) (v : (⟨S3200000, .i32⟩ : BufTy).Contents Val) :
    (TRef.of (sig := sig) (T := ⟨S3200000, .i32⟩) main_v1 h1 h2 h3).toBuf (Val := Val) v = v := rfl
theorem ofBuf_main_v2 (h1 : main_v2.ty = (⟨S1x3200000, .i32⟩ : BufTy)) (h2 : main_v2.space ≠ .host) (h3 : main_v2.isScoped = false) (v : (⟨S1x3200000, .i32⟩ : BufTy).Contents Val) :
    (TRef.of (sig := sig) (T := ⟨S1x3200000, .i32⟩) main_v2 h1 h2 h3).ofBuf (Val := Val) v = v := rfl
theorem toBuf_main_v2 (h1 : main_v2.ty = (⟨S1x3200000, .i32⟩ : BufTy)) (h2 : main_v2.space ≠ .host) (h3 : main_v2.isScoped = false) (v : (⟨S1x3200000, .i32⟩ : BufTy).Contents Val) :
    (TRef.of (sig := sig) (T := ⟨S1x3200000, .i32⟩) main_v2 h1 h2 h3).toBuf (Val := Val) v = v := rfl
theorem ofBuf_main_v3 (h1 : main_v3.ty = (⟨S3200000, .i32⟩ : BufTy)) (h2 : main_v3.space ≠ .host) (h3 : main_v3.isScoped = false) (v : (⟨S3200000, .i32⟩ : BufTy).Contents Val) :
    (TRef.of (sig := sig) (T := ⟨S3200000, .i32⟩) main_v3 h1 h2 h3).ofBuf (Val := Val) v = v := rfl
theorem toBuf_main_v3 (h1 : main_v3.ty = (⟨S3200000, .i32⟩ : BufTy)) (h2 : main_v3.space ≠ .host) (h3 : main_v3.isScoped = false) (v : (⟨S3200000, .i32⟩ : BufTy).Contents Val) :
    (TRef.of (sig := sig) (T := ⟨S3200000, .i32⟩) main_v3 h1 h2 h3).toBuf (Val := Val) v = v := rfl
theorem ofBuf_main_v4 (h1 : main_v4.ty = (⟨S100000, .i32⟩ : BufTy)) (h2 : main_v4.space ≠ .host) (h3 : main_v4.isScoped = false) (v : (⟨S100000, .i32⟩ : BufTy).Contents Val) :
    (TRef.of (sig := sig) (T := ⟨S100000, .i32⟩) main_v4 h1 h2 h3).ofBuf (Val := Val) v = v := rfl
theorem toBuf_main_v4 (h1 : main_v4.ty = (⟨S100000, .i32⟩ : BufTy)) (h2 : main_v4.space ≠ .host) (h3 : main_v4.isScoped = false) (v : (⟨S100000, .i32⟩ : BufTy).Contents Val) :
    (TRef.of (sig := sig) (T := ⟨S100000, .i32⟩) main_v4 h1 h2 h3).toBuf (Val := Val) v = v := rfl
theorem ofBuf_main_v5 (h1 : main_v5.ty = (⟨S3300000, .i32⟩ : BufTy)) (h2 : main_v5.space ≠ .host) (h3 : main_v5.isScoped = false) (v : (⟨S3300000, .i32⟩ : BufTy).Contents Val) :
    (TRef.of (sig := sig) (T := ⟨S3300000, .i32⟩) main_v5 h1 h2 h3).ofBuf (Val := Val) v = v := rfl
theorem toBuf_main_v5 (h1 : main_v5.ty = (⟨S3300000, .i32⟩ : BufTy)) (h2 : main_v5.space ≠ .host) (h3 : main_v5.isScoped = false) (v : (⟨S3300000, .i32⟩ : BufTy).Contents Val) :
    (TRef.of (sig := sig) (T := ⟨S3300000, .i32⟩) main_v5 h1 h2 h3).toBuf (Val := Val) v = v := rfl
theorem ofBuf_main_v6 (h1 : main_v6.ty = (⟨S3300000, .i32⟩ : BufTy)) (h2 : main_v6.space ≠ .host) (h3 : main_v6.isScoped = false) (v : (⟨S3300000, .i32⟩ : BufTy).Contents Val) :
    (TRef.of (sig := sig) (T := ⟨S3300000, .i32⟩) main_v6 h1 h2 h3).ofBuf (Val := Val) v = v := rfl
theorem toBuf_main_v6 (h1 : main_v6.ty = (⟨S3300000, .i32⟩ : BufTy)) (h2 : main_v6.space ≠ .host) (h3 : main_v6.isScoped = false) (v : (⟨S3300000, .i32⟩ : BufTy).Contents Val) :
    (TRef.of (sig := sig) (T := ⟨S3300000, .i32⟩) main_v6 h1 h2 h3).toBuf (Val := Val) v = v := rfl
theorem ofBuf_main_cst (h1 : main_cst.ty = (⟨S_, .f32⟩ : BufTy)) (h2 : main_cst.space ≠ .host) (h3 : main_cst.isScoped = false) (v : (⟨S_, .f32⟩ : BufTy).Contents Val) :
    (TRef.of (sig := sig) (T := ⟨S_, .f32⟩) main_cst h1 h2 h3).ofBuf (Val := Val) v = v := rfl
theorem toBuf_main_cst (h1 : main_cst.ty = (⟨S_, .f32⟩ : BufTy)) (h2 : main_cst.space ≠ .host) (h3 : main_cst.isScoped = false) (v : (⟨S_, .f32⟩ : BufTy).Contents Val) :
    (TRef.of (sig := sig) (T := ⟨S_, .f32⟩) main_cst h1 h2 h3).toBuf (Val := Val) v = v := rfl
theorem ofBuf_main_v7 (h1 : main_v7.ty = (⟨S100000, .f32⟩ : BufTy)) (h2 : main_v7.space ≠ .host) (h3 : main_v7.isScoped = false) (v : (⟨S100000, .f32⟩ : BufTy).Contents Val) :
    (TRef.of (sig := sig) (T := ⟨S100000, .f32⟩) main_v7 h1 h2 h3).ofBuf (Val := Val) v = v := rfl
theorem toBuf_main_v7 (h1 : main_v7.ty = (⟨S100000, .f32⟩ : BufTy)) (h2 : main_v7.space ≠ .host) (h3 : main_v7.isScoped = false) (v : (⟨S100000, .f32⟩ : BufTy).Contents Val) :
    (TRef.of (sig := sig) (T := ⟨S100000, .f32⟩) main_v7 h1 h2 h3).toBuf (Val := Val) v = v := rfl
theorem ofBuf_main_v8 (h1 : main_v8.ty = (⟨S3300000, .f32⟩ : BufTy)) (h2 : main_v8.space ≠ .host) (h3 : main_v8.isScoped = false) (v : (⟨S3300000, .f32⟩ : BufTy).Contents Val) :
    (TRef.of (sig := sig) (T := ⟨S3300000, .f32⟩) main_v8 h1 h2 h3).ofBuf (Val := Val) v = v := rfl
theorem toBuf_main_v8 (h1 : main_v8.ty = (⟨S3300000, .f32⟩ : BufTy)) (h2 : main_v8.space ≠ .host) (h3 : main_v8.isScoped = false) (v : (⟨S3300000, .f32⟩ : BufTy).Contents Val) :
    (TRef.of (sig := sig) (T := ⟨S3300000, .f32⟩) main_v8 h1 h2 h3).toBuf (Val := Val) v = v := rfl
theorem ofBuf_main_cst_0 (h1 : main_cst_0.ty = (⟨S_, .f32⟩ : BufTy)) (h2 : main_cst_0.space ≠ .host) (h3 : main_cst_0.isScoped = false) (v : (⟨S_, .f32⟩ : BufTy).Contents Val) :
    (TRef.of (sig := sig) (T := ⟨S_, .f32⟩) main_cst_0 h1 h2 h3).ofBuf (Val := Val) v = v := rfl
theorem toBuf_main_cst_0 (h1 : main_cst_0.ty = (⟨S_, .f32⟩ : BufTy)) (h2 : main_cst_0.space ≠ .host) (h3 : main_cst_0.isScoped = false) (v : (⟨S_, .f32⟩ : BufTy).Contents Val) :
    (TRef.of (sig := sig) (T := ⟨S_, .f32⟩) main_cst_0 h1 h2 h3).toBuf (Val := Val) v = v := rfl
theorem ofBuf_main_v9 (h1 : main_v9.ty = (⟨S100000, .f32⟩ : BufTy)) (h2 : main_v9.space ≠ .host) (h3 : main_v9.isScoped = false) (v : (⟨S100000, .f32⟩ : BufTy).Contents Val) :
    (TRef.of (sig := sig) (T := ⟨S100000, .f32⟩) main_v9 h1 h2 h3).ofBuf (Val := Val) v = v := rfl
theorem toBuf_main_v9 (h1 : main_v9.ty = (⟨S100000, .f32⟩ : BufTy)) (h2 : main_v9.space ≠ .host) (h3 : main_v9.isScoped = false) (v : (⟨S100000, .f32⟩ : BufTy).Contents Val) :
    (TRef.of (sig := sig) (T := ⟨S100000, .f32⟩) main_v9 h1 h2 h3).toBuf (Val := Val) v = v := rfl
theorem ofBuf_main_v10 (h1 : main_v10.ty = (⟨S3300000x1, .i32⟩ : BufTy)) (h2 : main_v10.space ≠ .host) (h3 : main_v10.isScoped = false) (v : (⟨S3300000x1, .i32⟩ : BufTy).Contents Val) :
    (TRef.of (sig := sig) (T := ⟨S3300000x1, .i32⟩) main_v10 h1 h2 h3).ofBuf (Val := Val) v = v := rfl
theorem toBuf_main_v10 (h1 : main_v10.ty = (⟨S3300000x1, .i32⟩ : BufTy)) (h2 : main_v10.space ≠ .host) (h3 : main_v10.isScoped = false) (v : (⟨S3300000x1, .i32⟩ : BufTy).Contents Val) :
    (TRef.of (sig := sig) (T := ⟨S3300000x1, .i32⟩) main_v10 h1 h2 h3).toBuf (Val := Val) v = v := rfl
theorem ofBuf_main_v11 (h1 : main_v11.ty = (⟨S100000, .f32⟩ : BufTy)) (h2 : main_v11.space ≠ .host) (h3 : main_v11.isScoped = false) (v : (⟨S100000, .f32⟩ : BufTy).Contents Val) :
    (TRef.of (sig := sig) (T := ⟨S100000, .f32⟩) main_v11 h1 h2 h3).ofBuf (Val := Val) v = v := rfl
theorem toBuf_main_v11 (h1 : main_v11.ty = (⟨S100000, .f32⟩ : BufTy)) (h2 : main_v11.space ≠ .host) (h3 : main_v11.isScoped = false) (v : (⟨S100000, .f32⟩ : BufTy).Contents Val) :
    (TRef.of (sig := sig) (T := ⟨S100000, .f32⟩) main_v11 h1 h2 h3).toBuf (Val := Val) v = v := rfl
theorem ofBuf_main_cst_1 (h1 : main_cst_1.ty = (⟨S_, .f32⟩ : BufTy)) (h2 : main_cst_1.space ≠ .host) (h3 : main_cst_1.isScoped = false) (v : (⟨S_, .f32⟩ : BufTy).Contents Val) :
    (TRef.of (sig := sig) (T := ⟨S_, .f32⟩) main_cst_1 h1 h2 h3).ofBuf (Val := Val) v = v := rfl
theorem toBuf_main_cst_1 (h1 : main_cst_1.ty = (⟨S_, .f32⟩ : BufTy)) (h2 : main_cst_1.space ≠ .host) (h3 : main_cst_1.isScoped = false) (v : (⟨S_, .f32⟩ : BufTy).Contents Val) :
    (TRef.of (sig := sig) (T := ⟨S_, .f32⟩) main_cst_1 h1 h2 h3).toBuf (Val := Val) v = v := rfl
theorem ofBuf_main_v12 (h1 : main_v12.ty = (⟨S100000, .f32⟩ : BufTy)) (h2 : main_v12.space ≠ .host) (h3 : main_v12.isScoped = false) (v : (⟨S100000, .f32⟩ : BufTy).Contents Val) :
    (TRef.of (sig := sig) (T := ⟨S100000, .f32⟩) main_v12 h1 h2 h3).ofBuf (Val := Val) v = v := rfl
theorem toBuf_main_v12 (h1 : main_v12.ty = (⟨S100000, .f32⟩ : BufTy)) (h2 : main_v12.space ≠ .host) (h3 : main_v12.isScoped = false) (v : (⟨S100000, .f32⟩ : BufTy).Contents Val) :
    (TRef.of (sig := sig) (T := ⟨S100000, .f32⟩) main_v12 h1 h2 h3).toBuf (Val := Val) v = v := rfl
theorem ofBuf_main_v13 (h1 : main_v13.ty = (⟨S100000, .i1⟩ : BufTy)) (h2 : main_v13.space ≠ .host) (h3 : main_v13.isScoped = false) (v : (⟨S100000, .i1⟩ : BufTy).Contents Val) :
    (TRef.of (sig := sig) (T := ⟨S100000, .i1⟩) main_v13 h1 h2 h3).ofBuf (Val := Val) v = v := rfl
theorem toBuf_main_v13 (h1 : main_v13.ty = (⟨S100000, .i1⟩ : BufTy)) (h2 : main_v13.space ≠ .host) (h3 : main_v13.isScoped = false) (v : (⟨S100000, .i1⟩ : BufTy).Contents Val) :
    (TRef.of (sig := sig) (T := ⟨S100000, .i1⟩) main_v13 h1 h2 h3).toBuf (Val := Val) v = v := rfl
theorem ofBuf_main_v14 (h1 : main_v14.ty = (⟨S100000, .f32⟩ : BufTy)) (h2 : main_v14.space ≠ .host) (h3 : main_v14.isScoped = false) (v : (⟨S100000, .f32⟩ : BufTy).Contents Val) :
    (TRef.of (sig := sig) (T := ⟨S100000, .f32⟩) main_v14 h1 h2 h3).ofBuf (Val := Val) v = v := rfl
theorem toBuf_main_v14 (h1 : main_v14.ty = (⟨S100000, .f32⟩ : BufTy)) (h2 : main_v14.space ≠ .host) (h3 : main_v14.isScoped = false) (v : (⟨S100000, .f32⟩ : BufTy).Contents Val) :
    (TRef.of (sig := sig) (T := ⟨S100000, .f32⟩) main_v14 h1 h2 h3).toBuf (Val := Val) v = v := rfl
theorem ofBuf_main_cst_2 (h1 : main_cst_2.ty = (⟨S_, .f32⟩ : BufTy)) (h2 : main_cst_2.space ≠ .host) (h3 : main_cst_2.isScoped = false) (v : (⟨S_, .f32⟩ : BufTy).Contents Val) :
    (TRef.of (sig := sig) (T := ⟨S_, .f32⟩) main_cst_2 h1 h2 h3).ofBuf (Val := Val) v = v := rfl
theorem toBuf_main_cst_2 (h1 : main_cst_2.ty = (⟨S_, .f32⟩ : BufTy)) (h2 : main_cst_2.space ≠ .host) (h3 : main_cst_2.isScoped = false) (v : (⟨S_, .f32⟩ : BufTy).Contents Val) :
    (TRef.of (sig := sig) (T := ⟨S_, .f32⟩) main_cst_2 h1 h2 h3).toBuf (Val := Val) v = v := rfl
theorem ofBuf_main_call0_v0 (h1 : main_call0_v0.ty = (⟨S_, .f32⟩ : BufTy)) (h2 : main_call0_v0.space ≠ .host) (h3 : main_call0_v0.isScoped = false) (v : (⟨S_, .f32⟩ : BufTy).Contents Val) :
    (TRef.of (sig := sig) (T := ⟨S_, .f32⟩) main_call0_v0 h1 h2 h3).ofBuf (Val := Val) v = v := rfl
theorem toBuf_main_call0_v0 (h1 : main_call0_v0.ty = (⟨S_, .f32⟩ : BufTy)) (h2 : main_call0_v0.space ≠ .host) (h3 : main_call0_v0.isScoped = false) (v : (⟨S_, .f32⟩ : BufTy).Contents Val) :
    (TRef.of (sig := sig) (T := ⟨S_, .f32⟩) main_call0_v0 h1 h2 h3).toBuf (Val := Val) v = v := rfl
theorem ofBuf_main_call0_v1 (h1 : main_call0_v1.ty = (⟨S100000, .f32⟩ : BufTy)) (h2 : main_call0_v1.space ≠ .host) (h3 : main_call0_v1.isScoped = false) (v : (⟨S100000, .f32⟩ : BufTy).Contents Val) :
    (TRef.of (sig := sig) (T := ⟨S100000, .f32⟩) main_call0_v1 h1 h2 h3).ofBuf (Val := Val) v = v := rfl
theorem toBuf_main_call0_v1 (h1 : main_call0_v1.ty = (⟨S100000, .f32⟩ : BufTy)) (h2 : main_call0_v1.space ≠ .host) (h3 : main_call0_v1.isScoped = false) (v : (⟨S100000, .f32⟩ : BufTy).Contents Val) :
    (TRef.of (sig := sig) (T := ⟨S100000, .f32⟩) main_call0_v1 h1 h2 h3).toBuf (Val := Val) v = v := rfl
theorem ofBuf_main_v15 (h1 : main_v15.ty = (⟨S100000, .f32⟩ : BufTy)) (h2 : main_v15.space ≠ .host) (h3 : main_v15.isScoped = false) (v : (⟨S100000, .f32⟩ : BufTy).Contents Val) :
    (TRef.of (sig := sig) (T := ⟨S100000, .f32⟩) main_v15 h1 h2 h3).ofBuf (Val := Val) v = v := rfl
theorem toBuf_main_v15 (h1 : main_v15.ty = (⟨S100000, .f32⟩ : BufTy)) (h2 : main_v15.space ≠ .host) (h3 : main_v15.isScoped = false) (v : (⟨S100000, .f32⟩ : BufTy).Contents Val) :
    (TRef.of (sig := sig) (T := ⟨S100000, .f32⟩) main_v15 h1 h2 h3).toBuf (Val := Val) v = v := rfl
theorem ofBuf_main_call1_c (h1 : main_call1_c.ty = (⟨S_, .i32⟩ : BufTy)) (h2 : main_call1_c.space ≠ .host) (h3 : main_call1_c.isScoped = false) (v : (⟨S_, .i32⟩ : BufTy).Contents Val) :
    (TRef.of (sig := sig) (T := ⟨S_, .i32⟩) main_call1_c h1 h2 h3).ofBuf (Val := Val) v = v := rfl
theorem toBuf_main_call1_c (h1 : main_call1_c.ty = (⟨S_, .i32⟩ : BufTy)) (h2 : main_call1_c.space ≠ .host) (h3 : main_call1_c.isScoped = false) (v : (⟨S_, .i32⟩ : BufTy).Contents Val) :
    (TRef.of (sig := sig) (T := ⟨S_, .i32⟩) main_call1_c h1 h2 h3).toBuf (Val := Val) v = v := rfl
theorem ofBuf_main_call1_v0 (h1 : main_call1_v0.ty = (⟨S3300000, .i32⟩ : BufTy)) (h2 : main_call1_v0.space ≠ .host) (h3 : main_call1_v0.isScoped = false) (v : (⟨S3300000, .i32⟩ : BufTy).Contents Val) :
    (TRef.of (sig := sig) (T := ⟨S3300000, .i32⟩) main_call1_v0 h1 h2 h3).ofBuf (Val := Val) v = v := rfl
theorem toBuf_main_call1_v0 (h1 : main_call1_v0.ty = (⟨S3300000, .i32⟩ : BufTy)) (h2 : main_call1_v0.space ≠ .host) (h3 : main_call1_v0.isScoped = false) (v : (⟨S3300000, .i32⟩ : BufTy).Contents Val) :
    (TRef.of (sig := sig) (T := ⟨S3300000, .i32⟩) main_call1_v0 h1 h2 h3).toBuf (Val := Val) v = v := rfl
theorem ofBuf_main_call1_v1 (h1 : main_call1_v1.ty = (⟨S3300000, .i1⟩ : BufTy)) (h2 : main_call1_v1.space ≠ .host) (h3 : main_call1_v1.isScoped = false) (v : (⟨S3300000, .i1⟩ : BufTy).Contents Val) :
    (TRef.of (sig := sig) (T := ⟨S3300000, .i1⟩) main_call1_v1 h1 h2 h3).ofBuf (Val := Val) v = v := rfl
theorem toBuf_main_call1_v1 (h1 : main_call1_v1.ty = (⟨S3300000, .i1⟩ : BufTy)) (h2 : main_call1_v1.space ≠ .host) (h3 : main_call1_v1.isScoped = false) (v : (⟨S3300000, .i1⟩ : BufTy).Contents Val) :
    (TRef.of (sig := sig) (T := ⟨S3300000, .i1⟩) main_call1_v1 h1 h2 h3).toBuf (Val := Val) v = v := rfl
theorem ofBuf_main_call1_c_0 (h1 : main_call1_c_0.ty = (⟨S_, .i32⟩ : BufTy)) (h2 : main_call1_c_0.space ≠ .host) (h3 : main_call1_c_0.isScoped = false) (v : (⟨S_, .i32⟩ : BufTy).Contents Val) :
    (TRef.of (sig := sig) (T := ⟨S_, .i32⟩) main_call1_c_0 h1 h2 h3).ofBuf (Val := Val) v = v := rfl
theorem toBuf_main_call1_c_0 (h1 : main_call1_c_0.ty = (⟨S_, .i32⟩ : BufTy)) (h2 : main_call1_c_0.space ≠ .host) (h3 : main_call1_c_0.isScoped = false) (v : (⟨S_, .i32⟩ : BufTy).Contents Val) :
    (TRef.of (sig := sig) (T := ⟨S_, .i32⟩) main_call1_c_0 h1 h2 h3).toBuf (Val := Val) v = v := rfl
theorem ofBuf_main_call1_v2 (h1 : main_call1_v2.ty = (⟨S3300000, .i32⟩ : BufTy)) (h2 : main_call1_v2.space ≠ .host) (h3 : main_call1_v2.isScoped = false) (v : (⟨S3300000, .i32⟩ : BufTy).Contents Val) :
    (TRef.of (sig := sig) (T := ⟨S3300000, .i32⟩) main_call1_v2 h1 h2 h3).ofBuf (Val := Val) v = v := rfl
theorem toBuf_main_call1_v2 (h1 : main_call1_v2.ty = (⟨S3300000, .i32⟩ : BufTy)) (h2 : main_call1_v2.space ≠ .host) (h3 : main_call1_v2.isScoped = false) (v : (⟨S3300000, .i32⟩ : BufTy).Contents Val) :
    (TRef.of (sig := sig) (T := ⟨S3300000, .i32⟩) main_call1_v2 h1 h2 h3).toBuf (Val := Val) v = v := rfl
theorem ofBuf_main_call1_v3 (h1 : main_call1_v3.ty = (⟨S3300000, .i32⟩ : BufTy)) (h2 : main_call1_v3.space ≠ .host) (h3 : main_call1_v3.isScoped = false) (v : (⟨S3300000, .i32⟩ : BufTy).Contents Val) :
    (TRef.of (sig := sig) (T := ⟨S3300000, .i32⟩) main_call1_v3 h1 h2 h3).ofBuf (Val := Val) v = v := rfl
theorem toBuf_main_call1_v3 (h1 : main_call1_v3.ty = (⟨S3300000, .i32⟩ : BufTy)) (h2 : main_call1_v3.space ≠ .host) (h3 : main_call1_v3.isScoped = false) (v : (⟨S3300000, .i32⟩ : BufTy).Contents Val) :
    (TRef.of (sig := sig) (T := ⟨S3300000, .i32⟩) main_call1_v3 h1 h2 h3).toBuf (Val := Val) v = v := rfl
theorem ofBuf_main_call1_v4 (h1 : main_call1_v4.ty = (⟨S3300000, .i32⟩ : BufTy)) (h2 : main_call1_v4.space ≠ .host) (h3 : main_call1_v4.isScoped = false) (v : (⟨S3300000, .i32⟩ : BufTy).Contents Val) :
    (TRef.of (sig := sig) (T := ⟨S3300000, .i32⟩) main_call1_v4 h1 h2 h3).ofBuf (Val := Val) v = v := rfl
theorem toBuf_main_call1_v4 (h1 : main_call1_v4.ty = (⟨S3300000, .i32⟩ : BufTy)) (h2 : main_call1_v4.space ≠ .host) (h3 : main_call1_v4.isScoped = false) (v : (⟨S3300000, .i32⟩ : BufTy).Contents Val) :
    (TRef.of (sig := sig) (T := ⟨S3300000, .i32⟩) main_call1_v4 h1 h2 h3).toBuf (Val := Val) v = v := rfl
theorem ofBuf_main_call1_v5 (h1 : main_call1_v5.ty = (⟨S3300000x1, .i32⟩ : BufTy)) (h2 : main_call1_v5.space ≠ .host) (h3 : main_call1_v5.isScoped = false) (v : (⟨S3300000x1, .i32⟩ : BufTy).Contents Val) :
    (TRef.of (sig := sig) (T := ⟨S3300000x1, .i32⟩) main_call1_v5 h1 h2 h3).ofBuf (Val := Val) v = v := rfl
theorem toBuf_main_call1_v5 (h1 : main_call1_v5.ty = (⟨S3300000x1, .i32⟩ : BufTy)) (h2 : main_call1_v5.space ≠ .host) (h3 : main_call1_v5.isScoped = false) (v : (⟨S3300000x1, .i32⟩ : BufTy).Contents Val) :
    (TRef.of (sig := sig) (T := ⟨S3300000x1, .i32⟩) main_call1_v5 h1 h2 h3).toBuf (Val := Val) v = v := rfl
theorem ofBuf_main_call1_c_1 (h1 : main_call1_c_1.ty = (⟨S1, .i32⟩ : BufTy)) (h2 : main_call1_c_1.space ≠ .host) (h3 : main_call1_c_1.isScoped = false) (v : (⟨S1, .i32⟩ : BufTy).Contents Val) :
    (TRef.of (sig := sig) (T := ⟨S1, .i32⟩) main_call1_c_1 h1 h2 h3).ofBuf (Val := Val) v = v := rfl
theorem toBuf_main_call1_c_1 (h1 : main_call1_c_1.ty = (⟨S1, .i32⟩ : BufTy)) (h2 : main_call1_c_1.space ≠ .host) (h3 : main_call1_c_1.isScoped = false) (v : (⟨S1, .i32⟩ : BufTy).Contents Val) :
    (TRef.of (sig := sig) (T := ⟨S1, .i32⟩) main_call1_c_1 h1 h2 h3).toBuf (Val := Val) v = v := rfl
theorem ofBuf_main_call1_c_2 (h1 : main_call1_c_2.ty = (⟨S_, .i32⟩ : BufTy)) (h2 : main_call1_c_2.space ≠ .host) (h3 : main_call1_c_2.isScoped = false) (v : (⟨S_, .i32⟩ : BufTy).Contents Val) :
    (TRef.of (sig := sig) (T := ⟨S_, .i32⟩) main_call1_c_2 h1 h2 h3).ofBuf (Val := Val) v = v := rfl
theorem toBuf_main_call1_c_2 (h1 : main_call1_c_2.ty = (⟨S_, .i32⟩ : BufTy)) (h2 : main_call1_c_2.space ≠ .host) (h3 : main_call1_c_2.isScoped = false) (v : (⟨S_, .i32⟩ : BufTy).Contents Val) :
    (TRef.of (sig := sig) (T := ⟨S_, .i32⟩) main_call1_c_2 h1 h2 h3).toBuf (Val := Val) v = v := rfl
theorem ofBuf_main_call1_v6 (h1 : main_call1_v6.ty = (⟨S3300000x1, .i32⟩ : BufTy)) (h2 : main_call1_v6.space ≠ .host) (h3 : main_call1_v6.isScoped = false) (v : (⟨S3300000x1, .i32⟩ : BufTy).Contents Val) :
    (TRef.of (sig := sig) (T := ⟨S3300000x1, .i32⟩) main_call1_v6 h1 h2 h3).ofBuf (Val := Val) v = v := rfl
theorem toBuf_main_call1_v6 (h1 : main_call1_v6.ty = (⟨S3300000x1, .i32⟩ : BufTy)) (h2 : main_call1_v6.space ≠ .host) (h3 : main_call1_v6.isScoped = false) (v : (⟨S3300000x1, .i32⟩ : BufTy).Contents Val) :
    (TRef.of (sig := sig) (T := ⟨S3300000x1, .i32⟩) main_call1_v6 h1 h2 h3).toBuf (Val := Val) v = v := rfl
theorem ofBuf_main_call1_v7 (h1 : main_call1_v7.ty = (⟨S3300000x1, .i1⟩ : BufTy)) (h2 : main_call1_v7.space ≠ .host) (h3 : main_call1_v7.isScoped = false) (v : (⟨S3300000x1, .i1⟩ : BufTy).Contents Val) :
    (TRef.of (sig := sig) (T := ⟨S3300000x1, .i1⟩) main_call1_v7 h1 h2 h3).ofBuf (Val := Val) v = v := rfl
theorem toBuf_main_call1_v7 (h1 : main_call1_v7.ty = (⟨S3300000x1, .i1⟩ : BufTy)) (h2 : main_call1_v7.space ≠ .host) (h3 : main_call1_v7.isScoped = false) (v : (⟨S3300000x1, .i1⟩ : BufTy).Contents Val) :
    (TRef.of (sig := sig) (T := ⟨S3300000x1, .i1⟩) main_call1_v7 h1 h2 h3).toBuf (Val := Val) v = v := rfl
theorem ofBuf_main_call1_v8 (h1 : main_call1_v8.ty = (⟨S1x1, .i32⟩ : BufTy)) (h2 : main_call1_v8.space ≠ .host) (h3 : main_call1_v8.isScoped = false) (v : (⟨S1x1, .i32⟩ : BufTy).Contents Val) :
    (TRef.of (sig := sig) (T := ⟨S1x1, .i32⟩) main_call1_v8 h1 h2 h3).ofBuf (Val := Val) v = v := rfl
theorem toBuf_main_call1_v8 (h1 : main_call1_v8.ty = (⟨S1x1, .i32⟩ : BufTy)) (h2 : main_call1_v8.space ≠ .host) (h3 : main_call1_v8.isScoped = false) (v : (⟨S1x1, .i32⟩ : BufTy).Contents Val) :
    (TRef.of (sig := sig) (T := ⟨S1x1, .i32⟩) main_call1_v8 h1 h2 h3).toBuf (Val := Val) v = v := rfl
theorem ofBuf_main_call1_v9 (h1 : main_call1_v9.ty = (⟨S3300000x1, .i32⟩ : BufTy)) (h2 : main_call1_v9.space ≠ .host) (h3 : main_call1_v9.isScoped = false) (v : (⟨S3300000x1, .i32⟩ : BufTy).Contents Val) :
    (TRef.of (sig := sig) (T := ⟨S3300000x1, .i32⟩) main_call1_v9 h1 h2 h3).ofBuf (Val := Val) v = v := rfl
theorem toBuf_main_call1_v9 (h1 : main_call1_v9.ty = (⟨S3300000x1, .i32⟩ : BufTy)) (h2 : main_call1_v9.space ≠ .host) (h3 : main_call1_v9.isScoped = false) (v : (⟨S3300000x1, .i32⟩ : BufTy).Contents Val) :
    (TRef.of (sig := sig) (T := ⟨S3300000x1, .i32⟩) main_call1_v9 h1 h2 h3).toBuf (Val := Val) v = v := rfl
theorem ofBuf_main_call1_v10 (h1 : main_call1_v10.ty = (⟨S3300000x1, .i1⟩ : BufTy)) (h2 : main_call1_v10.space ≠ .host) (h3 : main_call1_v10.isScoped = false) (v : (⟨S3300000x1, .i1⟩ : BufTy).Contents Val) :
    (TRef.of (sig := sig) (T := ⟨S3300000x1, .i1⟩) main_call1_v10 h1 h2 h3).ofBuf (Val := Val) v = v := rfl
theorem toBuf_main_call1_v10 (h1 : main_call1_v10.ty = (⟨S3300000x1, .i1⟩ : BufTy)) (h2 : main_call1_v10.space ≠ .host) (h3 : main_call1_v10.isScoped = false) (v : (⟨S3300000x1, .i1⟩ : BufTy).Contents Val) :
    (TRef.of (sig := sig) (T := ⟨S3300000x1, .i1⟩) main_call1_v10 h1 h2 h3).toBuf (Val := Val) v = v := rfl
theorem ofBuf_main_call1_v11 (h1 : main_call1_v11.ty = (⟨S3300000x1, .i1⟩ : BufTy)) (h2 : main_call1_v11.space ≠ .host) (h3 : main_call1_v11.isScoped = false) (v : (⟨S3300000x1, .i1⟩ : BufTy).Contents Val) :
    (TRef.of (sig := sig) (T := ⟨S3300000x1, .i1⟩) main_call1_v11 h1 h2 h3).ofBuf (Val := Val) v = v := rfl
theorem toBuf_main_call1_v11 (h1 : main_call1_v11.ty = (⟨S3300000x1, .i1⟩ : BufTy)) (h2 : main_call1_v11.space ≠ .host) (h3 : main_call1_v11.isScoped = false) (v : (⟨S3300000x1, .i1⟩ : BufTy).Contents Val) :
    (TRef.of (sig := sig) (T := ⟨S3300000x1, .i1⟩) main_call1_v11 h1 h2 h3).toBuf (Val := Val) v = v := rfl
theorem ofBuf_main_call1_c_3 (h1 : main_call1_c_3.ty = (⟨S_, .i1⟩ : BufTy)) (h2 : main_call1_c_3.space ≠ .host) (h3 : main_call1_c_3.isScoped = false) (v : (⟨S_, .i1⟩ : BufTy).Contents Val) :
    (TRef.of (sig := sig) (T := ⟨S_, .i1⟩) main_call1_c_3 h1 h2 h3).ofBuf (Val := Val) v = v := rfl
theorem toBuf_main_call1_c_3 (h1 : main_call1_c_3.ty = (⟨S_, .i1⟩ : BufTy)) (h2 : main_call1_c_3.space ≠ .host) (h3 : main_call1_c_3.isScoped = false) (v : (⟨S_, .i1⟩ : BufTy).Contents Val) :
    (TRef.of (sig := sig) (T := ⟨S_, .i1⟩) main_call1_c_3 h1 h2 h3).toBuf (Val := Val) v = v := rfl
theorem ofBuf_main_call1_v12 (h1 : main_call1_v12.ty = (⟨S3300000, .i1⟩ : BufTy)) (h2 : main_call1_v12.space ≠ .host) (h3 : main_call1_v12.isScoped = false) (v : (⟨S3300000, .i1⟩ : BufTy).Contents Val) :
    (TRef.of (sig := sig) (T := ⟨S3300000, .i1⟩) main_call1_v12 h1 h2 h3).ofBuf (Val := Val) v = v := rfl
theorem toBuf_main_call1_v12 (h1 : main_call1_v12.ty = (⟨S3300000, .i1⟩ : BufTy)) (h2 : main_call1_v12.space ≠ .host) (h3 : main_call1_v12.isScoped = false) (v : (⟨S3300000, .i1⟩ : BufTy).Contents Val) :
    (TRef.of (sig := sig) (T := ⟨S3300000, .i1⟩) main_call1_v12 h1 h2 h3).toBuf (Val := Val) v = v := rfl
theorem ofBuf_main_call1_v13 (h1 : main_call1_v13.ty = (⟨S3300000, .f32⟩ : BufTy)) (h2 : main_call1_v13.space ≠ .host) (h3 : main_call1_v13.isScoped = false) (v : (⟨S3300000, .f32⟩ : BufTy).Contents Val) :
    (TRef.of (sig := sig) (T := ⟨S3300000, .f32⟩) main_call1_v13 h1 h2 h3).ofBuf (Val := Val) v = v := rfl
theorem toBuf_main_call1_v13 (h1 : main_call1_v13.ty = (⟨S3300000, .f32⟩ : BufTy)) (h2 : main_call1_v13.space ≠ .host) (h3 : main_call1_v13.isScoped = false) (v : (⟨S3300000, .f32⟩ : BufTy).Contents Val) :
    (TRef.of (sig := sig) (T := ⟨S3300000, .f32⟩) main_call1_v13 h1 h2 h3).toBuf (Val := Val) v = v := rfl
theorem ofBuf_main_call1_cst (h1 : main_call1_cst.ty = (⟨S_, .f32⟩ : BufTy)) (h2 : main_call1_cst.space ≠ .host) (h3 : main_call1_cst.isScoped = false) (v : (⟨S_, .f32⟩ : BufTy).Contents Val) :
    (TRef.of (sig := sig) (T := ⟨S_, .f32⟩) main_call1_cst h1 h2 h3).ofBuf (Val := Val) v = v := rfl
theorem toBuf_main_call1_cst (h1 : main_call1_cst.ty = (⟨S_, .f32⟩ : BufTy)) (h2 : main_call1_cst.space ≠ .host) (h3 : main_call1_cst.isScoped = false) (v : (⟨S_, .f32⟩ : BufTy).Contents Val) :
    (TRef.of (sig := sig) (T := ⟨S_, .f32⟩) main_call1_cst h1 h2 h3).toBuf (Val := Val) v = v := rfl
theorem ofBuf_main_call1_v14 (h1 : main_call1_v14.ty = (⟨S3300000, .f32⟩ : BufTy)) (h2 : main_call1_v14.space ≠ .host) (h3 : main_call1_v14.isScoped = false) (v : (⟨S3300000, .f32⟩ : BufTy).Contents Val) :
    (TRef.of (sig := sig) (T := ⟨S3300000, .f32⟩) main_call1_v14 h1 h2 h3).ofBuf (Val := Val) v = v := rfl
theorem toBuf_main_call1_v14 (h1 : main_call1_v14.ty = (⟨S3300000, .f32⟩ : BufTy)) (h2 : main_call1_v14.space ≠ .host) (h3 : main_call1_v14.isScoped = false) (v : (⟨S3300000, .f32⟩ : BufTy).Contents Val) :
    (TRef.of (sig := sig) (T := ⟨S3300000, .f32⟩) main_call1_v14 h1 h2 h3).toBuf (Val := Val) v = v := rfl
theorem ofBuf_main_v16 (h1 : main_v16.ty = (⟨S3300000, .f32⟩ : BufTy)) (h2 : main_v16.space ≠ .host) (h3 : main_v16.isScoped = false) (v : (⟨S3300000, .f32⟩ : BufTy).Contents Val) :
    (TRef.of (sig := sig) (T := ⟨S3300000, .f32⟩) main_v16 h1 h2 h3).ofBuf (Val := Val) v = v := rfl
theorem toBuf_main_v16 (h1 : main_v16.ty = (⟨S3300000, .f32⟩ : BufTy)) (h2 : main_v16.space ≠ .host) (h3 : main_v16.isScoped = false) (v : (⟨S3300000, .f32⟩ : BufTy).Contents Val) :
    (TRef.of (sig := sig) (T := ⟨S3300000, .f32⟩) main_v16 h1 h2 h3).toBuf (Val := Val) v = v := rfl
theorem ofBuf_main_call2_c (h1 : main_call2_c.ty = (⟨S_, .i32⟩ : BufTy)) (h2 : main_call2_c.space ≠ .host) (h3 : main_call2_c.isScoped = false) (v : (⟨S_, .i32⟩ : BufTy).Contents Val) :
    (TRef.of (sig := sig) (T := ⟨S_, .i32⟩) main_call2_c h1 h2 h3).ofBuf (Val := Val) v = v := rfl
theorem toBuf_main_call2_c (h1 : main_call2_c.ty = (⟨S_, .i32⟩ : BufTy)) (h2 : main_call2_c.space ≠ .host) (h3 : main_call2_c.isScoped = false) (v : (⟨S_, .i32⟩ : BufTy).Contents Val) :
    (TRef.of (sig := sig) (T := ⟨S_, .i32⟩) main_call2_c h1 h2 h3).toBuf (Val := Val) v = v := rfl
theorem ofBuf_main_call2_v0 (h1 : main_call2_v0.ty = (⟨S3300000, .i32⟩ : BufTy)) (h2 : main_call2_v0.space ≠ .host) (h3 : main_call2_v0.isScoped = false) (v : (⟨S3300000, .i32⟩ : BufTy).Contents Val) :
    (TRef.of (sig := sig) (T := ⟨S3300000, .i32⟩) main_call2_v0 h1 h2 h3).ofBuf (Val := Val) v = v := rfl
theorem toBuf_main_call2_v0 (h1 : main_call2_v0.ty = (⟨S3300000, .i32⟩ : BufTy)) (h2 : main_call2_v0.space ≠ .host) (h3 : main_call2_v0.isScoped = false) (v : (⟨S3300000, .i32⟩ : BufTy).Contents Val) :
    (TRef.of (sig := sig) (T := ⟨S3300000, .i32⟩) main_call2_v0 h1 h2 h3).toBuf (Val := Val) v = v := rfl
theorem ofBuf_main_call2_v1 (h1 : main_call2_v1.ty = (⟨S3300000, .i1⟩ : BufTy)) (h2 : main_call2_v1.space ≠ .host) (h3 : main_call2_v1.isScoped = false) (v : (⟨S3300000, .i1⟩ : BufTy).Contents Val) :
    (TRef.of (sig := sig) (T := ⟨S3300000, .i1⟩) main_call2_v1 h1 h2 h3).ofBuf (Val := Val) v = v := rfl
theorem toBuf_main_call2_v1 (h1 : main_call2_v1.ty = (⟨S3300000, .i1⟩ : BufTy)) (h2 : main_call2_v1.space ≠ .host) (h3 : main_call2_v1.isScoped = false) (v : (⟨S3300000, .i1⟩ : BufTy).Contents Val) :
    (TRef.of (sig := sig) (T := ⟨S3300000, .i1⟩) main_call2_v1 h1 h2 h3).toBuf (Val := Val) v = v := rfl
theorem ofBuf_main_call2_c_0 (h1 : main_call2_c_0.ty = (⟨S_, .i32⟩ : BufTy)) (h2 : main_call2_c_0.space ≠ .host) (h3 : main_call2_c_0.isScoped = false) (v : (⟨S_, .i32⟩ : BufTy).Contents Val) :
    (TRef.of (sig := sig) (T := ⟨S_, .i32⟩) main_call2_c_0 h1 h2 h3).ofBuf (Val := Val) v = v := rfl
theorem toBuf_main_call2_c_0 (h1 : main_call2_c_0.ty = (⟨S_, .i32⟩ : BufTy)) (h2 : main_call2_c_0.space ≠ .host) (h3 : main_call2_c_0.isScoped = false) (v : (⟨S_, .i32⟩ : BufTy).Contents Val) :
    (TRef.of (sig := sig) (T := ⟨S_, .i32⟩) main_call2_c_0 h1 h2 h3).toBuf (Val := Val) v = v := rfl
theorem ofBuf_main_call2_v2 (h1 : main_call2_v2.ty = (⟨S3300000, .i32⟩ : BufTy)) (h2 : main_call2_v2.space ≠ .host) (h3 : main_call2_v2.isScoped = false) (v : (⟨S3300000, .i32⟩ : BufTy).Contents Val) :
    (TRef.of (sig := sig) (T := ⟨S3300000, .i32⟩) main_call2_v2 h1 h2 h3).ofBuf (Val := Val) v = v := rfl
theorem toBuf_main_call2_v2 (h1 : main_call2_v2.ty = (⟨S3300000, .i32⟩ : BufTy)) (h2 : main_call2_v2.space ≠ .host) (h3 : main_call2_v2.isScoped = false) (v : (⟨S3300000, .i32⟩ : BufTy).Contents Val) :
    (TRef.of (sig := sig) (T := ⟨S3300000, .i32⟩) main_call2_v2 h1 h2 h3).toBuf (Val := Val) v = v := rfl
theorem ofBuf_main_call2_v3 (h1 : main_call2_v3.ty = (⟨S3300000, .i32⟩ : BufTy)) (h2 : main_call2_v3.space ≠ .host) (h3 : main_call2_v3.isScoped = false) (v : (⟨S3300000, .i32⟩ : BufTy).Contents Val) :
    (TRef.of (sig := sig) (T := ⟨S3300000, .i32⟩) main_call2_v3 h1 h2 h3).ofBuf (Val := Val) v = v := rfl
theorem toBuf_main_call2_v3 (h1 : main_call2_v3.ty = (⟨S3300000, .i32⟩ : BufTy)) (h2 : main_call2_v3.space ≠ .host) (h3 : main_call2_v3.isScoped = false) (v : (⟨S3300000, .i32⟩ : BufTy).Contents Val) :
    (TRef.of (sig := sig) (T := ⟨S3300000, .i32⟩) main_call2_v3 h1 h2 h3).toBuf (Val := Val) v = v := rfl
theorem ofBuf_main_call2_v4 (h1 : main_call2_v4.ty = (⟨S3300000, .i32⟩ : BufTy)) (h2 : main_call2_v4.space ≠ .host) (h3 : main_call2_v4.isScoped = false) (v : (⟨S3300000, .i32⟩ : BufTy).Contents Val) :
    (TRef.of (sig := sig) (T := ⟨S3300000, .i32⟩) main_call2_v4 h1 h2 h3).ofBuf (Val := Val) v = v := rfl
theorem toBuf_main_call2_v4 (h1 : main_call2_v4.ty = (⟨S3300000, .i32⟩ : BufTy)) (h2 : main_call2_v4.space ≠ .host) (h3 : main_call2_v4.isScoped = false) (v : (⟨S3300000, .i32⟩ : BufTy).Contents Val) :
    (TRef.of (sig := sig) (T := ⟨S3300000, .i32⟩) main_call2_v4 h1 h2 h3).toBuf (Val := Val) v = v := rfl
theorem ofBuf_main_call2_v5 (h1 : main_call2_v5.ty = (⟨S3300000x1, .i32⟩ : BufTy)) (h2 : main_call2_v5.space ≠ .host) (h3 : main_call2_v5.isScoped = false) (v : (⟨S3300000x1, .i32⟩ : BufTy).Contents Val) :
    (TRef.of (sig := sig) (T := ⟨S3300000x1, .i32⟩) main_call2_v5 h1 h2 h3).ofBuf (Val := Val) v = v := rfl
theorem toBuf_main_call2_v5 (h1 : main_call2_v5.ty = (⟨S3300000x1, .i32⟩ : BufTy)) (h2 : main_call2_v5.space ≠ .host) (h3 : main_call2_v5.isScoped = false) (v : (⟨S3300000x1, .i32⟩ : BufTy).Contents Val) :
    (TRef.of (sig := sig) (T := ⟨S3300000x1, .i32⟩) main_call2_v5 h1 h2 h3).toBuf (Val := Val) v = v := rfl
theorem ofBuf_main_call2_c_1 (h1 : main_call2_c_1.ty = (⟨S1, .i32⟩ : BufTy)) (h2 : main_call2_c_1.space ≠ .host) (h3 : main_call2_c_1.isScoped = false) (v : (⟨S1, .i32⟩ : BufTy).Contents Val) :
    (TRef.of (sig := sig) (T := ⟨S1, .i32⟩) main_call2_c_1 h1 h2 h3).ofBuf (Val := Val) v = v := rfl
theorem toBuf_main_call2_c_1 (h1 : main_call2_c_1.ty = (⟨S1, .i32⟩ : BufTy)) (h2 : main_call2_c_1.space ≠ .host) (h3 : main_call2_c_1.isScoped = false) (v : (⟨S1, .i32⟩ : BufTy).Contents Val) :
    (TRef.of (sig := sig) (T := ⟨S1, .i32⟩) main_call2_c_1 h1 h2 h3).toBuf (Val := Val) v = v := rfl
theorem ofBuf_main_call2_c_2 (h1 : main_call2_c_2.ty = (⟨S_, .i32⟩ : BufTy)) (h2 : main_call2_c_2.space ≠ .host) (h3 : main_call2_c_2.isScoped = false) (v : (⟨S_, .i32⟩ : BufTy).Contents Val) :
    (TRef.of (sig := sig) (T := ⟨S_, .i32⟩) main_call2_c_2 h1 h2 h3).ofBuf (Val := Val) v = v := rfl
theorem toBuf_main_call2_c_2 (h1 : main_call2_c_2.ty = (⟨S_, .i32⟩ : BufTy)) (h2 : main_call2_c_2.space ≠ .host) (h3 : main_call2_c_2.isScoped = false) (v : (⟨S_, .i32⟩ : BufTy).Contents Val) :
    (TRef.of (sig := sig) (T := ⟨S_, .i32⟩) main_call2_c_2 h1 h2 h3).toBuf (Val := Val) v = v := rfl
theorem ofBuf_main_call2_v6 (h1 : main_call2_v6.ty = (⟨S3300000x1, .i32⟩ : BufTy)) (h2 : main_call2_v6.space ≠ .host) (h3 : main_call2_v6.isScoped = false) (v : (⟨S3300000x1, .i32⟩ : BufTy).Contents Val) :
    (TRef.of (sig := sig) (T := ⟨S3300000x1, .i32⟩) main_call2_v6 h1 h2 h3).ofBuf (Val := Val) v = v := rfl
theorem toBuf_main_call2_v6 (h1 : main_call2_v6.ty = (⟨S3300000x1, .i32⟩ : BufTy)) (h2 : main_call2_v6.space ≠ .host) (h3 : main_call2_v6.isScoped = false) (v : (⟨S3300000x1, .i32⟩ : BufTy).Contents Val) :
    (TRef.of (sig := sig) (T := ⟨S3300000x1, .i32⟩) main_call2_v6 h1 h2 h3).toBuf (Val := Val) v = v := rfl
theorem ofBuf_main_call2_v7 (h1 : main_call2_v7.ty = (⟨S3300000x1, .i1⟩ : BufTy)) (h2 : main_call2_v7.space ≠ .host) (h3 : main_call2_v7.isScoped = false) (v : (⟨S3300000x1, .i1⟩ : BufTy).Contents Val) :
    (TRef.of (sig := sig) (T := ⟨S3300000x1, .i1⟩) main_call2_v7 h1 h2 h3).ofBuf (Val := Val) v = v := rfl
theorem toBuf_main_call2_v7 (h1 : main_call2_v7.ty = (⟨S3300000x1, .i1⟩ : BufTy)) (h2 : main_call2_v7.space ≠ .host) (h3 : main_call2_v7.isScoped = false) (v : (⟨S3300000x1, .i1⟩ : BufTy).Contents Val) :
    (TRef.of (sig := sig) (T := ⟨S3300000x1, .i1⟩) main_call2_v7 h1 h2 h3).toBuf (Val := Val) v = v := rfl
theorem ofBuf_main_call2_v8 (h1 : main_call2_v8.ty = (⟨S1x1, .i32⟩ : BufTy)) (h2 : main_call2_v8.space ≠ .host) (h3 : main_call2_v8.isScoped = false) (v : (⟨S1x1, .i32⟩ : BufTy).Contents Val) :
    (TRef.of (sig := sig) (T := ⟨S1x1, .i32⟩) main_call2_v8 h1 h2 h3).ofBuf (Val := Val) v = v := rfl
theorem toBuf_main_call2_v8 (h1 : main_call2_v8.ty = (⟨S1x1, .i32⟩ : BufTy)) (h2 : main_call2_v8.space ≠ .host) (h3 : main_call2_v8.isScoped = false) (v : (⟨S1x1, .i32⟩ : BufTy).Contents Val) :
    (TRef.of (sig := sig) (T := ⟨S1x1, .i32⟩) main_call2_v8 h1 h2 h3).toBuf (Val := Val) v = v := rfl
theorem ofBuf_main_call2_v9 (h1 : main_call2_v9.ty = (⟨S3300000x1, .i32⟩ : BufTy)) (h2 : main_call2_v9.space ≠ .host) (h3 : main_call2_v9.isScoped = false) (v : (⟨S3300000x1, .i32⟩ : BufTy).Contents Val) :
    (TRef.of (sig := sig) (T := ⟨S3300000x1, .i32⟩) main_call2_v9 h1 h2 h3).ofBuf (Val := Val) v = v := rfl
theorem toBuf_main_call2_v9 (h1 : main_call2_v9.ty = (⟨S3300000x1, .i32⟩ : BufTy)) (h2 : main_call2_v9.space ≠ .host) (h3 : main_call2_v9.isScoped = false) (v : (⟨S3300000x1, .i32⟩ : BufTy).Contents Val) :
    (TRef.of (sig := sig) (T := ⟨S3300000x1, .i32⟩) main_call2_v9 h1 h2 h3).toBuf (Val := Val) v = v := rfl
theorem ofBuf_main_call2_v10 (h1 : main_call2_v10.ty = (⟨S3300000x1, .i1⟩ : BufTy)) (h2 : main_call2_v10.space ≠ .host) (h3 : main_call2_v10.isScoped = false) (v : (⟨S3300000x1, .i1⟩ : BufTy).Contents Val) :
    (TRef.of (sig := sig) (T := ⟨S3300000x1, .i1⟩) main_call2_v10 h1 h2 h3).ofBuf (Val := Val) v = v := rfl
theorem toBuf_main_call2_v10 (h1 : main_call2_v10.ty = (⟨S3300000x1, .i1⟩ : BufTy)) (h2 : main_call2_v10.space ≠ .host) (h3 : main_call2_v10.isScoped = false) (v : (⟨S3300000x1, .i1⟩ : BufTy).Contents Val) :
    (TRef.of (sig := sig) (T := ⟨S3300000x1, .i1⟩) main_call2_v10 h1 h2 h3).toBuf (Val := Val) v = v := rfl
theorem ofBuf_main_call2_v11 (h1 : main_call2_v11.ty = (⟨S3300000x1, .i1⟩ : BufTy)) (h2 : main_call2_v11.space ≠ .host) (h3 : main_call2_v11.isScoped = false) (v : (⟨S3300000x1, .i1⟩ : BufTy).Contents Val) :
    (TRef.of (sig := sig) (T := ⟨S3300000x1, .i1⟩) main_call2_v11 h1 h2 h3).ofBuf (Val := Val) v = v := rfl
theorem toBuf_main_call2_v11 (h1 : main_call2_v11.ty = (⟨S3300000x1, .i1⟩ : BufTy)) (h2 : main_call2_v11.space ≠ .host) (h3 : main_call2_v11.isScoped = false) (v : (⟨S3300000x1, .i1⟩ : BufTy).Contents Val) :
    (TRef.of (sig := sig) (T := ⟨S3300000x1, .i1⟩) main_call2_v11 h1 h2 h3).toBuf (Val := Val) v = v := rfl
theorem ofBuf_main_call2_c_3 (h1 : main_call2_c_3.ty = (⟨S_, .i1⟩ : BufTy)) (h2 : main_call2_c_3.space ≠ .host) (h3 : main_call2_c_3.isScoped = false) (v : (⟨S_, .i1⟩ : BufTy).Contents Val) :
    (TRef.of (sig := sig) (T := ⟨S_, .i1⟩) main_call2_c_3 h1 h2 h3).ofBuf (Val := Val) v = v := rfl
theorem toBuf_main_call2_c_3 (h1 : main_call2_c_3.ty = (⟨S_, .i1⟩ : BufTy)) (h2 : main_call2_c_3.space ≠ .host) (h3 : main_call2_c_3.isScoped = false) (v : (⟨S_, .i1⟩ : BufTy).Contents Val) :
    (TRef.of (sig := sig) (T := ⟨S_, .i1⟩) main_call2_c_3 h1 h2 h3).toBuf (Val := Val) v = v := rfl
theorem ofBuf_main_call2_v12 (h1 : main_call2_v12.ty = (⟨S3300000, .i1⟩ : BufTy)) (h2 : main_call2_v12.space ≠ .host) (h3 : main_call2_v12.isScoped = false) (v : (⟨S3300000, .i1⟩ : BufTy).Contents Val) :
    (TRef.of (sig := sig) (T := ⟨S3300000, .i1⟩) main_call2_v12 h1 h2 h3).ofBuf (Val := Val) v = v := rfl
theorem toBuf_main_call2_v12 (h1 : main_call2_v12.ty = (⟨S3300000, .i1⟩ : BufTy)) (h2 : main_call2_v12.space ≠ .host) (h3 : main_call2_v12.isScoped = false) (v : (⟨S3300000, .i1⟩ : BufTy).Contents Val) :
    (TRef.of (sig := sig) (T := ⟨S3300000, .i1⟩) main_call2_v12 h1 h2 h3).toBuf (Val := Val) v = v := rfl
theorem ofBuf_main_call2_v13 (h1 : main_call2_v13.ty = (⟨S3300000, .f32⟩ : BufTy)) (h2 : main_call2_v13.space ≠ .host) (h3 : main_call2_v13.isScoped = false) (v : (⟨S3300000, .f32⟩ : BufTy).Contents Val) :
    (TRef.of (sig := sig) (T := ⟨S3300000, .f32⟩) main_call2_v13 h1 h2 h3).ofBuf (Val := Val) v = v := rfl
theorem toBuf_main_call2_v13 (h1 : main_call2_v13.ty = (⟨S3300000, .f32⟩ : BufTy)) (h2 : main_call2_v13.space ≠ .host) (h3 : main_call2_v13.isScoped = false) (v : (⟨S3300000, .f32⟩ : BufTy).Contents Val) :
    (TRef.of (sig := sig) (T := ⟨S3300000, .f32⟩) main_call2_v13 h1 h2 h3).toBuf (Val := Val) v = v := rfl
theorem ofBuf_main_call2_cst (h1 : main_call2_cst.ty = (⟨S_, .f32⟩ : BufTy)) (h2 : main_call2_cst.space ≠ .host) (h3 : main_call2_cst.isScoped = false) (v : (⟨S_, .f32⟩ : BufTy).Contents Val) :
    (TRef.of (sig := sig) (T := ⟨S_, .f32⟩) main_call2_cst h1 h2 h3).ofBuf (Val := Val) v = v := rfl
theorem toBuf_main_call2_cst (h1 : main_call2_cst.ty = (⟨S_, .f32⟩ : BufTy)) (h2 : main_call2_cst.space ≠ .host) (h3 : main_call2_cst.isScoped = false) (v : (⟨S_, .f32⟩ : BufTy).Contents Val) :
    (TRef.of (sig := sig) (T := ⟨S_, .f32⟩) main_call2_cst h1 h2 h3).toBuf (Val := Val) v = v := rfl
theorem ofBuf_main_call2_v14 (h1 : main_call2_v14.ty = (⟨S3300000, .f32⟩ : BufTy)) (h2 : main_call2_v14.space ≠ .host) (h3 : main_call2_v14.isScoped = false) (v : (⟨S3300000, .f32⟩ : BufTy).Contents Val) :
    (TRef.of (sig := sig) (T := ⟨S3300000, .f32⟩) main_call2_v14 h1 h2 h3).ofBuf (Val := Val) v = v := rfl
theorem toBuf_main_call2_v14 (h1 : main_call2_v14.ty = (⟨S3300000, .f32⟩ : BufTy)) (h2 : main_call2_v14.space ≠ .host) (h3 : main_call2_v14.isScoped = false) (v : (⟨S3300000, .f32⟩ : BufTy).Contents Val) :
    (TRef.of (sig := sig) (T := ⟨S3300000, .f32⟩) main_call2_v14 h1 h2 h3).toBuf (Val := Val) v = v := rfl
theorem ofBuf_main_v17 (h1 : main_v17.ty = (⟨S3300000, .f32⟩ : BufTy)) (h2 : main_v17.space ≠ .host) (h3 : main_v17.isScoped = false) (v : (⟨S3300000, .f32⟩ : BufTy).Contents Val) :
    (TRef.of (sig := sig) (T := ⟨S3300000, .f32⟩) main_v17 h1 h2 h3).ofBuf (Val := Val) v = v := rfl
theorem toBuf_main_v17 (h1 : main_v17.ty = (⟨S3300000, .f32⟩ : BufTy)) (h2 : main_v17.space ≠ .host) (h3 : main_v17.isScoped = false) (v : (⟨S3300000, .f32⟩ : BufTy).Contents Val) :
    (TRef.of (sig := sig) (T := ⟨S3300000, .f32⟩) main_v17 h1 h2 h3).toBuf (Val := Val) v = v := rfl
theorem ofBuf_main_c (h1 : main_c.ty = (⟨S_, .i32⟩ : BufTy)) (h2 : main_c.space ≠ .host) (h3 : main_c.isScoped = false) (v : (⟨S_, .i32⟩ : BufTy).Contents Val) :
    (TRef.of (sig := sig) (T := ⟨S_, .i32⟩) main_c h1 h2 h3).ofBuf (Val := Val) v = v := rfl
theorem toBuf_main_c (h1 : main_c.ty = (⟨S_, .i32⟩ : BufTy)) (h2 : main_c.space ≠ .host) (h3 : main_c.isScoped = false) (v : (⟨S_, .i32⟩ : BufTy).Contents Val) :
    (TRef.of (sig := sig) (T := ⟨S_, .i32⟩) main_c h1 h2 h3).toBuf (Val := Val) v = v := rfl
theorem ofBuf_main_call3_v0 (h1 : main_call3_v0.ty = (⟨S_, .f32⟩ : BufTy)) (h2 : main_call3_v0.space ≠ .host) (h3 : main_call3_v0.isScoped = false) (v : (⟨S_, .f32⟩ : BufTy).Contents Val) :
    (TRef.of (sig := sig) (T := ⟨S_, .f32⟩) main_call3_v0 h1 h2 h3).ofBuf (Val := Val) v = v := rfl
theorem toBuf_main_call3_v0 (h1 : main_call3_v0.ty = (⟨S_, .f32⟩ : BufTy)) (h2 : main_call3_v0.space ≠ .host) (h3 : main_call3_v0.isScoped = false) (v : (⟨S_, .f32⟩ : BufTy).Contents Val) :
    (TRef.of (sig := sig) (T := ⟨S_, .f32⟩) main_call3_v0 h1 h2 h3).toBuf (Val := Val) v = v := rfl
theorem ofBuf_main_v18 (h1 : main_v18.ty = (⟨S3300096, .f32⟩ : BufTy)) (h2 : main_v18.space ≠ .host) (h3 : main_v18.isScoped = false) (v : (⟨S3300096, .f32⟩ : BufTy).Contents Val) :
    (TRef.of (sig := sig) (T := ⟨S3300096, .f32⟩) main_v18 h1 h2 h3).ofBuf (Val := Val) v = v := rfl
theorem toBuf_main_v18 (h1 : main_v18.ty = (⟨S3300096, .f32⟩ : BufTy)) (h2 : main_v18.space ≠ .host) (h3 : main_v18.isScoped = false) (v : (⟨S3300096, .f32⟩ : BufTy).Contents Val) :
    (TRef.of (sig := sig) (T := ⟨S3300096, .f32⟩) main_v18 h1 h2 h3).toBuf (Val := Val) v = v := rfl
theorem ofBuf_main_v19 (h1 : main_v19.ty = (⟨S25782x128, .f32⟩ : BufTy)) (h2 : main_v19.space ≠ .host) (h3 : main_v19.isScoped = false) (v : (⟨S25782x128, .f32⟩ : BufTy).Contents Val) :
    (TRef.of (sig := sig) (T := ⟨S25782x128, .f32⟩) main_v19 h1 h2 h3).ofBuf (Val := Val) v = v := rfl
theorem toBuf_main_v19 (h1 : main_v19.ty = (⟨S25782x128, .f32⟩ : BufTy)) (h2 : main_v19.space ≠ .host) (h3 : main_v19.isScoped = false) (v : (⟨S25782x128, .f32⟩ : BufTy).Contents Val) :
    (TRef.of (sig := sig) (T := ⟨S25782x128, .f32⟩) main_v19 h1 h2 h3).toBuf (Val := Val) v = v := rfl
theorem ofBuf_main_c_3 (h1 : main_c_3.ty = (⟨S_, .i32⟩ : BufTy)) (h2 : main_c_3.space ≠ .host) (h3 : main_c_3.isScoped = false) (v : (⟨S_, .i32⟩ : BufTy).Contents Val) :
    (TRef.of (sig := sig) (T := ⟨S_, .i32⟩) main_c_3 h1 h2 h3).ofBuf (Val := Val) v = v := rfl
theorem toBuf_main_c_3 (h1 : main_c_3.ty = (⟨S_, .i32⟩ : BufTy)) (h2 : main_c_3.space ≠ .host) (h3 : main_c_3.isScoped = false) (v : (⟨S_, .i32⟩ : BufTy).Contents Val) :
    (TRef.of (sig := sig) (T := ⟨S_, .i32⟩) main_c_3 h1 h2 h3).toBuf (Val := Val) v = v := rfl
theorem ofBuf_main_call4_v0 (h1 : main_call4_v0.ty = (⟨S_, .f32⟩ : BufTy)) (h2 : main_call4_v0.space ≠ .host) (h3 : main_call4_v0.isScoped = false) (v : (⟨S_, .f32⟩ : BufTy).Contents Val) :
    (TRef.of (sig := sig) (T := ⟨S_, .f32⟩) main_call4_v0 h1 h2 h3).ofBuf (Val := Val) v = v := rfl
theorem toBuf_main_call4_v0 (h1 : main_call4_v0.ty = (⟨S_, .f32⟩ : BufTy)) (h2 : main_call4_v0.space ≠ .host) (h3 : main_call4_v0.isScoped = false) (v : (⟨S_, .f32⟩ : BufTy).Contents Val) :
    (TRef.of (sig := sig) (T := ⟨S_, .f32⟩) main_call4_v0 h1 h2 h3).toBuf (Val := Val) v = v := rfl
theorem ofBuf_main_v20 (h1 : main_v20.ty = (⟨S3300096, .f32⟩ : BufTy)) (h2 : main_v20.space ≠ .host) (h3 : main_v20.isScoped = false) (v : (⟨S3300096, .f32⟩ : BufTy).Contents Val) :
    (TRef.of (sig := sig) (T := ⟨S3300096, .f32⟩) main_v20 h1 h2 h3).ofBuf (Val := Val) v = v := rfl
theorem toBuf_main_v20 (h1 : main_v20.ty = (⟨S3300096, .f32⟩ : BufTy)) (h2 : main_v20.space ≠ .host) (h3 : main_v20.isScoped = false) (v : (⟨S3300096, .f32⟩ : BufTy).Contents Val) :
    (TRef.of (sig := sig) (T := ⟨S3300096, .f32⟩) main_v20 h1 h2 h3).toBuf (Val := Val) v = v := rfl
theorem ofBuf_main_v21 (h1 : main_v21.ty = (⟨S25782x128, .f32⟩ : BufTy)) (h2 : main_v21.space ≠ .host) (h3 : main_v21.isScoped = false) (v : (⟨S25782x128, .f32⟩ : BufTy).Contents Val) :
    (TRef.of (sig := sig) (T := ⟨S25782x128, .f32⟩) main_v21 h1 h2 h3).ofBuf (Val := Val) v = v := rfl
theorem toBuf_main_v21 (h1 : main_v21.ty = (⟨S25782x128, .f32⟩ : BufTy)) (h2 : main_v21.space ≠ .host) (h3 : main_v21.isScoped = false) (v : (⟨S25782x128, .f32⟩ : BufTy).Contents Val) :
    (TRef.of (sig := sig) (T := ⟨S25782x128, .f32⟩) main_v21 h1 h2 h3).toBuf (Val := Val) v = v := rfl
theorem ofBuf_main_c_4 (h1 : main_c_4.ty = (⟨S_, .i32⟩ : BufTy)) (h2 : main_c_4.space ≠ .host) (h3 : main_c_4.isScoped = false) (v : (⟨S_, .i32⟩ : BufTy).Contents Val) :
    (TRef.of (sig := sig) (T := ⟨S_, .i32⟩) main_c_4 h1 h2 h3).ofBuf (Val := Val) v = v := rfl
theorem toBuf_main_c_4 (h1 : main_c_4.ty = (⟨S_, .i32⟩ : BufTy)) (h2 : main_c_4.space ≠ .host) (h3 : main_c_4.isScoped = false) (v : (⟨S_, .i32⟩ : BufTy).Contents Val) :
    (TRef.of (sig := sig) (T := ⟨S_, .i32⟩) main_c_4 h1 h2 h3).toBuf (Val := Val) v = v := rfl
theorem ofBuf_main_call5_v0 (h1 : main_call5_v0.ty = (⟨S_, .f32⟩ : BufTy)) (h2 : main_call5_v0.space ≠ .host) (h3 : main_call5_v0.isScoped = false) (v : (⟨S_, .f32⟩ : BufTy).Contents Val) :
    (TRef.of (sig := sig) (T := ⟨S_, .f32⟩) main_call5_v0 h1 h2 h3).ofBuf (Val := Val) v = v := rfl
theorem toBuf_main_call5_v0 (h1 : main_call5_v0.ty = (⟨S_, .f32⟩ : BufTy)) (h2 : main_call5_v0.space ≠ .host) (h3 : main_call5_v0.isScoped = false) (v : (⟨S_, .f32⟩ : BufTy).Contents Val) :
    (TRef.of (sig := sig) (T := ⟨S_, .f32⟩) main_call5_v0 h1 h2 h3).toBuf (Val := Val) v = v := rfl
theorem ofBuf_main_v22 (h1 : main_v22.ty = (⟨S3300096, .f32⟩ : BufTy)) (h2 : main_v22.space ≠ .host) (h3 : main_v22.isScoped = false) (v : (⟨S3300096, .f32⟩ : BufTy).Contents Val) :
    (TRef.of (sig := sig) (T := ⟨S3300096, .f32⟩) main_v22 h1 h2 h3).ofBuf (Val := Val) v = v := rfl
theorem toBuf_main_v22 (h1 : main_v22.ty = (⟨S3300096, .f32⟩ : BufTy)) (h2 : main_v22.space ≠ .host) (h3 : main_v22.isScoped = false) (v : (⟨S3300096, .f32⟩ : BufTy).Contents Val) :
    (TRef.of (sig := sig) (T := ⟨S3300096, .f32⟩) main_v22 h1 h2 h3).toBuf (Val := Val) v = v := rfl
theorem ofBuf_main_v23 (h1 : main_v23.ty = (⟨S25782x128, .f32⟩ : BufTy)) (h2 : main_v23.space ≠ .host) (h3 : main_v23.isScoped = false) (v : (⟨S25782x128, .f32⟩ : BufTy).Contents Val) :
    (TRef.of (sig := sig) (T := ⟨S25782x128, .f32⟩) main_v23 h1 h2 h3).ofBuf (Val := Val) v = v := rfl
theorem toBuf_main_v23 (h1 : main_v23.ty = (⟨S25782x128, .f32⟩ : BufTy)) (h2 : main_v23.space ≠ .host) (h3 : main_v23.isScoped = false) (v : (⟨S25782x128, .f32⟩ : BufTy).Contents Val) :
    (TRef.of (sig := sig) (T := ⟨S25782x128, .f32⟩) main_v23 h1 h2 h3).toBuf (Val := Val) v = v := rfl
theorem ofBuf_main_c_5 (h1 : main_c_5.ty = (⟨S_, .i32⟩ : BufTy)) (h2 : main_c_5.space ≠ .host) (h3 : main_c_5.isScoped = false) (v : (⟨S_, .i32⟩ : BufTy).Contents Val) :
    (TRef.of (sig := sig) (T := ⟨S_, .i32⟩) main_c_5 h1 h2 h3).ofBuf (Val := Val) v = v := rfl
theorem toBuf_main_c_5 (h1 : main_c_5.ty = (⟨S_, .i32⟩ : BufTy)) (h2 : main_c_5.space ≠ .host) (h3 : main_c_5.isScoped = false) (v : (⟨S_, .i32⟩ : BufTy).Contents Val) :
    (TRef.of (sig := sig) (T := ⟨S_, .i32⟩) main_c_5 h1 h2 h3).toBuf (Val := Val) v = v := rfl
theorem ofBuf_main_call6_v0 (h1 : main_call6_v0.ty = (⟨S_, .f32⟩ : BufTy)) (h2 : main_call6_v0.space ≠ .host) (h3 : main_call6_v0.isScoped = false) (v : (⟨S_, .f32⟩ : BufTy).Contents Val) :
    (TRef.of (sig := sig) (T := ⟨S_, .f32⟩) main_call6_v0 h1 h2 h3).ofBuf (Val := Val) v = v := rfl
theorem toBuf_main_call6_v0 (h1 : main_call6_v0.ty = (⟨S_, .f32⟩ : BufTy)) (h2 : main_call6_v0.space ≠ .host) (h3 : main_call6_v0.isScoped = false) (v : (⟨S_, .f32⟩ : BufTy).Contents Val) :
    (TRef.of (sig := sig) (T := ⟨S_, .f32⟩) main_call6_v0 h1 h2 h3).toBuf (Val := Val) v = v := rfl
theorem ofBuf_main_v24 (h1 : main_v24.ty = (⟨S26624x128, .f32⟩ : BufTy)) (h2 : main_v24.space ≠ .host) (h3 : main_v24.isScoped = false) (v : (⟨S26624x128, .f32⟩ : BufTy).Contents Val) :
    (TRef.of (sig := sig) (T := ⟨S26624x128, .f32⟩) main_v24 h1 h2 h3).ofBuf (Val := Val) v = v := rfl
theorem toBuf_main_v24 (h1 : main_v24.ty = (⟨S26624x128, .f32⟩ : BufTy)) (h2 : main_v24.space ≠ .host) (h3 : main_v24.isScoped = false) (v : (⟨S26624x128, .f32⟩ : BufTy).Contents Val) :
    (TRef.of (sig := sig) (T := ⟨S26624x128, .f32⟩) main_v24 h1 h2 h3).toBuf (Val := Val) v = v := rfl
theorem ofBuf_main_c_6 (h1 : main_c_6.ty = (⟨S_, .i32⟩ : BufTy)) (h2 : main_c_6.space ≠ .host) (h3 : main_c_6.isScoped = false) (v : (⟨S_, .i32⟩ : BufTy).Contents Val) :
    (TRef.of (sig := sig) (T := ⟨S_, .i32⟩) main_c_6 h1 h2 h3).ofBuf (Val := Val) v = v := rfl
theorem toBuf_main_c_6 (h1 : main_c_6.ty = (⟨S_, .i32⟩ : BufTy)) (h2 : main_c_6.space ≠ .host) (h3 : main_c_6.isScoped = false) (v : (⟨S_, .i32⟩ : BufTy).Contents Val) :
    (TRef.of (sig := sig) (T := ⟨S_, .i32⟩) main_c_6 h1 h2 h3).toBuf (Val := Val) v = v := rfl
theorem ofBuf_main_call7_v0 (h1 : main_call7_v0.ty = (⟨S_, .f32⟩ : BufTy)) (h2 : main_call7_v0.space ≠ .host) (h3 : main_call7_v0.isScoped = false) (v : (⟨S_, .f32⟩ : BufTy).Contents Val) :
    (TRef.of (sig := sig) (T := ⟨S_, .f32⟩) main_call7_v0 h1 h2 h3).ofBuf (Val := Val) v = v := rfl
theorem toBuf_main_call7_v0 (h1 : main_call7_v0.ty = (⟨S_, .f32⟩ : BufTy)) (h2 : main_call7_v0.space ≠ .host) (h3 : main_call7_v0.isScoped = false) (v : (⟨S_, .f32⟩ : BufTy).Contents Val) :
    (TRef.of (sig := sig) (T := ⟨S_, .f32⟩) main_call7_v0 h1 h2 h3).toBuf (Val := Val) v = v := rfl
theorem ofBuf_main_v25 (h1 : main_v25.ty = (⟨S26624x128, .f32⟩ : BufTy)) (h2 : main_v25.space ≠ .host) (h3 : main_v25.isScoped = false) (v : (⟨S26624x128, .f32⟩ : BufTy).Contents Val) :
    (TRef.of (sig := sig) (T := ⟨S26624x128, .f32⟩) main_v25 h1 h2 h3).ofBuf (Val := Val) v = v := rfl
theorem toBuf_main_v25 (h1 : main_v25.ty = (⟨S26624x128, .f32⟩ : BufTy)) (h2 : main_v25.space ≠ .host) (h3 : main_v25.isScoped = false) (v : (⟨S26624x128, .f32⟩ : BufTy).Contents Val) :
    (TRef.of (sig := sig) (T := ⟨S26624x128, .f32⟩) main_v25 h1 h2 h3).toBuf (Val := Val) v = v := rfl
theorem ofBuf_main_c_7 (h1 : main_c_7.ty = (⟨S_, .i32⟩ : BufTy)) (h2 : main_c_7.space ≠ .host) (h3 : main_c_7.isScoped = false) (v : (⟨S_, .i32⟩ : BufTy).Contents Val) :
    (TRef.of (sig := sig) (T := ⟨S_, .i32⟩) main_c_7 h1 h2 h3).ofBuf (Val := Val) v = v := rfl
theorem toBuf_main_c_7 (h1 : main_c_7.ty = (⟨S_, .i32⟩ : BufTy)) (h2 : main_c_7.space ≠ .host) (h3 : main_c_7.isScoped = false) (v : (⟨S_, .i32⟩ : BufTy).Contents Val) :
    (TRef.of (sig := sig) (T := ⟨S_, .i32⟩) main_c_7 h1 h2 h3).toBuf (Val := Val) v = v := rfl
theorem ofBuf_main_call8_v0 (h1 : main_call8_v0.ty = (⟨S_, .f32⟩ : BufTy)) (h2 : main_call8_v0.space ≠ .host) (h3 : main_call8_v0.isScoped = false) (v : (⟨S_, .f32⟩ : BufTy).Contents Val) :
    (TRef.of (sig := sig) (T := ⟨S_, .f32⟩) main_call8_v0 h1 h2 h3).ofBuf (Val := Val) v = v := rfl
theorem toBuf_main_call8_v0 (h1 : main_call8_v0.ty = (⟨S_, .f32⟩ : BufTy)) (h2 : main_call8_v0.space ≠ .host) (h3 : main_call8_v0.isScoped = false) (v : (⟨S_, .f32⟩ : BufTy).Contents Val) :
    (TRef.of (sig := sig) (T := ⟨S_, .f32⟩) main_call8_v0 h1 h2 h3).toBuf (Val := Val) v = v := rfl
theorem ofBuf_main_v26 (h1 : main_v26.ty = (⟨S26624x128, .f32⟩ : BufTy)) (h2 : main_v26.space ≠ .host) (h3 : main_v26.isScoped = false) (v : (⟨S26624x128, .f32⟩ : BufTy).Contents Val) :
    (TRef.of (sig := sig) (T := ⟨S26624x128, .f32⟩) main_v26 h1 h2 h3).ofBuf (Val := Val) v = v := rfl
theorem toBuf_main_v26 (h1 : main_v26.ty = (⟨S26624x128, .f32⟩ : BufTy)) (h2 : main_v26.space ≠ .host) (h3 : main_v26.isScoped = false) (v : (⟨S26624x128, .f32⟩ : BufTy).Contents Val) :
    (TRef.of (sig := sig) (T := ⟨S26624x128, .f32⟩) main_v26 h1 h2 h3).toBuf (Val := Val) v = v := rfl
theorem ofBuf_main_v28 (h1 : main_v28.ty = (⟨S3407872, .f32⟩ : BufTy)) (h2 : main_v28.space ≠ .host) (h3 : main_v28.isScoped = false) (v : (⟨S3407872, .f32⟩ : BufTy).Contents Val) :
    (TRef.of (sig := sig) (T := ⟨S3407872, .f32⟩) main_v28 h1 h2 h3).ofBuf (Val := Val) v = v := rfl
theorem toBuf_main_v28 (h1 : main_v28.ty = (⟨S3407872, .f32⟩ : BufTy)) (h2 : main_v28.space ≠ .host) (h3 : main_v28.isScoped = false) (v : (⟨S3407872, .f32⟩ : BufTy).Contents Val) :
    (TRef.of (sig := sig) (T := ⟨S3407872, .f32⟩) main_v28 h1 h2 h3).toBuf (Val := Val) v = v := rfl
theorem ofBuf_main_v29 (h1 : main_v29.ty = (⟨S3300000, .f32⟩ : BufTy)) (h2 : main_v29.space ≠ .host) (h3 : main_v29.isScoped = false) (v : (⟨S3300000, .f32⟩ : BufTy).Contents Val) :
    (TRef.of (sig := sig) (T := ⟨S3300000, .f32⟩) main_v29 h1 h2 h3).ofBuf (Val := Val) v = v := rfl
theorem toBuf_main_v29 (h1 : main_v29.ty = (⟨S3300000, .f32⟩ : BufTy)) (h2 : main_v29.space ≠ .host) (h3 : main_v29.isScoped = false) (v : (⟨S3300000, .f32⟩ : BufTy).Contents Val) :
    (TRef.of (sig := sig) (T := ⟨S3300000, .f32⟩) main_v29 h1 h2 h3).toBuf (Val := Val) v = v := rfl
theorem ofBuf_main_c_8 (h1 : main_c_8.ty = (⟨S_, .i32⟩ : BufTy)) (h2 : main_c_8.space ≠ .host) (h3 : main_c_8.isScoped = false) (v : (⟨S_, .i32⟩ : BufTy).Contents Val) :
    (TRef.of (sig := sig) (T := ⟨S_, .i32⟩) main_c_8 h1 h2 h3).ofBuf (Val := Val) v = v := rfl
theorem toBuf_main_c_8 (h1 : main_c_8.ty = (⟨S_, .i32⟩ : BufTy)) (h2 : main_c_8.space ≠ .host) (h3 : main_c_8.isScoped = false) (v : (⟨S_, .i32⟩ : BufTy).Contents Val) :
    (TRef.of (sig := sig) (T := ⟨S_, .i32⟩) main_c_8 h1 h2 h3).toBuf (Val := Val) v = v := rfl
theorem ofBuf_main_call9_v0 (h1 : main_call9_v0.ty = (⟨S_, .f32⟩ : BufTy)) (h2 : main_call9_v0.space ≠ .host) (h3 : main_call9_v0.isScoped = false) (v : (⟨S_, .f32⟩ : BufTy).Contents Val) :
    (TRef.of (sig := sig) (T := ⟨S_, .f32⟩) main_call9_v0 h1 h2 h3).ofBuf (Val := Val) v = v := rfl
theorem toBuf_main_call9_v0 (h1 : main_call9_v0.ty = (⟨S_, .f32⟩ : BufTy)) (h2 : main_call9_v0.space ≠ .host) (h3 : main_call9_v0.isScoped = false) (v : (⟨S_, .f32⟩ : BufTy).Contents Val) :
    (TRef.of (sig := sig) (T := ⟨S_, .f32⟩) main_call9_v0 h1 h2 h3).toBuf (Val := Val) v = v := rfl
theorem ofBuf_main_v30 (h1 : main_v30.ty = (⟨S106496x2, .f32⟩ : BufTy)) (h2 : main_v30.space ≠ .host) (h3 : main_v30.isScoped = false) (v : (⟨S106496x2, .f32⟩ : BufTy).Contents Val) :
    (TRef.of (sig := sig) (T := ⟨S106496x2, .f32⟩) main_v30 h1 h2 h3).ofBuf (Val := Val) v = v := rfl
theorem toBuf_main_v30 (h1 : main_v30.ty = (⟨S106496x2, .f32⟩ : BufTy)) (h2 : main_v30.space ≠ .host) (h3 : main_v30.isScoped = false) (v : (⟨S106496x2, .f32⟩ : BufTy).Contents Val) :
    (TRef.of (sig := sig) (T := ⟨S106496x2, .f32⟩) main_v30 h1 h2 h3).toBuf (Val := Val) v = v := rfl
theorem ofBuf_main_v32 (h1 : main_v32.ty = (⟨S100000x8, .f32⟩ : BufTy)) (h2 : main_v32.space ≠ .host) (h3 : main_v32.isScoped = false) (v : (⟨S100000x8, .f32⟩ : BufTy).Contents Val) :
    (TRef.of (sig := sig) (T := ⟨S100000x8, .f32⟩) main_v32 h1 h2 h3).ofBuf (Val := Val) v = v := rfl
theorem toBuf_main_v32 (h1 : main_v32.ty = (⟨S100000x8, .f32⟩ : BufTy)) (h2 : main_v32.space ≠ .host) (h3 : main_v32.isScoped = false) (v : (⟨S100000x8, .f32⟩ : BufTy).Contents Val) :
    (TRef.of (sig := sig) (T := ⟨S100000x8, .f32⟩) main_v32 h1 h2 h3).toBuf (Val := Val) v = v := rfl
theorem ofBuf_main_call10_c (h1 : main_call10_c.ty = (⟨S_, .i32⟩ : BufTy)) (h2 : main_call10_c.space ≠ .host) (h3 : main_call10_c.isScoped = false) (v : (⟨S_, .i32⟩ : BufTy).Contents Val) :
    (TRef.of (sig := sig) (T := ⟨S_, .i32⟩) main_call10_c h1 h2 h3).ofBuf (Val := Val) v = v := rfl
theorem toBuf_main_call10_c (h1 : main_call10_c.ty = (⟨S_, .i32⟩ : BufTy)) (h2 : main_call10_c.space ≠ .host) (h3 : main_call10_c.isScoped = false) (v : (⟨S_, .i32⟩ : BufTy).Contents Val) :
    (TRef.of (sig := sig) (T := ⟨S_, .i32⟩) main_call10_c h1 h2 h3).toBuf (Val := Val) v = v := rfl
theorem ofBuf_main_call10_v0 (h1 : main_call10_v0.ty = (⟨S3300000, .i32⟩ : BufTy)) (h2 : main_call10_v0.space ≠ .host) (h3 : main_call10_v0.isScoped = false) (v : (⟨S3300000, .i32⟩ : BufTy).Contents Val) :
    (TRef.of (sig := sig) (T := ⟨S3300000, .i32⟩) main_call10_v0 h1 h2 h3).ofBuf (Val := Val) v = v := rfl
theorem toBuf_main_call10_v0 (h1 : main_call10_v0.ty = (⟨S3300000, .i32⟩ : BufTy)) (h2 : main_call10_v0.space ≠ .host) (h3 : main_call10_v0.isScoped = false) (v : (⟨S3300000, .i32⟩ : BufTy).Contents Val) :
    (TRef.of (sig := sig) (T := ⟨S3300000, .i32⟩) main_call10_v0 h1 h2 h3).toBuf (Val := Val) v = v := rfl
theorem ofBuf_main_call10_v1 (h1 : main_call10_v1.ty = (⟨S3300000, .i1⟩ : BufTy)) (h2 : main_call10_v1.space ≠ .host) (h3 : main_call10_v1.isScoped = false) (v : (⟨S3300000, .i1⟩ : BufTy).Contents Val) :
    (TRef.of (sig := sig) (T := ⟨S3300000, .i1⟩) main_call10_v1 h1 h2 h3).ofBuf (Val := Val) v = v := rfl
theorem toBuf_main_call10_v1 (h1 : main_call10_v1.ty = (⟨S3300000, .i1⟩ : BufTy)) (h2 : main_call10_v1.space ≠ .host) (h3 : main_call10_v1.isScoped = false) (v : (⟨S3300000, .i1⟩ : BufTy).Contents Val) :
    (TRef.of (sig := sig) (T := ⟨S3300000, .i1⟩) main_call10_v1 h1 h2 h3).toBuf (Val := Val) v = v := rfl
theorem ofBuf_main_call10_c_0 (h1 : main_call10_c_0.ty = (⟨S_, .i32⟩ : BufTy)) (h2 : main_call10_c_0.space ≠ .host) (h3 : main_call10_c_0.isScoped = false) (v : (⟨S_, .i32⟩ : BufTy).Contents Val) :
    (TRef.of (sig := sig) (T := ⟨S_, .i32⟩) main_call10_c_0 h1 h2 h3).ofBuf (Val := Val) v = v := rfl
theorem toBuf_main_call10_c_0 (h1 : main_call10_c_0.ty = (⟨S_, .i32⟩ : BufTy)) (h2 : main_call10_c_0.space ≠ .host) (h3 : main_call10_c_0.isScoped = false) (v : (⟨S_, .i32⟩ : BufTy).Contents Val) :
    (TRef.of (sig := sig) (T := ⟨S_, .i32⟩) main_call10_c_0 h1 h2 h3).toBuf (Val := Val) v = v := rfl
theorem ofBuf_main_call10_v2 (h1 : main_call10_v2.ty = (⟨S3300000, .i32⟩ : BufTy)) (h2 : main_call10_v2.space ≠ .host) (h3 : main_call10_v2.isScoped = false) (v : (⟨S3300000, .i32⟩ : BufTy).Contents Val) :
    (TRef.of (sig := sig) (T := ⟨S3300000, .i32⟩) main_call10_v2 h1 h2 h3).ofBuf (Val := Val) v = v := rfl
theorem toBuf_main_call10_v2 (h1 : main_call10_v2.ty = (⟨S3300000, .i32⟩ : BufTy)) (h2 : main_call10_v2.space ≠ .host) (h3 : main_call10_v2.isScoped = false) (v : (⟨S3300000, .i32⟩ : BufTy).Contents Val) :
    (TRef.of (sig := sig) (T := ⟨S3300000, .i32⟩) main_call10_v2 h1 h2 h3).toBuf (Val := Val) v = v := rfl
theorem ofBuf_main_call10_v3 (h1 : main_call10_v3.ty = (⟨S3300000, .i32⟩ : BufTy)) (h2 : main_call10_v3.space ≠ .host) (h3 : main_call10_v3.isScoped = false) (v : (⟨S3300000, .i32⟩ : BufTy).Contents Val) :
    (TRef.of (sig := sig) (T := ⟨S3300000, .i32⟩) main_call10_v3 h1 h2 h3).ofBuf (Val := Val) v = v := rfl
theorem toBuf_main_call10_v3 (h1 : main_call10_v3.ty = (⟨S3300000, .i32⟩ : BufTy)) (h2 : main_call10_v3.space ≠ .host) (h3 : main_call10_v3.isScoped = false) (v : (⟨S3300000, .i32⟩ : BufTy).Contents Val) :
    (TRef.of (sig := sig) (T := ⟨S3300000, .i32⟩) main_call10_v3 h1 h2 h3).toBuf (Val := Val) v = v := rfl
theorem ofBuf_main_call10_v4 (h1 : main_call10_v4.ty = (⟨S3300000, .i32⟩ : BufTy)) (h2 : main_call10_v4.space ≠ .host) (h3 : main_call10_v4.isScoped = false) (v : (⟨S3300000, .i32⟩ : BufTy).Contents Val) :
    (TRef.of (sig := sig) (T := ⟨S3300000, .i32⟩) main_call10_v4 h1 h2 h3).ofBuf (Val := Val) v = v := rfl
theorem toBuf_main_call10_v4 (h1 : main_call10_v4.ty = (⟨S3300000, .i32⟩ : BufTy)) (h2 : main_call10_v4.space ≠ .host) (h3 : main_call10_v4.isScoped = false) (v : (⟨S3300000, .i32⟩ : BufTy).Contents Val) :
    (TRef.of (sig := sig) (T := ⟨S3300000, .i32⟩) main_call10_v4 h1 h2 h3).toBuf (Val := Val) v = v := rfl
theorem ofBuf_main_call10_v5 (h1 : main_call10_v5.ty = (⟨S3300000x1, .i32⟩ : BufTy)) (h2 : main_call10_v5.space ≠ .host) (h3 : main_call10_v5.isScoped = false) (v : (⟨S3300000x1, .i32⟩ : BufTy).Contents Val) :
    (TRef.of (sig := sig) (T := ⟨S3300000x1, .i32⟩) main_call10_v5 h1 h2 h3).ofBuf (Val := Val) v = v := rfl
theorem toBuf_main_call10_v5 (h1 : main_call10_v5.ty = (⟨S3300000x1, .i32⟩ : BufTy)) (h2 : main_call10_v5.space ≠ .host) (h3 : main_call10_v5.isScoped = false) (v : (⟨S3300000x1, .i32⟩ : BufTy).Contents Val) :
    (TRef.of (sig := sig) (T := ⟨S3300000x1, .i32⟩) main_call10_v5 h1 h2 h3).toBuf (Val := Val) v = v := rfl
theorem ofBuf_main_call10_c_1 (h1 : main_call10_c_1.ty = (⟨S1, .i32⟩ : BufTy)) (h2 : main_call10_c_1.space ≠ .host) (h3 : main_call10_c_1.isScoped = false) (v : (⟨S1, .i32⟩ : BufTy).Contents Val) :
    (TRef.of (sig := sig) (T := ⟨S1, .i32⟩) main_call10_c_1 h1 h2 h3).ofBuf (Val := Val) v = v := rfl
theorem toBuf_main_call10_c_1 (h1 : main_call10_c_1.ty = (⟨S1, .i32⟩ : BufTy)) (h2 : main_call10_c_1.space ≠ .host) (h3 : main_call10_c_1.isScoped = false) (v : (⟨S1, .i32⟩ : BufTy).Contents Val) :
    (TRef.of (sig := sig) (T := ⟨S1, .i32⟩) main_call10_c_1 h1 h2 h3).toBuf (Val := Val) v = v := rfl
theorem ofBuf_main_call10_c_2 (h1 : main_call10_c_2.ty = (⟨S_, .i32⟩ : BufTy)) (h2 : main_call10_c_2.space ≠ .host) (h3 : main_call10_c_2.isScoped = false) (v : (⟨S_, .i32⟩ : BufTy).Contents Val) :
    (TRef.of (sig := sig) (T := ⟨S_, .i32⟩) main_call10_c_2 h1 h2 h3).ofBuf (Val := Val) v = v := rfl
theorem toBuf_main_call10_c_2 (h1 : main_call10_c_2.ty = (⟨S_, .i32⟩ : BufTy)) (h2 : main_call10_c_2.space ≠ .host) (h3 : main_call10_c_2.isScoped = false) (v : (⟨S_, .i32⟩ : BufTy).Contents Val) :
    (TRef.of (sig := sig) (T := ⟨S_, .i32⟩) main_call10_c_2 h1 h2 h3).toBuf (Val := Val) v = v := rfl
theorem ofBuf_main_call10_v6 (h1 : main_call10_v6.ty = (⟨S3300000x1, .i32⟩ : BufTy)) (h2 : main_call10_v6.space ≠ .host) (h3 : main_call10_v6.isScoped = false) (v : (⟨S3300000x1, .i32⟩ : BufTy).Contents Val) :
    (TRef.of (sig := sig) (T := ⟨S3300000x1, .i32⟩) main_call10_v6 h1 h2 h3).ofBuf (Val := Val) v = v := rfl
theorem toBuf_main_call10_v6 (h1 : main_call10_v6.ty = (⟨S3300000x1, .i32⟩ : BufTy)) (h2 : main_call10_v6.space ≠ .host) (h3 : main_call10_v6.isScoped = false) (v : (⟨S3300000x1, .i32⟩ : BufTy).Contents Val) :
    (TRef.of (sig := sig) (T := ⟨S3300000x1, .i32⟩) main_call10_v6 h1 h2 h3).toBuf (Val := Val) v = v := rfl
theorem ofBuf_main_call10_v7 (h1 : main_call10_v7.ty = (⟨S3300000x1, .i1⟩ : BufTy)) (h2 : main_call10_v7.space ≠ .host) (h3 : main_call10_v7.isScoped = false) (v : (⟨S3300000x1, .i1⟩ : BufTy).Contents Val) :
    (TRef.of (sig := sig) (T := ⟨S3300000x1, .i1⟩) main_call10_v7 h1 h2 h3).ofBuf (Val := Val) v = v := rfl
theorem toBuf_main_call10_v7 (h1 : main_call10_v7.ty = (⟨S3300000x1, .i1⟩ : BufTy)) (h2 : main_call10_v7.space ≠ .host) (h3 : main_call10_v7.isScoped = false) (v : (⟨S3300000x1, .i1⟩ : BufTy).Contents Val) :
    (TRef.of (sig := sig) (T := ⟨S3300000x1, .i1⟩) main_call10_v7 h1 h2 h3).toBuf (Val := Val) v = v := rfl
theorem ofBuf_main_call10_v8 (h1 : main_call10_v8.ty = (⟨S1x1, .i32⟩ : BufTy)) (h2 : main_call10_v8.space ≠ .host) (h3 : main_call10_v8.isScoped = false) (v : (⟨S1x1, .i32⟩ : BufTy).Contents Val) :
    (TRef.of (sig := sig) (T := ⟨S1x1, .i32⟩) main_call10_v8 h1 h2 h3).ofBuf (Val := Val) v = v := rfl
theorem toBuf_main_call10_v8 (h1 : main_call10_v8.ty = (⟨S1x1, .i32⟩ : BufTy)) (h2 : main_call10_v8.space ≠ .host) (h3 : main_call10_v8.isScoped = false) (v : (⟨S1x1, .i32⟩ : BufTy).Contents Val) :
    (TRef.of (sig := sig) (T := ⟨S1x1, .i32⟩) main_call10_v8 h1 h2 h3).toBuf (Val := Val) v = v := rfl
theorem ofBuf_main_call10_v9 (h1 : main_call10_v9.ty = (⟨S3300000x1, .i32⟩ : BufTy)) (h2 : main_call10_v9.space ≠ .host) (h3 : main_call10_v9.isScoped = false) (v : (⟨S3300000x1, .i32⟩ : BufTy).Contents Val) :
    (TRef.of (sig := sig) (T := ⟨S3300000x1, .i32⟩) main_call10_v9 h1 h2 h3).ofBuf (Val := Val) v = v := rfl
theorem toBuf_main_call10_v9 (h1 : main_call10_v9.ty = (⟨S3300000x1, .i32⟩ : BufTy)) (h2 : main_call10_v9.space ≠ .host) (h3 : main_call10_v9.isScoped = false) (v : (⟨S3300000x1, .i32⟩ : BufTy).Contents Val) :
    (TRef.of (sig := sig) (T := ⟨S3300000x1, .i32⟩) main_call10_v9 h1 h2 h3).toBuf (Val := Val) v = v := rfl
theorem ofBuf_main_call10_v10 (h1 : main_call10_v10.ty = (⟨S3300000x1, .i1⟩ : BufTy)) (h2 : main_call10_v10.space ≠ .host) (h3 : main_call10_v10.isScoped = false) (v : (⟨S3300000x1, .i1⟩ : BufTy).Contents Val) :
    (TRef.of (sig := sig) (T := ⟨S3300000x1, .i1⟩) main_call10_v10 h1 h2 h3).ofBuf (Val := Val) v = v := rfl
theorem toBuf_main_call10_v10 (h1 : main_call10_v10.ty = (⟨S3300000x1, .i1⟩ : BufTy)) (h2 : main_call10_v10.space ≠ .host) (h3 : main_call10_v10.isScoped = false) (v : (⟨S3300000x1, .i1⟩ : BufTy).Contents Val) :
    (TRef.of (sig := sig) (T := ⟨S3300000x1, .i1⟩) main_call10_v10 h1 h2 h3).toBuf (Val := Val) v = v := rfl
theorem ofBuf_main_call10_v11 (h1 : main_call10_v11.ty = (⟨S3300000x1, .i1⟩ : BufTy)) (h2 : main_call10_v11.space ≠ .host) (h3 : main_call10_v11.isScoped = false) (v : (⟨S3300000x1, .i1⟩ : BufTy).Contents Val) :
    (TRef.of (sig := sig) (T := ⟨S3300000x1, .i1⟩) main_call10_v11 h1 h2 h3).ofBuf (Val := Val) v = v := rfl
theorem toBuf_main_call10_v11 (h1 : main_call10_v11.ty = (⟨S3300000x1, .i1⟩ : BufTy)) (h2 : main_call10_v11.space ≠ .host) (h3 : main_call10_v11.isScoped = false) (v : (⟨S3300000x1, .i1⟩ : BufTy).Contents Val) :
    (TRef.of (sig := sig) (T := ⟨S3300000x1, .i1⟩) main_call10_v11 h1 h2 h3).toBuf (Val := Val) v = v := rfl
theorem ofBuf_main_call10_c_3 (h1 : main_call10_c_3.ty = (⟨S_, .i1⟩ : BufTy)) (h2 : main_call10_c_3.space ≠ .host) (h3 : main_call10_c_3.isScoped = false) (v : (⟨S_, .i1⟩ : BufTy).Contents Val) :
    (TRef.of (sig := sig) (T := ⟨S_, .i1⟩) main_call10_c_3 h1 h2 h3).ofBuf (Val := Val) v = v := rfl
theorem toBuf_main_call10_c_3 (h1 : main_call10_c_3.ty = (⟨S_, .i1⟩ : BufTy)) (h2 : main_call10_c_3.space ≠ .host) (h3 : main_call10_c_3.isScoped = false) (v : (⟨S_, .i1⟩ : BufTy).Contents Val) :
    (TRef.of (sig := sig) (T := ⟨S_, .i1⟩) main_call10_c_3 h1 h2 h3).toBuf (Val := Val) v = v := rfl
theorem ofBuf_main_call10_v12 (h1 : main_call10_v12.ty = (⟨S3300000, .i1⟩ : BufTy)) (h2 : main_call10_v12.space ≠ .host) (h3 : main_call10_v12.isScoped = false) (v : (⟨S3300000, .i1⟩ : BufTy).Contents Val) :
    (TRef.of (sig := sig) (T := ⟨S3300000, .i1⟩) main_call10_v12 h1 h2 h3).ofBuf (Val := Val) v = v := rfl
theorem toBuf_main_call10_v12 (h1 : main_call10_v12.ty = (⟨S3300000, .i1⟩ : BufTy)) (h2 : main_call10_v12.space ≠ .host) (h3 : main_call10_v12.isScoped = false) (v : (⟨S3300000, .i1⟩ : BufTy).Contents Val) :
    (TRef.of (sig := sig) (T := ⟨S3300000, .i1⟩) main_call10_v12 h1 h2 h3).toBuf (Val := Val) v = v := rfl
theorem ofBuf_main_call10_v13 (h1 : main_call10_v13.ty = (⟨S3300000x8, .f32⟩ : BufTy)) (h2 : main_call10_v13.space ≠ .host) (h3 : main_call10_v13.isScoped = false) (v : (⟨S3300000x8, .f32⟩ : BufTy).Contents Val) :
    (TRef.of (sig := sig) (T := ⟨S3300000x8, .f32⟩) main_call10_v13 h1 h2 h3).ofBuf (Val := Val) v = v := rfl
theorem toBuf_main_call10_v13 (h1 : main_call10_v13.ty = (⟨S3300000x8, .f32⟩ : BufTy)) (h2 : main_call10_v13.space ≠ .host) (h3 : main_call10_v13.isScoped = false) (v : (⟨S3300000x8, .f32⟩ : BufTy).Contents Val) :
    (TRef.of (sig := sig) (T := ⟨S3300000x8, .f32⟩) main_call10_v13 h1 h2 h3).toBuf (Val := Val) v = v := rfl
theorem ofBuf_main_call10_v14 (h1 : main_call10_v14.ty = (⟨S3300000x8, .i1⟩ : BufTy)) (h2 : main_call10_v14.space ≠ .host) (h3 : main_call10_v14.isScoped = false) (v : (⟨S3300000x8, .i1⟩ : BufTy).Contents Val) :
    (TRef.of (sig := sig) (T := ⟨S3300000x8, .i1⟩) main_call10_v14 h1 h2 h3).ofBuf (Val := Val) v = v := rfl
theorem toBuf_main_call10_v14 (h1 : main_call10_v14.ty = (⟨S3300000x8, .i1⟩ : BufTy)) (h2 : main_call10_v14.space ≠ .host) (h3 : main_call10_v14.isScoped = false) (v : (⟨S3300000x8, .i1⟩ : BufTy).Contents Val) :
    (TRef.of (sig := sig) (T := ⟨S3300000x8, .i1⟩) main_call10_v14 h1 h2 h3).toBuf (Val := Val) v = v := rfl
theorem ofBuf_main_call10_cst (h1 : main_call10_cst.ty = (⟨S_, .f32⟩ : BufTy)) (h2 : main_call10_cst.space ≠ .host) (h3 : main_call10_cst.isScoped = false) (v : (⟨S_, .f32⟩ : BufTy).Contents Val) :
    (TRef.of (sig := sig) (T := ⟨S_, .f32⟩) main_call10_cst h1 h2 h3).ofBuf (Val := Val) v = v := rfl
theorem toBuf_main_call10_cst (h1 : main_call10_cst.ty = (⟨S_, .f32⟩ : BufTy)) (h2 : main_call10_cst.space ≠ .host) (h3 : main_call10_cst.isScoped = false) (v : (⟨S_, .f32⟩ : BufTy).Contents Val) :
    (TRef.of (sig := sig) (T := ⟨S_, .f32⟩) main_call10_cst h1 h2 h3).toBuf (Val := Val) v = v := rfl
theorem ofBuf_main_call10_v15 (h1 : main_call10_v15.ty = (⟨S3300000x8, .f32⟩ : BufTy)) (h2 : main_call10_v15.space ≠ .host) (h3 : main_call10_v15.isScoped = false) (v : (⟨S3300000x8, .f32⟩ : BufTy).Contents Val) :
    (TRef.of (sig := sig) (T := ⟨S3300000x8, .f32⟩) main_call10_v15 h1 h2 h3).ofBuf (Val := Val) v = v := rfl
theorem toBuf_main_call10_v15 (h1 : main_call10_v15.ty = (⟨S3300000x8, .f32⟩ : BufTy)) (h2 : main_call10_v15.space ≠ .host) (h3 : main_call10_v15.isScoped = false) (v : (⟨S3300000x8, .f32⟩ : BufTy).Contents Val) :
    (TRef.of (sig := sig) (T := ⟨S3300000x8, .f32⟩) main_call10_v15 h1 h2 h3).toBuf (Val := Val) v = v := rfl
theorem ofBuf_main_v33 (h1 : main_v33.ty = (⟨S3300000x8, .f32⟩ : BufTy)) (h2 : main_v33.space ≠ .host) (h3 : main_v33.isScoped = false) (v : (⟨S3300000x8, .f32⟩ : BufTy).Contents Val) :
    (TRef.of (sig := sig) (T := ⟨S3300000x8, .f32⟩) main_v33 h1 h2 h3).ofBuf (Val := Val) v = v := rfl
theorem toBuf_main_v33 (h1 : main_v33.ty = (⟨S3300000x8, .f32⟩ : BufTy)) (h2 : main_v33.space ≠ .host) (h3 : main_v33.isScoped = false) (v : (⟨S3300000x8, .f32⟩ : BufTy).Contents Val) :
    (TRef.of (sig := sig) (T := ⟨S3300000x8, .f32⟩) main_v33 h1 h2 h3).toBuf (Val := Val) v = v := rfl
theorem ofBuf_main_c_9 (h1 : main_c_9.ty = (⟨S_, .i32⟩ : BufTy)) (h2 : main_c_9.space ≠ .host) (h3 : main_c_9.isScoped = false) (v : (⟨S_, .i32⟩ : BufTy).Contents Val) :
    (TRef.of (sig := sig) (T := ⟨S_, .i32⟩) main_c_9 h1 h2 h3).ofBuf (Val := Val) v = v := rfl
theorem toBuf_main_c_9 (h1 : main_c_9.ty = (⟨S_, .i32⟩ : BufTy)) (h2 : main_c_9.space ≠ .host) (h3 : main_c_9.isScoped = false) (v : (⟨S_, .i32⟩ : BufTy).Contents Val) :
    (TRef.of (sig := sig) (T := ⟨S_, .i32⟩) main_c_9 h1 h2 h3).toBuf (Val := Val) v = v := rfl
theorem ofBuf_main_call11_v0 (h1 : main_call11_v0.ty = (⟨S_, .f32⟩ : BufTy)) (h2 : main_call11_v0.space ≠ .host) (h3 : main_call11_v0.isScoped = false) (v : (⟨S_, .f32⟩ : BufTy).Contents Val) :
    (TRef.of (sig := sig) (T := ⟨S_, .f32⟩) main_call11_v0 h1 h2 h3).ofBuf (Val := Val) v = v := rfl
theorem toBuf_main_call11_v0 (h1 : main_call11_v0.ty = (⟨S_, .f32⟩ : BufTy)) (h2 : main_call11_v0.space ≠ .host) (h3 : main_call11_v0.isScoped = false) (v : (⟨S_, .f32⟩ : BufTy).Contents Val) :
    (TRef.of (sig := sig) (T := ⟨S_, .f32⟩) main_call11_v0 h1 h2 h3).toBuf (Val := Val) v = v := rfl
theorem ofBuf_main_v34 (h1 : main_v34.ty = (⟨S3301376x8, .f32⟩ : BufTy)) (h2 : main_v34.space ≠ .host) (h3 : main_v34.isScoped = false) (v : (⟨S3301376x8, .f32⟩ : BufTy).Contents Val) :
    (TRef.of (sig := sig) (T := ⟨S3301376x8, .f32⟩) main_v34 h1 h2 h3).ofBuf (Val := Val) v = v := rfl
theorem toBuf_main_v34 (h1 : main_v34.ty = (⟨S3301376x8, .f32⟩ : BufTy)) (h2 : main_v34.space ≠ .host) (h3 : main_v34.isScoped = false) (v : (⟨S3301376x8, .f32⟩ : BufTy).Contents Val) :
    (TRef.of (sig := sig) (T := ⟨S3301376x8, .f32⟩) main_v34 h1 h2 h3).toBuf (Val := Val) v = v := rfl
theorem ofBuf_main_c_10 (h1 : main_c_10.ty = (⟨S_, .i32⟩ : BufTy)) (h2 : main_c_10.space ≠ .host) (h3 : main_c_10.isScoped = false) (v : (⟨S_, .i32⟩ : BufTy).Contents Val) :
    (TRef.of (sig := sig) (T := ⟨S_, .i32⟩) main_c_10 h1 h2 h3).ofBuf (Val := Val) v = v := rfl
theorem toBuf_main_c_10 (h1 : main_c_10.ty = (⟨S_, .i32⟩ : BufTy)) (h2 : main_c_10.space ≠ .host) (h3 : main_c_10.isScoped = false) (v : (⟨S_, .i32⟩ : BufTy).Contents Val) :
    (TRef.of (sig := sig) (T := ⟨S_, .i32⟩) main_c_10 h1 h2 h3).toBuf (Val := Val) v = v := rfl
theorem ofBuf_main_call12_v0 (h1 : main_call12_v0.ty = (⟨S_, .f32⟩ : BufTy)) (h2 : main_call12_v0.space ≠ .host) (h3 : main_call12_v0.isScoped = false) (v : (⟨S_, .f32⟩ : BufTy).Contents Val) :
    (TRef.of (sig := sig) (T := ⟨S_, .f32⟩) main_call12_v0 h1 h2 h3).ofBuf (Val := Val) v = v := rfl
theorem toBuf_main_call12_v0 (h1 : main_call12_v0.ty = (⟨S_, .f32⟩ : BufTy)) (h2 : main_call12_v0.space ≠ .host) (h3 : main_call12_v0.isScoped = false) (v : (⟨S_, .f32⟩ : BufTy).Contents Val) :
    (TRef.of (sig := sig) (T := ⟨S_, .f32⟩) main_call12_v0 h1 h2 h3).toBuf (Val := Val) v = v := rfl
theorem ofBuf_main_v35 (h1 : main_v35.ty = (⟨S3301376, .f32⟩ : BufTy)) (h2 : main_v35.space ≠ .host) (h3 : main_v35.isScoped = false) (v : (⟨S3301376, .f32⟩ : BufTy).Contents Val) :
    (TRef.of (sig := sig) (T := ⟨S3301376, .f32⟩) main_v35 h1 h2 h3).ofBuf (Val := Val) v = v := rfl
theorem toBuf_main_v35 (h1 : main_v35.ty = (⟨S3301376, .f32⟩ : BufTy)) (h2 : main_v35.space ≠ .host) (h3 : main_v35.isScoped = false) (v : (⟨S3301376, .f32⟩ : BufTy).Contents Val) :
    (TRef.of (sig := sig) (T := ⟨S3301376, .f32⟩) main_v35 h1 h2 h3).toBuf (Val := Val) v = v := rfl
theorem ofBuf_main_v36 (h1 : main_v36.ty = (⟨S3301376x1, .f32⟩ : BufTy)) (h2 : main_v36.space ≠ .host) (h3 : main_v36.isScoped = false) (v : (⟨S3301376x1, .f32⟩ : BufTy).Contents Val) :
    (TRef.of (sig := sig) (T := ⟨S3301376x1, .f32⟩) main_v36 h1 h2 h3).ofBuf (Val := Val) v = v := rfl
theorem toBuf_main_v36 (h1 : main_v36.ty = (⟨S3301376x1, .f32⟩ : BufTy)) (h2 : main_v36.space ≠ .host) (h3 : main_v36.isScoped = false) (v : (⟨S3301376x1, .f32⟩ : BufTy).Contents Val) :
    (TRef.of (sig := sig) (T := ⟨S3301376x1, .f32⟩) main_v36 h1 h2 h3).toBuf (Val := Val) v = v := rfl
theorem ofBuf_main_v38 (h1 : main_v38.ty = (⟨S3300000x8, .f32⟩ : BufTy)) (h2 : main_v38.space ≠ .host) (h3 : main_v38.isScoped = false) (v : (⟨S3300000x8, .f32⟩ : BufTy).Contents Val) :
    (TRef.of (sig := sig) (T := ⟨S3300000x8, .f32⟩) main_v38 h1 h2 h3).ofBuf (Val := Val) v = v := rfl
theorem toBuf_main_v38 (h1 : main_v38.ty = (⟨S3300000x8, .f32⟩ : BufTy)) (h2 : main_v38.space ≠ .host) (h3 : main_v38.isScoped = false) (v : (⟨S3300000x8, .f32⟩ : BufTy).Contents Val) :
    (TRef.of (sig := sig) (T := ⟨S3300000x8, .f32⟩) main_v38 h1 h2 h3).toBuf (Val := Val) v = v := rfl
theorem ofBuf_main_cst_11 (h1 : main_cst_11.ty = (⟨S_, .f32⟩ : BufTy)) (h2 : main_cst_11.space ≠ .host) (h3 : main_cst_11.isScoped = false) (v : (⟨S_, .f32⟩ : BufTy).Contents Val) :
    (TRef.of (sig := sig) (T := ⟨S_, .f32⟩) main_cst_11 h1 h2 h3).ofBuf (Val := Val) v = v := rfl
theorem toBuf_main_cst_11 (h1 : main_cst_11.ty = (⟨S_, .f32⟩ : BufTy)) (h2 : main_cst_11.space ≠ .host) (h3 : main_cst_11.isScoped = false) (v : (⟨S_, .f32⟩ : BufTy).Contents Val) :
    (TRef.of (sig := sig) (T := ⟨S_, .f32⟩) main_cst_11 h1 h2 h3).toBuf (Val := Val) v = v := rfl
theorem ofBuf_main_v39 (h1 : main_v39.ty = (⟨S100000x8, .f32⟩ : BufTy)) (h2 : main_v39.space ≠ .host) (h3 : main_v39.isScoped = false) (v : (⟨S100000x8, .f32⟩ : BufTy).Contents Val) :
    (TRef.of (sig := sig) (T := ⟨S100000x8, .f32⟩) main_v39 h1 h2 h3).ofBuf (Val := Val) v = v := rfl
theorem toBuf_main_v39 (h1 : main_v39.ty = (⟨S100000x8, .f32⟩ : BufTy)) (h2 : main_v39.space ≠ .host) (h3 : main_v39.isScoped = false) (v : (⟨S100000x8, .f32⟩ : BufTy).Contents Val) :
    (TRef.of (sig := sig) (T := ⟨S100000x8, .f32⟩) main_v39 h1 h2 h3).toBuf (Val := Val) v = v := rfl
theorem ofBuf_main_v40 (h1 : main_v40.ty = (⟨S3300000x1, .i32⟩ : BufTy)) (h2 : main_v40.space ≠ .host) (h3 : main_v40.isScoped = false) (v : (⟨S3300000x1, .i32⟩ : BufTy).Contents Val) :
    (TRef.of (sig := sig) (T := ⟨S3300000x1, .i32⟩) main_v40 h1 h2 h3).ofBuf (Val := Val) v = v := rfl
theorem toBuf_main_v40 (h1 : main_v40.ty = (⟨S3300000x1, .i32⟩ : BufTy)) (h2 : main_v40.space ≠ .host) (h3 : main_v40.isScoped = false) (v : (⟨S3300000x1, .i32⟩ : BufTy).Contents Val) :
    (TRef.of (sig := sig) (T := ⟨S3300000x1, .i32⟩) main_v40 h1 h2 h3).toBuf (Val := Val) v = v := rfl
theorem ofBuf_main_v41 (h1 : main_v41.ty = (⟨S100000x8, .f32⟩ : BufTy)) (h2 : main_v41.space ≠ .host) (h3 : main_v41.isScoped = false) (v : (⟨S100000x8, .f32⟩ : BufTy).Contents Val) :
    (TRef.of (sig := sig) (T := ⟨S100000x8, .f32⟩) main_v41 h1 h2 h3).ofBuf (Val := Val) v = v := rfl
theorem toBuf_main_v41 (h1 : main_v41.ty = (⟨S100000x8, .f32⟩ : BufTy)) (h2 : main_v41.space ≠ .host) (h3 : main_v41.isScoped = false) (v : (⟨S100000x8, .f32⟩ : BufTy).Contents Val) :
    (TRef.of (sig := sig) (T := ⟨S100000x8, .f32⟩) main_v41 h1 h2 h3).toBuf (Val := Val) v = v := rfl
theorem ofBuf_main_c_12 (h1 : main_c_12.ty = (⟨S_, .i32⟩ : BufTy)) (h2 : main_c_12.space ≠ .host) (h3 : main_c_12.isScoped = false) (v : (⟨S_, .i32⟩ : BufTy).Contents Val) :
    (TRef.of (sig := sig) (T := ⟨S_, .i32⟩) main_c_12 h1 h2 h3).ofBuf (Val := Val) v = v := rfl
theorem toBuf_main_c_12 (h1 : main_c_12.ty = (⟨S_, .i32⟩ : BufTy)) (h2 : main_c_12.space ≠ .host) (h3 : main_c_12.isScoped = false) (v : (⟨S_, .i32⟩ : BufTy).Contents Val) :
    (TRef.of (sig := sig) (T := ⟨S_, .i32⟩) main_c_12 h1 h2 h3).toBuf (Val := Val) v = v := rfl
theorem ofBuf_main_call13_v0 (h1 : main_call13_v0.ty = (⟨S_, .f32⟩ : BufTy)) (h2 : main_call13_v0.space ≠ .host) (h3 : main_call13_v0.isScoped = false) (v : (⟨S_, .f32⟩ : BufTy).Contents Val) :
    (TRef.of (sig := sig) (T := ⟨S_, .f32⟩) main_call13_v0 h1 h2 h3).ofBuf (Val := Val) v = v := rfl
theorem toBuf_main_call13_v0 (h1 : main_call13_v0.ty = (⟨S_, .f32⟩ : BufTy)) (h2 : main_call13_v0.space ≠ .host) (h3 : main_call13_v0.isScoped = false) (v : (⟨S_, .f32⟩ : BufTy).Contents Val) :
    (TRef.of (sig := sig) (T := ⟨S_, .f32⟩) main_call13_v0 h1 h2 h3).toBuf (Val := Val) v = v := rfl
theorem ofBuf_main_v42 (h1 : main_v42.ty = (⟨S106496x8, .f32⟩ : BufTy)) (h2 : main_v42.space ≠ .host) (h3 : main_v42.isScoped = false) (v : (⟨S106496x8, .f32⟩ : BufTy).Contents Val) :
    (TRef.of (sig := sig) (T := ⟨S106496x8, .f32⟩) main_v42 h1 h2 h3).ofBuf (Val := Val) v = v := rfl
theorem toBuf_main_v42 (h1 : main_v42.ty = (⟨S106496x8, .f32⟩ : BufTy)) (h2 : main_v42.space ≠ .host) (h3 : main_v42.isScoped = false) (v : (⟨S106496x8, .f32⟩ : BufTy).Contents Val) :
    (TRef.of (sig := sig) (T := ⟨S106496x8, .f32⟩) main_v42 h1 h2 h3).toBuf (Val := Val) v = v := rfl
theorem ofBuf_main_v43 (h1 : main_v43.ty = (⟨S1x8, .f32⟩ : BufTy)) (h2 : main_v43.space ≠ .host) (h3 : main_v43.isScoped = false) (v : (⟨S1x8, .f32⟩ : BufTy).Contents Val) :
    (TRef.of (sig := sig) (T := ⟨S1x8, .f32⟩) main_v43 h1 h2 h3).ofBuf (Val := Val) v = v := rfl
theorem toBuf_main_v43 (h1 : main_v43.ty = (⟨S1x8, .f32⟩ : BufTy)) (h2 : main_v43.space ≠ .host) (h3 : main_v43.isScoped = false) (v : (⟨S1x8, .f32⟩ : BufTy).Contents Val) :
    (TRef.of (sig := sig) (T := ⟨S1x8, .f32⟩) main_v43 h1 h2 h3).toBuf (Val := Val) v = v := rfl
theorem ofBuf_main_v45 (h1 : main_v45.ty = (⟨S100000x8, .f32⟩ : BufTy)) (h2 : main_v45.space ≠ .host) (h3 : main_v45.isScoped = false) (v : (⟨S100000x8, .f32⟩ : BufTy).Contents Val) :
    (TRef.of (sig := sig) (T := ⟨S100000x8, .f32⟩) main_v45 h1 h2 h3).ofBuf (Val := Val) v = v := rfl
theorem toBuf_main_v45 (h1 : main_v45.ty = (⟨S100000x8, .f32⟩ : BufTy)) (h2 : main_v45.space ≠ .host) (h3 : main_v45.isScoped = false) (v : (⟨S100000x8, .f32⟩ : BufTy).Contents Val) :
    (TRef.of (sig := sig) (T := ⟨S100000x8, .f32⟩) main_v45 h1 h2 h3).toBuf (Val := Val) v = v := rfl
theorem ofBuf_main_c_13 (h1 : main_c_13.ty = (⟨S_, .i32⟩ : BufTy)) (h2 : main_c_13.space ≠ .host) (h3 : main_c_13.isScoped = false) (v : (⟨S_, .i32⟩ : BufTy).Contents Val) :
    (TRef.of (sig := sig) (T := ⟨S_, .i32⟩) main_c_13 h1 h2 h3).ofBuf (Val := Val) v = v := rfl
theorem toBuf_main_c_13 (h1 : main_c_13.ty = (⟨S_, .i32⟩ : BufTy)) (h2 : main_c_13.space ≠ .host) (h3 : main_c_13.isScoped = false) (v : (⟨S_, .i32⟩ : BufTy).Contents Val) :
    (TRef.of (sig := sig) (T := ⟨S_, .i32⟩) main_c_13 h1 h2 h3).toBuf (Val := Val) v = v := rfl
theorem ofBuf_main_call14_v0 (h1 : main_call14_v0.ty = (⟨S_, .f32⟩ : BufTy)) (h2 : main_call14_v0.space ≠ .host) (h3 : main_call14_v0.isScoped = false) (v : (⟨S_, .f32⟩ : BufTy).Contents Val) :
    (TRef.of (sig := sig) (T := ⟨S_, .f32⟩) main_call14_v0 h1 h2 h3).ofBuf (Val := Val) v = v := rfl
theorem toBuf_main_call14_v0 (h1 : main_call14_v0.ty = (⟨S_, .f32⟩ : BufTy)) (h2 : main_call14_v0.space ≠ .host) (h3 : main_call14_v0.isScoped = false) (v : (⟨S_, .f32⟩ : BufTy).Contents Val) :
    (TRef.of (sig := sig) (T := ⟨S_, .f32⟩) main_call14_v0 h1 h2 h3).toBuf (Val := Val) v = v := rfl
theorem ofBuf_main_v46 (h1 : main_v46.ty = (⟨S106496x8, .f32⟩ : BufTy)) (h2 : main_v46.space ≠ .host) (h3 : main_v46.isScoped = false) (v : (⟨S106496x8, .f32⟩ : BufTy).Contents Val) :
    (TRef.of (sig := sig) (T := ⟨S106496x8, .f32⟩) main_v46 h1 h2 h3).ofBuf (Val := Val) v = v := rfl
theorem toBuf_main_v46 (h1 : main_v46.ty = (⟨S106496x8, .f32⟩ : BufTy)) (h2 : main_v46.space ≠ .host) (h3 : main_v46.isScoped = false) (v : (⟨S106496x8, .f32⟩ : BufTy).Contents Val) :
    (TRef.of (sig := sig) (T := ⟨S106496x8, .f32⟩) main_v46 h1 h2 h3).toBuf (Val := Val) v = v := rfl
theorem ofBuf_main_v48 (h1 : main_v48.ty = (⟨S100000x16, .f32⟩ : BufTy)) (h2 : main_v48.space ≠ .host) (h3 : main_v48.isScoped = false) (v : (⟨S100000x16, .f32⟩ : BufTy).Contents Val) :
    (TRef.of (sig := sig) (T := ⟨S100000x16, .f32⟩) main_v48 h1 h2 h3).ofBuf (Val := Val) v = v := rfl
theorem toBuf_main_v48 (h1 : main_v48.ty = (⟨S100000x16, .f32⟩ : BufTy)) (h2 : main_v48.space ≠ .host) (h3 : main_v48.isScoped = false) (v : (⟨S100000x16, .f32⟩ : BufTy).Contents Val) :
    (TRef.of (sig := sig) (T := ⟨S100000x16, .f32⟩) main_v48 h1 h2 h3).toBuf (Val := Val) v = v := rfl
theorem ofBuf_main_call15_c (h1 : main_call15_c.ty = (⟨S_, .i32⟩ : BufTy)) (h2 : main_call15_c.space ≠ .host) (h3 : main_call15_c.isScoped = false) (v : (⟨S_, .i32⟩ : BufTy).Contents Val) :
    (TRef.of (sig := sig) (T := ⟨S_, .i32⟩) main_call15_c h1 h2 h3).ofBuf (Val := Val) v = v := rfl
theorem toBuf_main_call15_c (h1 : main_call15_c.ty = (⟨S_, .i32⟩ : BufTy)) (h2 : main_call15_c.space ≠ .host) (h3 : main_call15_c.isScoped = false) (v : (⟨S_, .i32⟩ : BufTy).Contents Val) :
    (TRef.of (sig := sig) (T := ⟨S_, .i32⟩) main_call15_c h1 h2 h3).toBuf (Val := Val) v = v := rfl
theorem ofBuf_main_call15_v0 (h1 : main_call15_v0.ty = (⟨S3300000, .i32⟩ : BufTy)) (h2 : main_call15_v0.space ≠ .host) (h3 : main_call15_v0.isScoped = false) (v : (⟨S3300000, .i32⟩ : BufTy).Contents Val) :
    (TRef.of (sig := sig) (T := ⟨S3300000, .i32⟩) main_call15_v0 h1 h2 h3).ofBuf (Val := Val) v = v := rfl
theorem toBuf_main_call15_v0 (h1 : main_call15_v0.ty = (⟨S3300000, .i32⟩ : BufTy)) (h2 : main_call15_v0.space ≠ .host) (h3 : main_call15_v0.isScoped = false) (v : (⟨S3300000, .i32⟩ : BufTy).Contents Val) :
    (TRef.of (sig := sig) (T := ⟨S3300000, .i32⟩) main_call15_v0 h1 h2 h3).toBuf (Val := Val) v = v := rfl
theorem ofBuf_main_call15_v1 (h1 : main_call15_v1.ty = (⟨S3300000, .i1⟩ : BufTy)) (h2 : main_call15_v1.space ≠ .host) (h3 : main_call15_v1.isScoped = false) (v : (⟨S3300000, .i1⟩ : BufTy).Contents Val) :
    (TRef.of (sig := sig) (T := ⟨S3300000, .i1⟩) main_call15_v1 h1 h2 h3).ofBuf (Val := Val) v = v := rfl
theorem toBuf_main_call15_v1 (h1 : main_call15_v1.ty = (⟨S3300000, .i1⟩ : BufTy)) (h2 : main_call15_v1.space ≠ .host) (h3 : main_call15_v1.isScoped = false) (v : (⟨S3300000, .i1⟩ : BufTy).Contents Val) :
    (TRef.of (sig := sig) (T := ⟨S3300000, .i1⟩) main_call15_v1 h1 h2 h3).toBuf (Val := Val) v = v := rfl
theorem ofBuf_main_call15_c_0 (h1 : main_call15_c_0.ty = (⟨S_, .i32⟩ : BufTy)) (h2 : main_call15_c_0.space ≠ .host) (h3 : main_call15_c_0.isScoped = false) (v : (⟨S_, .i32⟩ : BufTy).Contents Val) :
    (TRef.of (sig := sig) (T := ⟨S_, .i32⟩) main_call15_c_0 h1 h2 h3).ofBuf (Val := Val) v = v := rfl
theorem toBuf_main_call15_c_0 (h1 : main_call15_c_0.ty = (⟨S_, .i32⟩ : BufTy)) (h2 : main_call15_c_0.space ≠ .host) (h3 : main_call15_c_0.isScoped = false) (v : (⟨S_, .i32⟩ : BufTy).Contents Val) :
    (TRef.of (sig := sig) (T := ⟨S_, .i32⟩) main_call15_c_0 h1 h2 h3).toBuf (Val := Val) v = v := rfl
theorem ofBuf_main_call15_v2 (h1 : main_call15_v2.ty = (⟨S3300000, .i32⟩ : BufTy)) (h2 : main_call15_v2.space ≠ .host) (h3 : main_call15_v2.isScoped = false) (v : (⟨S3300000, .i32⟩ : BufTy).Contents Val) :
    (TRef.of (sig := sig) (T := ⟨S3300000, .i32⟩) main_call15_v2 h1 h2 h3).ofBuf (Val := Val) v = v := rfl
theorem toBuf_main_call15_v2 (h1 : main_call15_v2.ty = (⟨S3300000, .i32⟩ : BufTy)) (h2 : main_call15_v2.space ≠ .host) (h3 : main_call15_v2.isScoped = false) (v : (⟨S3300000, .i32⟩ : BufTy).Contents Val) :
    (TRef.of (sig := sig) (T := ⟨S3300000, .i32⟩) main_call15_v2 h1 h2 h3).toBuf (Val := Val) v = v := rfl
theorem ofBuf_main_call15_v3 (h1 : main_call15_v3.ty = (⟨S3300000, .i32⟩ : BufTy)) (h2 : main_call15_v3.space ≠ .host) (h3 : main_call15_v3.isScoped = false) (v : (⟨S3300000, .i32⟩ : BufTy).Contents Val) :
    (TRef.of (sig := sig) (T := ⟨S3300000, .i32⟩) main_call15_v3 h1 h2 h3).ofBuf (Val := Val) v = v := rfl
theorem toBuf_main_call15_v3 (h1 : main_call15_v3.ty = (⟨S3300000, .i32⟩ : BufTy)) (h2 : main_call15_v3.space ≠ .host) (h3 : main_call15_v3.isScoped = false) (v : (⟨S3300000, .i32⟩ : BufTy).Contents Val) :
    (TRef.of (sig := sig) (T := ⟨S3300000, .i32⟩) main_call15_v3 h1 h2 h3).toBuf (Val := Val) v = v := rfl
theorem ofBuf_main_call15_v4 (h1 : main_call15_v4.ty = (⟨S3300000, .i32⟩ : BufTy)) (h2 : main_call15_v4.space ≠ .host) (h3 : main_call15_v4.isScoped = false) (v : (⟨S3300000, .i32⟩ : BufTy).Contents Val) :
    (TRef.of (sig := sig) (T := ⟨S3300000, .i32⟩) main_call15_v4 h1 h2 h3).ofBuf (Val := Val) v = v := rfl
theorem toBuf_main_call15_v4 (h1 : main_call15_v4.ty = (⟨S3300000, .i32⟩ : BufTy)) (h2 : main_call15_v4.space ≠ .host) (h3 : main_call15_v4.isScoped = false) (v : (⟨S3300000, .i32⟩ : BufTy).Contents Val) :
    (TRef.of (sig := sig) (T := ⟨S3300000, .i32⟩) main_call15_v4 h1 h2 h3).toBuf (Val := Val) v = v := rfl
theorem ofBuf_main_call15_v5 (h1 : main_call15_v5.ty = (⟨S3300000x1, .i32⟩ : BufTy)) (h2 : main_call15_v5.space ≠ .host) (h3 : main_call15_v5.isScoped = false) (v : (⟨S3300000x1, .i32⟩ : BufTy).Contents Val) :
    (TRef.of (sig := sig) (T := ⟨S3300000x1, .i32⟩) main_call15_v5 h1 h2 h3).ofBuf (Val := Val) v = v := rfl
theorem toBuf_main_call15_v5 (h1 : main_call15_v5.ty = (⟨S3300000x1, .i32⟩ : BufTy)) (h2 : main_call15_v5.space ≠ .host) (h3 : main_call15_v5.isScoped = false) (v : (⟨S3300000x1, .i32⟩ : BufTy).Contents Val) :
    (TRef.of (sig := sig) (T := ⟨S3300000x1, .i32⟩) main_call15_v5 h1 h2 h3).toBuf (Val := Val) v = v := rfl
theorem ofBuf_main_call15_c_1 (h1 : main_call15_c_1.ty = (⟨S1, .i32⟩ : BufTy)) (h2 : main_call15_c_1.space ≠ .host) (h3 : main_call15_c_1.isScoped = false) (v : (⟨S1, .i32⟩ : BufTy).Contents Val) :
    (TRef.of (sig := sig) (T := ⟨S1, .i32⟩) main_call15_c_1 h1 h2 h3).ofBuf (Val := Val) v = v := rfl
theorem toBuf_main_call15_c_1 (h1 : main_call15_c_1.ty = (⟨S1, .i32⟩ : BufTy)) (h2 : main_call15_c_1.space ≠ .host) (h3 : main_call15_c_1.isScoped = false) (v : (⟨S1, .i32⟩ : BufTy).Contents Val) :
    (TRef.of (sig := sig) (T := ⟨S1, .i32⟩) main_call15_c_1 h1 h2 h3).toBuf (Val := Val) v = v := rfl
theorem ofBuf_main_call15_c_2 (h1 : main_call15_c_2.ty = (⟨S_, .i32⟩ : BufTy)) (h2 : main_call15_c_2.space ≠ .host) (h3 : main_call15_c_2.isScoped = false) (v : (⟨S_, .i32⟩ : BufTy).Contents Val) :
    (TRef.of (sig := sig) (T := ⟨S_, .i32⟩) main_call15_c_2 h1 h2 h3).ofBuf (Val := Val) v = v := rfl
theorem toBuf_main_call15_c_2 (h1 : main_call15_c_2.ty = (⟨S_, .i32⟩ : BufTy)) (h2 : main_call15_c_2.space ≠ .host) (h3 : main_call15_c_2.isScoped = false) (v : (⟨S_, .i32⟩ : BufTy).Contents Val) :
    (TRef.of (sig := sig) (T := ⟨S_, .i32⟩) main_call15_c_2 h1 h2 h3).toBuf (Val := Val) v = v := rfl
theorem ofBuf_main_call15_v6 (h1 : main_call15_v6.ty = (⟨S3300000x1, .i32⟩ : BufTy)) (h2 : main_call15_v6.space ≠ .host) (h3 : main_call15_v6.isScoped = false) (v : (⟨S3300000x1, .i32⟩ : BufTy).Contents Val) :
    (TRef.of (sig := sig) (T := ⟨S3300000x1, .i32⟩) main_call15_v6 h1 h2 h3).ofBuf (Val := Val) v = v := rfl
theorem toBuf_main_call15_v6 (h1 : main_call15_v6.ty = (⟨S3300000x1, .i32⟩ : BufTy)) (h2 : main_call15_v6.space ≠ .host) (h3 : main_call15_v6.isScoped = false) (v : (⟨S3300000x1, .i32⟩ : BufTy).Contents Val) :
    (TRef.of (sig := sig) (T := ⟨S3300000x1, .i32⟩) main_call15_v6 h1 h2 h3).toBuf (Val := Val) v = v := rfl
theorem ofBuf_main_call15_v7 (h1 : main_call15_v7.ty = (⟨S3300000x1, .i1⟩ : BufTy)) (h2 : main_call15_v7.space ≠ .host) (h3 : main_call15_v7.isScoped = false) (v : (⟨S3300000x1, .i1⟩ : BufTy).Contents Val) :
    (TRef.of (sig := sig) (T := ⟨S3300000x1, .i1⟩) main_call15_v7 h1 h2 h3).ofBuf (Val := Val) v = v := rfl
theorem toBuf_main_call15_v7 (h1 : main_call15_v7.ty = (⟨S3300000x1, .i1⟩ : BufTy)) (h2 : main_call15_v7.space ≠ .host) (h3 : main_call15_v7.isScoped = false) (v : (⟨S3300000x1, .i1⟩ : BufTy).Contents Val) :
    (TRef.of (sig := sig) (T := ⟨S3300000x1, .i1⟩) main_call15_v7 h1 h2 h3).toBuf (Val := Val) v = v := rfl
theorem ofBuf_main_call15_v8 (h1 : main_call15_v8.ty = (⟨S1x1, .i32⟩ : BufTy)) (h2 : main_call15_v8.space ≠ .host) (h3 : main_call15_v8.isScoped = false) (v : (⟨S1x1, .i32⟩ : BufTy).Contents Val) :
    (TRef.of (sig := sig) (T := ⟨S1x1, .i32⟩) main_call15_v8 h1 h2 h3).ofBuf (Val := Val) v = v := rfl
theorem toBuf_main_call15_v8 (h1 : main_call15_v8.ty = (⟨S1x1, .i32⟩ : BufTy)) (h2 : main_call15_v8.space ≠ .host) (h3 : main_call15_v8.isScoped = false) (v : (⟨S1x1, .i32⟩ : BufTy).Contents Val) :
    (TRef.of (sig := sig) (T := ⟨S1x1, .i32⟩) main_call15_v8 h1 h2 h3).toBuf (Val := Val) v = v := rfl
theorem ofBuf_main_call15_v9 (h1 : main_call15_v9.ty = (⟨S3300000x1, .i32⟩ : BufTy)) (h2 : main_call15_v9.space ≠ .host) (h3 : main_call15_v9.isScoped = false) (v : (⟨S3300000x1, .i32⟩ : BufTy).Contents Val) :
    (TRef.of (sig := sig) (T := ⟨S3300000x1, .i32⟩) main_call15_v9 h1 h2 h3).ofBuf (Val := Val) v = v := rfl
theorem toBuf_main_call15_v9 (h1 : main_call15_v9.ty = (⟨S3300000x1, .i32⟩ : BufTy)) (h2 : main_call15_v9.space ≠ .host) (h3 : main_call15_v9.isScoped = false) (v : (⟨S3300000x1, .i32⟩ : BufTy).Contents Val) :
    (TRef.of (sig := sig) (T := ⟨S3300000x1, .i32⟩) main_call15_v9 h1 h2 h3).toBuf (Val := Val) v = v := rfl
theorem ofBuf_main_call15_v10 (h1 : main_call15_v10.ty = (⟨S3300000x1, .i1⟩ : BufTy)) (h2 : main_call15_v10.space ≠ .host) (h3 : main_call15_v10.isScoped = false) (v : (⟨S3300000x1, .i1⟩ : BufTy).Contents Val) :
    (TRef.of (sig := sig) (T := ⟨S3300000x1, .i1⟩) main_call15_v10 h1 h2 h3).ofBuf (Val := Val) v = v := rfl
theorem toBuf_main_call15_v10 (h1 : main_call15_v10.ty = (⟨S3300000x1, .i1⟩ : BufTy)) (h2 : main_call15_v10.space ≠ .host) (h3 : main_call15_v10.isScoped = false) (v : (⟨S3300000x1, .i1⟩ : BufTy).Contents Val) :
    (TRef.of (sig := sig) (T := ⟨S3300000x1, .i1⟩) main_call15_v10 h1 h2 h3).toBuf (Val := Val) v = v := rfl
theorem ofBuf_main_call15_v11 (h1 : main_call15_v11.ty = (⟨S3300000x1, .i1⟩ : BufTy)) (h2 : main_call15_v11.space ≠ .host) (h3 : main_call15_v11.isScoped = false) (v : (⟨S3300000x1, .i1⟩ : BufTy).Contents Val) :
    (TRef.of (sig := sig) (T := ⟨S3300000x1, .i1⟩) main_call15_v11 h1 h2 h3).ofBuf (Val := Val) v = v := rfl
theorem toBuf_main_call15_v11 (h1 : main_call15_v11.ty = (⟨S3300000x1, .i1⟩ : BufTy)) (h2 : main_call15_v11.space ≠ .host) (h3 : main_call15_v11.isScoped = false) (v : (⟨S3300000x1, .i1⟩ : BufTy).Contents Val) :
    (TRef.of (sig := sig) (T := ⟨S3300000x1, .i1⟩) main_call15_v11 h1 h2 h3).toBuf (Val := Val) v = v := rfl
theorem ofBuf_main_call15_c_3 (h1 : main_call15_c_3.ty = (⟨S_, .i1⟩ : BufTy)) (h2 : main_call15_c_3.space ≠ .host) (h3 : main_call15_c_3.isScoped = false) (v : (⟨S_, .i1⟩ : BufTy).Contents Val) :
    (TRef.of (sig := sig) (T := ⟨S_, .i1⟩) main_call15_c_3 h1 h2 h3).ofBuf (Val := Val) v = v := rfl
theorem toBuf_main_call15_c_3 (h1 : main_call15_c_3.ty = (⟨S_, .i1⟩ : BufTy)) (h2 : main_call15_c_3.space ≠ .host) (h3 : main_call15_c_3.isScoped = false) (v : (⟨S_, .i1⟩ : BufTy).Contents Val) :
    (TRef.of (sig := sig) (T := ⟨S_, .i1⟩) main_call15_c_3 h1 h2 h3).toBuf (Val := Val) v = v := rfl
theorem ofBuf_main_call15_v12 (h1 : main_call15_v12.ty = (⟨S3300000, .i1⟩ : BufTy)) (h2 : main_call15_v12.space ≠ .host) (h3 : main_call15_v12.isScoped = false) (v : (⟨S3300000, .i1⟩ : BufTy).Contents Val) :
    (TRef.of (sig := sig) (T := ⟨S3300000, .i1⟩) main_call15_v12 h1 h2 h3).ofBuf (Val := Val) v = v := rfl
theorem toBuf_main_call15_v12 (h1 : main_call15_v12.ty = (⟨S3300000, .i1⟩ : BufTy)) (h2 : main_call15_v12.space ≠ .host) (h3 : main_call15_v12.isScoped = false) (v : (⟨S3300000, .i1⟩ : BufTy).Contents Val) :
    (TRef.of (sig := sig) (T := ⟨S3300000, .i1⟩) main_call15_v12 h1 h2 h3).toBuf (Val := Val) v = v := rfl
theorem ofBuf_main_call15_v13 (h1 : main_call15_v13.ty = (⟨S3300000x16, .f32⟩ : BufTy)) (h2 : main_call15_v13.space ≠ .host) (h3 : main_call15_v13.isScoped = false) (v : (⟨S3300000x16, .f32⟩ : BufTy).Contents Val) :
    (TRef.of (sig := sig) (T := ⟨S3300000x16, .f32⟩) main_call15_v13 h1 h2 h3).ofBuf (Val := Val) v = v := rfl
theorem toBuf_main_call15_v13 (h1 : main_call15_v13.ty = (⟨S3300000x16, .f32⟩ : BufTy)) (h2 : main_call15_v13.space ≠ .host) (h3 : main_call15_v13.isScoped = false) (v : (⟨S3300000x16, .f32⟩ : BufTy).Contents Val) :
    (TRef.of (sig := sig) (T := ⟨S3300000x16, .f32⟩) main_call15_v13 h1 h2 h3).toBuf (Val := Val) v = v := rfl
theorem ofBuf_main_call15_v14 (h1 : main_call15_v14.ty = (⟨S3300000x16, .i1⟩ : BufTy)) (h2 : main_call15_v14.space ≠ .host) (h3 : main_call15_v14.isScoped = false) (v : (⟨S3300000x16, .i1⟩ : BufTy).Contents Val) :
    (TRef.of (sig := sig) (T := ⟨S3300000x16, .i1⟩) main_call15_v14 h1 h2 h3).ofBuf (Val := Val) v = v := rfl
theorem toBuf_main_call15_v14 (h1 : main_call15_v14.ty = (⟨S3300000x16, .i1⟩ : BufTy)) (h2 : main_call15_v14.space ≠ .host) (h3 : main_call15_v14.isScoped = false) (v : (⟨S3300000x16, .i1⟩ : BufTy).Contents Val) :
    (TRef.of (sig := sig) (T := ⟨S3300000x16, .i1⟩) main_call15_v14 h1 h2 h3).toBuf (Val := Val) v = v := rfl
theorem ofBuf_main_call15_cst (h1 : main_call15_cst.ty = (⟨S_, .f32⟩ : BufTy)) (h2 : main_call15_cst.space ≠ .host) (h3 : main_call15_cst.isScoped = false) (v : (⟨S_, .f32⟩ : BufTy).Contents Val) :
    (TRef.of (sig := sig) (T := ⟨S_, .f32⟩) main_call15_cst h1 h2 h3).ofBuf (Val := Val) v = v := rfl
theorem toBuf_main_call15_cst (h1 : main_call15_cst.ty = (⟨S_, .f32⟩ : BufTy)) (h2 : main_call15_cst.space ≠ .host) (h3 : main_call15_cst.isScoped = false) (v : (⟨S_, .f32⟩ : BufTy).Contents Val) :
    (TRef.of (sig := sig) (T := ⟨S_, .f32⟩) main_call15_cst h1 h2 h3).toBuf (Val := Val) v = v := rfl
theorem ofBuf_main_call15_v15 (h1 : main_call15_v15.ty = (⟨S3300000x16, .f32⟩ : BufTy)) (h2 : main_call15_v15.space ≠ .host) (h3 : main_call15_v15.isScoped = false) (v : (⟨S3300000x16, .f32⟩ : BufTy).Contents Val) :
    (TRef.of (sig := sig) (T := ⟨S3300000x16, .f32⟩) main_call15_v15 h1 h2 h3).ofBuf (Val := Val) v = v := rfl
theorem toBuf_main_call15_v15 (h1 : main_call15_v15.ty = (⟨S3300000x16, .f32⟩ : BufTy)) (h2 : main_call15_v15.space ≠ .host) (h3 : main_call15_v15.isScoped = false) (v : (⟨S3300000x16, .f32⟩ : BufTy).Contents Val) :
    (TRef.of (sig := sig) (T := ⟨S3300000x16, .f32⟩) main_call15_v15 h1 h2 h3).toBuf (Val := Val) v = v := rfl
theorem ofBuf_main_v49 (h1 : main_v49.ty = (⟨S3300000x16, .f32⟩ : BufTy)) (h2 : main_v49.space ≠ .host) (h3 : main_v49.isScoped = false) (v : (⟨S3300000x16, .f32⟩ : BufTy).Contents Val) :
    (TRef.of (sig := sig) (T := ⟨S3300000x16, .f32⟩) main_v49 h1 h2 h3).ofBuf (Val := Val) v = v := rfl
theorem toBuf_main_v49 (h1 : main_v49.ty = (⟨S3300000x16, .f32⟩ : BufTy)) (h2 : main_v49.space ≠ .host) (h3 : main_v49.isScoped = false) (v : (⟨S3300000x16, .f32⟩ : BufTy).Contents Val) :
    (TRef.of (sig := sig) (T := ⟨S3300000x16, .f32⟩) main_v49 h1 h2 h3).toBuf (Val := Val) v = v := rfl
theorem ofBuf_main_c_14 (h1 : main_c_14.ty = (⟨S_, .i32⟩ : BufTy)) (h2 : main_c_14.space ≠ .host) (h3 : main_c_14.isScoped = false) (v : (⟨S_, .i32⟩ : BufTy).Contents Val) :
    (TRef.of (sig := sig) (T := ⟨S_, .i32⟩) main_c_14 h1 h2 h3).ofBuf (Val := Val) v = v := rfl
theorem toBuf_main_c_14 (h1 : main_c_14.ty = (⟨S_, .i32⟩ : BufTy)) (h2 : main_c_14.space ≠ .host) (h3 : main_c_14.isScoped = false) (v : (⟨S_, .i32⟩ : BufTy).Contents Val) :
    (TRef.of (sig := sig) (T := ⟨S_, .i32⟩) main_c_14 h1 h2 h3).toBuf (Val := Val) v = v := rfl
theorem ofBuf_main_call16_v0 (h1 : main_call16_v0.ty = (⟨S_, .f32⟩ : BufTy)) (h2 : main_call16_v0.space ≠ .host) (h3 : main_call16_v0.isScoped = false) (v : (⟨S_, .f32⟩ : BufTy).Contents Val) :
    (TRef.of (sig := sig) (T := ⟨S_, .f32⟩) main_call16_v0 h1 h2 h3).ofBuf (Val := Val) v = v := rfl
theorem toBuf_main_call16_v0 (h1 : main_call16_v0.ty = (⟨S_, .f32⟩ : BufTy)) (h2 : main_call16_v0.space ≠ .host) (h3 : main_call16_v0.isScoped = false) (v : (⟨S_, .f32⟩ : BufTy).Contents Val) :
    (TRef.of (sig := sig) (T := ⟨S_, .f32⟩) main_call16_v0 h1 h2 h3).toBuf (Val := Val) v = v := rfl
theorem ofBuf_main_v50 (h1 : main_v50.ty = (⟨S3301376x16, .f32⟩ : BufTy)) (h2 : main_v50.space ≠ .host) (h3 : main_v50.isScoped = false) (v : (⟨S3301376x16, .f32⟩ : BufTy).Contents Val) :
    (TRef.of (sig := sig) (T := ⟨S3301376x16, .f32⟩) main_v50 h1 h2 h3).ofBuf (Val := Val) v = v := rfl
theorem toBuf_main_v50 (h1 : main_v50.ty = (⟨S3301376x16, .f32⟩ : BufTy)) (h2 : main_v50.space ≠ .host) (h3 : main_v50.isScoped = false) (v : (⟨S3301376x16, .f32⟩ : BufTy).Contents Val) :
    (TRef.of (sig := sig) (T := ⟨S3301376x16, .f32⟩) main_v50 h1 h2 h3).toBuf (Val := Val) v = v := rfl
theorem ofBuf_main_c_15 (h1 : main_c_15.ty = (⟨S_, .i32⟩ : BufTy)) (h2 : main_c_15.space ≠ .host) (h3 : main_c_15.isScoped = false) (v : (⟨S_, .i32⟩ : BufTy).Contents Val) :
    (TRef.of (sig := sig) (T := ⟨S_, .i32⟩) main_c_15 h1 h2 h3).ofBuf (Val := Val) v = v := rfl
theorem toBuf_main_c_15 (h1 : main_c_15.ty = (⟨S_, .i32⟩ : BufTy)) (h2 : main_c_15.space ≠ .host) (h3 : main_c_15.isScoped = false) (v : (⟨S_, .i32⟩ : BufTy).Contents Val) :
    (TRef.of (sig := sig) (T := ⟨S_, .i32⟩) main_c_15 h1 h2 h3).toBuf (Val := Val) v = v := rfl
theorem ofBuf_main_call17_v0 (h1 : main_call17_v0.ty = (⟨S_, .f32⟩ : BufTy)) (h2 : main_call17_v0.space ≠ .host) (h3 : main_call17_v0.isScoped = false) (v : (⟨S_, .f32⟩ : BufTy).Contents Val) :
    (TRef.of (sig := sig) (T := ⟨S_, .f32⟩) main_call17_v0 h1 h2 h3).ofBuf (Val := Val) v = v := rfl
theorem toBuf_main_call17_v0 (h1 : main_call17_v0.ty = (⟨S_, .f32⟩ : BufTy)) (h2 : main_call17_v0.space ≠ .host) (h3 : main_call17_v0.isScoped = false) (v : (⟨S_, .f32⟩ : BufTy).Contents Val) :
    (TRef.of (sig := sig) (T := ⟨S_, .f32⟩) main_call17_v0 h1 h2 h3).toBuf (Val := Val) v = v := rfl
theorem ofBuf_main_v51 (h1 : main_v51.ty = (⟨S3301376, .f32⟩ : BufTy)) (h2 : main_v51.space ≠ .host) (h3 : main_v51.isScoped = false) (v : (⟨S3301376, .f32⟩ : BufTy).Contents Val) :
    (TRef.of (sig := sig) (T := ⟨S3301376, .f32⟩) main_v51 h1 h2 h3).ofBuf (Val := Val) v = v := rfl
theorem toBuf_main_v51 (h1 : main_v51.ty = (⟨S3301376, .f32⟩ : BufTy)) (h2 : main_v51.space ≠ .host) (h3 : main_v51.isScoped = false) (v : (⟨S3301376, .f32⟩ : BufTy).Contents Val) :
    (TRef.of (sig := sig) (T := ⟨S3301376, .f32⟩) main_v51 h1 h2 h3).toBuf (Val := Val) v = v := rfl
theorem ofBuf_main_v52 (h1 : main_v52.ty = (⟨S3301376x1, .f32⟩ : BufTy)) (h2 : main_v52.space ≠ .host) (h3 : main_v52.isScoped = false) (v : (⟨S3301376x1, .f32⟩ : BufTy).Contents Val) :
    (TRef.of (sig := sig) (T := ⟨S3301376x1, .f32⟩) main_v52 h1 h2 h3).ofBuf (Val := Val) v = v := rfl
theorem toBuf_main_v52 (h1 : main_v52.ty = (⟨S3301376x1, .f32⟩ : BufTy)) (h2 : main_v52.space ≠ .host) (h3 : main_v52.isScoped = false) (v : (⟨S3301376x1, .f32⟩ : BufTy).Contents Val) :
    (TRef.of (sig := sig) (T := ⟨S3301376x1, .f32⟩) main_v52 h1 h2 h3).toBuf (Val := Val) v = v := rfl
theorem ofBuf_main_v54 (h1 : main_v54.ty = (⟨S3300000x16, .f32⟩ : BufTy)) (h2 : main_v54.space ≠ .host) (h3 : main_v54.isScoped = false) (v : (⟨S3300000x16, .f32⟩ : BufTy).Contents Val) :
    (TRef.of (sig := sig) (T := ⟨S3300000x16, .f32⟩) main_v54 h1 h2 h3).ofBuf (Val := Val) v = v := rfl
theorem toBuf_main_v54 (h1 : main_v54.ty = (⟨S3300000x16, .f32⟩ : BufTy)) (h2 : main_v54.space ≠ .host) (h3 : main_v54.isScoped = false) (v : (⟨S3300000x16, .f32⟩ : BufTy).Contents Val) :
    (TRef.of (sig := sig) (T := ⟨S3300000x16, .f32⟩) main_v54 h1 h2 h3).toBuf (Val := Val) v = v := rfl
theorem ofBuf_main_cst_16 (h1 : main_cst_16.ty = (⟨S_, .f32⟩ : BufTy)) (h2 : main_cst_16.space ≠ .host) (h3 : main_cst_16.isScoped = false) (v : (⟨S_, .f32⟩ : BufTy).Contents Val) :
    (TRef.of (sig := sig) (T := ⟨S_, .f32⟩) main_cst_16 h1 h2 h3).ofBuf (Val := Val) v = v := rfl
theorem toBuf_main_cst_16 (h1 : main_cst_16.ty = (⟨S_, .f32⟩ : BufTy)) (h2 : main_cst_16.space ≠ .host) (h3 : main_cst_16.isScoped = false) (v : (⟨S_, .f32⟩ : BufTy).Contents Val) :
    (TRef.of (sig := sig) (T := ⟨S_, .f32⟩) main_cst_16 h1 h2 h3).toBuf (Val := Val) v = v := rfl
theorem ofBuf_main_v55 (h1 : main_v55.ty = (⟨S100000x16, .f32⟩ : BufTy)) (h2 : main_v55.space ≠ .host) (h3 : main_v55.isScoped = false) (v : (⟨S100000x16, .f32⟩ : BufTy).Contents Val) :
    (TRef.of (sig := sig) (T := ⟨S100000x16, .f32⟩) main_v55 h1 h2 h3).ofBuf (Val := Val) v = v := rfl
theorem toBuf_main_v55 (h1 : main_v55.ty = (⟨S100000x16, .f32⟩ : BufTy)) (h2 : main_v55.space ≠ .host) (h3 : main_v55.isScoped = false) (v : (⟨S100000x16, .f32⟩ : BufTy).Contents Val) :
    (TRef.of (sig := sig) (T := ⟨S100000x16, .f32⟩) main_v55 h1 h2 h3).toBuf (Val := Val) v = v := rfl
theorem ofBuf_main_v56 (h1 : main_v56.ty = (⟨S3300000x1, .i32⟩ : BufTy)) (h2 : main_v56.space ≠ .host) (h3 : main_v56.isScoped = false) (v : (⟨S3300000x1, .i32⟩ : BufTy).Contents Val) :
    (TRef.of (sig := sig) (T := ⟨S3300000x1, .i32⟩) main_v56 h1 h2 h3).ofBuf (Val := Val) v = v := rfl
theorem toBuf_main_v56 (h1 : main_v56.ty = (⟨S3300000x1, .i32⟩ : BufTy)) (h2 : main_v56.space ≠ .host) (h3 : main_v56.isScoped = false) (v : (⟨S3300000x1, .i32⟩ : BufTy).Contents Val) :
    (TRef.of (sig := sig) (T := ⟨S3300000x1, .i32⟩) main_v56 h1 h2 h3).toBuf (Val := Val) v = v := rfl
theorem ofBuf_main_v57 (h1 : main_v57.ty = (⟨S100000x16, .f32⟩ : BufTy)) (h2 : main_v57.space ≠ .host) (h3 : main_v57.isScoped = false) (v : (⟨S100000x16, .f32⟩ : BufTy).Contents Val) :
    (TRef.of (sig := sig) (T := ⟨S100000x16, .f32⟩) main_v57 h1 h2 h3).ofBuf (Val := Val) v = v := rfl
theorem toBuf_main_v57 (h1 : main_v57.ty = (⟨S100000x16, .f32⟩ : BufTy)) (h2 : main_v57.space ≠ .host) (h3 : main_v57.isScoped = false) (v : (⟨S100000x16, .f32⟩ : BufTy).Contents Val) :
    (TRef.of (sig := sig) (T := ⟨S100000x16, .f32⟩) main_v57 h1 h2 h3).toBuf (Val := Val) v = v := rfl
theorem ofBuf_main_c_17 (h1 : main_c_17.ty = (⟨S_, .i32⟩ : BufTy)) (h2 : main_c_17.space ≠ .host) (h3 : main_c_17.isScoped = false) (v : (⟨S_, .i32⟩ : BufTy).Contents Val) :
    (TRef.of (sig := sig) (T := ⟨S_, .i32⟩) main_c_17 h1 h2 h3).ofBuf (Val := Val) v = v := rfl
theorem toBuf_main_c_17 (h1 : main_c_17.ty = (⟨S_, .i32⟩ : BufTy)) (h2 : main_c_17.space ≠ .host) (h3 : main_c_17.isScoped = false) (v : (⟨S_, .i32⟩ : BufTy).Contents Val) :
    (TRef.of (sig := sig) (T := ⟨S_, .i32⟩) main_c_17 h1 h2 h3).toBuf (Val := Val) v = v := rfl
theorem ofBuf_main_call18_v0 (h1 : main_call18_v0.ty = (⟨S_, .f32⟩ : BufTy)) (h2 : main_call18_v0.space ≠ .host) (h3 : main_call18_v0.isScoped = false) (v : (⟨S_, .f32⟩ : BufTy).Contents Val) :
    (TRef.of (sig := sig) (T := ⟨S_, .f32⟩) main_call18_v0 h1 h2 h3).ofBuf (Val := Val) v = v := rfl
theorem toBuf_main_call18_v0 (h1 : main_call18_v0.ty = (⟨S_, .f32⟩ : BufTy)) (h2 : main_call18_v0.space ≠ .host) (h3 : main_call18_v0.isScoped = false) (v : (⟨S_, .f32⟩ : BufTy).Contents Val) :
    (TRef.of (sig := sig) (T := ⟨S_, .f32⟩) main_call18_v0 h1 h2 h3).toBuf (Val := Val) v = v := rfl
theorem ofBuf_main_v58 (h1 : main_v58.ty = (⟨S106496x16, .f32⟩ : BufTy)) (h2 : main_v58.space ≠ .host) (h3 : main_v58.isScoped = false) (v : (⟨S106496x16, .f32⟩ : BufTy).Contents Val) :
    (TRef.of (sig := sig) (T := ⟨S106496x16, .f32⟩) main_v58 h1 h2 h3).ofBuf (Val := Val) v = v := rfl
theorem toBuf_main_v58 (h1 : main_v58.ty = (⟨S106496x16, .f32⟩ : BufTy)) (h2 : main_v58.space ≠ .host) (h3 : main_v58.isScoped = false) (v : (⟨S106496x16, .f32⟩ : BufTy).Contents Val) :
    (TRef.of (sig := sig) (T := ⟨S106496x16, .f32⟩) main_v58 h1 h2 h3).toBuf (Val := Val) v = v := rfl
theorem ofBuf_main_v59 (h1 : main_v59.ty = (⟨S1x16, .f32⟩ : BufTy)) (h2 : main_v59.space ≠ .host) (h3 : main_v59.isScoped = false) (v : (⟨S1x16, .f32⟩ : BufTy).Contents Val) :
    (TRef.of (sig := sig) (T := ⟨S1x16, .f32⟩) main_v59 h1 h2 h3).ofBuf (Val := Val) v = v := rfl
theorem toBuf_main_v59 (h1 : main_v59.ty = (⟨S1x16, .f32⟩ : BufTy)) (h2 : main_v59.space ≠ .host) (h3 : main_v59.isScoped = false) (v : (⟨S1x16, .f32⟩ : BufTy).Contents Val) :
    (TRef.of (sig := sig) (T := ⟨S1x16, .f32⟩) main_v59 h1 h2 h3).toBuf (Val := Val) v = v := rfl
theorem ofBuf_main_v61 (h1 : main_v61.ty = (⟨S100000x16, .f32⟩ : BufTy)) (h2 : main_v61.space ≠ .host) (h3 : main_v61.isScoped = false) (v : (⟨S100000x16, .f32⟩ : BufTy).Contents Val) :
    (TRef.of (sig := sig) (T := ⟨S100000x16, .f32⟩) main_v61 h1 h2 h3).ofBuf (Val := Val) v = v := rfl
theorem toBuf_main_v61 (h1 : main_v61.ty = (⟨S100000x16, .f32⟩ : BufTy)) (h2 : main_v61.space ≠ .host) (h3 : main_v61.isScoped = false) (v : (⟨S100000x16, .f32⟩ : BufTy).Contents Val) :
    (TRef.of (sig := sig) (T := ⟨S100000x16, .f32⟩) main_v61 h1 h2 h3).toBuf (Val := Val) v = v := rfl
theorem ofBuf_main_c_18 (h1 : main_c_18.ty = (⟨S_, .i32⟩ : BufTy)) (h2 : main_c_18.space ≠ .host) (h3 : main_c_18.isScoped = false) (v : (⟨S_, .i32⟩ : BufTy).Contents Val) :
    (TRef.of (sig := sig) (T := ⟨S_, .i32⟩) main_c_18 h1 h2 h3).ofBuf (Val := Val) v = v := rfl
theorem toBuf_main_c_18 (h1 : main_c_18.ty = (⟨S_, .i32⟩ : BufTy)) (h2 : main_c_18.space ≠ .host) (h3 : main_c_18.isScoped = false) (v : (⟨S_, .i32⟩ : BufTy).Contents Val) :
    (TRef.of (sig := sig) (T := ⟨S_, .i32⟩) main_c_18 h1 h2 h3).toBuf (Val := Val) v = v := rfl
theorem ofBuf_main_call19_v0 (h1 : main_call19_v0.ty = (⟨S_, .f32⟩ : BufTy)) (h2 : main_call19_v0.space ≠ .host) (h3 : main_call19_v0.isScoped = false) (v : (⟨S_, .f32⟩ : BufTy).Contents Val) :
    (TRef.of (sig := sig) (T := ⟨S_, .f32⟩) main_call19_v0 h1 h2 h3).ofBuf (Val := Val) v = v := rfl
theorem toBuf_main_call19_v0 (h1 : main_call19_v0.ty = (⟨S_, .f32⟩ : BufTy)) (h2 : main_call19_v0.space ≠ .host) (h3 : main_call19_v0.isScoped = false) (v : (⟨S_, .f32⟩ : BufTy).Contents Val) :
    (TRef.of (sig := sig) (T := ⟨S_, .f32⟩) main_call19_v0 h1 h2 h3).toBuf (Val := Val) v = v := rfl
theorem ofBuf_main_v62 (h1 : main_v62.ty = (⟨S106496x16, .f32⟩ : BufTy)) (h2 : main_v62.space ≠ .host) (h3 : main_v62.isScoped = false) (v : (⟨S106496x16, .f32⟩ : BufTy).Contents Val) :
    (TRef.of (sig := sig) (T := ⟨S106496x16, .f32⟩) main_v62 h1 h2 h3).ofBuf (Val := Val) v = v := rfl
theorem toBuf_main_v62 (h1 : main_v62.ty = (⟨S106496x16, .f32⟩ : BufTy)) (h2 : main_v62.space ≠ .host) (h3 : main_v62.isScoped = false) (v : (⟨S106496x16, .f32⟩ : BufTy).Contents Val) :
    (TRef.of (sig := sig) (T := ⟨S106496x16, .f32⟩) main_v62 h1 h2 h3).toBuf (Val := Val) v = v := rfl
theorem ofBuf_main_v64 (h1 : main_v64.ty = (⟨S100000x3, .f32⟩ : BufTy)) (h2 : main_v64.space ≠ .host) (h3 : main_v64.isScoped = false) (v : (⟨S100000x3, .f32⟩ : BufTy).Contents Val) :
    (TRef.of (sig := sig) (T := ⟨S100000x3, .f32⟩) main_v64 h1 h2 h3).ofBuf (Val := Val) v = v := rfl
theorem toBuf_main_v64 (h1 : main_v64.ty = (⟨S100000x3, .f32⟩ : BufTy)) (h2 : main_v64.space ≠ .host) (h3 : main_v64.isScoped = false) (v : (⟨S100000x3, .f32⟩ : BufTy).Contents Val) :
    (TRef.of (sig := sig) (T := ⟨S100000x3, .f32⟩) main_v64 h1 h2 h3).toBuf (Val := Val) v = v := rfl
theorem ofBuf_main_call20_c (h1 : main_call20_c.ty = (⟨S_, .i32⟩ : BufTy)) (h2 : main_call20_c.space ≠ .host) (h3 : main_call20_c.isScoped = false) (v : (⟨S_, .i32⟩ : BufTy).Contents Val) :
    (TRef.of (sig := sig) (T := ⟨S_, .i32⟩) main_call20_c h1 h2 h3).ofBuf (Val := Val) v = v := rfl
theorem toBuf_main_call20_c (h1 : main_call20_c.ty = (⟨S_, .i32⟩ : BufTy)) (h2 : main_call20_c.space ≠ .host) (h3 : main_call20_c.isScoped = false) (v : (⟨S_, .i32⟩ : BufTy).Contents Val) :
    (TRef.of (sig := sig) (T := ⟨S_, .i32⟩) main_call20_c h1 h2 h3).toBuf (Val := Val) v = v := rfl
theorem ofBuf_main_call20_v0 (h1 : main_call20_v0.ty = (⟨S3300000, .i32⟩ : BufTy)) (h2 : main_call20_v0.space ≠ .host) (h3 : main_call20_v0.isScoped = false) (v : (⟨S3300000, .i32⟩ : BufTy).Contents Val) :
    (TRef.of (sig := sig) (T := ⟨S3300000, .i32⟩) main_call20_v0 h1 h2 h3).ofBuf (Val := Val) v = v := rfl
theorem toBuf_main_call20_v0 (h1 : main_call20_v0.ty = (⟨S3300000, .i32⟩ : BufTy)) (h2 : main_call20_v0.space ≠ .host) (h3 : main_call20_v0.isScoped = false) (v : (⟨S3300000, .i32⟩ : BufTy).Contents Val) :
    (TRef.of (sig := sig) (T := ⟨S3300000, .i32⟩) main_call20_v0 h1 h2 h3).toBuf (Val := Val) v = v := rfl
theorem ofBuf_main_call20_v1 (h1 : main_call20_v1.ty = (⟨S3300000, .i1⟩ : BufTy)) (h2 : main_call20_v1.space ≠ .host) (h3 : main_call20_v1.isScoped = false) (v : (⟨S3300000, .i1⟩ : BufTy).Contents Val) :
    (TRef.of (sig := sig) (T := ⟨S3300000, .i1⟩) main_call20_v1 h1 h2 h3).ofBuf (Val := Val) v = v := rfl
theorem toBuf_main_call20_v1 (h1 : main_call20_v1.ty = (⟨S3300000, .i1⟩ : BufTy)) (h2 : main_call20_v1.space ≠ .host) (h3 : main_call20_v1.isScoped = false) (v : (⟨S3300000, .i1⟩ : BufTy).Contents Val) :
    (TRef.of (sig := sig) (T := ⟨S3300000, .i1⟩) main_call20_v1 h1 h2 h3).toBuf (Val := Val) v = v := rfl
theorem ofBuf_main_call20_c_0 (h1 : main_call20_c_0.ty = (⟨S_, .i32⟩ : BufTy)) (h2 : main_call20_c_0.space ≠ .host) (h3 : main_call20_c_0.isScoped = false) (v : (⟨S_, .i32⟩ : BufTy).Contents Val) :
    (TRef.of (sig := sig) (T := ⟨S_, .i32⟩) main_call20_c_0 h1 h2 h3).ofBuf (Val := Val) v = v := rfl
theorem toBuf_main_call20_c_0 (h1 : main_call20_c_0.ty = (⟨S_, .i32⟩ : BufTy)) (h2 : main_call20_c_0.space ≠ .host) (h3 : main_call20_c_0.isScoped = false) (v : (⟨S_, .i32⟩ : BufTy).Contents Val) :
    (TRef.of (sig := sig) (T := ⟨S_, .i32⟩) main_call20_c_0 h1 h2 h3).toBuf (Val := Val) v = v := rfl
theorem ofBuf_main_call20_v2 (h1 : main_call20_v2.ty = (⟨S3300000, .i32⟩ : BufTy)) (h2 : main_call20_v2.space ≠ .host) (h3 : main_call20_v2.isScoped = false) (v : (⟨S3300000, .i32⟩ : BufTy).Contents Val) :
    (TRef.of (sig := sig) (T := ⟨S3300000, .i32⟩) main_call20_v2 h1 h2 h3).ofBuf (Val := Val) v = v := rfl
theorem toBuf_main_call20_v2 (h1 : main_call20_v2.ty = (⟨S3300000, .i32⟩ : BufTy)) (h2 : main_call20_v2.space ≠ .host) (h3 : main_call20_v2.isScoped = false) (v : (⟨S3300000, .i32⟩ : BufTy).Contents Val) :
    (TRef.of (sig := sig) (T := ⟨S3300000, .i32⟩) main_call20_v2 h1 h2 h3).toBuf (Val := Val) v = v := rfl
theorem ofBuf_main_call20_v3 (h1 : main_call20_v3.ty = (⟨S3300000, .i32⟩ : BufTy)) (h2 : main_call20_v3.space ≠ .host) (h3 : main_call20_v3.isScoped = false) (v : (⟨S3300000, .i32⟩ : BufTy).Contents Val) :
    (TRef.of (sig := sig) (T := ⟨S3300000, .i32⟩) main_call20_v3 h1 h2 h3).ofBuf (Val := Val) v = v := rfl
theorem toBuf_main_call20_v3 (h1 : main_call20_v3.ty = (⟨S3300000, .i32⟩ : BufTy)) (h2 : main_call20_v3.space ≠ .host) (h3 : main_call20_v3.isScoped = false) (v : (⟨S3300000, .i32⟩ : BufTy).Contents Val) :
    (TRef.of (sig := sig) (T := ⟨S3300000, .i32⟩) main_call20_v3 h1 h2 h3).toBuf (Val := Val) v = v := rfl
theorem ofBuf_main_call20_v4 (h1 : main_call20_v4.ty = (⟨S3300000, .i32⟩ : BufTy)) (h2 : main_call20_v4.space ≠ .host) (h3 : main_call20_v4.isScoped = false) (v : (⟨S3300000, .i32⟩ : BufTy).Contents Val) :
    (TRef.of (sig := sig) (T := ⟨S3300000, .i32⟩) main_call20_v4 h1 h2 h3).ofBuf (Val := Val) v = v := rfl
theorem toBuf_main_call20_v4 (h1 : main_call20_v4.ty = (⟨S3300000, .i32⟩ : BufTy)) (h2 : main_call20_v4.space ≠ .host) (h3 : main_call20_v4.isScoped = false) (v : (⟨S3300000, .i32⟩ : BufTy).Contents Val) :
    (TRef.of (sig := sig) (T := ⟨S3300000, .i32⟩) main_call20_v4 h1 h2 h3).toBuf (Val := Val) v = v := rfl
theorem ofBuf_main_call20_v5 (h1 : main_call20_v5.ty = (⟨S3300000x1, .i32⟩ : BufTy)) (h2 : main_call20_v5.space ≠ .host) (h3 : main_call20_v5.isScoped = false) (v : (⟨S3300000x1, .i32⟩ : BufTy).Contents Val) :
    (TRef.of (sig := sig) (T := ⟨S3300000x1, .i32⟩) main_call20_v5 h1 h2 h3).ofBuf (Val := Val) v = v := rfl
theorem toBuf_main_call20_v5 (h1 : main_call20_v5.ty = (⟨S3300000x1, .i32⟩ : BufTy)) (h2 : main_call20_v5.space ≠ .host) (h3 : main_call20_v5.isScoped = false) (v : (⟨S3300000x1, .i32⟩ : BufTy).Contents Val) :
    (TRef.of (sig := sig) (T := ⟨S3300000x1, .i32⟩) main_call20_v5 h1 h2 h3).toBuf (Val := Val) v = v := rfl
theorem ofBuf_main_call20_c_1 (h1 : main_call20_c_1.ty = (⟨S1, .i32⟩ : BufTy)) (h2 : main_call20_c_1.space ≠ .host) (h3 : main_call20_c_1.isScoped = false) (v : (⟨S1, .i32⟩ : BufTy).Contents Val) :
    (TRef.of (sig := sig) (T := ⟨S1, .i32⟩) main_call20_c_1 h1 h2 h3).ofBuf (Val := Val) v = v := rfl
theorem toBuf_main_call20_c_1 (h1 : main_call20_c_1.ty = (⟨S1, .i32⟩ : BufTy)) (h2 : main_call20_c_1.space ≠ .host) (h3 : main_call20_c_1.isScoped = false) (v : (⟨S1, .i32⟩ : BufTy).Contents Val) :
    (TRef.of (sig := sig) (T := ⟨S1, .i32⟩) main_call20_c_1 h1 h2 h3).toBuf (Val := Val) v = v := rfl
theorem ofBuf_main_call20_c_2 (h1 : main_call20_c_2.ty = (⟨S_, .i32⟩ : BufTy)) (h2 : main_call20_c_2.space ≠ .host) (h3 : main_call20_c_2.isScoped = false) (v : (⟨S_, .i32⟩ : BufTy).Contents Val) :
    (TRef.of (sig := sig) (T := ⟨S_, .i32⟩) main_call20_c_2 h1 h2 h3).ofBuf (Val := Val) v = v := rfl
theorem toBuf_main_call20_c_2 (h1 : main_call20_c_2.ty = (⟨S_, .i32⟩ : BufTy)) (h2 : main_call20_c_2.space ≠ .host) (h3 : main_call20_c_2.isScoped = false) (v : (⟨S_, .i32⟩ : BufTy).Contents Val) :
    (TRef.of (sig := sig) (T := ⟨S_, .i32⟩) main_call20_c_2 h1 h2 h3).toBuf (Val := Val) v = v := rfl
theorem ofBuf_main_call20_v6 (h1 : main_call20_v6.ty = (⟨S3300000x1, .i32⟩ : BufTy)) (h2 : main_call20_v6.space ≠ .host) (h3 : main_call20_v6.isScoped = false) (v : (⟨S3300000x1, .i32⟩ : BufTy).Contents Val) :
    (TRef.of (sig := sig) (T := ⟨S3300000x1, .i32⟩) main_call20_v6 h1 h2 h3).ofBuf (Val := Val) v = v := rfl
theorem toBuf_main_call20_v6 (h1 : main_call20_v6.ty = (⟨S3300000x1, .i32⟩ : BufTy)) (h2 : main_call20_v6.space ≠ .host) (h3 : main_call20_v6.isScoped = false) (v : (⟨S3300000x1, .i32⟩ : BufTy).Contents Val) :
    (TRef.of (sig := sig) (T := ⟨S3300000x1, .i32⟩) main_call20_v6 h1 h2 h3).toBuf (Val := Val) v = v := rfl
theorem ofBuf_main_call20_v7 (h1 : main_call20_v7.ty = (⟨S3300000x1, .i1⟩ : BufTy)) (h2 : main_call20_v7.space ≠ .host) (h3 : main_call20_v7.isScoped = false) (v : (⟨S3300000x1, .i1⟩ : BufTy).Contents Val) :
    (TRef.of (sig := sig) (T := ⟨S3300000x1, .i1⟩) main_call20_v7 h1 h2 h3).ofBuf (Val := Val) v = v := rfl
theorem toBuf_main_call20_v7 (h1 : main_call20_v7.ty = (⟨S3300000x1, .i1⟩ : BufTy)) (h2 : main_call20_v7.space ≠ .host) (h3 : main_call20_v7.isScoped = false) (v : (⟨S3300000x1, .i1⟩ : BufTy).Contents Val) :
    (TRef.of (sig := sig) (T := ⟨S3300000x1, .i1⟩) main_call20_v7 h1 h2 h3).toBuf (Val := Val) v = v := rfl
theorem ofBuf_main_call20_v8 (h1 : main_call20_v8.ty = (⟨S1x1, .i32⟩ : BufTy)) (h2 : main_call20_v8.space ≠ .host) (h3 : main_call20_v8.isScoped = false) (v : (⟨S1x1, .i32⟩ : BufTy).Contents Val) :
    (TRef.of (sig := sig) (T := ⟨S1x1, .i32⟩) main_call20_v8 h1 h2 h3).ofBuf (Val := Val) v = v := rfl
theorem toBuf_main_call20_v8 (h1 : main_call20_v8.ty = (⟨S1x1, .i32⟩ : BufTy)) (h2 : main_call20_v8.space ≠ .host) (h3 : main_call20_v8.isScoped = false) (v : (⟨S1x1, .i32⟩ : BufTy).Contents Val) :
    (TRef.of (sig := sig) (T := ⟨S1x1, .i32⟩) main_call20_v8 h1 h2 h3).toBuf (Val := Val) v = v := rfl
theorem ofBuf_main_call20_v9 (h1 : main_call20_v9.ty = (⟨S3300000x1, .i32⟩ : BufTy)) (h2 : main_call20_v9.space ≠ .host) (h3 : main_call20_v9.isScoped = false) (v : (⟨S3300000x1, .i32⟩ : BufTy).Contents Val) :
    (TRef.of (sig := sig) (T := ⟨S3300000x1, .i32⟩) main_call20_v9 h1 h2 h3).ofBuf (Val := Val) v = v := rfl
theorem toBuf_main_call20_v9 (h1 : main_call20_v9.ty = (⟨S3300000x1, .i32⟩ : BufTy)) (h2 : main_call20_v9.space ≠ .host) (h3 : main_call20_v9.isScoped = false) (v : (⟨S3300000x1, .i32⟩ : BufTy).Contents Val) :
    (TRef.of (sig := sig) (T := ⟨S3300000x1, .i32⟩) main_call20_v9 h1 h2 h3).toBuf (Val := Val) v = v := rfl
theorem ofBuf_main_call20_v10 (h1 : main_call20_v10.ty = (⟨S3300000x1, .i1⟩ : BufTy)) (h2 : main_call20_v10.space ≠ .host) (h3 : main_call20_v10.isScoped = false) (v : (⟨S3300000x1, .i1⟩ : BufTy).Contents Val) :
    (TRef.of (sig := sig) (T := ⟨S3300000x1, .i1⟩) main_call20_v10 h1 h2 h3).ofBuf (Val := Val) v = v := rfl
theorem toBuf_main_call20_v10 (h1 : main_call20_v10.ty = (⟨S3300000x1, .i1⟩ : BufTy)) (h2 : main_call20_v10.space ≠ .host) (h3 : main_call20_v10.isScoped = false) (v : (⟨S3300000x1, .i1⟩ : BufTy).Contents Val) :
    (TRef.of (sig := sig) (T := ⟨S3300000x1, .i1⟩) main_call20_v10 h1 h2 h3).toBuf (Val := Val) v = v := rfl
theorem ofBuf_main_call20_v11 (h1 : main_call20_v11.ty = (⟨S3300000x1, .i1⟩ : BufTy)) (h2 : main_call20_v11.space ≠ .host) (h3 : main_call20_v11.isScoped = false) (v : (⟨S3300000x1, .i1⟩ : BufTy).Contents Val) :
    (TRef.of (sig := sig) (T := ⟨S3300000x1, .i1⟩) main_call20_v11 h1 h2 h3).ofBuf (Val := Val) v = v := rfl
theorem toBuf_main_call20_v11 (h1 : main_call20_v11.ty = (⟨S3300000x1, .i1⟩ : BufTy)) (h2 : main_call20_v11.space ≠ .host) (h3 : main_call20_v11.isScoped = false) (v : (⟨S3300000x1, .i1⟩ : BufTy).Contents Val) :
    (TRef.of (sig := sig) (T := ⟨S3300000x1, .i1⟩) main_call20_v11 h1 h2 h3).toBuf (Val := Val) v = v := rfl
theorem ofBuf_main_call20_c_3 (h1 : main_call20_c_3.ty = (⟨S_, .i1⟩ : BufTy)) (h2 : main_call20_c_3.space ≠ .host) (h3 : main_call20_c_3.isScoped = false) (v : (⟨S_, .i1⟩ : BufTy).Contents Val) :
    (TRef.of (sig := sig) (T := ⟨S_, .i1⟩) main_call20_c_3 h1 h2 h3).ofBuf (Val := Val) v = v := rfl
theorem toBuf_main_call20_c_3 (h1 : main_call20_c_3.ty = (⟨S_, .i1⟩ : BufTy)) (h2 : main_call20_c_3.space ≠ .host) (h3 : main_call20_c_3.isScoped = false) (v : (⟨S_, .i1⟩ : BufTy).Contents Val) :
    (TRef.of (sig := sig) (T := ⟨S_, .i1⟩) main_call20_c_3 h1 h2 h3).toBuf (Val := Val) v = v := rfl
theorem ofBuf_main_call20_v12 (h1 : main_call20_v12.ty = (⟨S3300000, .i1⟩ : BufTy)) (h2 : main_call20_v12.space ≠ .host) (h3 : main_call20_v12.isScoped = false) (v : (⟨S3300000, .i1⟩ : BufTy).Contents Val) :
    (TRef.of (sig := sig) (T := ⟨S3300000, .i1⟩) main_call20_v12 h1 h2 h3).ofBuf (Val := Val) v = v := rfl
theorem toBuf_main_call20_v12 (h1 : main_call20_v12.ty = (⟨S3300000, .i1⟩ : BufTy)) (h2 : main_call20_v12.space ≠ .host) (h3 : main_call20_v12.isScoped = false) (v : (⟨S3300000, .i1⟩ : BufTy).Contents Val) :
    (TRef.of (sig := sig) (T := ⟨S3300000, .i1⟩) main_call20_v12 h1 h2 h3).toBuf (Val := Val) v = v := rfl
theorem ofBuf_main_call20_v13 (h1 : main_call20_v13.ty = (⟨S3300000x3, .f32⟩ : BufTy)) (h2 : main_call20_v13.space ≠ .host) (h3 : main_call20_v13.isScoped = false) (v : (⟨S3300000x3, .f32⟩ : BufTy).Contents Val) :
    (TRef.of (sig := sig) (T := ⟨S3300000x3, .f32⟩) main_call20_v13 h1 h2 h3).ofBuf (Val := Val) v = v := rfl
theorem toBuf_main_call20_v13 (h1 : main_call20_v13.ty = (⟨S3300000x3, .f32⟩ : BufTy)) (h2 : main_call20_v13.space ≠ .host) (h3 : main_call20_v13.isScoped = false) (v : (⟨S3300000x3, .f32⟩ : BufTy).Contents Val) :
    (TRef.of (sig := sig) (T := ⟨S3300000x3, .f32⟩) main_call20_v13 h1 h2 h3).toBuf (Val := Val) v = v := rfl
theorem ofBuf_main_call20_v14 (h1 : main_call20_v14.ty = (⟨S3300000x3, .i1⟩ : BufTy)) (h2 : main_call20_v14.space ≠ .host) (h3 : main_call20_v14.isScoped = false) (v : (⟨S3300000x3, .i1⟩ : BufTy).Contents Val) :
    (TRef.of (sig := sig) (T := ⟨S3300000x3, .i1⟩) main_call20_v14 h1 h2 h3).ofBuf (Val := Val) v = v := rfl
theorem toBuf_main_call20_v14 (h1 : main_call20_v14.ty = (⟨S3300000x3, .i1⟩ : BufTy)) (h2 : main_call20_v14.space ≠ .host) (h3 : main_call20_v14.isScoped = false) (v : (⟨S3300000x3, .i1⟩ : BufTy).Contents Val) :
    (TRef.of (sig := sig) (T := ⟨S3300000x3, .i1⟩) main_call20_v14 h1 h2 h3).toBuf (Val := Val) v = v := rfl
theorem ofBuf_main_call20_cst (h1 : main_call20_cst.ty = (⟨S_, .f32⟩ : BufTy)) (h2 : main_call20_cst.space ≠ .host) (h3 : main_call20_cst.isScoped = false) (v : (⟨S_, .f32⟩ : BufTy).Contents Val) :
    (TRef.of (sig := sig) (T := ⟨S_, .f32⟩) main_call20_cst h1 h2 h3).ofBuf (Val := Val) v = v := rfl
theorem toBuf_main_call20_cst (h1 : main_call20_cst.ty = (⟨S_, .f32⟩ : BufTy)) (h2 : main_call20_cst.space ≠ .host) (h3 : main_call20_cst.isScoped = false) (v : (⟨S_, .f32⟩ : BufTy).Contents Val) :
    (TRef.of (sig := sig) (T := ⟨S_, .f32⟩) main_call20_cst h1 h2 h3).toBuf (Val := Val) v = v := rfl
theorem ofBuf_main_call20_v15 (h1 : main_call20_v15.ty = (⟨S3300000x3, .f32⟩ : BufTy)) (h2 : main_call20_v15.space ≠ .host) (h3 : main_call20_v15.isScoped = false) (v : (⟨S3300000x3, .f32⟩ : BufTy).Contents Val) :
    (TRef.of (sig := sig) (T := ⟨S3300000x3, .f32⟩) main_call20_v15 h1 h2 h3).ofBuf (Val := Val) v = v := rfl
theorem toBuf_main_call20_v15 (h1 : main_call20_v15.ty = (⟨S3300000x3, .f32⟩ : BufTy)) (h2 : main_call20_v15.space ≠ .host) (h3 : main_call20_v15.isScoped = false) (v : (⟨S3300000x3, .f32⟩ : BufTy).Contents Val) :
    (TRef.of (sig := sig) (T := ⟨S3300000x3, .f32⟩) main_call20_v15 h1 h2 h3).toBuf (Val := Val) v = v := rfl
theorem ofBuf_main_v65 (h1 : main_v65.ty = (⟨S3300000x3, .f32⟩ : BufTy)) (h2 : main_v65.space ≠ .host) (h3 : main_v65.isScoped = false) (v : (⟨S3300000x3, .f32⟩ : BufTy).Contents Val) :
    (TRef.of (sig := sig) (T := ⟨S3300000x3, .f32⟩) main_v65 h1 h2 h3).ofBuf (Val := Val) v = v := rfl
theorem toBuf_main_v65 (h1 : main_v65.ty = (⟨S3300000x3, .f32⟩ : BufTy)) (h2 : main_v65.space ≠ .host) (h3 : main_v65.isScoped = false) (v : (⟨S3300000x3, .f32⟩ : BufTy).Contents Val) :
    (TRef.of (sig := sig) (T := ⟨S3300000x3, .f32⟩) main_v65 h1 h2 h3).toBuf (Val := Val) v = v := rfl
theorem ofBuf_main_c_19 (h1 : main_c_19.ty = (⟨S_, .i32⟩ : BufTy)) (h2 : main_c_19.space ≠ .host) (h3 : main_c_19.isScoped = false) (v : (⟨S_, .i32⟩ : BufTy).Contents Val) :
    (TRef.of (sig := sig) (T := ⟨S_, .i32⟩) main_c_19 h1 h2 h3).ofBuf (Val := Val) v = v := rfl
theorem toBuf_main_c_19 (h1 : main_c_19.ty = (⟨S_, .i32⟩ : BufTy)) (h2 : main_c_19.space ≠ .host) (h3 : main_c_19.isScoped = false) (v : (⟨S_, .i32⟩ : BufTy).Contents Val) :
    (TRef.of (sig := sig) (T := ⟨S_, .i32⟩) main_c_19 h1 h2 h3).toBuf (Val := Val) v = v := rfl
theorem ofBuf_main_call21_v0 (h1 : main_call21_v0.ty = (⟨S_, .f32⟩ : BufTy)) (h2 : main_call21_v0.space ≠ .host) (h3 : main_call21_v0.isScoped = false) (v : (⟨S_, .f32⟩ : BufTy).Contents Val) :
    (TRef.of (sig := sig) (T := ⟨S_, .f32⟩) main_call21_v0 h1 h2 h3).ofBuf (Val := Val) v = v := rfl
theorem toBuf_main_call21_v0 (h1 : main_call21_v0.ty = (⟨S_, .f32⟩ : BufTy)) (h2 : main_call21_v0.space ≠ .host) (h3 : main_call21_v0.isScoped = false) (v : (⟨S_, .f32⟩ : BufTy).Contents Val) :
    (TRef.of (sig := sig) (T := ⟨S_, .f32⟩) main_call21_v0 h1 h2 h3).toBuf (Val := Val) v = v := rfl
theorem ofBuf_main_v66 (h1 : main_v66.ty = (⟨S3301376x3, .f32⟩ : BufTy)) (h2 : main_v66.space ≠ .host) (h3 : main_v66.isScoped = false) (v : (⟨S3301376x3, .f32⟩ : BufTy).Contents Val) :
    (TRef.of (sig := sig) (T := ⟨S3301376x3, .f32⟩) main_v66 h1 h2 h3).ofBuf (Val := Val) v = v := rfl
theorem toBuf_main_v66 (h1 : main_v66.ty = (⟨S3301376x3, .f32⟩ : BufTy)) (h2 : main_v66.space ≠ .host) (h3 : main_v66.isScoped = false) (v : (⟨S3301376x3, .f32⟩ : BufTy).Contents Val) :
    (TRef.of (sig := sig) (T := ⟨S3301376x3, .f32⟩) main_v66 h1 h2 h3).toBuf (Val := Val) v = v := rfl
theorem ofBuf_main_c_20 (h1 : main_c_20.ty = (⟨S_, .i32⟩ : BufTy)) (h2 : main_c_20.space ≠ .host) (h3 : main_c_20.isScoped = false) (v : (⟨S_, .i32⟩ : BufTy).Contents Val) :
    (TRef.of (sig := sig) (T := ⟨S_, .i32⟩) main_c_20 h1 h2 h3).ofBuf (Val := Val) v = v := rfl
theorem toBuf_main_c_20 (h1 : main_c_20.ty = (⟨S_, .i32⟩ : BufTy)) (h2 : main_c_20.space ≠ .host) (h3 : main_c_20.isScoped = false) (v : (⟨S_, .i32⟩ : BufTy).Contents Val) :
    (TRef.of (sig := sig) (T := ⟨S_, .i32⟩) main_c_20 h1 h2 h3).toBuf (Val := Val) v = v := rfl
theorem ofBuf_main_call22_v0 (h1 : main_call22_v0.ty = (⟨S_, .f32⟩ : BufTy)) (h2 : main_call22_v0.space ≠ .host) (h3 : main_call22_v0.isScoped = false) (v : (⟨S_, .f32⟩ : BufTy).Contents Val) :
    (TRef.of (sig := sig) (T := ⟨S_, .f32⟩) main_call22_v0 h1 h2 h3).ofBuf (Val := Val) v = v := rfl
theorem toBuf_main_call22_v0 (h1 : main_call22_v0.ty = (⟨S_, .f32⟩ : BufTy)) (h2 : main_call22_v0.space ≠ .host) (h3 : main_call22_v0.isScoped = false) (v : (⟨S_, .f32⟩ : BufTy).Contents Val) :
    (TRef.of (sig := sig) (T := ⟨S_, .f32⟩) main_call22_v0 h1 h2 h3).toBuf (Val := Val) v = v := rfl
theorem ofBuf_main_v67 (h1 : main_v67.ty = (⟨S3301376, .f32⟩ : BufTy)) (h2 : main_v67.space ≠ .host) (h3 : main_v67.isScoped = false) (v : (⟨S3301376, .f32⟩ : BufTy).Contents Val) :
    (TRef.of (sig := sig) (T := ⟨S3301376, .f32⟩) main_v67 h1 h2 h3).ofBuf (Val := Val) v = v := rfl
theorem toBuf_main_v67 (h1 : main_v67.ty = (⟨S3301376, .f32⟩ : BufTy)) (h2 : main_v67.space ≠ .host) (h3 : main_v67.isScoped = false) (v : (⟨S3301376, .f32⟩ : BufTy).Contents Val) :
    (TRef.of (sig := sig) (T := ⟨S3301376, .f32⟩) main_v67 h1 h2 h3).toBuf (Val := Val) v = v := rfl
theorem ofBuf_main_v68 (h1 : main_v68.ty = (⟨S3301376x1, .f32⟩ : BufTy)) (h2 : main_v68.space ≠ .host) (h3 : main_v68.isScoped = false) (v : (⟨S3301376x1, .f32⟩ : BufTy).Contents Val) :
    (TRef.of (sig := sig) (T := ⟨S3301376x1, .f32⟩) main_v68 h1 h2 h3).ofBuf (Val := Val) v = v := rfl
theorem toBuf_main_v68 (h1 : main_v68.ty = (⟨S3301376x1, .f32⟩ : BufTy)) (h2 : main_v68.space ≠ .host) (h3 : main_v68.isScoped = false) (v : (⟨S3301376x1, .f32⟩ : BufTy).Contents Val) :
    (TRef.of (sig := sig) (T := ⟨S3301376x1, .f32⟩) main_v68 h1 h2 h3).toBuf (Val := Val) v = v := rfl
theorem ofBuf_main_v70 (h1 : main_v70.ty = (⟨S3300000x3, .f32⟩ : BufTy)) (h2 : main_v70.space ≠ .host) (h3 : main_v70.isScoped = false) (v : (⟨S3300000x3, .f32⟩ : BufTy).Contents Val) :
    (TRef.of (sig := sig) (T := ⟨S3300000x3, .f32⟩) main_v70 h1 h2 h3).ofBuf (Val := Val) v = v := rfl
theorem toBuf_main_v70 (h1 : main_v70.ty = (⟨S3300000x3, .f32⟩ : BufTy)) (h2 : main_v70.space ≠ .host) (h3 : main_v70.isScoped = false) (v : (⟨S3300000x3, .f32⟩ : BufTy).Contents Val) :
    (TRef.of (sig := sig) (T := ⟨S3300000x3, .f32⟩) main_v70 h1 h2 h3).toBuf (Val := Val) v = v := rfl
theorem ofBuf_main_cst_21 (h1 : main_cst_21.ty = (⟨S_, .f32⟩ : BufTy)) (h2 : main_cst_21.space ≠ .host) (h3 : main_cst_21.isScoped = false) (v : (⟨S_, .f32⟩ : BufTy).Contents Val) :
    (TRef.of (sig := sig) (T := ⟨S_, .f32⟩) main_cst_21 h1 h2 h3).ofBuf (Val := Val) v = v := rfl
theorem toBuf_main_cst_21 (h1 : main_cst_21.ty = (⟨S_, .f32⟩ : BufTy)) (h2 : main_cst_21.space ≠ .host) (h3 : main_cst_21.isScoped = false) (v : (⟨S_, .f32⟩ : BufTy).Contents Val) :
    (TRef.of (sig := sig) (T := ⟨S_, .f32⟩) main_cst_21 h1 h2 h3).toBuf (Val := Val) v = v := rfl
theorem ofBuf_main_v71 (h1 : main_v71.ty = (⟨S100000x3, .f32⟩ : BufTy)) (h2 : main_v71.space ≠ .host) (h3 : main_v71.isScoped = false) (v : (⟨S100000x3, .f32⟩ : BufTy).Contents Val) :
    (TRef.of (sig := sig) (T := ⟨S100000x3, .f32⟩) main_v71 h1 h2 h3).ofBuf (Val := Val) v = v := rfl
theorem toBuf_main_v71 (h1 : main_v71.ty = (⟨S100000x3, .f32⟩ : BufTy)) (h2 : main_v71.space ≠ .host) (h3 : main_v71.isScoped = false) (v : (⟨S100000x3, .f32⟩ : BufTy).Contents Val) :
    (TRef.of (sig := sig) (T := ⟨S100000x3, .f32⟩) main_v71 h1 h2 h3).toBuf (Val := Val) v = v := rfl
theorem ofBuf_main_v72 (h1 : main_v72.ty = (⟨S3300000x1, .i32⟩ : BufTy)) (h2 : main_v72.space ≠ .host) (h3 : main_v72.isScoped = false) (v : (⟨S3300000x1, .i32⟩ : BufTy).Contents Val) :
    (TRef.of (sig := sig) (T := ⟨S3300000x1, .i32⟩) main_v72 h1 h2 h3).ofBuf (Val := Val) v = v := rfl
theorem toBuf_main_v72 (h1 : main_v72.ty = (⟨S3300000x1, .i32⟩ : BufTy)) (h2 : main_v72.space ≠ .host) (h3 : main_v72.isScoped = false) (v : (⟨S3300000x1, .i32⟩ : BufTy).Contents Val) :
    (TRef.of (sig := sig) (T := ⟨S3300000x1, .i32⟩) main_v72 h1 h2 h3).toBuf (Val := Val) v = v := rfl
theorem ofBuf_main_v73 (h1 : main_v73.ty = (⟨S100000x3, .f32⟩ : BufTy)) (h2 : main_v73.space ≠ .host) (h3 : main_v73.isScoped = false) (v : (⟨S100000x3, .f32⟩ : BufTy).Contents Val) :
    (TRef.of (sig := sig) (T := ⟨S100000x3, .f32⟩) main_v73 h1 h2 h3).ofBuf (Val := Val) v = v := rfl
theorem toBuf_main_v73 (h1 : main_v73.ty = (⟨S100000x3, .f32⟩ : BufTy)) (h2 : main_v73.space ≠ .host) (h3 : main_v73.isScoped = false) (v : (⟨S100000x3, .f32⟩ : BufTy).Contents Val) :
    (TRef.of (sig := sig) (T := ⟨S100000x3, .f32⟩) main_v73 h1 h2 h3).toBuf (Val := Val) v = v := rfl
theorem ofBuf_main_c_22 (h1 : main_c_22.ty = (⟨S_, .i32⟩ : BufTy)) (h2 : main_c_22.space ≠ .host) (h3 : main_c_22.isScoped = false) (v : (⟨S_, .i32⟩ : BufTy).Contents Val) :
    (TRef.of (sig := sig) (T := ⟨S_, .i32⟩) main_c_22 h1 h2 h3).ofBuf (Val := Val) v = v := rfl
theorem toBuf_main_c_22 (h1 : main_c_22.ty = (⟨S_, .i32⟩ : BufTy)) (h2 : main_c_22.space ≠ .host) (h3 : main_c_22.isScoped = false) (v : (⟨S_, .i32⟩ : BufTy).Contents Val) :
    (TRef.of (sig := sig) (T := ⟨S_, .i32⟩) main_c_22 h1 h2 h3).toBuf (Val := Val) v = v := rfl
theorem ofBuf_main_call23_v0 (h1 : main_call23_v0.ty = (⟨S_, .f32⟩ : BufTy)) (h2 : main_call23_v0.space ≠ .host) (h3 : main_call23_v0.isScoped = false) (v : (⟨S_, .f32⟩ : BufTy).Contents Val) :
    (TRef.of (sig := sig) (T := ⟨S_, .f32⟩) main_call23_v0 h1 h2 h3).ofBuf (Val := Val) v = v := rfl
theorem toBuf_main_call23_v0 (h1 : main_call23_v0.ty = (⟨S_, .f32⟩ : BufTy)) (h2 : main_call23_v0.space ≠ .host) (h3 : main_call23_v0.isScoped = false) (v : (⟨S_, .f32⟩ : BufTy).Contents Val) :
    (TRef.of (sig := sig) (T := ⟨S_, .f32⟩) main_call23_v0 h1 h2 h3).toBuf (Val := Val) v = v := rfl
theorem ofBuf_main_v74 (h1 : main_v74.ty = (⟨S106496x3, .f32⟩ : BufTy)) (h2 : main_v74.space ≠ .host) (h3 : main_v74.isScoped = false) (v : (⟨S106496x3, .f32⟩ : BufTy).Contents Val) :
    (TRef.of (sig := sig) (T := ⟨S106496x3, .f32⟩) main_v74 h1 h2 h3).ofBuf (Val := Val) v = v := rfl
theorem toBuf_main_v74 (h1 : main_v74.ty = (⟨S106496x3, .f32⟩ : BufTy)) (h2 : main_v74.space ≠ .host) (h3 : main_v74.isScoped = false) (v : (⟨S106496x3, .f32⟩ : BufTy).Contents Val) :
    (TRef.of (sig := sig) (T := ⟨S106496x3, .f32⟩) main_v74 h1 h2 h3).toBuf (Val := Val) v = v := rfl
theorem ofBuf_main_v75 (h1 : main_v75.ty = (⟨S1x3, .f32⟩ : BufTy)) (h2 : main_v75.space ≠ .host) (h3 : main_v75.isScoped = false) (v : (⟨S1x3, .f32⟩ : BufTy).Contents Val) :
    (TRef.of (sig := sig) (T := ⟨S1x3, .f32⟩) main_v75 h1 h2 h3).ofBuf (Val := Val) v = v := rfl
theorem toBuf_main_v75 (h1 : main_v75.ty = (⟨S1x3, .f32⟩ : BufTy)) (h2 : main_v75.space ≠ .host) (h3 : main_v75.isScoped = false) (v : (⟨S1x3, .f32⟩ : BufTy).Contents Val) :
    (TRef.of (sig := sig) (T := ⟨S1x3, .f32⟩) main_v75 h1 h2 h3).toBuf (Val := Val) v = v := rfl
theorem ofBuf_main_v77 (h1 : main_v77.ty = (⟨S100000x3, .f32⟩ : BufTy)) (h2 : main_v77.space ≠ .host) (h3 : main_v77.isScoped = false) (v : (⟨S100000x3, .f32⟩ : BufTy).Contents Val) :
    (TRef.of (sig := sig) (T := ⟨S100000x3, .f32⟩) main_v77 h1 h2 h3).ofBuf (Val := Val) v = v := rfl
theorem toBuf_main_v77 (h1 : main_v77.ty = (⟨S100000x3, .f32⟩ : BufTy)) (h2 : main_v77.space ≠ .host) (h3 : main_v77.isScoped = false) (v : (⟨S100000x3, .f32⟩ : BufTy).Contents Val) :
    (TRef.of (sig := sig) (T := ⟨S100000x3, .f32⟩) main_v77 h1 h2 h3).toBuf (Val := Val) v = v := rfl

/-- Rewrites with every fact of the table. -/
macro "strip_casts" : tactic =>
  `(tactic| simp only [Cert.KernelIdeal.Casts.ofBuf_main_arg0, Cert.KernelIdeal.Casts.toBuf_main_arg0, Cert.KernelIdeal.Casts.ofBuf_main_arg1, Cert.KernelIdeal.Casts.toBuf_main_arg1, Cert.KernelIdeal.Casts.ofBuf_main_arg2, Cert.KernelIdeal.Casts.toBuf_main_arg2, Cert.KernelIdeal.Casts.ofBuf_main_arg3, Cert.KernelIdeal.Casts.toBuf_main_arg3, Cert.KernelIdeal.Casts.ofBuf_main_arg4, Cert.KernelIdeal.Casts.toBuf_main_arg4, Cert.KernelIdeal.Casts.ofBuf_main_arg5, Cert.KernelIdeal.Casts.toBuf_main_arg5, Cert.KernelIdeal.Casts.ofBuf_main_arg6, Cert.KernelIdeal.Casts.toBuf_main_arg6, Cert.KernelIdeal.Casts.ofBuf_main_arg7, Cert.KernelIdeal.Casts.toBuf_main_arg7, Cert.KernelIdeal.Casts.ofBuf_main_arg8, Cert.KernelIdeal.Casts.toBuf_main_arg8, Cert.KernelIdeal.Casts.ofBuf_main_v0, Cert.KernelIdeal.Casts.toBuf_main_v0, Cert.KernelIdeal.Casts.ofBuf_main_v1, Cert.KernelIdeal.Casts.toBuf_main_v1, Cert.KernelIdeal.Casts.ofBuf_main_v2, Cert.KernelIdeal.Casts.toBuf_main_v2, Cert.KernelIdeal.Casts.ofBuf_main_v3, Cert.KernelIdeal.Casts.toBuf_main_v3, Cert.KernelIdeal.Casts.ofBuf_main_v4, Cert.KernelIdeal.Casts.toBuf_main_v4, Cert.KernelIdeal.Casts.ofBuf_main_v5, Cert.KernelIdeal.Casts.toBuf_main_v5, Cert.KernelIdeal.Casts.ofBuf_main_v6, Cert.KernelIdeal.Casts.toBuf_main_v6, Cert.KernelIdeal.Casts.ofBuf_main_cst, Cert.KernelIdeal.Casts.toBuf_main_cst, Cert.KernelIdeal.Casts.ofBuf_main_v7, Cert.KernelIdeal.Casts.toBuf_main_v7, Cert.KernelIdeal.Casts.ofBuf_main_v8, Cert.KernelIdeal.Casts.toBuf_main_v8, Cert.KernelIdeal.Casts.ofBuf_main_cst_0, Cert.KernelIdeal.Casts.toBuf_main_cst_0, Cert.KernelIdeal.Casts.ofBuf_main_v9, Cert.KernelIdeal.Casts.toBuf_main_v9, Cert.KernelIdeal.Casts.ofBuf_main_v10, Cert.KernelIdeal.Casts.toBuf_main_v10, Cert.KernelIdeal.Casts.ofBuf_main_v11, Cert.KernelIdeal.Casts.toBuf_main_v11, Cert.KernelIdeal.Casts.ofBuf_main_cst_1, Cert.KernelIdeal.Casts.toBuf_main_cst_1, Cert.KernelIdeal.Casts.ofBuf_main_v12, Cert.KernelIdeal.Casts.toBuf_main_v12, Cert.KernelIdeal.Casts.ofBuf_main_v13, Cert.KernelIdeal.Casts.toBuf_main_v13, Cert.KernelIdeal.Casts.ofBuf_main_v14, Cert.KernelIdeal.Casts.toBuf_main_v14, Cert.KernelIdeal.Casts.ofBuf_main_cst_2, Cert.KernelIdeal.Casts.toBuf_main_cst_2, Cert.KernelIdeal.Casts.ofBuf_main_call0_v0, Cert.KernelIdeal.Casts.toBuf_main_call0_v0, Cert.KernelIdeal.Casts.ofBuf_main_call0_v1, Cert.KernelIdeal.Casts.toBuf_main_call0_v1, Cert.KernelIdeal.Casts.ofBuf_main_v15, Cert.KernelIdeal.Casts.toBuf_main_v15, Cert.KernelIdeal.Casts.ofBuf_main_call1_c, Cert.KernelIdeal.Casts.toBuf_main_call1_c, Cert.KernelIdeal.Casts.ofBuf_main_call1_v0, Cert.KernelIdeal.Casts.toBuf_main_call1_v0, Cert.KernelIdeal.Casts.ofBuf_main_call1_v1, Cert.KernelIdeal.Casts.toBuf_main_call1_v1, Cert.KernelIdeal.Casts.ofBuf_main_call1_c_0, Cert.KernelIdeal.Casts.toBuf_main_call1_c_0, Cert.KernelIdeal.Casts.ofBuf_main_call1_v2, Cert.KernelIdeal.Casts.toBuf_main_call1_v2, Cert.KernelIdeal.Casts.ofBuf_main_call1_v3, Cert.KernelIdeal.Casts.toBuf_main_call1_v3, Cert.KernelIdeal.Casts.ofBuf_main_call1_v4, Cert.KernelIdeal.Casts.toBuf_main_call1_v4, Cert.KernelIdeal.Casts.ofBuf_main_call1_v5, Cert.KernelIdeal.Casts.toBuf_main_call1_v5, Cert.KernelIdeal.Casts.ofBuf_main_call1_c_1, Cert.KernelIdeal.Casts.toBuf_main_call1_c_1, Cert.KernelIdeal.Casts.ofBuf_main_call1_c_2, Cert.KernelIdeal.Casts.toBuf_main_call1_c_2, Cert.KernelIdeal.Casts.ofBuf_main_call1_v6, Cert.KernelIdeal.Casts.toBuf_main_call1_v6, Cert.KernelIdeal.Casts.ofBuf_main_call1_v7, Cert.KernelIdeal.Casts.toBuf_main_call1_v7, Cert.KernelIdeal.Casts.ofBuf_main_call1_v8, Cert.KernelIdeal.Casts.toBuf_main_call1_v8, Cert.KernelIdeal.Casts.ofBuf_main_call1_v9, Cert.KernelIdeal.Casts.toBuf_main_call1_v9, Cert.KernelIdeal.Casts.ofBuf_main_call1_v10, Cert.KernelIdeal.Casts.toBuf_main_call1_v10, Cert.KernelIdeal.Casts.ofBuf_main_call1_v11, Cert.KernelIdeal.Casts.toBuf_main_call1_v11, Cert.KernelIdeal.Casts.ofBuf_main_call1_c_3, Cert.KernelIdeal.Casts.toBuf_main_call1_c_3, Cert.KernelIdeal.Casts.ofBuf_main_call1_v12, Cert.KernelIdeal.Casts.toBuf_main_call1_v12, Cert.KernelIdeal.Casts.ofBuf_main_call1_v13, Cert.KernelIdeal.Casts.toBuf_main_call1_v13, Cert.KernelIdeal.Casts.ofBuf_main_call1_cst, Cert.KernelIdeal.Casts.toBuf_main_call1_cst, Cert.KernelIdeal.Casts.ofBuf_main_call1_v14, Cert.KernelIdeal.Casts.toBuf_main_call1_v14, Cert.KernelIdeal.Casts.ofBuf_main_v16, Cert.KernelIdeal.Casts.toBuf_main_v16, Cert.KernelIdeal.Casts.ofBuf_main_call2_c, Cert.KernelIdeal.Casts.toBuf_main_call2_c, Cert.KernelIdeal.Casts.ofBuf_main_call2_v0, Cert.KernelIdeal.Casts.toBuf_main_call2_v0, Cert.KernelIdeal.Casts.ofBuf_main_call2_v1, Cert.KernelIdeal.Casts.toBuf_main_call2_v1, Cert.KernelIdeal.Casts.ofBuf_main_call2_c_0, Cert.KernelIdeal.Casts.toBuf_main_call2_c_0, Cert.KernelIdeal.Casts.ofBuf_main_call2_v2, Cert.KernelIdeal.Casts.toBuf_main_call2_v2, Cert.KernelIdeal.Casts.ofBuf_main_call2_v3, Cert.KernelIdeal.Casts.toBuf_main_call2_v3, Cert.KernelIdeal.Casts.ofBuf_main_call2_v4, Cert.KernelIdeal.Casts.toBuf_main_call2_v4, Cert.KernelIdeal.Casts.ofBuf_main_call2_v5, Cert.KernelIdeal.Casts.toBuf_main_call2_v5, Cert.KernelIdeal.Casts.ofBuf_main_call2_c_1, Cert.KernelIdeal.Casts.toBuf_main_call2_c_1, Cert.KernelIdeal.Casts.ofBuf_main_call2_c_2, Cert.KernelIdeal.Casts.toBuf_main_call2_c_2, Cert.KernelIdeal.Casts.ofBuf_main_call2_v6, Cert.KernelIdeal.Casts.toBuf_main_call2_v6, Cert.KernelIdeal.Casts.ofBuf_main_call2_v7, Cert.KernelIdeal.Casts.toBuf_main_call2_v7, Cert.KernelIdeal.Casts.ofBuf_main_call2_v8, Cert.KernelIdeal.Casts.toBuf_main_call2_v8, Cert.KernelIdeal.Casts.ofBuf_main_call2_v9, Cert.KernelIdeal.Casts.toBuf_main_call2_v9, Cert.KernelIdeal.Casts.ofBuf_main_call2_v10, Cert.KernelIdeal.Casts.toBuf_main_call2_v10, Cert.KernelIdeal.Casts.ofBuf_main_call2_v11, Cert.KernelIdeal.Casts.toBuf_main_call2_v11, Cert.KernelIdeal.Casts.ofBuf_main_call2_c_3, Cert.KernelIdeal.Casts.toBuf_main_call2_c_3, Cert.KernelIdeal.Casts.ofBuf_main_call2_v12, Cert.KernelIdeal.Casts.toBuf_main_call2_v12, Cert.KernelIdeal.Casts.ofBuf_main_call2_v13, Cert.KernelIdeal.Casts.toBuf_main_call2_v13, Cert.KernelIdeal.Casts.ofBuf_main_call2_cst, Cert.KernelIdeal.Casts.toBuf_main_call2_cst, Cert.KernelIdeal.Casts.ofBuf_main_call2_v14, Cert.KernelIdeal.Casts.toBuf_main_call2_v14, Cert.KernelIdeal.Casts.ofBuf_main_v17, Cert.KernelIdeal.Casts.toBuf_main_v17, Cert.KernelIdeal.Casts.ofBuf_main_c, Cert.KernelIdeal.Casts.toBuf_main_c, Cert.KernelIdeal.Casts.ofBuf_main_call3_v0, Cert.KernelIdeal.Casts.toBuf_main_call3_v0, Cert.KernelIdeal.Casts.ofBuf_main_v18, Cert.KernelIdeal.Casts.toBuf_main_v18, Cert.KernelIdeal.Casts.ofBuf_main_v19, Cert.KernelIdeal.Casts.toBuf_main_v19, Cert.KernelIdeal.Casts.ofBuf_main_c_3, Cert.KernelIdeal.Casts.toBuf_main_c_3, Cert.KernelIdeal.Casts.ofBuf_main_call4_v0, Cert.KernelIdeal.Casts.toBuf_main_call4_v0, Cert.KernelIdeal.Casts.ofBuf_main_v20, Cert.KernelIdeal.Casts.toBuf_main_v20, Cert.KernelIdeal.Casts.ofBuf_main_v21, Cert.KernelIdeal.Casts.toBuf_main_v21, Cert.KernelIdeal.Casts.ofBuf_main_c_4, Cert.KernelIdeal.Casts.toBuf_main_c_4, Cert.KernelIdeal.Casts.ofBuf_main_call5_v0, Cert.KernelIdeal.Casts.toBuf_main_call5_v0, Cert.KernelIdeal.Casts.ofBuf_main_v22, Cert.KernelIdeal.Casts.toBuf_main_v22, Cert.KernelIdeal.Casts.ofBuf_main_v23, Cert.KernelIdeal.Casts.toBuf_main_v23, Cert.KernelIdeal.Casts.ofBuf_main_c_5, Cert.KernelIdeal.Casts.toBuf_main_c_5, Cert.KernelIdeal.Casts.ofBuf_main_call6_v0, Cert.KernelIdeal.Casts.toBuf_main_call6_v0, Cert.KernelIdeal.Casts.ofBuf_main_v24, Cert.KernelIdeal.Casts.toBuf_main_v24, Cert.KernelIdeal.Casts.ofBuf_main_c_6, Cert.KernelIdeal.Casts.toBuf_main_c_6, Cert.KernelIdeal.Casts.ofBuf_main_call7_v0, Cert.KernelIdeal.Casts.toBuf_main_call7_v0, Cert.KernelIdeal.Casts.ofBuf_main_v25, Cert.KernelIdeal.Casts.toBuf_main_v25, Cert.KernelIdeal.Casts.ofBuf_main_c_7, Cert.KernelIdeal.Casts.toBuf_main_c_7, Cert.KernelIdeal.Casts.ofBuf_main_call8_v0, Cert.KernelIdeal.Casts.toBuf_main_call8_v0, Cert.KernelIdeal.Casts.ofBuf_main_v26, Cert.KernelIdeal.Casts.toBuf_main_v26, Cert.KernelIdeal.Casts.ofBuf_main_v28, Cert.KernelIdeal.Casts.toBuf_main_v28, Cert.KernelIdeal.Casts.ofBuf_main_v29, Cert.KernelIdeal.Casts.toBuf_main_v29, Cert.KernelIdeal.Casts.ofBuf_main_c_8, Cert.KernelIdeal.Casts.toBuf_main_c_8, Cert.KernelIdeal.Casts.ofBuf_main_call9_v0, Cert.KernelIdeal.Casts.toBuf_main_call9_v0, Cert.KernelIdeal.Casts.ofBuf_main_v30, Cert.KernelIdeal.Casts.toBuf_main_v30, Cert.KernelIdeal.Casts.ofBuf_main_v32, Cert.KernelIdeal.Casts.toBuf_main_v32, Cert.KernelIdeal.Casts.ofBuf_main_call10_c, Cert.KernelIdeal.Casts.toBuf_main_call10_c, Cert.KernelIdeal.Casts.ofBuf_main_call10_v0, Cert.KernelIdeal.Casts.toBuf_main_call10_v0, Cert.KernelIdeal.Casts.ofBuf_main_call10_v1, Cert.KernelIdeal.Casts.toBuf_main_call10_v1, Cert.KernelIdeal.Casts.ofBuf_main_call10_c_0, Cert.KernelIdeal.Casts.toBuf_main_call10_c_0, Cert.KernelIdeal.Casts.ofBuf_main_call10_v2, Cert.KernelIdeal.Casts.toBuf_main_call10_v2, Cert.KernelIdeal.Casts.ofBuf_main_call10_v3, Cert.KernelIdeal.Casts.toBuf_main_call10_v3, Cert.KernelIdeal.Casts.ofBuf_main_call10_v4, Cert.KernelIdeal.Casts.toBuf_main_call10_v4, Cert.KernelIdeal.Casts.ofBuf_main_call10_v5, Cert.KernelIdeal.Casts.toBuf_main_call10_v5, Cert.KernelIdeal.Casts.ofBuf_main_call10_c_1, Cert.KernelIdeal.Casts.toBuf_main_call10_c_1, Cert.KernelIdeal.Casts.ofBuf_main_call10_c_2, Cert.KernelIdeal.Casts.toBuf_main_call10_c_2, Cert.KernelIdeal.Casts.ofBuf_main_call10_v6, Cert.KernelIdeal.Casts.toBuf_main_call10_v6, Cert.KernelIdeal.Casts.ofBuf_main_call10_v7, Cert.KernelIdeal.Casts.toBuf_main_call10_v7, Cert.KernelIdeal.Casts.ofBuf_main_call10_v8, Cert.KernelIdeal.Casts.toBuf_main_call10_v8, Cert.KernelIdeal.Casts.ofBuf_main_call10_v9, Cert.KernelIdeal.Casts.toBuf_main_call10_v9, Cert.KernelIdeal.Casts.ofBuf_main_call10_v10, Cert.KernelIdeal.Casts.toBuf_main_call10_v10, Cert.KernelIdeal.Casts.ofBuf_main_call10_v11, Cert.KernelIdeal.Casts.toBuf_main_call10_v11, Cert.KernelIdeal.Casts.ofBuf_main_call10_c_3, Cert.KernelIdeal.Casts.toBuf_main_call10_c_3, Cert.KernelIdeal.Casts.ofBuf_main_call10_v12, Cert.KernelIdeal.Casts.toBuf_main_call10_v12, Cert.KernelIdeal.Casts.ofBuf_main_call10_v13, Cert.KernelIdeal.Casts.toBuf_main_call10_v13, Cert.KernelIdeal.Casts.ofBuf_main_call10_v14, Cert.KernelIdeal.Casts.toBuf_main_call10_v14, Cert.KernelIdeal.Casts.ofBuf_main_call10_cst, Cert.KernelIdeal.Casts.toBuf_main_call10_cst, Cert.KernelIdeal.Casts.ofBuf_main_call10_v15, Cert.KernelIdeal.Casts.toBuf_main_call10_v15, Cert.KernelIdeal.Casts.ofBuf_main_v33, Cert.KernelIdeal.Casts.toBuf_main_v33, Cert.KernelIdeal.Casts.ofBuf_main_c_9, Cert.KernelIdeal.Casts.toBuf_main_c_9, Cert.KernelIdeal.Casts.ofBuf_main_call11_v0, Cert.KernelIdeal.Casts.toBuf_main_call11_v0, Cert.KernelIdeal.Casts.ofBuf_main_v34, Cert.KernelIdeal.Casts.toBuf_main_v34, Cert.KernelIdeal.Casts.ofBuf_main_c_10, Cert.KernelIdeal.Casts.toBuf_main_c_10, Cert.KernelIdeal.Casts.ofBuf_main_call12_v0, Cert.KernelIdeal.Casts.toBuf_main_call12_v0, Cert.KernelIdeal.Casts.ofBuf_main_v35, Cert.KernelIdeal.Casts.toBuf_main_v35, Cert.KernelIdeal.Casts.ofBuf_main_v36, Cert.KernelIdeal.Casts.toBuf_main_v36, Cert.KernelIdeal.Casts.ofBuf_main_v38, Cert.KernelIdeal.Casts.toBuf_main_v38, Cert.KernelIdeal.Casts.ofBuf_main_cst_11, Cert.KernelIdeal.Casts.toBuf_main_cst_11, Cert.KernelIdeal.Casts.ofBuf_main_v39, Cert.KernelIdeal.Casts.toBuf_main_v39, Cert.KernelIdeal.Casts.ofBuf_main_v40, Cert.KernelIdeal.Casts.toBuf_main_v40, Cert.KernelIdeal.Casts.ofBuf_main_v41, Cert.KernelIdeal.Casts.toBuf_main_v41, Cert.KernelIdeal.Casts.ofBuf_main_c_12, Cert.KernelIdeal.Casts.toBuf_main_c_12, Cert.KernelIdeal.Casts.ofBuf_main_call13_v0, Cert.KernelIdeal.Casts.toBuf_main_call13_v0, Cert.KernelIdeal.Casts.ofBuf_main_v42, Cert.KernelIdeal.Casts.toBuf_main_v42, Cert.KernelIdeal.Casts.ofBuf_main_v43, Cert.KernelIdeal.Casts.toBuf_main_v43, Cert.KernelIdeal.Casts.ofBuf_main_v45, Cert.KernelIdeal.Casts.toBuf_main_v45, Cert.KernelIdeal.Casts.ofBuf_main_c_13, Cert.KernelIdeal.Casts.toBuf_main_c_13, Cert.KernelIdeal.Casts.ofBuf_main_call14_v0, Cert.KernelIdeal.Casts.toBuf_main_call14_v0, Cert.KernelIdeal.Casts.ofBuf_main_v46, Cert.KernelIdeal.Casts.toBuf_main_v46, Cert.KernelIdeal.Casts.ofBuf_main_v48, Cert.KernelIdeal.Casts.toBuf_main_v48, Cert.KernelIdeal.Casts.ofBuf_main_call15_c, Cert.KernelIdeal.Casts.toBuf_main_call15_c, Cert.KernelIdeal.Casts.ofBuf_main_call15_v0, Cert.KernelIdeal.Casts.toBuf_main_call15_v0, Cert.KernelIdeal.Casts.ofBuf_main_call15_v1, Cert.KernelIdeal.Casts.toBuf_main_call15_v1, Cert.KernelIdeal.Casts.ofBuf_main_call15_c_0, Cert.KernelIdeal.Casts.toBuf_main_call15_c_0, Cert.KernelIdeal.Casts.ofBuf_main_call15_v2, Cert.KernelIdeal.Casts.toBuf_main_call15_v2, Cert.KernelIdeal.Casts.ofBuf_main_call15_v3, Cert.KernelIdeal.Casts.toBuf_main_call15_v3, Cert.KernelIdeal.Casts.ofBuf_main_call15_v4, Cert.KernelIdeal.Casts.toBuf_main_call15_v4, Cert.KernelIdeal.Casts.ofBuf_main_call15_v5, Cert.KernelIdeal.Casts.toBuf_main_call15_v5, Cert.KernelIdeal.Casts.ofBuf_main_call15_c_1, Cert.KernelIdeal.Casts.toBuf_main_call15_c_1, Cert.KernelIdeal.Casts.ofBuf_main_call15_c_2, Cert.KernelIdeal.Casts.toBuf_main_call15_c_2, Cert.KernelIdeal.Casts.ofBuf_main_call15_v6, Cert.KernelIdeal.Casts.toBuf_main_call15_v6, Cert.KernelIdeal.Casts.ofBuf_main_call15_v7, Cert.KernelIdeal.Casts.toBuf_main_call15_v7, Cert.KernelIdeal.Casts.ofBuf_main_call15_v8, Cert.KernelIdeal.Casts.toBuf_main_call15_v8, Cert.KernelIdeal.Casts.ofBuf_main_call15_v9, Cert.KernelIdeal.Casts.toBuf_main_call15_v9, Cert.KernelIdeal.Casts.ofBuf_main_call15_v10, Cert.KernelIdeal.Casts.toBuf_main_call15_v10, Cert.KernelIdeal.Casts.ofBuf_main_call15_v11, Cert.KernelIdeal.Casts.toBuf_main_call15_v11, Cert.KernelIdeal.Casts.ofBuf_main_call15_c_3, Cert.KernelIdeal.Casts.toBuf_main_call15_c_3, Cert.KernelIdeal.Casts.ofBuf_main_call15_v12, Cert.KernelIdeal.Casts.toBuf_main_call15_v12, Cert.KernelIdeal.Casts.ofBuf_main_call15_v13, Cert.KernelIdeal.Casts.toBuf_main_call15_v13, Cert.KernelIdeal.Casts.ofBuf_main_call15_v14, Cert.KernelIdeal.Casts.toBuf_main_call15_v14, Cert.KernelIdeal.Casts.ofBuf_main_call15_cst, Cert.KernelIdeal.Casts.toBuf_main_call15_cst, Cert.KernelIdeal.Casts.ofBuf_main_call15_v15, Cert.KernelIdeal.Casts.toBuf_main_call15_v15, Cert.KernelIdeal.Casts.ofBuf_main_v49, Cert.KernelIdeal.Casts.toBuf_main_v49, Cert.KernelIdeal.Casts.ofBuf_main_c_14, Cert.KernelIdeal.Casts.toBuf_main_c_14, Cert.KernelIdeal.Casts.ofBuf_main_call16_v0, Cert.KernelIdeal.Casts.toBuf_main_call16_v0, Cert.KernelIdeal.Casts.ofBuf_main_v50, Cert.KernelIdeal.Casts.toBuf_main_v50, Cert.KernelIdeal.Casts.ofBuf_main_c_15, Cert.KernelIdeal.Casts.toBuf_main_c_15, Cert.KernelIdeal.Casts.ofBuf_main_call17_v0, Cert.KernelIdeal.Casts.toBuf_main_call17_v0, Cert.KernelIdeal.Casts.ofBuf_main_v51, Cert.KernelIdeal.Casts.toBuf_main_v51, Cert.KernelIdeal.Casts.ofBuf_main_v52, Cert.KernelIdeal.Casts.toBuf_main_v52, Cert.KernelIdeal.Casts.ofBuf_main_v54, Cert.KernelIdeal.Casts.toBuf_main_v54, Cert.KernelIdeal.Casts.ofBuf_main_cst_16, Cert.KernelIdeal.Casts.toBuf_main_cst_16, Cert.KernelIdeal.Casts.ofBuf_main_v55, Cert.KernelIdeal.Casts.toBuf_main_v55, Cert.KernelIdeal.Casts.ofBuf_main_v56, Cert.KernelIdeal.Casts.toBuf_main_v56, Cert.KernelIdeal.Casts.ofBuf_main_v57, Cert.KernelIdeal.Casts.toBuf_main_v57, Cert.KernelIdeal.Casts.ofBuf_main_c_17, Cert.KernelIdeal.Casts.toBuf_main_c_17, Cert.KernelIdeal.Casts.ofBuf_main_call18_v0, Cert.KernelIdeal.Casts.toBuf_main_call18_v0, Cert.KernelIdeal.Casts.ofBuf_main_v58, Cert.KernelIdeal.Casts.toBuf_main_v58, Cert.KernelIdeal.Casts.ofBuf_main_v59, Cert.KernelIdeal.Casts.toBuf_main_v59, Cert.KernelIdeal.Casts.ofBuf_main_v61, Cert.KernelIdeal.Casts.toBuf_main_v61, Cert.KernelIdeal.Casts.ofBuf_main_c_18, Cert.KernelIdeal.Casts.toBuf_main_c_18, Cert.KernelIdeal.Casts.ofBuf_main_call19_v0, Cert.KernelIdeal.Casts.toBuf_main_call19_v0, Cert.KernelIdeal.Casts.ofBuf_main_v62, Cert.KernelIdeal.Casts.toBuf_main_v62, Cert.KernelIdeal.Casts.ofBuf_main_v64, Cert.KernelIdeal.Casts.toBuf_main_v64, Cert.KernelIdeal.Casts.ofBuf_main_call20_c, Cert.KernelIdeal.Casts.toBuf_main_call20_c, Cert.KernelIdeal.Casts.ofBuf_main_call20_v0, Cert.KernelIdeal.Casts.toBuf_main_call20_v0, Cert.KernelIdeal.Casts.ofBuf_main_call20_v1, Cert.KernelIdeal.Casts.toBuf_main_call20_v1, Cert.KernelIdeal.Casts.ofBuf_main_call20_c_0, Cert.KernelIdeal.Casts.toBuf_main_call20_c_0, Cert.KernelIdeal.Casts.ofBuf_main_call20_v2, Cert.KernelIdeal.Casts.toBuf_main_call20_v2, Cert.KernelIdeal.Casts.ofBuf_main_call20_v3, Cert.KernelIdeal.Casts.toBuf_main_call20_v3, Cert.KernelIdeal.Casts.ofBuf_main_call20_v4, Cert.KernelIdeal.Casts.toBuf_main_call20_v4, Cert.KernelIdeal.Casts.ofBuf_main_call20_v5, Cert.KernelIdeal.Casts.toBuf_main_call20_v5, Cert.KernelIdeal.Casts.ofBuf_main_call20_c_1, Cert.KernelIdeal.Casts.toBuf_main_call20_c_1, Cert.KernelIdeal.Casts.ofBuf_main_call20_c_2, Cert.KernelIdeal.Casts.toBuf_main_call20_c_2, Cert.KernelIdeal.Casts.ofBuf_main_call20_v6, Cert.KernelIdeal.Casts.toBuf_main_call20_v6, Cert.KernelIdeal.Casts.ofBuf_main_call20_v7, Cert.KernelIdeal.Casts.toBuf_main_call20_v7, Cert.KernelIdeal.Casts.ofBuf_main_call20_v8, Cert.KernelIdeal.Casts.toBuf_main_call20_v8, Cert.KernelIdeal.Casts.ofBuf_main_call20_v9, Cert.KernelIdeal.Casts.toBuf_main_call20_v9, Cert.KernelIdeal.Casts.ofBuf_main_call20_v10, Cert.KernelIdeal.Casts.toBuf_main_call20_v10, Cert.KernelIdeal.Casts.ofBuf_main_call20_v11, Cert.KernelIdeal.Casts.toBuf_main_call20_v11, Cert.KernelIdeal.Casts.ofBuf_main_call20_c_3, Cert.KernelIdeal.Casts.toBuf_main_call20_c_3, Cert.KernelIdeal.Casts.ofBuf_main_call20_v12, Cert.KernelIdeal.Casts.toBuf_main_call20_v12, Cert.KernelIdeal.Casts.ofBuf_main_call20_v13, Cert.KernelIdeal.Casts.toBuf_main_call20_v13, Cert.KernelIdeal.Casts.ofBuf_main_call20_v14, Cert.KernelIdeal.Casts.toBuf_main_call20_v14, Cert.KernelIdeal.Casts.ofBuf_main_call20_cst, Cert.KernelIdeal.Casts.toBuf_main_call20_cst, Cert.KernelIdeal.Casts.ofBuf_main_call20_v15, Cert.KernelIdeal.Casts.toBuf_main_call20_v15, Cert.KernelIdeal.Casts.ofBuf_main_v65, Cert.KernelIdeal.Casts.toBuf_main_v65, Cert.KernelIdeal.Casts.ofBuf_main_c_19, Cert.KernelIdeal.Casts.toBuf_main_c_19, Cert.KernelIdeal.Casts.ofBuf_main_call21_v0, Cert.KernelIdeal.Casts.toBuf_main_call21_v0, Cert.KernelIdeal.Casts.ofBuf_main_v66, Cert.KernelIdeal.Casts.toBuf_main_v66, Cert.KernelIdeal.Casts.ofBuf_main_c_20, Cert.KernelIdeal.Casts.toBuf_main_c_20, Cert.KernelIdeal.Casts.ofBuf_main_call22_v0, Cert.KernelIdeal.Casts.toBuf_main_call22_v0, Cert.KernelIdeal.Casts.ofBuf_main_v67, Cert.KernelIdeal.Casts.toBuf_main_v67, Cert.KernelIdeal.Casts.ofBuf_main_v68, Cert.KernelIdeal.Casts.toBuf_main_v68, Cert.KernelIdeal.Casts.ofBuf_main_v70, Cert.KernelIdeal.Casts.toBuf_main_v70, Cert.KernelIdeal.Casts.ofBuf_main_cst_21, Cert.KernelIdeal.Casts.toBuf_main_cst_21, Cert.KernelIdeal.Casts.ofBuf_main_v71, Cert.KernelIdeal.Casts.toBuf_main_v71, Cert.KernelIdeal.Casts.ofBuf_main_v72, Cert.KernelIdeal.Casts.toBuf_main_v72, Cert.KernelIdeal.Casts.ofBuf_main_v73, Cert.KernelIdeal.Casts.toBuf_main_v73, Cert.KernelIdeal.Casts.ofBuf_main_c_22, Cert.KernelIdeal.Casts.toBuf_main_c_22, Cert.KernelIdeal.Casts.ofBuf_main_call23_v0, Cert.KernelIdeal.Casts.toBuf_main_call23_v0, Cert.KernelIdeal.Casts.ofBuf_main_v74, Cert.KernelIdeal.Casts.toBuf_main_v74, Cert.KernelIdeal.Casts.ofBuf_main_v75, Cert.KernelIdeal.Casts.toBuf_main_v75, Cert.KernelIdeal.Casts.ofBuf_main_v77, Cert.KernelIdeal.Casts.toBuf_main_v77])

end Cert.KernelIdeal.Casts

end
-- ==== Proof.KVal.lean ====
/-
  The kernel program's result buffer, read back through @main, is the three-layer network of its arguments.

  @main is a fold: stretches of host operations and ten pipelined regions, each taking the buffer contents at one
  boundary to the contents at the next.  A buffer that nothing in between writes holds at a later boundary what it
  held at an earlier one (the edge lists, the coefficients and the arguments are carried this way); a host operation's
  result buffer holds the operation's function of its operands' contents; a region's output array holds what the
  region's write-backs leave, and the region lemmas say what that is on the rows that are kept.  Boundary by boundary:
  the edge lists, the degree and its inverse root; the three factors of the coefficients laid out in rows of 128
  lanes, their product cut back to the edges (`norm`); then for each layer the padded input of the linear map, the
  gathered rows and the coefficients entering the scaling, the summed rows and the bias entering the last region, and
  the layer's output padded again for the next layer.  Where the program's filled gather meets an index vector, the
  vector's words are node numbers (the precondition, through the self loops), so the fill never happens.
-/
import proofs.«408855_j18219251269922_2_alg».proof.Proof.Gen.KernelIdeal.Frame
import proofs.«408855_j18219251269922_2_alg».proof.Proof.Spec
import proofs.«408855_j18219251269922_2_alg».proof.Proof.RegEw
import proofs.«408855_j18219251269922_2_alg».proof.Proof.RegMm
import proofs.«408855_j18219251269922_2_alg».proof.Proof.RegSc
import proofs.«408855_j18219251269922_2_alg».proof.Proof.RegBr
import proofs.«408855_j18219251269922_2_alg».proof.Proof.Take
import proofs.«408855_j18219251269922_2_alg».proof.Proof.Casts
import proofs.«408855_j18219251269922_2_alg».proof.Proof.Gen.Pre_finite_inputs
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.ShloMosaic.StableHlo
open Idealize.SL.Sem
open Cert.KernelIdeal.Casts

variable (m : (ℓ : Loc nD τ sig) → Buf (Elt Ideal) ℓ) (ρ : Dev nD → PrngReg) (c : Dev nD)

/-! ## The argument arrays, and small facts about the fold -/

/-- Node inputs. -/
abbrev aZ : FVec Ideal S100000x2 .f32 := m ((c.tc : Thread nD τ).loc main_arg0)
/-- The edge list. -/
abbrev aEI : IVec S2x3200000 32 := m ((c.tc : Thread nD τ).loc main_arg1)
/-- The edge weights. -/
abbrev aEW : FVec Ideal S3200000 .f32 := m ((c.tc : Thread nD τ).loc main_arg2)
abbrev aW1 : FVec Ideal S2x8 .f32 := m ((c.tc : Thread nD τ).loc main_arg3)
abbrev aB1 : FVec Ideal S8 .f32 := m ((c.tc : Thread nD τ).loc main_arg4)
abbrev aW2 : FVec Ideal S8x16 .f32 := m ((c.tc : Thread nD τ).loc main_arg5)
abbrev aB2 : FVec Ideal S16 .f32 := m ((c.tc : Thread nD τ).loc main_arg6)
abbrev aW3 : FVec Ideal S16x3 .f32 := m ((c.tc : Thread nD τ).loc main_arg7)
abbrev aB3 : FVec Ideal S3 .f32 := m ((c.tc : Thread nD τ).loc main_arg8)

/-- The padding value of every host pad of the program: the integer 0 converted. -/
abbrev zero0 : FVec Ideal S_ .f32 := sitofp .f32 (constantI S_ 32 0#32)

/-- Contents carried to a buffer's own type and back are the contents. -/
theorem ofBuf_toBuf {T : BufTy} (x : StableHlo.TRef sig T) (v : T.Contents (Elt Ideal)) : x.ofBuf (x.toBuf v) = v := by
  obtain ⟨r, h, _, _⟩ := x
  subst h
  all_goals rfl

/-- A buffer that is not one of a region's arrays holds at the region's exit what it held at its entry. -/
theorem keep17 (c : Dev nD) (b : Ref sig .tc) (hb : ∀ w, Pipeline.arrRef spec0 w ≠ b) :
    W17 m ρ c (no_index (Proc.devRef .tc b)) = W16 m ρ c (Proc.devRef .tc b) := W17_of_ne m ρ c b hb
theorem keep20 (c : Dev nD) (b : Ref sig .tc) (hb : ∀ w, Pipeline.arrRef spec1 w ≠ b) :
    W20 m ρ c (no_index (Proc.devRef .tc b)) = W19 m ρ c (Proc.devRef .tc b) := W20_of_ne m ρ c b hb
theorem keep28 (c : Dev nD) (b : Ref sig .tc) (hb : ∀ w, Pipeline.arrRef spec2 w ≠ b) :
    W28 m ρ c (no_index (Proc.devRef .tc b)) = W27 m ρ c (Proc.devRef .tc b) := W28_of_ne m ρ c b hb
theorem keep32 (c : Dev nD) (b : Ref sig .tc) (hb : ∀ w, Pipeline.arrRef spec3 w ≠ b) :
    W32 m ρ c (no_index (Proc.devRef .tc b)) = W31 m ρ c (Proc.devRef .tc b) := W32_of_ne m ρ c b hb
theorem keep35 (c : Dev nD) (b : Ref sig .tc) (hb : ∀ w, Pipeline.arrRef spec4 w ≠ b) :
    W35 m ρ c (no_index (Proc.devRef .tc b)) = W34 m ρ c (Proc.devRef .tc b) := W35_of_ne m ρ c b hb
theorem keep43 (c : Dev nD) (b : Ref sig .tc) (hb : ∀ w, Pipeline.arrRef spec5 w ≠ b) :
    W43 m ρ c (no_index (Proc.devRef .tc b)) = W42 m ρ c (Proc.devRef .tc b) := W43_of_ne m ρ c b hb
theorem keep47 (c : Dev nD) (b : Ref sig .tc) (hb : ∀ w, Pipeline.arrRef spec6 w ≠ b) :
    W47 m ρ c (no_index (Proc.devRef .tc b)) = W46 m ρ c (Proc.devRef .tc b) := W47_of_ne m ρ c b hb
theorem keep50 (c : Dev nD) (b : Ref sig .tc) (hb : ∀ w, Pipeline.arrRef spec7 w ≠ b) :
    W50 m ρ c (no_index (Proc.devRef .tc b)) = W49 m ρ c (Proc.devRef .tc b) := W50_of_ne m ρ c b hb
theorem keep58 (c : Dev nD) (b : Ref sig .tc) (hb : ∀ w, Pipeline.arrRef spec8 w ≠ b) :
    W58 m ρ c (no_index (Proc.devRef .tc b)) = W57 m ρ c (Proc.devRef .tc b) := W58_of_ne m ρ c b hb
theorem keep62 (c : Dev nD) (b : Ref sig .tc) (hb : ∀ w, Pipeline.arrRef spec9 w ≠ b) :
    W62 m ρ c (no_index (Proc.devRef .tc b)) = W61 m ρ c (Proc.devRef .tc b) := W62_of_ne m ρ c b hb

/-- A region's output array holds at the region's exit what the pipeline's write-backs leave. -/
theorem arr17 : W17 m ρ c (no_index (Proc.devRef .tc main_v27)) = (dat0 (V16 m ρ) c).arrAt 3 cfg0.N := W17_arr m ρ c 3
theorem arr20 : W20 m ρ c (no_index (Proc.devRef .tc main_v31)) = (dat1 (V19 m ρ) c).arrAt 2 cfg1.N := W20_arr m ρ c 2
theorem arr28 : W28 m ρ c (no_index (Proc.devRef .tc main_v37)) = (dat2 (V27 m ρ) c).arrAt 2 cfg2.N := W28_arr m ρ c 2
theorem arr32 : W32 m ρ c (no_index (Proc.devRef .tc main_v44)) = (dat3 (V31 m ρ) c).arrAt 2 cfg3.N := W32_arr m ρ c 2
theorem arr35 : W35 m ρ c (no_index (Proc.devRef .tc main_v47)) = (dat4 (V34 m ρ) c).arrAt 2 cfg4.N := W35_arr m ρ c 2
theorem arr43 : W43 m ρ c (no_index (Proc.devRef .tc main_v53)) = (dat5 (V42 m ρ) c).arrAt 2 cfg5.N := W43_arr m ρ c 2
theorem arr47 : W47 m ρ c (no_index (Proc.devRef .tc main_v60)) = (dat6 (V46 m ρ) c).arrAt 2 cfg6.N := W47_arr m ρ c 2
theorem arr50 : W50 m ρ c (no_index (Proc.devRef .tc main_v63)) = (dat7 (V49 m ρ) c).arrAt 2 cfg7.N := W50_arr m ρ c 2
theorem arr58 : W58 m ρ c (no_index (Proc.devRef .tc main_v69)) = (dat8 (V57 m ρ) c).arrAt 2 cfg8.N := W58_arr m ρ c 2
theorem arr62 : W62 m ρ c (no_index (Proc.devRef .tc main_v76)) = (dat9 (V61 m ρ) c).arrAt 2 cfg9.N := W62_arr m ρ c 2

/-! ## The first stretch of host operations: the edge lists and the degree -/

/-- The buffer contents after the first stretch (the edge lists, the weights, the degree and its inverse root's two
    branches are all made there). -/
def B1 : Valuation τ sig (Elt Ideal) := W1 m ρ c

/-- Region 0's entry contents, as the fold of the fifteen later stretches over `B1`. -/
theorem w16_B1 : W16 m ρ c = after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (B1 m ρ c))))))))))))))) := rfl

theorem src1 : B1 m ρ c (no_index (Proc.devRef .tc main_v5)) = Cert.Spec.srcA (aEI m c) := by
  unfold B1; dsimp only [W1]; simp only [hostOps0]; after_results; rfl
theorem dst1 : B1 m ρ c (no_index (Proc.devRef .tc main_v6)) = Cert.Spec.dstA (aEI m c) := by
  unfold B1; dsimp only [W1]; simp only [hostOps0]; after_results; rfl
theorem w1 : B1 m ρ c (no_index (Proc.devRef .tc main_v8)) = Cert.Spec.wA (aEW m c) := by
  unfold B1; dsimp only [W1]; simp only [hostOps0]; after_results; rfl
/-- Where the degree is positive. -/
theorem cmp1 : B1 m ρ c (no_index (Proc.devRef .tc main_v13))
    = cmpf .ogt (Cert.Spec.deg (aEI m c) (aEW m c)) (broadcastInDim S100000 ![] bcast_S_S100000 (constant S_ .f32 0x00000000#32)) := by
  unfold B1; dsimp only [W1]; simp only [hostOps0]; after_results; rfl
/-- The degree's inverse root, everywhere. -/
theorem rs1 : B1 m ρ c (no_index (Proc.devRef .tc main_v14)) = Host.rsqrt (Cert.Spec.deg (aEI m c) (aEW m c)) := by
  unfold B1; dsimp only [W1]; simp only [hostOps0]; after_results; rfl
theorem zc1 : B1 m ρ c (no_index (Proc.devRef .tc main_cst_2)) = (constant S_ .f32 0x00000000#32 : FVec Ideal S_ .f32) := by
  unfold B1; dsimp only [W1]; simp only [hostOps0]; after_results <;> rfl
theorem argB1_0 : B1 m ρ c (no_index (Proc.devRef .tc main_arg0)) = aZ m c := by
  unfold B1; dsimp only [W1]; simp only [hostOps0]; after_results <;> rfl
theorem argB1_3 : B1 m ρ c (no_index (Proc.devRef .tc main_arg3)) = aW1 m c := by
  unfold B1; dsimp only [W1]; simp only [hostOps0]; after_results <;> rfl
theorem argB1_4 : B1 m ρ c (no_index (Proc.devRef .tc main_arg4)) = aB1 m c := by
  unfold B1; dsimp only [W1]; simp only [hostOps0]; after_results <;> rfl
theorem argB1_5 : B1 m ρ c (no_index (Proc.devRef .tc main_arg5)) = aW2 m c := by
  unfold B1; dsimp only [W1]; simp only [hostOps0]; after_results <;> rfl
theorem argB1_6 : B1 m ρ c (no_index (Proc.devRef .tc main_arg6)) = aB2 m c := by
  unfold B1; dsimp only [W1]; simp only [hostOps0]; after_results <;> rfl
theorem argB1_7 : B1 m ρ c (no_index (Proc.devRef .tc main_arg7)) = aW3 m c := by
  unfold B1; dsimp only [W1]; simp only [hostOps0]; after_results <;> rfl
theorem argB1_8 : B1 m ρ c (no_index (Proc.devRef .tc main_arg8)) = aB3 m c := by
  unfold B1; dsimp only [W1]; simp only [hostOps0]; after_results <;> rfl

/-! ## What no later operation writes: the edge lists and the arguments at the regions' exits -/
theorem src16 : W16 m ρ c (no_index (Proc.devRef .tc main_v5)) = Cert.Spec.srcA (aEI m c) := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', src1]
theorem dst16 : W16 m ρ c (no_index (Proc.devRef .tc main_v6)) = Cert.Spec.dstA (aEI m c) := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', dst1]
theorem arg16_0 : W16 m ρ c (no_index (Proc.devRef .tc main_arg0)) = aZ m c := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', argB1_0]
theorem arg16_3 : W16 m ρ c (no_index (Proc.devRef .tc main_arg3)) = aW1 m c := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', argB1_3]
theorem arg16_4 : W16 m ρ c (no_index (Proc.devRef .tc main_arg4)) = aB1 m c := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', argB1_4]
theorem arg16_5 : W16 m ρ c (no_index (Proc.devRef .tc main_arg5)) = aW2 m c := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', argB1_5]
theorem arg16_6 : W16 m ρ c (no_index (Proc.devRef .tc main_arg6)) = aB2 m c := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', argB1_6]
theorem arg16_7 : W16 m ρ c (no_index (Proc.devRef .tc main_arg7)) = aW3 m c := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', argB1_7]
theorem arg16_8 : W16 m ρ c (no_index (Proc.devRef .tc main_arg8)) = aB3 m c := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result_ne', unary_result_ne', binary_result_ne', ternary_result_ne', quaternary_result_ne', reshape_result_ne', nary_result_ne', unaryIndexed_result_ne', binaryIndexed_result_ne', argB1_8]
theorem src17 : W17 m ρ c (no_index (Proc.devRef .tc main_v5)) = Cert.Spec.srcA (aEI m c) :=
  (keep17 m ρ c main_v5 (by decide)).trans (src16 m ρ c)
theorem dst17 : W17 m ρ c (no_index (Proc.devRef .tc main_v6)) = Cert.Spec.dstA (aEI m c) :=
  (keep17 m ρ c main_v6 (by decide)).trans (dst16 m ρ c)
theorem arg17_0 : W17 m ρ c (no_index (Proc.devRef .tc main_arg0)) = aZ m c :=
  (keep17 m ρ c main_arg0 (by decide)).trans (arg16_0 m ρ c)
theorem arg17_3 : W17 m ρ c (no_index (Proc.devRef .tc main_arg3)) = aW1 m c :=
  (keep17 m ρ c main_arg3 (by decide)).trans (arg16_3 m ρ c)
theorem arg17_4 : W17 m ρ c (no_index (Proc.devRef .tc main_arg4)) = aB1 m c :=
  (keep17 m ρ c main_arg4 (by decide)).trans (arg16_4 m ρ c)
theorem arg17_5 : W17 m ρ c (no_index (Proc.devRef .tc main_arg5)) = aW2 m c :=
  (keep17 m ρ c main_arg5 (by decide)).trans (arg16_5 m ρ c)
theorem arg17_6 : W17 m ρ c (no_index (Proc.devRef .tc main_arg6)) = aB2 m c :=
  (keep17 m ρ c main_arg6 (by decide)).trans (arg16_6 m ρ c)
theorem arg17_7 : W17 m ρ c (no_index (Proc.devRef .tc main_arg7)) = aW3 m c :=
  (keep17 m ρ c main_arg7 (by decide)).trans (arg16_7 m ρ c)
theorem arg17_8 : W17 m ρ c (no_index (Proc.devRef .tc main_arg8)) = aB3 m c :=
  (keep17 m ρ c main_arg8 (by decide)).trans (arg16_8 m ρ c)
theorem src20 : W20 m ρ c (no_index (Proc.devRef .tc main_v5)) = Cert.Spec.srcA (aEI m c) := by
  simp (disch := decide) only [keep20, after_cons, after_nil, nullary_result_ne', unary_result_ne', binary_result_ne', ternary_result_ne', quaternary_result_ne', reshape_result_ne', nary_result_ne', unaryIndexed_result_ne', binaryIndexed_result_ne', src17]
theorem src35 : W35 m ρ c (no_index (Proc.devRef .tc main_v5)) = Cert.Spec.srcA (aEI m c) := by
  simp (disch := decide) only [keep35, keep32, keep28, after_cons, after_nil, nullary_result_ne', unary_result_ne', binary_result_ne', ternary_result_ne', quaternary_result_ne', reshape_result_ne', nary_result_ne', unaryIndexed_result_ne', binaryIndexed_result_ne', src20]
theorem src50 : W50 m ρ c (no_index (Proc.devRef .tc main_v5)) = Cert.Spec.srcA (aEI m c) := by
  simp (disch := decide) only [keep50, keep47, keep43, after_cons, after_nil, nullary_result_ne', unary_result_ne', binary_result_ne', ternary_result_ne', quaternary_result_ne', reshape_result_ne', nary_result_ne', unaryIndexed_result_ne', binaryIndexed_result_ne', src35]
theorem dst28 : W28 m ρ c (no_index (Proc.devRef .tc main_v6)) = Cert.Spec.dstA (aEI m c) := by
  simp (disch := decide) only [keep28, keep20, after_cons, after_nil, nullary_result_ne', unary_result_ne', binary_result_ne', ternary_result_ne', quaternary_result_ne', reshape_result_ne', nary_result_ne', unaryIndexed_result_ne', binaryIndexed_result_ne', dst17]
theorem dst43 : W43 m ρ c (no_index (Proc.devRef .tc main_v6)) = Cert.Spec.dstA (aEI m c) := by
  simp (disch := decide) only [keep43, keep35, keep32, after_cons, after_nil, nullary_result_ne', unary_result_ne', binary_result_ne', ternary_result_ne', quaternary_result_ne', reshape_result_ne', nary_result_ne', unaryIndexed_result_ne', binaryIndexed_result_ne', dst28]
theorem dst58 : W58 m ρ c (no_index (Proc.devRef .tc main_v6)) = Cert.Spec.dstA (aEI m c) := by
  simp (disch := decide) only [keep58, keep50, keep47, after_cons, after_nil, nullary_result_ne', unary_result_ne', binary_result_ne', ternary_result_ne', quaternary_result_ne', reshape_result_ne', nary_result_ne', unaryIndexed_result_ne', binaryIndexed_result_ne', dst43]
theorem arg28_4 : W28 m ρ c (no_index (Proc.devRef .tc main_arg4)) = aB1 m c := by
  simp (disch := decide) only [keep28, keep20, after_cons, after_nil, nullary_result_ne', unary_result_ne', binary_result_ne', ternary_result_ne', quaternary_result_ne', reshape_result_ne', nary_result_ne', unaryIndexed_result_ne', binaryIndexed_result_ne', arg17_4]
theorem arg32_5 : W32 m ρ c (no_index (Proc.devRef .tc main_arg5)) = aW2 m c := by
  simp (disch := decide) only [keep32, keep28, keep20, after_cons, after_nil, nullary_result_ne', unary_result_ne', binary_result_ne', ternary_result_ne', quaternary_result_ne', reshape_result_ne', nary_result_ne', unaryIndexed_result_ne', binaryIndexed_result_ne', arg17_5]
theorem arg43_6 : W43 m ρ c (no_index (Proc.devRef .tc main_arg6)) = aB2 m c := by
  simp (disch := decide) only [keep43, keep35, keep32, keep28, keep20, after_cons, after_nil, nullary_result_ne', unary_result_ne', binary_result_ne', ternary_result_ne', quaternary_result_ne', reshape_result_ne', nary_result_ne', unaryIndexed_result_ne', binaryIndexed_result_ne', arg17_6]
theorem arg47_7 : W47 m ρ c (no_index (Proc.devRef .tc main_arg7)) = aW3 m c := by
  simp (disch := decide) only [keep47, keep43, keep35, keep32, keep28, keep20, after_cons, after_nil, nullary_result_ne', unary_result_ne', binary_result_ne', ternary_result_ne', quaternary_result_ne', reshape_result_ne', nary_result_ne', unaryIndexed_result_ne', binaryIndexed_result_ne', arg17_7]
theorem arg58_8 : W58 m ρ c (no_index (Proc.devRef .tc main_arg8)) = aB3 m c := by
  simp (disch := decide) only [keep58, keep50, keep47, keep43, keep35, keep32, keep28, keep20, after_cons, after_nil, nullary_result_ne', unary_result_ne', binary_result_ne', ternary_result_ne', quaternary_result_ne', reshape_result_ne', nary_result_ne', unaryIndexed_result_ne', binaryIndexed_result_ne', arg17_8]

/-! ## Up to region 0's entry, and the edge coefficients -/

section InRange
variable (hei : ∀ i : S2x3200000.Idx, 0 ≤ ((aEI m c) i).toInt ∧ ((aEI m c) i).toInt < 100000)
include hei

theorem in16_a : W16 m ρ c (no_index (Proc.devRef .tc main_v24))
    = RegEw.laid (Cert.Spec.take1 (Cert.Spec.dinv (aEI m c) (aEW m c)) (Cert.Spec.srcA (aEI m c))) zero0 zero0 := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, src1, dst1, w1, cmp1, rs1, zc1, Take.take1_eq (F := Ideal) (idx := Cert.Spec.srcA (aEI m c)) (h := Take.srcA_inRange _ hei)]
  all_goals rfl
theorem in16_d : W16 m ρ c (no_index (Proc.devRef .tc main_v26))
    = RegEw.laid (Cert.Spec.take1 (Cert.Spec.dinv (aEI m c) (aEW m c)) (Cert.Spec.dstA (aEI m c))) zero0 zero0 := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, src1, dst1, w1, cmp1, rs1, zc1, Take.take1_eq (F := Ideal) (idx := Cert.Spec.dstA (aEI m c)) (h := Take.dstA_inRange _ hei)]
  all_goals rfl
omit hei in
theorem in16_b : W16 m ρ c (no_index (Proc.devRef .tc main_v25)) = RegEw.laid (Cert.Spec.wA (aEW m c)) zero0 zero0 := by
  rw [w16_B1]
  simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [hostOps0_15, hostOps0_14, hostOps0_13, hostOps0_12, hostOps0_11, hostOps0_10, hostOps0_9, hostOps0_8, hostOps0_7, hostOps0_6, hostOps0_5, hostOps0_4, hostOps0_3, hostOps0_2, hostOps0_1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, src1, dst1, w1, cmp1, rs1, zc1]
  all_goals rfl

/-- Region 0's output, flattened and cut to the edges, is the edge coefficients. -/
theorem norm19 : W19 m ρ c (no_index (Proc.devRef .tc main_v29)) = Cert.Spec.norm (aEI m c) (aEW m c) := by
  simp (disch := decide) only [W19, W18, hostOps1_1, hostOps1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr17]
  try strip_casts
  try simp (disch := decide) only [W19, W18, hostOps1_1, hostOps1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr17]
  exact RegEw.val (V16 m ρ) c _ _ _ _ _ _ _ _ _ (in16_a m ρ c hei) (in16_b m ρ c) (in16_d m ρ c hei)
theorem norm20 : W20 m ρ c (no_index (Proc.devRef .tc main_v29)) = Cert.Spec.norm (aEI m c) (aEW m c) :=
  (keep20 m ρ c main_v29 (by decide)).trans (norm19 m ρ c hei)
theorem norm35 : W35 m ρ c (no_index (Proc.devRef .tc main_v29)) = Cert.Spec.norm (aEI m c) (aEW m c) := by
  simp (disch := decide) only [keep35, keep32, keep28, after_cons, after_nil, nullary_result_ne', unary_result_ne', binary_result_ne', ternary_result_ne', quaternary_result_ne', reshape_result_ne', nary_result_ne', unaryIndexed_result_ne', binaryIndexed_result_ne', norm20 m ρ c hei]
theorem norm50 : W50 m ρ c (no_index (Proc.devRef .tc main_v29)) = Cert.Spec.norm (aEI m c) (aEW m c) := by
  simp (disch := decide) only [keep50, keep47, keep43, after_cons, after_nil, nullary_result_ne', unary_result_ne', binary_result_ne', ternary_result_ne', quaternary_result_ne', reshape_result_ne', nary_result_ne', unaryIndexed_result_ne', binaryIndexed_result_ne', norm35 m ρ c hei]

/-! ## The three layers -/

omit hei in
/-- Region 1's first input: the node inputs with zero rows added. -/
theorem in19_x : W19 m ρ c (no_index (Proc.devRef .tc main_v30))
    = pad S106496x2 ![0, 0] ![6496, 0] ![0, 0] (aZ m c) zero0 pads_S100000x2_S106496x2_064960_000 h_S_ := by
  simp (disch := decide) only [W19, W18, hostOps1_1, hostOps1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [W19, W18, hostOps1_1, hostOps1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arg17_0]
  all_goals rfl

/-! ### Width 8 -/

/-- Region 2's first input: the rows of (x W) gathered by source, with zero rows added. -/
theorem in27_h : W27 m ρ c (no_index (Proc.devRef .tc main_v34))
    = pad S3301376x8 ![0, 0] ![1376, 0] ![0, 0] (Cert.Spec.take8 (Cert.Spec.lin8 (aZ m c) (aW1 m c)) (Cert.Spec.srcA (aEI m c))) zero0 pads_S3300000x8_S3301376x8_013760_000 h_S_ := by
  simp (disch := decide) only [W27, W26, W25, W24, W23, W22, W21, hostOps2_6, hostOps2_5, hostOps2_4, hostOps2_3, hostOps2_2, hostOps2_1, hostOps2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr20]
  try strip_casts
  try simp (disch := decide) only [W27, W26, W25, W24, W23, W22, W21, hostOps2_6, hostOps2_5, hostOps2_4, hostOps2_3, hostOps2_2, hostOps2_1, hostOps2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr20, src20, RegMm.val8 (V19 m ρ) c (aZ m c) zero0 (in19_x m ρ c), arg17_3, Take.take8_eq (F := Ideal) (idx := Cert.Spec.srcA (aEI m c)) (h := Take.srcA_inRange _ hei)]
  all_goals rfl
/-- Region 2's second input: the edge coefficients, zero-extended, as one column. -/
theorem in27_n : W27 m ρ c (no_index (Proc.devRef .tc main_v36))
    = shapeCast S3301376x1 (pad S3301376 ![0] ![1376] ![0] (Cert.Spec.norm (aEI m c) (aEW m c)) zero0 pads_S3300000_S3301376_013760 h_S_) shapeCasts_S3301376_S3301376x1 := by
  simp (disch := decide) only [W27, W26, W25, W24, W23, W22, W21, hostOps2_6, hostOps2_5, hostOps2_4, hostOps2_3, hostOps2_2, hostOps2_1, hostOps2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [W27, W26, W25, W24, W23, W22, W21, hostOps2_6, hostOps2_5, hostOps2_4, hostOps2_3, hostOps2_2, hostOps2_1, hostOps2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, norm20 m ρ c hei]
  all_goals rfl
/-- Region 3's first input: the scaled rows summed into their destinations, with zero rows added. -/
theorem in31_o : W31 m ρ c (no_index (Proc.devRef .tc main_v42))
    = pad S106496x8 ![0, 0] ![6496, 0] ![0, 0] (Cert.Spec.agg8 (aEI m c) (Cert.Spec.msg8 (Cert.Spec.take8 (Cert.Spec.lin8 (aZ m c) (aW1 m c)) (Cert.Spec.srcA (aEI m c))) (Cert.Spec.norm (aEI m c) (aEW m c)))) zero0 pads_S100000x8_S106496x8_064960_000 h_S_ := by
  dsimp only [W31, W30, W29]; simp only [hostOps3_2, hostOps3_1, hostOps3]; after_results
  rw [Casts.toBuf_main_v42, Casts.ofBuf_main_v41, ofBuf_toBuf, Casts.ofBuf_main_c_12, arr28 m ρ c, dst28 m ρ c, RegSc.val8 (V27 m ρ) c (Cert.Spec.take8 (Cert.Spec.lin8 (aZ m c) (aW1 m c)) (Cert.Spec.srcA (aEI m c))) (Cert.Spec.norm (aEI m c) (aEW m c)) zero0 zero0 (in27_h m ρ c hei) (in27_n m ρ c hei)]
  rfl
omit hei in
/-- Region 3's second input: the bias as one row. -/
theorem in31_b : W31 m ρ c (no_index (Proc.devRef .tc main_v43)) = shapeCast S1x8 (aB1 m c) shapeCasts_S8_S1x8 := by
  simp (disch := decide) only [W31, W30, W29, hostOps3_2, hostOps3_1, hostOps3, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [W31, W30, W29, hostOps3_2, hostOps3_1, hostOps3, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arg28_4]
  all_goals rfl
/-- Region 4's first input: this layer's output, with zero rows added. -/
theorem in34_x : W34 m ρ c (no_index (Proc.devRef .tc main_v46))
    = pad S106496x8 ![0, 0] ![6496, 0] ![0, 0] (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) zero0 pads_S100000x8_S106496x8_064960_000 h_S_ := by
  simp (disch := decide) only [W34, W33, hostOps4_1, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr32]
  try strip_casts
  try simp (disch := decide) only [W34, W33, hostOps4_1, hostOps4, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr32, RegBr.val8 (V31 m ρ) c (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c) zero0 (in31_o m ρ c hei) (in31_b m ρ c)]
  all_goals rfl

/-! ### Width 16 -/

/-- Region 5's first input: the rows of (x W) gathered by source, with zero rows added. -/
theorem in42_h : W42 m ρ c (no_index (Proc.devRef .tc main_v50))
    = pad S3301376x16 ![0, 0] ![1376, 0] ![0, 0] (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) zero0 pads_S3300000x16_S3301376x16_013760_000 h_S_ := by
  simp (disch := decide) only [W42, W41, W40, W39, W38, W37, W36, hostOps5_6, hostOps5_5, hostOps5_4, hostOps5_3, hostOps5_2, hostOps5_1, hostOps5, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr35]
  try strip_casts
  try simp (disch := decide) only [W42, W41, W40, W39, W38, W37, W36, hostOps5_6, hostOps5_5, hostOps5_4, hostOps5_3, hostOps5_2, hostOps5_1, hostOps5, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr35, src35, RegMm.val16 (V34 m ρ) c (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) zero0 (in34_x m ρ c hei), arg32_5, Take.take16_eq (F := Ideal) (idx := Cert.Spec.srcA (aEI m c)) (h := Take.srcA_inRange _ hei)]
  all_goals rfl
/-- Region 5's second input: the edge coefficients, zero-extended, as one column. -/
theorem in42_n : W42 m ρ c (no_index (Proc.devRef .tc main_v52))
    = shapeCast S3301376x1 (pad S3301376 ![0] ![1376] ![0] (Cert.Spec.norm (aEI m c) (aEW m c)) zero0 pads_S3300000_S3301376_013760 h_S_) shapeCasts_S3301376_S3301376x1 := by
  simp (disch := decide) only [W42, W41, W40, W39, W38, W37, W36, hostOps5_6, hostOps5_5, hostOps5_4, hostOps5_3, hostOps5_2, hostOps5_1, hostOps5, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [W42, W41, W40, W39, W38, W37, W36, hostOps5_6, hostOps5_5, hostOps5_4, hostOps5_3, hostOps5_2, hostOps5_1, hostOps5, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, norm35 m ρ c hei]
  all_goals rfl
/-- Region 6's first input: the scaled rows summed into their destinations, with zero rows added. -/
theorem in46_o : W46 m ρ c (no_index (Proc.devRef .tc main_v58))
    = pad S106496x16 ![0, 0] ![6496, 0] ![0, 0] (Cert.Spec.agg16 (aEI m c) (Cert.Spec.msg16 (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)))) zero0 pads_S100000x16_S106496x16_064960_000 h_S_ := by
  dsimp only [W46, W45, W44]; simp only [hostOps6_2, hostOps6_1, hostOps6]; after_results
  rw [Casts.toBuf_main_v58, Casts.ofBuf_main_v57, ofBuf_toBuf, Casts.ofBuf_main_c_17, arr43 m ρ c, dst43 m ρ c, RegSc.val16 (V42 m ρ) c (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)) zero0 zero0 (in42_h m ρ c hei) (in42_n m ρ c hei)]
  rfl
omit hei in
/-- Region 6's second input: the bias as one row. -/
theorem in46_b : W46 m ρ c (no_index (Proc.devRef .tc main_v59)) = shapeCast S1x16 (aB2 m c) shapeCasts_S16_S1x16 := by
  simp (disch := decide) only [W46, W45, W44, hostOps6_2, hostOps6_1, hostOps6, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [W46, W45, W44, hostOps6_2, hostOps6_1, hostOps6, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arg43_6]
  all_goals rfl
/-- Region 7's first input: this layer's output, with zero rows added. -/
theorem in49_x : W49 m ρ c (no_index (Proc.devRef .tc main_v62))
    = pad S106496x16 ![0, 0] ![6496, 0] ![0, 0] (Cert.Spec.relu16 (Cert.Spec.bias16 (Cert.Spec.agg16 (aEI m c) (Cert.Spec.msg16 (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)))) (aB2 m c))) zero0 pads_S100000x16_S106496x16_064960_000 h_S_ := by
  simp (disch := decide) only [W49, W48, hostOps7_1, hostOps7, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr47]
  try strip_casts
  try simp (disch := decide) only [W49, W48, hostOps7_1, hostOps7, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr47, RegBr.val16 (V46 m ρ) c (Cert.Spec.agg16 (aEI m c) (Cert.Spec.msg16 (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)))) (aB2 m c) zero0 (in46_o m ρ c hei) (in46_b m ρ c)]
  all_goals rfl

/-! ### Width 3 -/

/-- Region 8's first input: the rows of (x W) gathered by source, with zero rows added. -/
theorem in57_h : W57 m ρ c (no_index (Proc.devRef .tc main_v66))
    = pad S3301376x3 ![0, 0] ![1376, 0] ![0, 0] (Cert.Spec.take3 (Cert.Spec.lin3 (Cert.Spec.relu16 (Cert.Spec.bias16 (Cert.Spec.agg16 (aEI m c) (Cert.Spec.msg16 (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)))) (aB2 m c))) (aW3 m c)) (Cert.Spec.srcA (aEI m c))) zero0 pads_S3300000x3_S3301376x3_013760_000 h_S_ := by
  simp (disch := decide) only [W57, W56, W55, W54, W53, W52, W51, hostOps8_6, hostOps8_5, hostOps8_4, hostOps8_3, hostOps8_2, hostOps8_1, hostOps8, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr50]
  try strip_casts
  try simp (disch := decide) only [W57, W56, W55, W54, W53, W52, W51, hostOps8_6, hostOps8_5, hostOps8_4, hostOps8_3, hostOps8_2, hostOps8_1, hostOps8, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr50, src50, RegMm.val3 (V49 m ρ) c (Cert.Spec.relu16 (Cert.Spec.bias16 (Cert.Spec.agg16 (aEI m c) (Cert.Spec.msg16 (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)))) (aB2 m c))) zero0 (in49_x m ρ c hei), arg47_7, Take.take3_eq (F := Ideal) (idx := Cert.Spec.srcA (aEI m c)) (h := Take.srcA_inRange _ hei)]
  all_goals rfl
/-- Region 8's second input: the edge coefficients, zero-extended, as one column. -/
theorem in57_n : W57 m ρ c (no_index (Proc.devRef .tc main_v68))
    = shapeCast S3301376x1 (pad S3301376 ![0] ![1376] ![0] (Cert.Spec.norm (aEI m c) (aEW m c)) zero0 pads_S3300000_S3301376_013760 h_S_) shapeCasts_S3301376_S3301376x1 := by
  simp (disch := decide) only [W57, W56, W55, W54, W53, W52, W51, hostOps8_6, hostOps8_5, hostOps8_4, hostOps8_3, hostOps8_2, hostOps8_1, hostOps8, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [W57, W56, W55, W54, W53, W52, W51, hostOps8_6, hostOps8_5, hostOps8_4, hostOps8_3, hostOps8_2, hostOps8_1, hostOps8, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, norm50 m ρ c hei]
  all_goals rfl
/-- Region 9's first input: the scaled rows summed into their destinations, with zero rows added. -/
theorem in61_o : W61 m ρ c (no_index (Proc.devRef .tc main_v74))
    = pad S106496x3 ![0, 0] ![6496, 0] ![0, 0] (Cert.Spec.agg3 (aEI m c) (Cert.Spec.msg3 (Cert.Spec.take3 (Cert.Spec.lin3 (Cert.Spec.relu16 (Cert.Spec.bias16 (Cert.Spec.agg16 (aEI m c) (Cert.Spec.msg16 (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)))) (aB2 m c))) (aW3 m c)) (Cert.Spec.srcA (aEI m c))) (Cert.Spec.norm (aEI m c) (aEW m c)))) zero0 pads_S100000x3_S106496x3_064960_000 h_S_ := by
  dsimp only [W61, W60, W59]; simp only [hostOps9_2, hostOps9_1, hostOps9]; after_results
  rw [Casts.toBuf_main_v74, Casts.ofBuf_main_v73, ofBuf_toBuf, Casts.ofBuf_main_c_22, arr58 m ρ c, dst58 m ρ c, RegSc.val3 (V57 m ρ) c (Cert.Spec.take3 (Cert.Spec.lin3 (Cert.Spec.relu16 (Cert.Spec.bias16 (Cert.Spec.agg16 (aEI m c) (Cert.Spec.msg16 (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)))) (aB2 m c))) (aW3 m c)) (Cert.Spec.srcA (aEI m c))) (Cert.Spec.norm (aEI m c) (aEW m c)) zero0 zero0 (in57_h m ρ c hei) (in57_n m ρ c hei)]
  rfl
omit hei in
/-- Region 9's second input: the bias as one row. -/
theorem in61_b : W61 m ρ c (no_index (Proc.devRef .tc main_v75)) = shapeCast S1x3 (aB3 m c) shapeCasts_S3_S1x3 := by
  simp (disch := decide) only [W61, W60, W59, hostOps9_2, hostOps9_1, hostOps9, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf]
  try strip_casts
  try simp (disch := decide) only [W61, W60, W59, hostOps9_2, hostOps9_1, hostOps9, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arg58_8]
  all_goals rfl

/-! ## The result -/

/-- The program's result buffer ends holding the three-layer network of the argument arrays. -/
theorem out63 : W63 m ρ c (Proc.devRef .tc main_v77)
    = Cert.Spec.out (aZ m c) (aEI m c) (aEW m c) (aW1 m c) (aB1 m c) (aW2 m c) (aB2 m c) (aW3 m c) (aB3 m c) := by
  simp (disch := decide) only [W63, hostOps10, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr62]
  try strip_casts
  try simp (disch := decide) only [W63, hostOps10, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ofBuf_toBuf, arr62, RegBr.val3 (V61 m ρ) c (Cert.Spec.agg3 (aEI m c) (Cert.Spec.msg3 (Cert.Spec.take3 (Cert.Spec.lin3 (Cert.Spec.relu16 (Cert.Spec.bias16 (Cert.Spec.agg16 (aEI m c) (Cert.Spec.msg16 (Cert.Spec.take16 (Cert.Spec.lin16 (Cert.Spec.relu8 (Cert.Spec.bias8 (Cert.Spec.agg8 (aEI m c) (Cert.Spec.msg8 (Cert.Spec.take8 (Cert.Spec.lin8 (aZ m c) (aW1 m c)) (Cert.Spec.srcA (aEI m c))) (Cert.Spec.norm (aEI m c) (aEW m c)))) (aB1 m c))) (aW2 m c)) (Cert.Spec.srcA (aEI m c))) (Cert.Spec.norm (aEI m c) (aEW m c)))) (aB2 m c))) (aW3 m c)) (Cert.Spec.srcA (aEI m c))) (Cert.Spec.norm (aEI m c) (aEW m c)))) (aB3 m c) zero0 (in61_o m ρ c hei) (in61_b m ρ c)]
  all_goals rfl

end InRange

end Cert.KernelIdeal.KVal

end
-- ==== Proof.RefSpec.lean ====
import proofs.«408855_j18219251269922_2_alg».proof.Proof.Gen.ReferenceIdeal.Run
import proofs.«408855_j18219251269922_2_alg».proof.Proof.Spec

set_option maxRecDepth 16384

noncomputable section

namespace Cert.ReferenceIdeal.RefSpec

open Cert.ReferenceIdeal Cert.ReferenceIdeal.Gen Idealize.ShloMosaic Idealize.ShloMosaic.TcCoe Idealize.SL.Sem

variable {F : FTy → Type} [FloatOps F]

/-- The reference's result, the composed term of its 192 host operations, is the three-layer network of its argument
    arrays: the same operations, grouped by what they compute. -/
theorem res_eq (m : (ℓ : Loc nD τ sig) → Buf (Elt F) ℓ) (c : Dev nD) :
    Cert.ReferenceIdeal.Value.res_out0 (F := F) m c
      = Cert.Spec.out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  -- Both sides are one and the same tree of operations. Replacing every name of the specification by its definition
  -- (a layer is bias (agg (msg (take (lin x W) src) norm)); norm = dinv(src) · w · dinv(dst); dinv and deg as defined)
  -- gives, operation for operation, the reference's composed term: each layer's own copy of deg, dinv and norm is
  -- the same expression of the edge list and the weights, so the repeated subterms agree as well.
  show Cert.ReferenceIdeal.Value.res_main_v148 (F := F) m c = _
  unfold Cert.ReferenceIdeal.Value.res_main_v148
  unfold Cert.Spec.out Cert.Spec.layer3 Cert.Spec.relu16 Cert.Spec.layer16 Cert.Spec.relu8 Cert.Spec.layer8
    Cert.Spec.bias3 Cert.Spec.bias16 Cert.Spec.bias8 Cert.Spec.agg3 Cert.Spec.agg16 Cert.Spec.agg8
    Cert.Spec.msg3 Cert.Spec.msg16 Cert.Spec.msg8 Cert.Spec.take3 Cert.Spec.take16 Cert.Spec.take8
    Cert.Spec.lin3 Cert.Spec.lin16 Cert.Spec.lin8 Cert.Spec.norm Cert.Spec.take1 Cert.Spec.dinv Cert.Spec.deg
    Cert.Spec.wrap Cert.Spec.col Cert.Spec.wA Cert.Spec.dstA Cert.Spec.srcA
  rfl

end Cert.ReferenceIdeal.RefSpec
end
-- ==== Proof.lean ====
/-
  A three-layer graph convolution, the kernel program against its jnp reference, over the extended reals.

  Both programs add one self loop per node to the edge list (sources srcA, destinations dstA, weights wA, the loops
  weighing 1), sum the weights arriving at each node (deg), take dinv = deg^(-1/2) where the degree is positive and 0
  elsewhere, and give each edge the coefficient norm e = dinv (src e) · w e · dinv (dst e).  A layer maps node features x
  to  b + Σ_{e → n} norm e · (x W)(src e, ·);  the first two layers are followed by max(·, 0).

  The reference does this with whole-array operations and recomputes the coefficients in every layer.  The kernel
  program computes them once and runs ten pipelined regions: the three-way product of the coefficients (on the edge
  vectors laid out as rows of 128 lanes), and per layer the linear map, the scaling of the gathered rows and the bias
  (with the cut at 0), each on its array extended by zero rows to a whole number of blocks and cut back afterwards.
  Entry by entry a region computes exactly the reference's operation on the rows that are cut back, whatever the
  added rows hold, the linear map as the same sum of products (a change of float format is the identity here, and
  a sum does not depend on its grouping).  Its gathers, unlike the reference's, replace an out-of-range read by a
  fill pattern; under the precondition that every word of the edge list is a node number no read is out of range,
  the in-bounds mask is all ones and the two gathers are one.  So both results are the same function of the
  arguments, `Cert.Spec.out`.

  The frames: the two kernel programs' are the generated ones; the reference's is its generated run with the result
  dropped.  Nothing was rewritten when the kernel was idealized, so `preserves` asks nothing.
-/
import proofs.«408855_j18219251269922_2_alg».proof.Defs
import proofs.«408855_j18219251269922_2_alg».proof.Proof.Gen.Kernel
import proofs.«408855_j18219251269922_2_alg».proof.Proof.Gen.Kernel.Skeleton
import proofs.«408855_j18219251269922_2_alg».proof.Proof.Gen.Kernel.Launch
import proofs.«408855_j18219251269922_2_alg».proof.Proof.Gen.Kernel.Points
import proofs.«408855_j18219251269922_2_alg».proof.Proof.Gen.Kernel.Frame
import proofs.«408855_j18219251269922_2_alg».proof.Proof.Gen.KernelIdeal
import proofs.«408855_j18219251269922_2_alg».proof.Proof.Gen.KernelIdeal.Skeleton
import proofs.«408855_j18219251269922_2_alg».proof.Proof.Gen.KernelIdeal.Launch
import proofs.«408855_j18219251269922_2_alg».proof.Proof.Gen.KernelIdeal.Points
import proofs.«408855_j18219251269922_2_alg».proof.Proof.Gen.KernelIdeal.Frame
import proofs.«408855_j18219251269922_2_alg».proof.Proof.Gen.ReferenceIdeal
import proofs.«408855_j18219251269922_2_alg».proof.Proof.Gen.ReferenceIdeal.Run
import proofs.«408855_j18219251269922_2_alg».proof.Proof.Gen.ReferenceIdeal.Read
import proofs.«408855_j18219251269922_2_alg».proof.Proof.Gen.Pre_finite_inputs
import proofs.«408855_j18219251269922_2_alg».proof.Proof.KRun
import proofs.«408855_j18219251269922_2_alg».proof.Proof.KVal
import proofs.«408855_j18219251269922_2_alg».proof.Proof.RefSpec
import proofs.«408855_j18219251269922_2_alg».proof.Proof.Take
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, under the precondition, both programs end with the three-layer
    network of the arguments in their result buffers: the kernel program by its fold through the regions, the
    reference by its composed term. -/
theorem algebraic : Cert.algebraic_KernelIdeal_ReferenceIdeal := by
  intro m ρ m' ρ' hpre hagree
  refine ⟨fun c => Cert.Spec.out (Cert.KernelIdeal.KVal.aZ m c) (Cert.KernelIdeal.KVal.aEI m c) (Cert.KernelIdeal.KVal.aEW m c)
      (Cert.KernelIdeal.KVal.aW1 m c) (Cert.KernelIdeal.KVal.aB1 m c) (Cert.KernelIdeal.KVal.aW2 m c) (Cert.KernelIdeal.KVal.aB2 m c)
      (Cert.KernelIdeal.KVal.aW3 m c) (Cert.KernelIdeal.KVal.aB3 m c), ?_, ?_⟩
  · exact (θ_run Cert.KernelIdeal.defs _ _).mono
      (fun r h c => ⟨(h c).1.trans (Cert.KernelIdeal.KVal.out63 m ρ c (Cert.KernelIdeal.Take.ei_inRange_of_pre m hpre c)), (h c).2⟩)
      (Cert.KernelIdeal.KRun.run (F := Ideal) m ρ)
  · refine (θ_run Cert.ReferenceIdeal.defs _ _).mono (fun r h c => ⟨(h c).1.trans ((Cert.ReferenceIdeal.RefSpec.res_eq m' c).trans ?_), (h c).2⟩)
      (Cert.ReferenceIdeal.Value.run (F := Ideal) m' ρ')
    obtain ⟨h0, h1, h2, h3, h4, h5, h6, h7, h8⟩ := hagree c
    rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
